-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![16384, 2048]⟩ ⟨2, ![32768, 2048]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![32768, 1024]⟩ ⟨2, ![32768, 2048]⟩ (Layout.meshBlock [2, 4, 4] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S16384x2048 : Shape := ⟨2, ![16384, 2048]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel

variable [Facts]

def fn {F : FTy → Type} [FloatOps F] (main_arg0 : FVec F S16384x2048 .f32) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  main_v3
-- ==== Pre_finite_inputs_ReferenceIdeal.lean ====
abbrev S32768x2048 : Shape := ⟨2, ![32768, 2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel

variable [Facts]

def fn {F : FTy → Type} [FloatOps F] (main_arg0 : FVec F S32768x2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  main_v3
-- ==== Kernel.lean ====
abbrev S16384x2048 : Shape := ⟨2, ![16384, 2048]⟩
abbrev S32768x1024 : Shape := ⟨2, ![32768, 1024]⟩
abbrev S2x1024x2048 : Shape := ⟨3, ![2, 1024, 2048]⟩
abbrev S2x1024x1024 : Shape := ⟨3, ![2, 1024, 1024]⟩
abbrev S2 : Shape := ⟨1, ![2]⟩
abbrev S16 : Shape := ⟨1, ![16]⟩
abbrev S_ : Shape := ⟨0, ![]⟩
abbrev S1 : Shape := ⟨1, ![1]⟩
abbrev S1x1024x2048 : Shape := ⟨3, ![1, 1024, 2048]⟩
abbrev S1024x2048 : Shape := ⟨2, ![1024, 2048]⟩
abbrev S1x1024x1024 : Shape := ⟨3, ![1, 1024, 1024]⟩
abbrev S1024x1024 : Shape := ⟨2, ![1024, 1024]⟩

abbrev nBuf : Space → Nat
  | .hbm => 2
  | .vmem => 3
  | .smem => 0
  | _ => 0

abbrev bufTy : (tb : Table) → Fin (tcTables nBuf tb) → BufTy
  | .hbm, ⟨0, _⟩ => ⟨S16384x2048, .f32⟩
  | .hbm, ⟨1, _⟩ => ⟨S32768x1024, .f32⟩
  | .local _ .vmem, ⟨0, _⟩ => ⟨S2x1024x2048, .f32⟩
  | .local _ .vmem, ⟨1, _⟩ => ⟨S2x1024x1024, .f32⟩
  | .local _ .vmem, ⟨2, _⟩ => ⟨S2x1024x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_off1 (d0 : Dev nD) (c0_i32_29 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16384_i32 : BitVec 32 := 16384#32
  let v38 : BitVec 32 := Scalar.muli v2 c16384_i32
  let v39 : BitVec 32 := Scalar.addi v38 c0_i32_29
  let c0_i32_32 : BitVec 32 := 0#32
  ![v39.toNat, 0]
def k0_dev2 (d0 : Dev nD) : Nat :=
  let c0_i32_41 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_40 : BitVec 32 := 16#32
  let v47 : BitVec 32 := Scalar.muli v9 c16_i32_40
  let v48 : BitVec 32 := Scalar.addi c0_i32_41 v47
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_42 : BitVec 32 := 4#32
  let v49 : BitVec 32 := Scalar.muli v5 c4_i32_42
  let v50 : BitVec 32 := Scalar.addi v48 v49
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v51 : BitVec 32 := Scalar.muli v8 c1_i32_43
  let v52 : BitVec 32 := Scalar.addi v50 v51
  v52.toNat
def k0_dev3 (d0 : Dev nD) : Nat :=
  let c0_i32_75 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_74 : BitVec 32 := 16#32
  let v85 : BitVec 32 := Scalar.muli v9 c16_i32_74
  let v86 : BitVec 32 := Scalar.addi c0_i32_75 v85
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_76 : BitVec 32 := 4#32
  let v87 : BitVec 32 := Scalar.muli v5 c4_i32_76
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_77 : BitVec 32 := 1#32
  let v89 : BitVec 32 := Scalar.muli v8 c1_i32_77
  let v90 : BitVec 32 := Scalar.addi v88 v89
  v90.toNat
def k0_dev4 (d0 : Dev nD) : Nat :=
  let c0_i32_121 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_120 : BitVec 32 := 16#32
  let v133 : BitVec 32 := Scalar.muli v9 c16_i32_120
  let v134 : BitVec 32 := Scalar.addi c0_i32_121 v133
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_122 : BitVec 32 := 4#32
  let v135 : BitVec 32 := Scalar.muli v5 c4_i32_122
  let v136 : BitVec 32 := Scalar.addi v134 v135
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_123 : BitVec 32 := 1#32
  let v137 : BitVec 32 := Scalar.muli v8 c1_i32_123
  let v138 : BitVec 32 := Scalar.addi v136 v137
  v138.toNat
def k0_dev5 (d0 : Dev nD) : Nat :=
  let c0_i32_166 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_165 : BitVec 32 := 16#32
  let v181 : BitVec 32 := Scalar.muli v9 c16_i32_165
  let v182 : BitVec 32 := Scalar.addi c0_i32_166 v181
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_167 : BitVec 32 := 4#32
  let v183 : BitVec 32 := Scalar.muli v5 c4_i32_167
  let v184 : BitVec 32 := Scalar.addi v182 v183
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_168 : BitVec 32 := 1#32
  let v185 : BitVec 32 := Scalar.muli v8 c1_i32_168
  let v186 : BitVec 32 := Scalar.addi v184 v185
  v186.toNat
def k0_dev6 (d0 : Dev nD) : Nat :=
  let c0_i32_212 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_211 : BitVec 32 := 16#32
  let v229 : BitVec 32 := Scalar.muli v9 c16_i32_211
  let v230 : BitVec 32 := Scalar.addi c0_i32_212 v229
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_213 : BitVec 32 := 4#32
  let v231 : BitVec 32 := Scalar.muli v5 c4_i32_213
  let v232 : BitVec 32 := Scalar.addi v230 v231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v233 : BitVec 32 := Scalar.muli v8 c1_i32_214
  let v234 : BitVec 32 := Scalar.addi v232 v233
  v234.toNat
def k0_dev7 (d0 : Dev nD) : Nat :=
  let c0_i32_257 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_256 : BitVec 32 := 16#32
  let v277 : BitVec 32 := Scalar.muli v9 c16_i32_256
  let v278 : BitVec 32 := Scalar.addi c0_i32_257 v277
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_258 : BitVec 32 := 4#32
  let v279 : BitVec 32 := Scalar.muli v5 c4_i32_258
  let v280 : BitVec 32 := Scalar.addi v278 v279
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_259 : BitVec 32 := 1#32
  let v281 : BitVec 32 := Scalar.muli v8 c1_i32_259
  let v282 : BitVec 32 := Scalar.addi v280 v281
  v282.toNat
def k0_dev8 (d0 : Dev nD) : Nat :=
  let c0_i32_302 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_301 : BitVec 32 := 16#32
  let v325 : BitVec 32 := Scalar.muli v9 c16_i32_301
  let v326 : BitVec 32 := Scalar.addi c0_i32_302 v325
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v327 : BitVec 32 := Scalar.muli v5 c4_i32_303
  let v328 : BitVec 32 := Scalar.addi v326 v327
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_304 : BitVec 32 := 1#32
  let v329 : BitVec 32 := Scalar.muli v8 c1_i32_304
  let v330 : BitVec 32 := Scalar.addi v328 v329
  v330.toNat
def k0_dev9 (d0 : Dev nD) : Nat :=
  let c0_i32_347 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_346 : BitVec 32 := 16#32
  let v373 : BitVec 32 := Scalar.muli v9 c16_i32_346
  let v374 : BitVec 32 := Scalar.addi c0_i32_347 v373
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_348 : BitVec 32 := 4#32
  let v375 : BitVec 32 := Scalar.muli v5 c4_i32_348
  let v376 : BitVec 32 := Scalar.addi v374 v375
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_349 : BitVec 32 := 1#32
  let v377 : BitVec 32 := Scalar.muli v8 c1_i32_349
  let v378 : BitVec 32 := Scalar.addi v376 v377
  v378.toNat
def k0_dev10 (d0 : Dev nD) : Nat :=
  let c0_i32_392 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_391 : BitVec 32 := 16#32
  let v421 : BitVec 32 := Scalar.muli v9 c16_i32_391
  let v422 : BitVec 32 := Scalar.addi c0_i32_392 v421
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_393 : BitVec 32 := 4#32
  let v423 : BitVec 32 := Scalar.muli v5 c4_i32_393
  let v424 : BitVec 32 := Scalar.addi v422 v423
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_394 : BitVec 32 := 1#32
  let v425 : BitVec 32 := Scalar.muli v8 c1_i32_394
  let v426 : BitVec 32 := Scalar.addi v424 v425
  v426.toNat
def k0_dev11 (d0 : Dev nD) : Nat :=
  let c0_i32_437 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_436 : BitVec 32 := 16#32
  let v469 : BitVec 32 := Scalar.muli v9 c16_i32_436
  let v470 : BitVec 32 := Scalar.addi c0_i32_437 v469
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_438 : BitVec 32 := 4#32
  let v471 : BitVec 32 := Scalar.muli v5 c4_i32_438
  let v472 : BitVec 32 := Scalar.addi v470 v471
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_439 : BitVec 32 := 1#32
  let v473 : BitVec 32 := Scalar.muli v8 c1_i32_439
  let v474 : BitVec 32 := Scalar.addi v472 v473
  v474.toNat
def k0_dev12 (d0 : Dev nD) : Nat :=
  let c0_i32_482 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_481 : BitVec 32 := 16#32
  let v517 : BitVec 32 := Scalar.muli v9 c16_i32_481
  let v518 : BitVec 32 := Scalar.addi c0_i32_482 v517
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_483 : BitVec 32 := 4#32
  let v519 : BitVec 32 := Scalar.muli v5 c4_i32_483
  let v520 : BitVec 32 := Scalar.addi v518 v519
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_484 : BitVec 32 := 1#32
  let v521 : BitVec 32 := Scalar.muli v8 c1_i32_484
  let v522 : BitVec 32 := Scalar.addi v520 v521
  v522.toNat
def k0_dev13 (d0 : Dev nD) : Nat :=
  let c0_i32_527 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_526 : BitVec 32 := 16#32
  let v565 : BitVec 32 := Scalar.muli v9 c16_i32_526
  let v566 : BitVec 32 := Scalar.addi c0_i32_527 v565
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_528 : BitVec 32 := 4#32
  let v567 : BitVec 32 := Scalar.muli v5 c4_i32_528
  let v568 : BitVec 32 := Scalar.addi v566 v567
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_529 : BitVec 32 := 1#32
  let v569 : BitVec 32 := Scalar.muli v8 c1_i32_529
  let v570 : BitVec 32 := Scalar.addi v568 v569
  v570.toNat
def k0_dev14 (d0 : Dev nD) : Nat :=
  let c0_i32_572 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_571 : BitVec 32 := 16#32
  let v613 : BitVec 32 := Scalar.muli v9 c16_i32_571
  let v614 : BitVec 32 := Scalar.addi c0_i32_572 v613
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_573 : BitVec 32 := 4#32
  let v615 : BitVec 32 := Scalar.muli v5 c4_i32_573
  let v616 : BitVec 32 := Scalar.addi v614 v615
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_574 : BitVec 32 := 1#32
  let v617 : BitVec 32 := Scalar.muli v8 c1_i32_574
  let v618 : BitVec 32 := Scalar.addi v616 v617
  v618.toNat
def k0_dev15 (d0 : Dev nD) : Nat :=
  let c0_i32_617 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_616 : BitVec 32 := 16#32
  let v661 : BitVec 32 := Scalar.muli v9 c16_i32_616
  let v662 : BitVec 32 := Scalar.addi c0_i32_617 v661
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_618 : BitVec 32 := 4#32
  let v663 : BitVec 32 := Scalar.muli v5 c4_i32_618
  let v664 : BitVec 32 := Scalar.addi v662 v663
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_619 : BitVec 32 := 1#32
  let v665 : BitVec 32 := Scalar.muli v8 c1_i32_619
  let v666 : BitVec 32 := Scalar.addi v664 v665
  v666.toNat
def k0_dev16 (d0 : Dev nD) : Nat :=
  let c0_i32_662 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_661 : BitVec 32 := 16#32
  let v709 : BitVec 32 := Scalar.muli v9 c16_i32_661
  let v710 : BitVec 32 := Scalar.addi c0_i32_662 v709
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_663 : BitVec 32 := 4#32
  let v711 : BitVec 32 := Scalar.muli v5 c4_i32_663
  let v712 : BitVec 32 := Scalar.addi v710 v711
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_664 : BitVec 32 := 1#32
  let v713 : BitVec 32 := Scalar.muli v8 c1_i32_664
  let v714 : BitVec 32 := Scalar.addi v712 v713
  v714.toNat
def k0_dev17 (d0 : Dev nD) : Nat :=
  let c0_i32_702 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_701 : BitVec 32 := 16#32
  let v752 : BitVec 32 := Scalar.muli v9 c16_i32_701
  let v753 : BitVec 32 := Scalar.addi c0_i32_702 v752
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_703 : BitVec 32 := 4#32
  let v754 : BitVec 32 := Scalar.muli v5 c4_i32_703
  let v755 : BitVec 32 := Scalar.addi v753 v754
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_704 : BitVec 32 := 1#32
  let v756 : BitVec 32 := Scalar.muli v8 c1_i32_704
  let v757 : BitVec 32 := Scalar.addi v755 v756
  v757.toNat

class Facts₀ : Prop where
  hamt_1 : (1#32 : BitVec 32).msb = false
  inb_S2_S1_0 : ∀ a, (![0] : Fin 1 → Nat) a + S1.size a ≤ S2.size a
  squeezes_S1_S_ : S1.Squeezes S_
  inb_S2x1024x2048_S1x1024x2048_0_0_0 : ∀ a, (![0, 0, 0] : Fin 3 → Nat) a + S1x1024x2048.size a ≤ S2x1024x2048.size a
  squeezes_S1x1024x2048_S1024x2048 : S1x1024x2048.Squeezes S1024x2048
  inb_S16384x2048_S1024x2048_0_0 : ∀ a, (![0, 0] : Fin 2 → Nat) a + S1024x2048.size a ≤ S16384x2048.size a
  inb_S2_S1_1 : ∀ a, (![1] : Fin 1 → Nat) a + S1.size a ≤ S2.size a
  inb_S2x1024x2048_S1x1024x2048_1_0_0 : ∀ a, (![1, 0, 0] : Fin 3 → Nat) a + S1x1024x2048.size a ≤ S2x1024x2048.size a
  inb_S16384x2048_S1024x2048_1024_0 : ∀ a, (![1024, 0] : Fin 2 → Nat) a + S1024x2048.size a ≤ S16384x2048.size a
  inb_S2x1024x2048_S1x1024x1024_0_0_0 : ∀ a, (![0, 0, 0] : Fin 3 → Nat) a + S1x1024x1024.size a ≤ S2x1024x2048.size a
  h_S1x1024x1024 : 0 < S1x1024x1024.numel
  shapeCasts_S1x1024x1024_S1024x1024 : S1x1024x1024.ShapeCasts S1024x1024
  inb_S2x1024x1024_S1x1024x1024_0_0_0 : ∀ a, (![0, 0, 0] : Fin 3 → Nat) a + S1x1024x1024.size a ≤ S2x1024x1024.size a
  shapeCasts_S1024x1024_S1x1024x1024 : S1024x1024.ShapeCasts S1x1024x1024
  inb_S2x1024x2048_S1x1024x1024_0_0_1024 : ∀ a, (![0, 0, 1024] : Fin 3 → Nat) a + S1x1024x1024.size a ≤ S2x1024x2048.size a
  inb_S16_S1_0 : ∀ a, (![0] : Fin 1 → Nat) a + S1.size a ≤ S16.size a
  squeezes_S1x1024x1024_S1024x1024 : S1x1024x1024.Squeezes S1024x1024
  inb_S16384x2048_S1024x2048_2048_0 : ∀ a, (![2048, 0] : Fin 2 → Nat) a + S1024x2048.size a ≤ S16384x2048.size a
  inb_S2x1024x2048_S1x1024x1024_1_0_0 : ∀ a, (![1, 0, 0] : Fin 3 → Nat) a + S1x1024x1024.size a ≤ S2x1024x2048.size a
  inb_S2x1024x1024_S1x1024x1024_1_0_0 : ∀ a, (![1, 0, 0] : Fin 3 → Nat) a + S1x1024x1024.size a ≤ S2x1024x1024.size a
  inb_S2x1024x2048_S1x1024x1024_1_0_1024 : ∀ a, (![1, 0, 1024] : Fin 3 → Nat) a + S1x1024x1024.size a ≤ S2x1024x2048.size a
  inb_S16_S1_1 : ∀ a, (![1] : Fin 1 → Nat) a + S1.size a ≤ S16.size a
  inb_S16384x2048_S1024x2048_3072_0 : ∀ a, (![3072, 0] : Fin 2 → Nat) a + S1024x2048.size a ≤ S16384x2048.size a
  inb_S16_S1_2 : ∀ a, (![2] : Fin 1 → Nat) a + S1.size a ≤ S16.size a
  inb_S16384x2048_S1024x2048_4096_0 : ∀ a, (![4096, 0] : Fin 2 → Nat) a + S1024x2048.size a ≤ S16384x2048.size a
  inb_S16_S1_3 : ∀ a, (![3] : Fin 1 → Nat) a + S1.size a ≤ S16.size a
  inb_S16384x2048_S1024x2048_5120_0 : ∀ a, (![5120, 0] : Fin 2 → Nat) a + S1024x2048.size a ≤ S16384x2048.size a
  inb_S16_S1_4 : ∀ a, (![4] : Fin 1 → Nat) a + S1.size a ≤ S16.size a
  inb_S16384x2048_S1024x2048_6144_0 : ∀ a, (![6144, 0] : Fin 2 → Nat) a + S1024x2048.size a ≤ S16384x2048.size a
  inb_S16_S1_5 : ∀ a, (![5] : Fin 1 → Nat) a + S1.size a ≤ S16.size a
  inb_S16384x2048_S1024x2048_7168_0 : ∀ a, (![7168, 0] : Fin 2 → Nat) a + S1024x2048.size a ≤ S16384x2048.size a
  inb_S16_S1_6 : ∀ a, (![6] : Fin 1 → Nat) a + S1.size a ≤ S16.size a
  inb_S16384x2048_S1024x2048_8192_0 : ∀ a, (![8192, 0] : Fin 2 → Nat) a + S1024x2048.size a ≤ S16384x2048.size a
  inb_S16_S1_7 : ∀ a, (![7] : Fin 1 → Nat) a + S1.size a ≤ S16.size a
  inb_S16384x2048_S1024x2048_9216_0 : ∀ a, (![9216, 0] : Fin 2 → Nat) a + S1024x2048.size a ≤ S16384x2048.size a
  inb_S16_S1_8 : ∀ a, (![8] : Fin 1 → Nat) a + S1.size a ≤ S16.size a
  inb_S16384x2048_S1024x2048_10240_0 : ∀ a, (![10240, 0] : Fin 2 → Nat) a + S1024x2048.size a ≤ S16384x2048.size a
  inb_S16_S1_9 : ∀ a, (![9] : Fin 1 → Nat) a + S1.size a ≤ S16.size a
  inb_S16384x2048_S1024x2048_11264_0 : ∀ a, (![11264, 0] : Fin 2 → Nat) a + S1024x2048.size a ≤ S16384x2048.size a
  inb_S16_S1_10 : ∀ a, (![10] : Fin 1 → Nat) a + S1.size a ≤ S16.size a
  inb_S16384x2048_S1024x2048_12288_0 : ∀ a, (![12288, 0] : Fin 2 → Nat) a + S1024x2048.size a ≤ S16384x2048.size a
  inb_S16_S1_11 : ∀ a, (![11] : Fin 1 → Nat) a + S1.size a ≤ S16.size a
  inb_S16384x2048_S1024x2048_13312_0 : ∀ a, (![13312, 0] : Fin 2 → Nat) a + S1024x2048.size a ≤ S16384x2048.size a
  inb_S16_S1_12 : ∀ a, (![12] : Fin 1 → Nat) a + S1.size a ≤ S16.size a
  inb_S16384x2048_S1024x2048_14336_0 : ∀ a, (![14336, 0] : Fin 2 → Nat) a + S1024x2048.size a ≤ S16384x2048.size a
  inb_S16_S1_13 : ∀ a, (![13] : Fin 1 → Nat) a + S1.size a ≤ S16.size a
  inb_S16384x2048_S1024x2048_15360_0 : ∀ a, (![15360, 0] : Fin 2 → Nat) a + S1024x2048.size a ≤ S16384x2048.size a
  inb_S16_S1_14 : ∀ a, (![14] : Fin 1 → Nat) a + S1.size a ≤ S16.size a
  inb_S16_S1_15 : ∀ a, (![15] : Fin 1 → Nat) a + S1.size a ≤ S16.size a
  hcc0_scratch3 : 0 + S2.numel ≤ 50
  hcc0_scratch4 : 2 + S16.numel ≤ 50
  hcc0_scratch5 : 18 + S16.numel ≤ 50
  hcc0_scratch6 : 34 + S16.numel ≤ 50
  k0_dev1_lt : ∀ d0 : Dev nD, (k0_dev1 d0) < nD
  k0_off1_inb : ∀ d0 : Dev nD, ∀ (r : Fin 16), ∀ a, (k0_off1 d0 (BitVec.ofNat 32 (1024 * r.val))) a + S1024x1024.size a ≤ S32768x1024.size a
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD

variable [Facts₀]

abbrev cc0_scratch3 : DmaSems sig S2 := SemArray.consecutive 0 S2 hcc0_scratch3
abbrev cc0_scratch4 : DmaSems sig S16 := SemArray.consecutive 2 S16 hcc0_scratch4
abbrev cc0_scratch5 : DmaSems sig S16 := SemArray.consecutive 18 S16 hcc0_scratch5
abbrev cc0_scratch6 : DmaSems sig S16 := SemArray.consecutive 34 S16 hcc0_scratch6

abbrev win0 : Fin 0 → Pipeline.Window sig grid0 := Fin.elim0
abbrev spec0 : Fin 0 → Pipeline.WinSpec sig grid0.rank := Fin.elim0

class Facts : Prop extends Facts₀ where

variable [Facts]
-- ==== ReferenceIdeal.lean ====
abbrev S32768x2048 : Shape := ⟨2, ![32768, 2048]⟩

abbrev nBuf : Space → Nat
  | .hbm => 1
  | .vmem => 0
  | .smem => 0
  | _ => 0

abbrev bufTy : (tb : Table) → Fin (tcTables nBuf tb) → BufTy
  | .hbm, ⟨0, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.BlockIdx.lean ====
/- Index mathematics of an all-to-all across mesh axis x of a 2 x 4 x 4 mesh (32 devices, numbered row-major, so
   device c has x coordinate c / 16 and the device across x is (c + 16) % 32).  The whole array X : [32768, 2048] is cut
   along dimension 0 into two blocks of 16384 rows (what the devices hold at the start) and along dimension 1 into two
   blocks of 1024 columns (what they must hold at the end).  Block a of the columns is assembled from columns
   [1024 a, 1024 a + 1024) of the device's own row block and of its peer's row block. -/
import Idealize.ShloMosaic.Lib.Layout
import Idealize.ShloMosaic.Lib.ValueIdx

namespace Cert.A2A

open Idealize.ShloMosaic Idealize.ShloMosaic.ValueIdx

/-- The device across mesh axis x. -/
def peer (c : Dev 32) : Dev 32 := ⟨(c.val + 16) % 32, Nat.mod_lt _ (by decide)⟩

theorem peer_peer (c : Dev 32) : peer (peer c) = c := by revert c; decide

theorem peer_div (c : Dev 32) : (peer c).val / 16 = 1 - c.val / 16 := by revert c; decide

theorem div16_lt (c : Dev 32) : c.val / 16 < 2 := by revert c; decide

/-- The block coordinate along a dimension cut by mesh axis x is the device's x coordinate. -/
theorem xlin (c : ℕ) : Layout.meshLin [2, 4, 4] c [0] = c / 16 % 2 := by
  simp [Layout.meshLin, Layout.meshCoord, Layout.cutSize]

/-- A dimension that is not cut is one block. -/
theorem nolin (c : ℕ) : Layout.meshLin [2, 4, 4] c [] = 0 := rfl

/-- What a device with x coordinate `a` must end holding, from its own row block `xa` and its peer's `xp`:
    row `j0` of the result is row `j0 % 16384` of the row block of the device whose x coordinate is `j0 / 16384`,
    and column `j1` of the result is column `1024 a + j1` there. -/
def outOf {α : Type} (a : ℕ) (xa xp : (⟨2, ![16384, 2048]⟩ : Shape).Idx → α) : (⟨2, ![32768, 1024]⟩ : Shape).Idx → α :=
  fun j =>
    if (j 0).val / 16384 = a then
      xa (ix2 (⟨(j 0).val % 16384, Nat.mod_lt _ (by decide)⟩ : Fin 16384) (⟨(1024 * a + (j 1).val) % 2048, Nat.mod_lt _ (by decide)⟩ : Fin 2048))
    else
      xp (ix2 (⟨(j 0).val % 16384, Nat.mod_lt _ (by decide)⟩ : Fin 16384) (⟨(1024 * a + (j 1).val) % 2048, Nat.mod_lt _ (by decide)⟩ : Fin 2048))

/-- A row of the device's own half reads its own row block. -/
theorem outOf_of_eq {α : Type} {a : ℕ} (xa xp : (⟨2, ![16384, 2048]⟩ : Shape).Idx → α) (j : (⟨2, ![32768, 1024]⟩ : Shape).Idx)
    (h : (j 0).val / 16384 = a) :
    outOf a xa xp j = xa (ix2 (⟨(j 0).val % 16384, Nat.mod_lt _ (by decide)⟩ : Fin 16384) (⟨(1024 * a + (j 1).val) % 2048, Nat.mod_lt _ (by decide)⟩ : Fin 2048)) :=
  if_pos h

/-- A row of the other half reads the peer's row block. -/
theorem outOf_of_ne {α : Type} {a : ℕ} (xa xp : (⟨2, ![16384, 2048]⟩ : Shape).Idx → α) (j : (⟨2, ![32768, 1024]⟩ : Shape).Idx)
    (h : (j 0).val / 16384 ≠ a) :
    outOf a xa xp j = xp (ix2 (⟨(j 0).val % 16384, Nat.mod_lt _ (by decide)⟩ : Fin 16384) (⟨(1024 * a + (j 1).val) % 2048, Nat.mod_lt _ (by decide)⟩ : Fin 2048)) :=
  if_neg h

theorem outOf_eq_block {α : Type} (X : (⟨2, ![32768, 2048]⟩ : Shape).Idx → α) (c : Dev 32) :
    outOf (c.val / 16)
        (Layout.blockN ⟨2, ![16384, 2048]⟩ ⟨2, ![32768, 2048]⟩ (Layout.meshBlock [2, 4, 4] ![[0], []] c) X)
        (Layout.blockN ⟨2, ![16384, 2048]⟩ ⟨2, ![32768, 2048]⟩ (Layout.meshBlock [2, 4, 4] ![[0], []] (peer c)) X)
      = Layout.blockN ⟨2, ![32768, 1024]⟩ ⟨2, ![32768, 2048]⟩ (Layout.meshBlock [2, 4, 4] ![[], [0]] c) X := by
  funext j
  have hc := div16_lt c
  have hp := peer_div c
  have h0 : (j 0).val < 32768 := (j 0).isLt
  have h1 : (j 1).val < 1024 := (j 1).isLt
  unfold outOf
  simp only [Layout.blockN_apply]
  split
  · rename_i hj
    congr 1
    funext b
    apply Fin.ext
    rw [Layout.TilesN.idx_val, Layout.TilesN.idx_val]
    match b with
    | ⟨0, _⟩ =>
      show Layout.meshLin [2, 4, 4] c.val [0] * 16384 + (j 0).val % 16384
          = Layout.meshLin [2, 4, 4] c.val [] * 32768 + (j 0).val
      rw [xlin, nolin]; omega
    | ⟨1, _⟩ =>
      show Layout.meshLin [2, 4, 4] c.val [] * 2048 + (1024 * (c.val / 16) + (j 1).val) % 2048
          = Layout.meshLin [2, 4, 4] c.val [0] * 1024 + (j 1).val
      rw [xlin, nolin]; omega
  · rename_i hj
    congr 1
    funext b
    apply Fin.ext
    rw [Layout.TilesN.idx_val, Layout.TilesN.idx_val]
    match b with
    | ⟨0, _⟩ =>
      show Layout.meshLin [2, 4, 4] (peer c).val [0] * 16384 + (j 0).val % 16384
          = Layout.meshLin [2, 4, 4] c.val [] * 32768 + (j 0).val
      rw [xlin, nolin]; omega
    | ⟨1, _⟩ =>
      show Layout.meshLin [2, 4, 4] (peer c).val [] * 2048 + (1024 * (c.val / 16) + (j 1).val) % 2048
          = Layout.meshLin [2, 4, 4] c.val [0] * 1024 + (j 1).val
      rw [xlin, nolin]; omega

/-- info: 'Cert.A2A.outOf_eq_block' depends on axioms: [propext, Classical.choice, Quot.sound] -/
#guard_msgs in #print axioms outOf_eq_block

end Cert.A2A
-- ==== Proof.RefRun.lean ====
/- The reference program's run: its @main performs no operation (its one buffer is both argument and result),
   so it is the empty line of host operations, and every weakly fair execution terminates with that buffer
   holding what it held at launch. -/
import proofs.«900648_g7700000000000649_dist_a2a_v7x_xyz2x4x4_x_m16384_n1024_f32_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: there is none. -/
abbrev ops : List (HloOp τ sig (Elt F)) := []

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := trivial

/-- On every device, for any float values, from any memory with zero counters: every weakly fair execution of
    @main terminates with the argument (which is the result) unchanged. -/
theorem run (m : (ℓ : Loc Cert.ReferenceIdeal.nD Cert.ReferenceIdeal.τ Cert.ReferenceIdeal.sig) → Buf (Elt F) ℓ)
    (ρ : Dev Cert.ReferenceIdeal.nD → PrngReg) :
    θ_run Cert.ReferenceIdeal.defs (onTc (τ := Cert.ReferenceIdeal.τ) (Cert.ReferenceIdeal.main (F := F))) ⟨m, fun _ => 0, ρ⟩
      fun r => ∀ c : Dev Cert.ReferenceIdeal.nD,
        r.2.mem ((c.tc : Thread _ _).loc Cert.ReferenceIdeal.main_arg0) = m ((c.tc : Thread _ _).loc Cert.ReferenceIdeal.main_arg0) :=
  (θ_run defs _ _).mono (fun _ h c => (h c main_arg0).trans (by simp only [after_nil]))
    (run_seq scopedRefs_eq scopedSems_eq defs main (fun _ => ops) main_eq (fun _ => ops_sub) m ρ
      (fun _ _ h => nomatch h))

/-- info: 'Cert.ReferenceIdeal.RefRun.run' depends on axioms: [propext, Classical.choice, Quot.sound] -/
#guard_msgs in #print axioms run

end Cert.ReferenceIdeal.RefRun

end
-- ==== Proof.Proto.lean ====
/-
  The all-to-all across mesh axis x, as a protocol of rounds on semaphore cells.

  Thirty-two devices; device c sits at x coordinate c / 16 and exchanges with the one device that differs from it in
  that coordinate only, its peer (c + 16) mod 32. Each device cuts its 16384 x 2048 argument block into sixteen
  chunks of 1024 rows; of chunk i it keeps the columns of its own x coordinate (a local copy into rows
  16384 (c/16) + 1024 i of its own result) and sends the other 1024 columns to the same rows of the peer's result.

  Every semaphore of a device is a cell whose rounds each hold ONE duty:
    the barrier cell        one round: the peer's entry signal, which hands over the half of the peer's result that
                            this device's sends write into, and that the peer's receive cells are at round 0;
    the two input cells     eight rounds each: chunk 2k + s of the argument copied into input slot s;
    a keep cell per chunk   one round: the kept half copied into the device's own result rows;
    a send cell per chunk   one round: the sent half has been read out of its slot;
    a receive cell per chunk one round: the peer's sent half has landed in this device's result rows.
-/
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.KernelIdeal.Skeleton
import proofs.«900648_g7700000000000649_dist_a2a_v7x_xyz2x4x4_x_m16384_n1024_f32_1_alg».proof.Proof.Gen.KernelIdeal.Launch
import proofs.«900648_g7700000000000649_dist_a2a_v7x_xyz2x4x4_x_m16384_n1024_f32_1_alg».proof.Proof.Gen.KernelIdeal.Points
import proofs.«900648_g7700000000000649_dist_a2a_v7x_xyz2x4x4_x_m16384_n1024_f32_1_alg».proof.Proof.BlockIdx
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline library's copy beside the protocol's (single-duty rounds) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The peer -/

/-- The device across mesh axis x. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide
/-- A device's x coordinate. -/
abbrev xc (c : Dev nD) : ℕ := c.val / 16
theorem xc_lt (c : Dev nD) : xc c < 2 := by revert c; decide
theorem xc_peer (c : Dev nD) : xc (peer c) = 1 - xc c := by revert c; decide

/-- Every device id the kernel computes names the peer. -/
theorem dev_closed (c : Dev nD) : (4 * ((c.val / 4) % 4) + (c.val % 4) + 16) - 16 * (c.val / 16) = (peer c).val := by revert c; decide

/-! ## Semaphores and cells -/

abbrev barS : Sem sig := (SemArray.scalar (sig.barrier 0 rfl) : Sems sig S_).sem
abbrev inS (s : Fin 2) : DmaSem sig := ⟨s.val, by have := s.isLt; show s.val < 50; omega⟩
abbrev keepS (i : Fin 16) : DmaSem sig := ⟨2 + i.val, by have := i.isLt; show 2 + i.val < 50; omega⟩
abbrev sendS (i : Fin 16) : DmaSem sig := ⟨18 + i.val, by have := i.isLt; show 18 + i.val < 50; omega⟩
abbrev recvS (i : Fin 16) : DmaSem sig := ⟨34 + i.val, by have := i.isLt; show 34 + i.val < 50; omega⟩

abbrev barCell (c : Dev nD) : GSem nD τ sig := ((c : Thread nD τ), .reg barS)
abbrev inCell (c : Dev nD) (s : Fin 2) : GSem nD τ sig := ((c : Thread nD τ), .dma (inS s))
abbrev keepCell (c : Dev nD) (i : Fin 16) : GSem nD τ sig := ((c : Thread nD τ), .dma (keepS i))
abbrev sendCell (c : Dev nD) (i : Fin 16) : GSem nD τ sig := ((c : Thread nD τ), .dma (sendS i))
abbrev recvCell (c : Dev nD) (i : Fin 16) : GSem nD τ sig := ((c : Thread nD τ), .dma (recvS i))

/-- Which kind of cell a DMA semaphore is, by its number. -/
abbrev isIn (q : DmaSem sig) : Prop := q.val < 2
abbrev isKeep (q : DmaSem sig) : Prop := 2 ≤ q.val ∧ q.val < 18
abbrev isSend (q : DmaSem sig) : Prop := 18 ≤ q.val ∧ q.val < 34
abbrev isRecv (q : DmaSem sig) : Prop := 34 ≤ q.val
/-- The chunk a keep, send or receive semaphore belongs to. -/
def chunkOf (q : DmaSem sig) : Fin 16 := ⟨(q.val - 2) % 16, Nat.mod_lt _ (by decide)⟩
theorem chunkOf_keep (i : Fin 16) : chunkOf (keepS i) = i := by revert i; decide
theorem chunkOf_send (i : Fin 16) : chunkOf (sendS i) = i := by revert i; decide
theorem chunkOf_recv (i : Fin 16) : chunkOf (recvS i) = i := by revert i; decide

/-! ## The views, by slot and by chunk -/

theorem inb_x (i : Fin 16) : ∀ a, (![1024 * i.val, 0] : Fin 2 → Nat) a + S1024x2048.size a ≤ S16384x2048.size a := by
  revert i; decide
theorem inb_vin (s : Fin 2) : ∀ a, (![s.val, 0, 0] : Fin 3 → Nat) a + S1x1024x2048.size a ≤ S2x1024x2048.size a := by
  revert s; decide
theorem inb_vh (s : Fin 2) : ∀ a, (![s.val, 0, 0] : Fin 3 → Nat) a + S1x1024x1024.size a ≤ S2x1024x1024.size a := by
  revert s; decide
theorem inb_o (a : Fin 2) (i : Fin 16) : ∀ b, (![16384 * a.val + 1024 * i.val, 0] : Fin 2 → Nat) b + S1024x1024.size b ≤ S32768x1024.size b := by
  revert a i; decide

/-- Chunk i of the argument block: rows 1024 i … 1024 i + 1023. -/
abbrev xV (i : Fin 16) : Memref sig .tc .hbm S1024x2048 .f32 :=
  (Memref.whole main_arg0).slice (Rect.unit (s := S16384x2048) ![1024 * i.val, 0] S1024x2048.size (inb_x i)) (fun _ => rfl)
/-- Input slot s, as a 1024 x 2048 memref. -/
abbrev vinV (s : Fin 2) : Memref sig .tc .vmem S1024x2048 .f32 :=
  ((Memref.whole cc0_scratch0).slice (Rect.unit (s := S2x1024x2048) ![s.val, 0, 0] S1x1024x2048.size (inb_vin s)) (fun _ => rfl)).squeeze S1024x2048 squeezes_S1x1024x2048_S1024x2048
/-- Keep slot s and send slot s, as 1024 x 1024 memrefs. -/
abbrev vkV (s : Fin 2) : Memref sig .tc .vmem S1024x1024 .f32 :=
  ((Memref.whole cc0_scratch1).slice (Rect.unit (s := S2x1024x1024) ![s.val, 0, 0] S1x1024x1024.size (inb_vh s)) (fun _ => rfl)).squeeze S1024x1024 squeezes_S1x1024x1024_S1024x1024
abbrev vsV (s : Fin 2) : Memref sig .tc .vmem S1024x1024 .f32 :=
  ((Memref.whole cc0_scratch2).slice (Rect.unit (s := S2x1024x1024) ![s.val, 0, 0] S1x1024x1024.size (inb_vh s)) (fun _ => rfl)).squeeze S1024x1024 squeezes_S1x1024x1024_S1024x1024
/-- Rows 16384 a + 1024 i … + 1023 of a result buffer, a an x coordinate: the thirty-two row blocks of the result. -/
abbrev oVa (a : Fin 2) (i : Fin 16) : Memref sig .tc .hbm S1024x1024 .f32 :=
  (Memref.whole main_v1).slice (Rect.unit (s := S32768x1024) ![16384 * a.val + 1024 * i.val, 0] S1024x1024.size (inb_o a i)) (fun _ => rfl)
/-- Where device c puts chunk i — in its own result (the kept half) and in its peer's (the sent half) —, spelt through
    the kernel's own row offset: rows 16384 (c / 16) + 1024 i … + 1023. -/
abbrev oVd (c : Dev nD) (i : Fin 16) : Memref sig .tc .hbm S1024x1024 .f32 :=
  (Memref.whole main_v1).slice (Rect.unit (s := S32768x1024) (k0_off1 c (BitVec.ofNat 32 (1024 * i.val))) S1024x1024.size (k0_off1_inb c i)) (fun _ => rfl)

/-- A device's x coordinate as an index. -/
def xf (c : Dev nD) : Fin 2 := ⟨xc c, xc_lt c⟩

/-- The credit of a 1024 x 2048 block and of a 1024 x 1024 block. -/
abbrev Nin : ℕ := (vinV 0).view.dmaCredit
abbrev Nh : ℕ := (vkV 0).view.dmaCredit
theorem Nin_pos : 0 < Nin := View.dmaCredit_pos _ (by decide)
theorem Nh_pos : 0 < Nh := View.dmaCredit_pos _ (by decide)

/-! ## Slots, rounds and rectangles -/

/-- The slot chunk i goes through, and the round of that slot's input cell it is. -/
def slot (i : Fin 16) : Fin 2 := ⟨i.val % 2, Nat.mod_lt _ (by decide)⟩
abbrev rnd (i : Fin 16) : ℕ := i.val / 2
/-- The chunk that round r of input slot s carries. -/
def chunkAt (s : Fin 2) (r : ℕ) : Fin 16 := ⟨(2 * r + s.val) % 16, Nat.mod_lt _ (by decide)⟩
theorem chunkAt_slot_rnd (i : Fin 16) : chunkAt (slot i) (rnd i) = i := by revert i; decide
theorem inS_slot_chunkAt (s : Fin 2) (r : ℕ) (hr : r < 8) : slot (chunkAt s r) = s ∧ rnd (chunkAt s r) = r := by
  have hs := s.isLt
  constructor
  · apply Fin.ext; show (2 * r + s.val) % 16 % 2 = s.val; omega
  · show (2 * r + s.val) % 16 / 2 = r; omega

theorem inb_in (s a : Fin 2) : ∀ b, (![s.val, 0, 1024 * a.val] : Fin 3 → Nat) b + S1x1024x1024.size b ≤ S2x1024x2048.size b := by
  revert s a; decide
/-- The half of input slot s at column offset 1024 a, and the whole of a keep or send slot, as the loads and stores
    address them (1 x 1024 x 1024 rectangles). -/
abbrev rIn (s a : Fin 2) : Rect S2x1024x2048 := Rect.unit (s := S2x1024x2048) ![s.val, 0, 1024 * a.val] S1x1024x1024.size (inb_in s a)
abbrev rH (s : Fin 2) : Rect S2x1024x1024 := Rect.unit (s := S2x1024x1024) ![s.val, 0, 0] S1x1024x1024.size (inb_vh s)

/-- What every store of the kernel writes: the loaded half, reshaped to 1024 x 1024 and back. -/
def payId (v : Vec F S1x1024x1024 .f32) : FVec F S1x1024x1024 .f32 :=
  shapeCast S1x1024x1024 (shapeCast S1024x1024 v shapeCasts_S1x1024x1024_S1024x1024) shapeCasts_S1024x1024_S1x1024x1024

/-! ## Contents -/

/-- Device c's argument block, as launched. -/
abbrev Xa (c : Dev nD) : Buf (Elt F) ((c : Thread nD τ).loc main_arg0) := m ((c : Thread nD τ).loc main_arg0)

/-- What device c's result buffer ends as: row j₀ comes from the device at x coordinate j₀ / 16384, row j₀ mod 16384
    of its argument block, the 1024 columns of c's own x coordinate. -/
def outK (c : Dev nD) : Buf (Elt F) ((c : Thread nD τ).loc main_v1) :=
  Cert.A2A.outOf (xc c) (Xa m c) (Xa m (peer c))

/-- Input slot s after chunk i has landed over contents fd. -/
abbrev vinAfter (c : Dev nD) (i : Fin 16) (fd : Buf (Elt F) ((vinV (slot i)).view.loc (c : Thread nD τ))) :
    Buf (Elt F) ((vinV (slot i)).view.loc (c : Thread nD τ)) :=
  (vinV (slot i)).view.write (Elt F) fd ((xV i).view.read (Elt F) (Xa m c)) Finset.univ

/-- The keep slot and the send slot after iteration i's stores, over contents g, from the input buffer's contents fin:
    the kept half is the columns of the device's own x coordinate, the sent half the peer's. -/
abbrev vkAfter (c : Dev nD) (i : Fin 16) (g : Buf (Elt F) ((c : Thread nD τ).loc cc0_scratch1)) (fin : Buf (Elt F) ((c : Thread nD τ).loc cc0_scratch0)) :
    Buf (Elt F) ((c : Thread nD τ).loc cc0_scratch1) :=
  ((Memref.whole cc0_scratch1 : Memref sig .tc .vmem S2x1024x1024 .f32).access (rH (slot i))).write (Elt F) g
    (payId ((Memref.whole cc0_scratch0 : Memref sig .tc .vmem S2x1024x2048 .f32).view.readAt (Elt F) (rIn (slot i) (xf c)).toLoadRect fin)) Finset.univ
abbrev vsAfter (c : Dev nD) (i : Fin 16) (g : Buf (Elt F) ((c : Thread nD τ).loc cc0_scratch2)) (fin : Buf (Elt F) ((c : Thread nD τ).loc cc0_scratch0)) :
    Buf (Elt F) ((c : Thread nD τ).loc cc0_scratch2) :=
  ((Memref.whole cc0_scratch2 : Memref sig .tc .vmem S2x1024x1024 .f32).access (rH (slot i))).write (Elt F) g
    (payId ((Memref.whole cc0_scratch0 : Memref sig .tc .vmem S2x1024x2048 .f32).view.readAt (Elt F) (rIn (slot i) (xf (peer c))).toLoadRect fin)) Finset.univ

/-! ## What each duty hands the cell's owner -/

/-- The peer's entry signal hands device c the rows of the peer's result that c's sends write — rows
    16384 (c/16) + 1024 i, chunk by chunk — and that the peer's receive cells are at round 0. -/
def barPay (c : Dev nD) : sProp 𝕄 :=
  iprop((bigSep Finset.univ fun i : Fin 16 => iprop(∃ fd, (oVd c i).view.loc (peer c : Thread nD τ) ↦[(oVd c i).view.set]{fullShare} fd))
    ∗ bigSep Finset.univ fun i : Fin 16 => reached ER (recvCell (peer c) i) 0)
/-- An input copy hands back the slot holding the chunk, and the chunk of the argument it read. -/
def inPay (c : Dev nD) (i : Fin 16) : sProp 𝕄 :=
  iprop((∃ fd, (vinV (slot i)).view.loc (c : Thread nD τ) ↦[(vinV (slot i)).view.set]{fullShare} vinAfter m c i fd)
    ∗ ((xV i).view.loc (c : Thread nD τ) ↦[(xV i).view.set]{fullShare} Xa m c))
/-- A keep copy hands back the result rows, at their final contents, and the keep slot. -/
def keepPay (c : Dev nD) (i : Fin 16) : sProp 𝕄 :=
  iprop(((oVd c i).view.loc (c : Thread nD τ) ↦[(oVd c i).view.set]{fullShare} outK m c)
    ∗ ∃ f, (vkV (slot i)).view.loc (c : Thread nD τ) ↦[(vkV (slot i)).view.set]{fullShare} f)
/-- A send's source cell hands back the send slot. -/
def sendPay (c : Dev nD) (i : Fin 16) : sProp 𝕄 :=
  iprop(∃ f, (vsV (slot i)).view.loc (c : Thread nD τ) ↦[(vsV (slot i)).view.set]{fullShare} f)
/-- The peer's send of chunk i hands device c the rows it landed in, at their final contents. -/
def recvPay (c : Dev nD) (i : Fin 16) : sProp 𝕄 :=
  (oVd (peer c) i).view.loc (c : Thread nD τ) ↦[(oVd (peer c) i).view.set]{fullShare} outK m c

/-! ## The schedule -/

/-- Which rounds of a semaphore's cell have their one duty. -/
def hasDuty : SemLoc sig → ℕ → Prop
  | .reg _, r => r = 0
  | .dma q, r => if q.val < 2 then r < 8 else r = 0
instance (sm : SemLoc sig) (r : ℕ) : Decidable (hasDuty sm r) := by
  cases sm <;> unfold hasDuty <;> infer_instance

def a2aRd : Rounds.Schedule (GSem nD τ sig) Unit 𝕄 where
  duties g r := if g.1.2 = .tc ∧ hasDuty g.2 r then {()} else ∅
  unitless _ := False
  amount g _ _ := match g.2 with
    | .reg _ => 1
    | .dma q => if q.val < 2 then Nin else Nh
  payload g r _ := match g.2 with
    | .reg _ => barPay g.1.1
    | .dma q =>
      if q.val < 2 then inPay m g.1.1 (chunkAt ⟨q.val % 2, Nat.mod_lt _ (by decide)⟩ r)
      else if q.val < 18 then keepPay m g.1.1 (chunkOf q)
      else if q.val < 34 then sendPay g.1.1 (chunkOf q)
      else recvPay m g.1.1 (chunkOf q)
  amount_pos g _ _ _ := by
    rcases g with ⟨t, sm⟩
    cases sm with
    | reg s => exact Nat.one_pos
    | dma q => dsimp only; split <;> [exact Nin_pos; exact Nh_pos]

/-! ## What a device owes at launch, and the levels -/

/-- What device c still owes its peer's receive cells before its send of chunk k: a block's credit for every chunk from k on. -/
def owedFrom (c : Dev nD) (k : ℕ) : CellTallies nD τ sig Unit :=
  ∑ i ∈ Finset.univ.filter (fun i : Fin 16 => k ≤ i.val), tallyAt (recvCell (peer c) i) () Nh
/-- At launch: those sixteen, and the unit of the peer's barrier cell. -/
def O₀ (c : Dev nD) : CellTallies nD τ sig Unit := owedFrom c 0 + tallyAt (barCell (peer c)) () 1

def L (g : GSem nD τ sig) : Finset Unit := if g.1.2 = .tc then {()} else ∅
/-- The barrier cells at 1, the receive cells at 2, every other cell at 0. -/
def lv (g : GSem nD τ sig) (_ : Unit) : ℕ := match g.2 with
  | .reg _ => 1
  | .dma q => if 34 ≤ q.val then 2 else 0

end Cert.KernelIdeal.A2A

end
-- ==== Proof.State.lean ====
/-
  What each device holds when its kernel body starts and when it ends, and the proof data of the launch.
  A device starts from: every cell's invariant (of every device: they are persistent, and a device opens its own
  cells' and its peer's barrier and receive cells'); its own cells' positions at round 0; the tokens of the duties it
  pays (its own input, keep and send cells', and its peer's barrier and receive cells'); the credit its peer owes its
  barrier and receive cells; its argument and result buffers whole. It ends with the argument unchanged, the result at
  its final contents, and its own semaphores closed at zero.
-/
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.KernelIdeal.Skeleton
import proofs.«900648_g7700000000000649_dist_a2a_v7x_xyz2x4x4_x_m16384_n1024_f32_1_alg».proof.Proof.Gen.KernelIdeal.Launch
import proofs.«900648_g7700000000000649_dist_a2a_v7x_xyz2x4x4_x_m16384_n1024_f32_1_alg».proof.Proof.Gen.KernelIdeal.Points
import proofs.«900648_g7700000000000649_dist_a2a_v7x_xyz2x4x4_x_m16384_n1024_f32_1_alg».proof.Proof.Proto
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The memory at launch: arbitrary contents, every semaphore counter zero, arbitrary generator registers. -/
def s₀ : MemSt nD τ sig (Elt F) := ⟨m, fun _ => 0, ρ⟩

/-! ## The cells of the mesh -/

/-- Every (device, semaphore) pair is a cell of the protocol. -/
abbrev kcell (ck : Dev nD × SemLoc sig) : GSem nD τ sig := ((ck.1 : Thread nD τ), ck.2)

/-- Every cell's invariant, under the names K, and that every cell is at round 0. -/
def records (K : Dev nD × SemLoc sig → ℕ) : sProp 𝕄 :=
  iprop((bigSep Finset.univ fun ck : Dev nD × SemLoc sig => cellInv ER (a2aRd m) (K ck) (kcell ck))
    ∗ bigSep Finset.univ fun ck : Dev nD × SemLoc sig => reached ER (kcell ck) 0)

instance records_persistent (K : Dev nD × SemLoc sig → ℕ) : BI.Persistent (records m K) := by unfold records; infer_instance

omit [FloatOps F] in
theorem inv_at0 (K : Dev nD × SemLoc sig → ℕ) (ck : Dev nD × SemLoc sig) :
    (bigSep Finset.univ fun ck : Dev nD × SemLoc sig => (cellInv ER (a2aRd m) (K ck) (kcell ck) : sProp 𝕄)) ⊢ cellInv ER (a2aRd m) (K ck) (kcell ck) :=
  bigSep_elim (Finset.mem_univ ck)
omit [FloatOps F] in
theorem reached_at0 (ck : Dev nD × SemLoc sig) :
    (bigSep Finset.univ fun ck : Dev nD × SemLoc sig => (reached ER (kcell ck) 0 : sProp 𝕄)) ⊢ reached ER (kcell ck) 0 :=
  bigSep_elim (Finset.mem_univ ck)
omit [FloatOps F] in
/-- Any cell's invariant, and that it is at round 0, out of the records. -/
theorem inv_at (K : Dev nD × SemLoc sig → ℕ) (c : Dev nD) (sm : SemLoc sig) :
    records m K ⊢ cellInv ER (a2aRd m) (K (c, sm)) ((c : Thread nD τ), sm) := by
  unfold records
  iintro ⟨HI, -⟩
  iapply (inv_at0 m K (c, sm)); iexact HI
omit [FloatOps F] in
theorem reached_at (K : Dev nD × SemLoc sig → ℕ) (c : Dev nD) (sm : SemLoc sig) :
    records m K ⊢ reached ER ((c : Thread nD τ), sm) 0 := by
  unfold records
  iintro ⟨-, HR⟩
  iapply (reached_at0 (F := F) (c, sm)); iexact HR

/-! ## A device's own share of the ghost state -/

/-- Device c at round 0 of each of its cells, nothing taken. -/
def positions (c : Dev nD) : sProp 𝕄 := bigSep Finset.univ fun sm : SemLoc sig => atPos ER ((c : Thread nD τ), sm) 0 ∅ 0

/-- The tokens of the duties device c pays: its peer's barrier unit; its own sixteen input copies (chunk i is round
    i / 2 of slot i mod 2), keep copies and sends' source cells; its peer's sixteen receive cells. -/
def payToks (c : Dev nD) : sProp 𝕄 :=
  iprop(dutyTok ER (barCell (peer c)) 0 ()
    ∗ (bigSep Finset.univ fun i : Fin 16 => dutyTok ER (inCell c (slot i)) (rnd i) ())
    ∗ (bigSep Finset.univ fun i : Fin 16 => dutyTok ER (keepCell c i) 0 ())
    ∗ (bigSep Finset.univ fun i : Fin 16 => dutyTok ER (sendCell c i) 0 ())
    ∗ (bigSep Finset.univ fun i : Fin 16 => dutyTok ER (recvCell (peer c) i) 0 ()))

def ghost (K : Dev nD × SemLoc sig → ℕ) (c : Dev nD) : sProp 𝕄 := iprop(records m K ∗ positions c ∗ payToks c)

/-- The credit device c's waits on its barrier and receive cells consume: what its peer owes them. -/
def creds (c : Dev nD) : sProp 𝕄 :=
  iprop(cred (tallyAt (barCell c) () 1) ∗ bigSep Finset.univ fun i : Fin 16 => cred (tallyAt (recvCell c i) () Nh))

/-- What the launch hands device c's body besides its scratch buffers. -/
def start (c : Dev nD) : sProp 𝕄 :=
  iprop((∃ K, ghost m K c) ∗ creds c ∗ levAts L lv
    ∗ (((c : Thread nD τ).loc main_arg0) ↦{fullShare} Xa m c)
    ∗ (((c : Thread nD τ).loc main_v1) ↦{fullShare} m ((c : Thread nD τ).loc main_v1)))

/-- The three scratch buffers, each whole at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

def Φ₀ (c : Dev nD) : sProp 𝕄 := iprop(start m c ∗ scratch c)

/-- The kernel's own semaphores: the fifty DMA semaphores. -/
abbrev osem : DmaSem sig → SemLoc sig := fun q => .dma q

/-- After the point: the argument unchanged, the result at its final contents, the scratch buffers and the own
    semaphores back (the barrier semaphore is the runtime's: nothing to hand back). -/
def Φ₁ (c : Dev nD) : sProp 𝕄 :=
  iprop((((c : Thread nD τ).loc main_arg0) ↦{fullShare} Xa m c) ∗ (((c : Thread nD τ).loc main_v1) ↦{fullShare} outK m c)
    ∗ scratch c ∗ bigSep Finset.univ fun q : DmaSem sig => semVal ((c : Thread nD τ), osem q) 0)

/-! ## The proof data: no window, one point -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the body starts from and what it must reach (the body obligation's two sides, the windows being none). -/
def bodyPre (c : Dev nD) : sProp 𝕄 := iprop(Φ₀ m c ∗ (dats m 0 c).owesAt () t₀.castSucc)
def bodyPost (c : Dev nD) : sProp 𝕄 := iprop(Φ₁ m c ∗ (dats m 0 c).owesAt () t₀.succ)

end Cert.KernelIdeal.A2A

end
-- ==== Proof.Sched.lean ====
/-
  The schedule's tables, cell by cell, and the levels.

  Every cell of the all-to-all has ONE duty a round: the barrier, keep, send and receive cells one round, the two input
  cells eight. Below, per kind of cell: which rounds have the duty, its amount, the round's expected units, its payload,
  and the payload of the whole round. Then the levels: a device owes only receive credits (level 2) while it waits on its
  input, keep and send cells (level 0) and on its barrier cell (level 1).
-/
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.KernelIdeal.Skeleton
import proofs.«900648_g7700000000000649_dist_a2a_v7x_xyz2x4x4_x_m16384_n1024_f32_1_alg».proof.Proof.Gen.KernelIdeal.Launch
import proofs.«900648_g7700000000000649_dist_a2a_v7x_xyz2x4x4_x_m16384_n1024_f32_1_alg».proof.Proof.Gen.KernelIdeal.Points
import proofs.«900648_g7700000000000649_dist_a2a_v7x_xyz2x4x4_x_m16384_n1024_f32_1_alg».proof.Proof.BlockIdx
import proofs.«900648_g7700000000000649_dist_a2a_v7x_xyz2x4x4_x_m16384_n1024_f32_1_alg».proof.Proof.Proto
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads can be stored in a cell's invariant -/

instance a2aRd_payload_storable (g : GSem nD τ sig) (r : ℕ) (d : Unit) :
    BI.Storable (upEmb : UEmb _ 𝕄) ((a2aRd (F := F) m).payload g r d) := by
  rcases g with ⟨t, sm⟩
  cases sm with
  | reg s =>
    show BI.Storable upEmb (barPay t.1)
    unfold barPay; infer_instance
  | dma q =>
    show BI.Storable upEmb (if q.val < 2 then inPay m t.1 (chunkAt ⟨q.val % 2, Nat.mod_lt _ (by decide)⟩ r)
      else if q.val < 18 then keepPay m t.1 (chunkOf q)
      else if q.val < 34 then sendPay t.1 (chunkOf q)
      else recvPay m t.1 (chunkOf q))
    unfold inPay keepPay sendPay recvPay
    (repeat' split) <;> infer_instance

/-! ## Which rounds have their duty -/

section Sched
variable (c : Dev nD) (s : Fin 2) (i : Fin 16) (r : ℕ)

theorem keep_not_in : ¬ (keepS i).val < 2 := by show ¬ 2 + i.val < 2; omega
theorem send_not_in : ¬ (sendS i).val < 2 := by show ¬ 18 + i.val < 2; omega
theorem recv_not_in : ¬ (recvS i).val < 2 := by show ¬ 34 + i.val < 2; omega
theorem in_is_in : (inS s).val < 2 := s.isLt

theorem duties_bar : (a2aRd (F := F) m).duties (barCell c) 0 = {()} := by
  dsimp only [a2aRd]; exact if_pos ⟨rfl, rfl⟩
theorem duties_in (hr : r < 8) : (a2aRd (F := F) m).duties (inCell c s) r = {()} := by
  dsimp only [a2aRd]; refine if_pos ⟨rfl, ?_⟩
  show (if (inS s).val < 2 then r < 8 else r = 0); rw [if_pos (in_is_in s)]; exact hr
theorem duties_keep : (a2aRd (F := F) m).duties (keepCell c i) 0 = {()} := by
  dsimp only [a2aRd]; refine if_pos ⟨rfl, ?_⟩
  show (if (keepS i).val < 2 then 0 < 8 else 0 = 0); rw [if_neg (keep_not_in i)]
theorem duties_send : (a2aRd (F := F) m).duties (sendCell c i) 0 = {()} := by
  dsimp only [a2aRd]; refine if_pos ⟨rfl, ?_⟩
  show (if (sendS i).val < 2 then 0 < 8 else 0 = 0); rw [if_neg (send_not_in i)]
theorem duties_recv : (a2aRd (F := F) m).duties (recvCell c i) 0 = {()} := by
  dsimp only [a2aRd]; refine if_pos ⟨rfl, ?_⟩
  show (if (recvS i).val < 2 then 0 < 8 else 0 = 0); rw [if_neg (recv_not_in i)]

theorem duties_later_bar : ∀ r, 1 ≤ r → (a2aRd (F := F) m).duties (barCell c) r = ∅ := fun r hr => by
  dsimp only [a2aRd]; refine if_neg fun h => ?_
  have h2 : r = 0 := h.2
  omega
theorem duties_later_in : ∀ r, 8 ≤ r → (a2aRd (F := F) m).duties (inCell c s) r = ∅ := fun r hr => by
  dsimp only [a2aRd]; refine if_neg fun h => ?_
  have h2 : (if (inS s).val < 2 then r < 8 else r = 0) := h.2
  rw [if_pos (in_is_in s)] at h2; omega
theorem duties_later_keep : ∀ r, 1 ≤ r → (a2aRd (F := F) m).duties (keepCell c i) r = ∅ := fun r hr => by
  dsimp only [a2aRd]; refine if_neg fun h => ?_
  have h2 : (if (keepS i).val < 2 then r < 8 else r = 0) := h.2
  rw [if_neg (keep_not_in i)] at h2; omega
theorem duties_later_send : ∀ r, 1 ≤ r → (a2aRd (F := F) m).duties (sendCell c i) r = ∅ := fun r hr => by
  dsimp only [a2aRd]; refine if_neg fun h => ?_
  have h2 : (if (sendS i).val < 2 then r < 8 else r = 0) := h.2
  rw [if_neg (send_not_in i)] at h2; omega
theorem duties_later_recv : ∀ r, 1 ≤ r → (a2aRd (F := F) m).duties (recvCell c i) r = ∅ := fun r hr => by
  dsimp only [a2aRd]; refine if_neg fun h => ?_
  have h2 : (if (recvS i).val < 2 then r < 8 else r = 0) := h.2
  rw [if_neg (recv_not_in i)] at h2; omega

/-! ## Amounts and expected units -/

theorem amount_bar (d : Unit) : (a2aRd (F := F) m).amount (barCell c) r d = 1 := rfl
theorem amount_in (d : Unit) : (a2aRd (F := F) m).amount (inCell c s) r d = Nin := by
  show (if (inS s).val < 2 then Nin else Nh) = Nin; exact if_pos (in_is_in s)
theorem amount_keep (d : Unit) : (a2aRd (F := F) m).amount (keepCell c i) r d = Nh := by
  show (if (keepS i).val < 2 then Nin else Nh) = Nh; exact if_neg (keep_not_in i)
theorem amount_send (d : Unit) : (a2aRd (F := F) m).amount (sendCell c i) r d = Nh := by
  show (if (sendS i).val < 2 then Nin else Nh) = Nh; exact if_neg (send_not_in i)
theorem amount_recv (d : Unit) : (a2aRd (F := F) m).amount (recvCell c i) r d = Nh := by
  show (if (recvS i).val < 2 then Nin else Nh) = Nh; exact if_neg (recv_not_in i)

theorem expect_bar : (a2aRd (F := F) m).expect (barCell c) 0 = 1 := by
  unfold Schedule.expect Schedule.amountOf; rw [duties_bar, Finset.sum_singleton, amount_bar]
theorem expect_in (hr : r < 8) : (a2aRd (F := F) m).expect (inCell c s) r = Nin := by
  unfold Schedule.expect Schedule.amountOf; rw [duties_in m c s r hr, Finset.sum_singleton, amount_in]
theorem expect_keep : (a2aRd (F := F) m).expect (keepCell c i) 0 = Nh := by
  unfold Schedule.expect Schedule.amountOf; rw [duties_keep, Finset.sum_singleton, amount_keep]
theorem expect_send : (a2aRd (F := F) m).expect (sendCell c i) 0 = Nh := by
  unfold Schedule.expect Schedule.amountOf; rw [duties_send, Finset.sum_singleton, amount_send]
theorem expect_recv : (a2aRd (F := F) m).expect (recvCell c i) 0 = Nh := by
  unfold Schedule.expect Schedule.amountOf; rw [duties_recv, Finset.sum_singleton, amount_recv]

/-! ## Payloads -/

/-- The chunk that the schedule reads off input slot (slot i) at round (rnd i) is i. -/
theorem chunkAt_in : chunkAt ⟨(inS (slot i)).val % 2, Nat.mod_lt _ (by decide)⟩ (rnd i) = i := by revert i; decide

theorem payload_bar (d : Unit) : (a2aRd (F := F) m).payload (barCell c) 0 d = barPay c := rfl
theorem payload_in (d : Unit) : (a2aRd (F := F) m).payload (inCell c (slot i)) (rnd i) d = inPay m c i := by
  show (if (inS (slot i)).val < 2 then inPay m c (chunkAt ⟨(inS (slot i)).val % 2, Nat.mod_lt _ (by decide)⟩ (rnd i))
      else if (inS (slot i)).val < 18 then keepPay m c (chunkOf (inS (slot i)))
      else if (inS (slot i)).val < 34 then sendPay c (chunkOf (inS (slot i)))
      else recvPay m c (chunkOf (inS (slot i)))) = _
  rw [if_pos (in_is_in (slot i)), chunkAt_in]
theorem payload_keep (d : Unit) : (a2aRd (F := F) m).payload (keepCell c i) 0 d = keepPay m c i := by
  show (if (keepS i).val < 2 then inPay m c (chunkAt ⟨(keepS i).val % 2, Nat.mod_lt _ (by decide)⟩ 0)
      else if (keepS i).val < 18 then keepPay m c (chunkOf (keepS i))
      else if (keepS i).val < 34 then sendPay c (chunkOf (keepS i))
      else recvPay m c (chunkOf (keepS i))) = _
  rw [if_neg (keep_not_in i), if_pos (show (keepS i).val < 18 by show 2 + i.val < 18; omega), chunkOf_keep]
theorem payload_send (d : Unit) : (a2aRd (F := F) m).payload (sendCell c i) 0 d = sendPay c i := by
  show (if (sendS i).val < 2 then inPay m c (chunkAt ⟨(sendS i).val % 2, Nat.mod_lt _ (by decide)⟩ 0)
      else if (sendS i).val < 18 then keepPay m c (chunkOf (sendS i))
      else if (sendS i).val < 34 then sendPay c (chunkOf (sendS i))
      else recvPay m c (chunkOf (sendS i))) = _
  rw [if_neg (send_not_in i), if_neg (show ¬ (sendS i).val < 18 by show ¬ 18 + i.val < 18; omega),
    if_pos (show (sendS i).val < 34 by show 18 + i.val < 34; omega), chunkOf_send]
theorem payload_recv (d : Unit) : (a2aRd (F := F) m).payload (recvCell c i) 0 d = recvPay m c i := by
  show (if (recvS i).val < 2 then inPay m c (chunkAt ⟨(recvS i).val % 2, Nat.mod_lt _ (by decide)⟩ 0)
      else if (recvS i).val < 18 then keepPay m c (chunkOf (recvS i))
      else if (recvS i).val < 34 then sendPay c (chunkOf (recvS i))
      else recvPay m c (chunkOf (recvS i))) = _
  rw [if_neg (recv_not_in i), if_neg (show ¬ (recvS i).val < 18 by show ¬ 34 + i.val < 18; omega),
    if_neg (show ¬ (recvS i).val < 34 by show ¬ 34 + i.val < 34; omega), chunkOf_recv]

/-! ## The whole round's payload, no duty taken -/

theorem rest_bar : bigSep ((a2aRd (F := F) m).duties (barCell c) 0 \ ∅) (fun d => (a2aRd (F := F) m).payload (barCell c) 0 d) = barPay c := by
  rw [Finset.sdiff_empty, duties_bar, bigSep_singleton, payload_bar]
theorem rest_in : bigSep ((a2aRd (F := F) m).duties (inCell c (slot i)) (rnd i) \ ∅) (fun d => (a2aRd (F := F) m).payload (inCell c (slot i)) (rnd i) d) = inPay m c i := by
  rw [Finset.sdiff_empty, duties_in m c (slot i) (rnd i) (by have := i.isLt; show i.val / 2 < 8; omega), bigSep_singleton, payload_in]
theorem rest_keep : bigSep ((a2aRd (F := F) m).duties (keepCell c i) 0 \ ∅) (fun d => (a2aRd (F := F) m).payload (keepCell c i) 0 d) = keepPay m c i := by
  rw [Finset.sdiff_empty, duties_keep, bigSep_singleton, payload_keep]
theorem rest_send : bigSep ((a2aRd (F := F) m).duties (sendCell c i) 0 \ ∅) (fun d => (a2aRd (F := F) m).payload (sendCell c i) 0 d) = sendPay c i := by
  rw [Finset.sdiff_empty, duties_send, bigSep_singleton, payload_send]
theorem rest_recv : bigSep ((a2aRd (F := F) m).duties (recvCell c i) 0 \ ∅) (fun d => (a2aRd (F := F) m).payload (recvCell c i) 0 d) = recvPay m c i := by
  rw [Finset.sdiff_empty, duties_recv, bigSep_singleton, payload_recv]

end Sched

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- The send of chunk i pays off exactly the credit owed for chunk i. -/
theorem owedFrom_step (c : Dev nD) (i : Fin 16) :
    owedFrom c i.val = owedFrom c (i.val + 1) + tallyAt (recvCell (peer c) i) () Nh := by
  unfold owedFrom
  have h : Finset.univ.filter (fun j : Fin 16 => i.val ≤ j.val)
      = insert i (Finset.univ.filter (fun j : Fin 16 => i.val + 1 ≤ j.val)) := by
    ext j
    simp only [Finset.mem_filter, Finset.mem_univ, true_and, Finset.mem_insert]
    constructor
    · intro hj
      by_cases hji : j = i
      · exact .inl hji
      · right; have : j.val ≠ i.val := fun h' => hji (Fin.ext h'); omega
    · rintro (rfl | hj) <;> omega
  rw [h, Finset.sum_insert (fun hi => by have := (Finset.mem_filter.mp hi).2; omega), add_comm]

theorem owedFrom_16 (c : Dev nD) : owedFrom c 16 = 0 := by
  unfold owedFrom
  rw [Finset.filter_false_of_mem (fun j _ => by have := j.isLt; omega), Finset.sum_empty]

/-- A device owes only to its peer's receive cells. -/
theorem owedFrom_pos {c : Dev nD} {k : ℕ} {g : GSem nD τ sig} {u : Unit} (h : 0 < owedFrom c k g u) :
    ∃ i : Fin 16, g = recvCell (peer c) i := by
  unfold owedFrom at h
  obtain ⟨i, _, hi⟩ := Pipeline.sum_pos_exists h
  rw [tallyAt_apply] at hi
  by_cases hg : g = recvCell (peer c) i ∧ u = ()
  · exact ⟨i, hg.1⟩
  · rw [if_neg hg] at hi; exact absurd hi (Nat.lt_irrefl 0)

/-- A wait on an input, keep or send cell (level 0) while owing receive credits (level 2). -/
theorem mayWait_low (c : Dev nD) (q : DmaSem sig) (hq : q.val < 34) (k : ℕ) :
    (levAts L lv : sProp 𝕄) ⊢ MayWait (c : Thread nD τ) (.dma q) () (owedFrom c k) :=
  MayOwe.of_cut (L := L) (lev := lv) 0
    (fun p hp => by rw [Finset.mem_singleton.mp hp, L_tc]; exact Finset.mem_singleton_self _)
    (fun g u hg => by obtain ⟨i, rfl⟩ := owedFrom_pos hg; rw [L_tc]; exact Finset.mem_singleton_self _)
    (fun p hp => by
      rw [Finset.mem_singleton.mp hp]
      show (if 34 ≤ q.val then 2 else 0) ≤ 0
      rw [if_neg (by omega)])
    (fun g u hg => by
      obtain ⟨i, rfl⟩ := owedFrom_pos hg
      show 0 < (if 34 ≤ (recvS i).val then 2 else 0)
      rw [if_pos (show 34 ≤ (recvS i).val by show 34 ≤ 34 + i.val; omega)]; decide)

/-- The barrier wait (level 1) while owing receive credits (level 2). -/
theorem mayWait_bar (c : Dev nD) :
    (levAts L lv : sProp 𝕄) ⊢ MayWait (c : Thread nD τ) (.reg barS) () (owedFrom c 0) :=
  MayOwe.of_cut (L := L) (lev := lv) 1
    (fun p hp => by rw [Finset.mem_singleton.mp hp, L_tc]; exact Finset.mem_singleton_self _)
    (fun g u hg => by obtain ⟨i, rfl⟩ := owedFrom_pos hg; rw [L_tc]; exact Finset.mem_singleton_self _)
    (fun p hp => by rw [Finset.mem_singleton.mp hp]; exact le_rfl)
    (fun g u hg => by
      obtain ⟨i, rfl⟩ := owedFrom_pos hg
      show 1 < (if 34 ≤ (recvS i).val then 2 else 0)
      rw [if_pos (show 34 ≤ (recvS i).val by show 34 ≤ 34 + i.val; omega)]; decide)

/-- info: 'Cert.KernelIdeal.A2A.mayWait_low' depends on axioms: [propext, Classical.choice, Quot.sound] -/
#guard_msgs in #print axioms mayWait_low

end Cert.KernelIdeal.A2A

end
-- ==== Proof.LaunchGhost.lean ====
/-
  Dealing the ghost state at launch.

  The launch element of the protocol's algebra is the round state of every cell of the mesh — every (device,
  semaphore) pair, 32 x 51 of them — at counter zero, each cell's position at round 0 and its reached mark, and one
  token per duty: a device's cells mint its barrier's one token, its two input cells' eight each (chunk i being round
  i / 2 of slot i mod 2), and one for each of its sixteen keep, send and receive cells.

  The global step then allocates every cell's invariant from its counter at zero and its round state, under one
  update for the whole mesh, picks the names, hands the persistent records to every device, leaves each device its
  positions, and deals the tokens to the devices that PAY them: a device's barrier and receive tokens go to its peer,
  its input, keep and send tokens stay.
-/
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.KernelIdeal.Skeleton
import proofs.«900648_g7700000000000649_dist_a2a_v7x_xyz2x4x4_x_m16384_n1024_f32_1_alg».proof.Proof.Gen.KernelIdeal.Launch
import proofs.«900648_g7700000000000649_dist_a2a_v7x_xyz2x4x4_x_m16384_n1024_f32_1_alg».proof.Proof.Gen.KernelIdeal.Points
import proofs.«900648_g7700000000000649_dist_a2a_v7x_xyz2x4x4_x_m16384_n1024_f32_1_alg».proof.Proof.Sched
import proofs.«900648_g7700000000000649_dist_a2a_v7x_xyz2x4x4_x_m16384_n1024_f32_1_alg».proof.Proof.State
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens of the launch element -/

theorem kcell_injective : Function.Injective (kcell : Dev nD × SemLoc sig → GSem nD τ sig) := by
  rintro ⟨c, k⟩ ⟨c', k'⟩ h
  have h1 : c = c' := congrArg (fun g : GSem nD τ sig => g.1.1) h
  have h2 : k = k' := congrArg Prod.snd h
  subst h1; subst h2; rfl

/-- Every cell of the mesh. -/
def allCells : Finset (GSem nD τ sig) := Finset.univ.map ⟨kcell, kcell_injective⟩

/-- The duties of one device's cells: the barrier's; then, chunk by chunk, the input copy's (0), the keep copy's (1),
    the send's source side (2), the receive (3). -/
abbrev Tk : Type := Unit ⊕ (Fin 4 × Fin 16)

/-- The token of a duty of a device's own cells, as minted: (cell, round, duty). -/
abbrev tokOf (cj : Dev nD × Tk) : GSem nD τ sig × ℕ × Unit := match cj.2 with
  | .inl _ => (barCell cj.1, 0, ())
  | .inr (0, i) => (inCell cj.1 (slot i), rnd i, ())
  | .inr (1, i) => (keepCell cj.1 i, 0, ())
  | .inr (2, i) => (sendCell cj.1 i, 0, ())
  | .inr (3, i) => (recvCell cj.1 i, 0, ())

/-- A semaphore's number among a device's fifty-one: the DMA semaphores 0 … 49, the barrier semaphore 50. -/
def semNo : SemLoc sig → ℕ
  | .reg _ => 50
  | .dma q => q.val

/-- A duty's semaphore number and round: input chunk i is round i / 2 of semaphore i mod 2; keep, send and receive
    chunk i are round 0 of semaphores 2 + i, 18 + i, 34 + i. -/
def tkKey : Tk → ℕ × ℕ
  | .inl _ => (50, 0)
  | .inr (0, i) => (i.val % 2, i.val / 2)
  | .inr (1, i) => (2 + i.val, 0)
  | .inr (2, i) => (18 + i.val, 0)
  | .inr (3, i) => (34 + i.val, 0)

theorem tkKey_injective : Function.Injective tkKey := by
  rintro (_ | ⟨k, i⟩) (_ | ⟨k', i'⟩) h
  · rfl
  · exfalso; have hi' := i'.isLt; fin_cases k' <;> simp only [tkKey, Prod.mk.injEq] at h <;> omega
  · exfalso; have hi := i.isLt; fin_cases k <;> simp only [tkKey, Prod.mk.injEq] at h <;> omega
  · have hi := i.isLt; have hi' := i'.isLt
    fin_cases k <;> fin_cases k' <;> simp only [tkKey, Prod.mk.injEq] at h <;>
      first
        | (have : i = i' := Fin.ext (by omega); subst this; rfl)
        | (exfalso; omega)

theorem tokOf_dev (c : Dev nD) (j : Tk) : (tokOf (c, j)).1.1.1 = c := by
  rcases j with _ | ⟨k, i⟩
  · rfl
  · fin_cases k <;> rfl

theorem tokOf_key (c : Dev nD) (j : Tk) : (semNo (tokOf (c, j)).1.2, (tokOf (c, j)).2.1) = tkKey j := by
  rcases j with _ | ⟨k, i⟩
  · rfl
  · fin_cases k <;> rfl

theorem tokOf_injective : Function.Injective (tokOf : Dev nD × Tk → GSem nD τ sig × ℕ × Unit) := by
  rintro ⟨c, j⟩ ⟨c', j'⟩ h
  have h1 : c = c' := (tokOf_dev c j).symm.trans ((congrArg (fun x : GSem nD τ sig × ℕ × Unit => x.1.1.1) h).trans (tokOf_dev c' j'))
  subst h1
  have h2 : tkKey j = tkKey j' :=
    (tokOf_key c j).symm.trans ((congrArg (fun x : GSem nD τ sig × ℕ × Unit => (semNo x.1.2, x.2.1)) h).trans (tokOf_key c j'))
  rw [tkKey_injective h2]

def allToks : Finset (GSem nD τ sig × ℕ × Unit) := Finset.univ.map ⟨tokOf, tokOf_injective⟩

/-- The launch element: the pipeline library's (no window: no cell, no token) beside the protocol's. -/
def u₀ : UU :=
  (initOf (Pipeline.cells cfgs cellOf_inj) (Pipeline.launchToks cfgs cellOf_inj), initOf allCells allToks)

/-- The tokens of the duties of device c's OWN cells. -/
def toks (c : Dev nD) : sProp 𝕄 :=
  iprop(dutyTok ER (barCell c) 0 ()
    ∗ (bigSep Finset.univ fun i : Fin 16 => dutyTok ER (inCell c (slot i)) (rnd i) ())
    ∗ (bigSep Finset.univ fun i : Fin 16 => dutyTok ER (keepCell c i) 0 ())
    ∗ (bigSep Finset.univ fun i : Fin 16 => dutyTok ER (sendCell c i) 0 ())
    ∗ (bigSep Finset.univ fun i : Fin 16 => dutyTok ER (recvCell c i) 0 ()))

/-- What the launch element deals device c: its cells' round states, positions and reached marks, its cells' tokens. -/
def G (c : Dev nD) : sProp 𝕄 :=
  iprop((bigSep Finset.univ fun sm : SemLoc sig => roundState ER (a2aRd m) ((c : Thread nD τ), sm) 0)
    ∗ (bigSep Finset.univ fun sm : SemLoc sig => iprop(atPos ER ((c : Thread nD τ), sm) 0 ∅ 0 ∗ reached ER ((c : Thread nD τ), sm) 0))
    ∗ toks c)

/-- What the global step makes of it. -/
def G' (c : Dev nD) : sProp 𝕄 := iprop(∃ K, ghost m K c)

/-! ## Big stars over the four kinds, the duties of a device, the semaphores of a device -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_tk (Φ : Tk → sProp 𝕄) :
    bigSep Finset.univ Φ = iprop(Φ (.inl ()) ∗ (bigSep Finset.univ fun i : Fin 16 => Φ (.inr (0, i))) ∗ (bigSep Finset.univ fun i : Fin 16 => Φ (.inr (1, i)))
      ∗ (bigSep Finset.univ fun i : Fin 16 => Φ (.inr (2, i))) ∗ (bigSep Finset.univ fun i : Fin 16 => Φ (.inr (3, i)))) := by
  rw [bigSep_univ_sum, bigSep_univ_of_subsingleton (), bigSep_univ_prod, bigSep_fin4]
  rfl

/-- A device's semaphores: the barrier semaphore and the fifty DMA semaphores. -/
theorem bigSep_semLoc (Φ : SemLoc sig → sProp 𝕄) :
    bigSep Finset.univ Φ = iprop(Φ (.reg barS) ∗ bigSep Finset.univ fun q : DmaSem sig => Φ (.dma q)) := by
  rw [bigSep_univ_equiv (SemLoc.equivSum sig).symm Φ, bigSep_univ_sum, bigSep_univ_eq_bigSepL [barS] (by decide) (by decide)]
  rfl

/-! ## Funding -/

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun sm : SemLoc sig => Φ ((c : Thread nD τ), sm) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_tk]; rfl
  iintro HX
  imod (Rounds.fund ER (a2aRd m) allCells allToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the barrier semaphore are all of a device's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun sm : SemLoc sig => semVal ((c : Thread nD τ), sm) 0 : sProp 𝕄) := by
  rw [unscopedSems0_eq, bigSep_semLoc]
  unfold Pipeline.ownSems0
  iintro ⟨HO, HB⟩
  isplitl [HB]; · iexact HB
  iexact HO

/-- Each cell of a device, from its counter at zero and its round state, gets its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (a2aRd m) κ ((c : Thread nD τ), sm)))
          ∗ (bigSep Finset.univ fun sm : SemLoc sig => iprop(atPos ER ((c : Thread nD τ), sm) 0 ∅ 0 ∗ reached ER ((c : Thread nD τ), sm) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun sm : SemLoc sig => semVal ((c : Thread nD τ), sm) 0) ∗ bigSep Finset.univ fun sm : SemLoc sig => roundState ER (a2aRd m) ((c : Thread nD τ), sm) 0)
      ⊢ (|={Set.univ}=> bigSep Finset.univ fun sm : SemLoc sig => iprop(∃ κ : ℕ, cellInv ER (a2aRd m) κ ((c : Thread nD τ), sm)) : sProp 𝕄) from by
        rw [← bigSep_sep']
        exact (bigSep_mono fun sm _ => (Rounds.body_intro ER (a2aRd m) ((c : Thread nD τ), sm)).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × SemLoc sig → ℕ) (c : Dev nD) : iprop(records m K ∗ positions c ∗ payToks c) ⊢ G' m c := by
  unfold G' ghost
  iintro H
  iexists K
  iexact H

/-- The peer relation as a permutation of the mesh. -/
def pe : Dev nD ≃ Dev nD := ⟨peer, peer, peer_peer, peer_peer⟩

/-- The tokens dealt to their payers: a device's barrier token and its receive tokens go to its peer. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pe (fun c : Dev nD => (dutyTok ER (barCell c) 0 () : sProp 𝕄)),
    bigSep_univ_equiv pe (fun c : Dev nD => (bigSep Finset.univ fun i : Fin 16 => dutyTok ER (recvCell c i) 0 () : sProp 𝕄))]
  iintro ⟨H1, H2, H3, H4, H5⟩
  isplitl [H1]; · iexact H1
  isplitl [H2]; · iexact H2
  isplitl [H3]; · iexact H3
  isplitl [H4]; · iexact H4
  iexact H5

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun sm : SemLoc sig => iprop(∃ κ : ℕ, cellInv ER (a2aRd m) κ ((c : Thread nD τ), sm)))
          ∗ (bigSep Finset.univ fun sm : SemLoc sig => iprop(atPos ER ((c : Thread nD τ), sm) 0 ∅ 0 ∗ reached ER ((c : Thread nD τ), sm) 0)) ∗ toks c) : sProp 𝕄)
      ⊢ bigSep Finset.univ (G' m) := by
  rw [bigSep_sep', bigSep_sep', ← bigSep_univ_prod (fun ck : Dev nD × SemLoc sig => iprop(∃ κ : ℕ, cellInv ER (a2aRd m) κ (kcell ck))),
    bigSep_congr (s := Finset.univ) (fun (c : Dev nD) _ => bigSep_sep' Finset.univ (fun sm : SemLoc sig => (atPos ER ((c : Thread nD τ), sm) 0 ∅ 0 : sProp 𝕄)) (fun sm => reached ER ((c : Thread nD τ), sm) 0)),
    bigSep_sep', ← bigSep_univ_prod (fun ck : Dev nD × SemLoc sig => (reached ER (kcell ck) 0 : sProp 𝕄))]
  iintro ⟨HI, ⟨Hat, #HR⟩, Htok⟩
  ihave HK := (BI.bigSep_exists_pi Finset.univ (fun (ck : Dev nD × SemLoc sig) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch element funds both algebras -/

theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_all m) $$ HX with HG
  imodintro
  isplitl [HP] <;> iassumption

/-- info: 'Cert.KernelIdeal.A2A.glob' depends on axioms: [propext, Classical.choice, Quot.sound] -/
#guard_msgs in #print axioms glob

end Cert.KernelIdeal.A2A

end
-- ==== Proof.LaunchRun.lean ====
/-
  The launch: what each device is owed at launch and so holds as credit, the launch theorem's side conditions, and
  the run of the whole mesh from the body obligation.
-/
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.KernelIdeal.Skeleton
import proofs.«900648_g7700000000000649_dist_a2a_v7x_xyz2x4x4_x_m16384_n1024_f32_1_alg».proof.Proof.Gen.KernelIdeal.Launch
import proofs.«900648_g7700000000000649_dist_a2a_v7x_xyz2x4x4_x_m16384_n1024_f32_1_alg».proof.Proof.Gen.KernelIdeal.Points
import proofs.«900648_g7700000000000649_dist_a2a_v7x_xyz2x4x4_x_m16384_n1024_f32_1_alg».proof.Proof.State
import proofs.«900648_g7700000000000649_dist_a2a_v7x_xyz2x4x4_x_m16384_n1024_f32_1_alg».proof.Proof.Sched
import proofs.«900648_g7700000000000649_dist_a2a_v7x_xyz2x4x4_x_m16384_n1024_f32_1_alg».proof.Proof.LaunchGhost
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's facts about the semaphores and shares -/

theorem ownSemFacts : Pipeline.OwnSemFacts cfg0.spec osem := by decide

theorem share_eq (c : Dev nD) (w : Fin cfg0.W) : (dats m 0 c).share w = fullShare := w.elim0

/-! ## The launch credit -/

omit [FloatOps F] in
theorem reg_ne_dma (s : Sem sig) (q : DmaSem sig) : (SemLoc.reg s : SemLoc sig) ≠ .dma q := fun h => by cases h

omit [FloatOps F] in
theorem bar_eq_iff {a b : Dev nD} : Iff (barCell a = barCell b) (a = b) :=
  ⟨fun h => Fin.ext (congrArg (fun g : GSem nD τ sig => g.1.1.val) h), fun h => h ▸ rfl⟩

omit [FloatOps F] in
theorem recv_eq_iff {a b : Dev nD} {i j : Fin 16} : Iff (recvCell a i = recvCell b j) (a = b ∧ i = j) :=
  ⟨fun h => ⟨Fin.ext (congrArg (fun g : GSem nD τ sig => g.1.1.val) h), by
      have h2 : (SemLoc.dma (recvS i) : SemLoc sig) = .dma (recvS j) := congrArg Prod.snd h
      have h3 : 34 + i.val = 34 + j.val := congrArg (fun q : DmaSem sig => q.val) (SemLoc.dma.inj h2)
      exact Fin.ext (by omega)⟩,
    fun ⟨h1, h2⟩ => h1 ▸ h2 ▸ rfl⟩

omit [FloatOps F] in
/-- A device's receive dues are none of a barrier cell's. -/
theorem owedFrom_bar (d c : Dev nD) (k : ℕ) : owedFrom d k (barCell c) () = 0 := by
  unfold owedFrom
  rw [Finset.sum_apply, Finsupp.finsetSum_apply]
  exact Finset.sum_eq_zero fun i _ => by
    rw [tallyAt_ne_cell (fun h => reg_ne_dma _ _ (congrArg Prod.snd h))]; rfl

omit [FloatOps F] in
/-- What device d owes device c's barrier cell: its entry signal, if it is c's peer. -/
theorem owed_bar (d c : Dev nD) : O₀ d (barCell c) () = if d = peer c then 1 else 0 := by
  unfold O₀
  rw [Pi.add_apply, Finsupp.add_apply, owedFrom_bar, Nat.zero_add, tallyAt_apply]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
/-- What device d owes receive cell i of device c: a block's credit (its send of chunk i), if it is c's peer. -/
theorem owed_recv (d c : Dev nD) (i : Fin 16) : O₀ d (recvCell c i) () = if d = peer c then Nh else 0 := by
  unfold O₀ owedFrom
  rw [Pi.add_apply, Finsupp.add_apply, tallyAt_ne_cell (fun h => reg_ne_dma _ _ (congrArg Prod.snd h).symm), Finsupp.zero_apply, Nat.add_zero,
    Finset.sum_apply, Finsupp.finsetSum_apply,
    Finset.sum_eq_single i
      (fun j _ hj => by
        rw [tallyAt_apply, if_neg]
        rintro ⟨h1, _⟩
        exact hj (recv_eq_iff.mp h1).2.symm)
      (fun hi => absurd (Finset.mem_filter.mpr ⟨Finset.mem_univ i, Nat.zero_le i.val⟩) hi),
    tallyAt_apply]
  by_cases h : d = peer c
  · subst h; rw [peer_peer, if_pos ⟨rfl, rfl⟩, if_pos rfl]
  · rw [if_neg (fun ⟨h1, _⟩ => h (by rw [← peer_peer d]; exact congrArg peer (recv_eq_iff.mp h1).1.symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) (i : Fin 16) :
    tallyOn (recvCell c i) (launchCredit (Pipeline.owing O₀) 0 (recvCell c i)) = (tallyAt (recvCell c i) () Nh : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (peer c) fun _ => Nh, if_pos (Finset.mem_univ _)]

/-- The sixteen receive semaphores among a device's semaphores. -/
def recvEmb : Fin 16 ↪ SemLoc sig :=
  ⟨fun i => .dma (recvS i), fun i j h => Fin.ext (by
    have h3 : 34 + i.val = 34 + j.val := congrArg (fun q : DmaSem sig => q.val) (SemLoc.dma.inj h)
    omega)⟩

omit [FloatOps F] in
/-- Of the credit the launch deals a device, cell by cell, the barrier cell's unit and the sixteen receive cells' blocks. -/
theorem creds_of_launch (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map recvEmb) (fun sm h => ?_)).trans ?_
  · obtain ⟨i, _, rfl⟩ := Finset.mem_map.mp h
    exact Finset.mem_erase.mpr ⟨(reg_ne_dma _ _).symm, Finset.mem_univ _⟩
  · rw [bigSep_map]
    exact Entails.of_eq (bigSep_congr fun i _ => congrArg cred (launch_recv c i))

/-! ## The theorem's side conditions -/

/-- What a device ends with, as the launch theorem reads it: the argument unchanged and the result at its final contents. -/
def Y (c : Dev nD) : sProp 𝕄 :=
  iprop((((c : Thread nD τ).loc main_arg0) ↦{fullShare} Xa m c) ∗ (((c : Thread nD τ).loc main_v1) ↦{fullShare} outK m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds_of_launch (F := F) c) $$ Hcr
  imodintro
  unfold start G'
  isplitl
  · isplitl [HG]; · iexact HG
    isplitl [Hc]; · iexact Hc
    isplitl [Hlev]; · iexact Hlev
    isplitl [Ha]; · iexact Ha
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y scratch Pipeline.ownSems0
  iintro ⟨Ha, Hv, Hscr, Hz⟩
  isplitl [Ha Hv]
  · isplitl [Ha] <;> iassumption
  isplitl [Hz]; · iexact Hz
  iexact Hscr

theorem waits (c : Dev nD) : (levAts L lv : sProp 𝕄) ⊢ Pipeline.cellsWaits cfgs (dats m) () 0 c :=
  Pipeline.cellsWaits_intro cfgs (dats m) () 0 c fun w => w.elim0

/-! ## The run -/

/-- Every device's argument block as launched and its result at the final contents. -/
def QC : PUnit × MemSt nD τ sig (Elt F) → Prop := fun r =>
  ∀ c : Dev nD, r.2.mem ((c : Thread nD τ).loc main_arg0) = Xa m c ∧ r.2.mem ((c : Thread nD τ).loc main_v1) = outK m c

set_option maxRecDepth 8000 in
/-- At the compiled mesh of thirty-two devices, for any float values, from any memory with zero counters: every weakly
    fair execution of @main terminates, and every final state has each device's argument block as launched and its
    result buffer at the exchanged contents. -/
theorem run_main (hbody : ∀ c, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ w => w.elim0) (hpf := fun _ k => k.elim0)
    (X := start m) (Y := Y m) (Z := fun _ => iprop(emp))
    (hX := start_intro m ρ) (hin := phi0_intro m) (hout := phi1_exit m)
    (QY := fun c s => s.mem ((c : Thread nD τ).loc main_arg0) = Xa m c ∧ s.mem ((c : Thread nD τ).loc main_v1) = outK m c)
    (hY := fun c s' => by
      unfold Y
      iintro ⟨⟨Ha, Hv⟩, -, HSI⟩
      icombine HSI Ha gives %ha
      icombine HSI Hv gives %hv
      imodintro
      isplitr
      · ipureintro; exact ⟨Buf.eq_of_forall_mem_univ ha, Buf.eq_of_forall_mem_univ hv⟩
      iexact HSI)
    (hQ := fun _ h c => (h c).2.2)

/-- info: 'Cert.KernelIdeal.A2A.run_main' depends on axioms: [propext, Classical.choice, Quot.sound] -/
#guard_msgs in #print axioms run_main

end Cert.KernelIdeal.A2A

end
-- ==== Proof.Assemble.lean ====
/-
  The five claims, from the runs: the kernel's run on the mesh (every device's argument unchanged, its result the
  rows and columns the all-to-all gives it), the reference's run (its one buffer unchanged), and the index identity that
  reads a device's result as its block of the reference's array.
-/
import proofs.«900648_g7700000000000649_dist_a2a_v7x_xyz2x4x4_x_m16384_n1024_f32_1_alg».proof.Defs
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.ReferenceIdeal
import proofs.«900648_g7700000000000649_dist_a2a_v7x_xyz2x4x4_x_m16384_n1024_f32_1_alg».proof.Proof.Gen.Pre_finite_inputs_Kernel
import proofs.«900648_g7700000000000649_dist_a2a_v7x_xyz2x4x4_x_m16384_n1024_f32_1_alg».proof.Proof.Gen.Pre_finite_inputs_ReferenceIdeal
import proofs.«900648_g7700000000000649_dist_a2a_v7x_xyz2x4x4_x_m16384_n1024_f32_1_alg».proof.Proof.BlockIdx
import proofs.«900648_g7700000000000649_dist_a2a_v7x_xyz2x4x4_x_m16384_n1024_f32_1_alg».proof.Proof.RefRun
import proofs.«900648_g7700000000000649_dist_a2a_v7x_xyz2x4x4_x_m16384_n1024_f32_1_alg».proof.Proof.LaunchRun

noncomputable section

namespace Cert.Proof.A2AClaims

open Idealize.ShloMosaic Idealize.SL.Sem

/-- The idealized kernel's frame: its run, the result dropped. -/
theorem frame_pi
    (hbody : ∀ (m : (ℓ : Loc Cert.KernelIdeal.nD Cert.KernelIdeal.τ Cert.KernelIdeal.sig) → Buf (Elt Ideal) ℓ) (c : Dev Cert.KernelIdeal.nD),
      Pipeline.BodyObligation (Cert.KernelIdeal.A2A.dats (F := Ideal) m 0 c) (Cert.KernelIdeal.defs₀ (F := Ideal)) Cert.KernelIdeal.A2A.𝒱₀ () Set.univ) :
    Cert.frame_KernelIdeal := fun m ρ _ =>
  (θ_run Cert.KernelIdeal.defs _ _).mono (fun _ h c => (h c).1) (Cert.KernelIdeal.A2A.run_main m ρ (hbody m))

/-- The reference's frame is its run. -/
theorem frame_ri : Cert.frame_ReferenceIdeal := fun m ρ _ => Cert.ReferenceIdeal.RefRun.run m ρ

/-- The ideal pass rewrote no operation. -/
theorem preserves : Cert.preserves_Kernel_KernelIdeal := trivial

/-- A device's result — its own argument block's columns of its x coordinate over its own half of the rows, its peer's
    over the other half — is its block, along the columns, of the whole array of which every argument block is the
    row block; the reference returns that whole array unchanged. -/
theorem algebraic
    (hbody : ∀ (m : (ℓ : Loc Cert.KernelIdeal.nD Cert.KernelIdeal.τ Cert.KernelIdeal.sig) → Buf (Elt Ideal) ℓ) (c : Dev Cert.KernelIdeal.nD),
      Pipeline.BodyObligation (Cert.KernelIdeal.A2A.dats (F := Ideal) m 0 c) (Cert.KernelIdeal.defs₀ (F := Ideal)) Cert.KernelIdeal.A2A.𝒱₀ () Set.univ) :
    Cert.algebraic_KernelIdeal_ReferenceIdeal := by
  intro m ρ m' ρ' _ hagree
  refine ⟨m' (((0 : Dev Cert.ReferenceIdeal.nD).tc : Thread Cert.ReferenceIdeal.nD Cert.ReferenceIdeal.τ).loc Cert.ReferenceIdeal.main_arg0), ?_, ?_⟩
  · refine (θ_run Cert.KernelIdeal.defs _ _).mono (fun _ h c => ⟨(h c).2.trans ?_, (h c).1⟩)
      (Cert.KernelIdeal.A2A.run_main m ρ (hbody m))
    show Cert.A2A.outOf (c.val / 16) (m ((c.tc : Thread Cert.KernelIdeal.nD Cert.KernelIdeal.τ).loc Cert.KernelIdeal.main_arg0))
        (m (((Cert.KernelIdeal.A2A.peer c).tc : Thread Cert.KernelIdeal.nD Cert.KernelIdeal.τ).loc Cert.KernelIdeal.main_arg0)) = _
    rw [hagree c, hagree (Cert.KernelIdeal.A2A.peer c)]
    exact Cert.A2A.outOf_eq_block _ c
  · exact (θ_run Cert.ReferenceIdeal.defs _ _).mono (fun _ h => ⟨h 0, h 0⟩) (Cert.ReferenceIdeal.RefRun.run m' ρ')

/-- The word-level kernel's frame, from its run: whatever else the run's post says of each device. -/
theorem frame_p
    {P : ((ℓ : Loc Cert.Kernel.nD Cert.Kernel.τ Cert.Kernel.sig) → Buf (Elt Bits) ℓ) → Dev Cert.Kernel.nD
      → PUnit × MemSt Cert.Kernel.nD Cert.Kernel.τ Cert.Kernel.sig (Elt Bits) → Prop}
    (hrunK : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩
        (fun r => ∀ c : Dev Cert.Kernel.nD,
          r.2.mem ((c.tc : Thread Cert.Kernel.nD Cert.Kernel.τ).loc Cert.Kernel.main_arg0) = m ((c.tc : Thread Cert.Kernel.nD Cert.Kernel.τ).loc Cert.Kernel.main_arg0)
          ∧ P m c r)) :
    Cert.frame_Kernel := fun m ρ _ =>
  (θ_run Cert.Kernel.defs _ _).mono (fun _ h c => (h c).1) (hrunK m ρ)

/-- The certificate's claim, from the two body obligations' consequences. -/
theorem claim_of
    {P : ((ℓ : Loc Cert.Kernel.nD Cert.Kernel.τ Cert.Kernel.sig) → Buf (Elt Bits) ℓ) → Dev Cert.Kernel.nD
      → PUnit × MemSt Cert.Kernel.nD Cert.Kernel.τ Cert.Kernel.sig (Elt Bits) → Prop}
    (hrunK : ∀ (m : (ℓ : Loc Cert.Kernel.nD Cert.Kernel.τ Cert.Kernel.sig) → Buf (Elt Bits) ℓ) (ρ : Dev Cert.Kernel.nD → PrngReg),
      θ_run (Cert.Kernel.defs (F := Bits)) (onTc (τ := Cert.Kernel.τ) (Cert.Kernel.main (F := Bits))) ⟨m, fun _ => 0, ρ⟩
        (fun r => ∀ c : Dev Cert.Kernel.nD,
          r.2.mem ((c.tc : Thread Cert.Kernel.nD Cert.Kernel.τ).loc Cert.Kernel.main_arg0) = m ((c.tc : Thread Cert.Kernel.nD Cert.Kernel.τ).loc Cert.Kernel.main_arg0)
          ∧ P m c r))
    (hbody : ∀ (m : (ℓ : Loc Cert.KernelIdeal.nD Cert.KernelIdeal.τ Cert.KernelIdeal.sig) → Buf (Elt Ideal) ℓ) (c : Dev Cert.KernelIdeal.nD),
      Pipeline.BodyObligation (Cert.KernelIdeal.A2A.dats (F := Ideal) m 0 c) (Cert.KernelIdeal.defs₀ (F := Ideal)) Cert.KernelIdeal.A2A.𝒱₀ () Set.univ) :
    Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_p hrunK, frame_pi hbody, frame_ri, preserves, algebraic hbody⟩

/-- info: 'Cert.Proof.A2AClaims.claim_of' depends on axioms: [propext, Classical.choice, Quot.sound] -/
#guard_msgs in #print axioms claim_of

end Cert.Proof.A2AClaims

end
-- ==== Proof.Tiles.lean ====
/-
  The buffers of the all-to-all cut into the element sets of the protocol's views, and joined back.

  The argument block is its sixteen chunks of 1024 rows; the result is its thirty-two blocks of 1024 rows (an x
  coordinate and a chunk); each scratch buffer is its two slots.  The families are pairwise disjoint (they are
  separated along the leading axis) and cover the buffer, so a points-to of the whole buffer is the separating
  conjunction of the points-tos of the pieces.  The vector loads and stores of a slot's halves stay inside the slot.
-/
import proofs.«900648_g7700000000000649_dist_a2a_v7x_xyz2x4x4_x_m16384_n1024_f32_1_alg».proof.Proof.Proto

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The views' buffers -/

theorem xV_loc (c : Dev nD) (i : Fin 16) : (xV i).view.loc (c : Thread nD τ) = (c : Thread nD τ).loc main_arg0 := rfl
theorem vinV_loc (c : Dev nD) (s : Fin 2) : (vinV s).view.loc (c : Thread nD τ) = (c : Thread nD τ).loc cc0_scratch0 := rfl
theorem vkV_loc (c : Dev nD) (s : Fin 2) : (vkV s).view.loc (c : Thread nD τ) = (c : Thread nD τ).loc cc0_scratch1 := rfl
theorem vsV_loc (c : Dev nD) (s : Fin 2) : (vsV s).view.loc (c : Thread nD τ) = (c : Thread nD τ).loc cc0_scratch2 := rfl
theorem oVa_loc (c : Dev nD) (a : Fin 2) (i : Fin 16) : (oVa a i).view.loc (c : Thread nD τ) = (c : Thread nD τ).loc main_v1 := rfl
theorem oVd_loc (c d : Dev nD) (i : Fin 16) : (oVd d i).view.loc (c : Thread nD τ) = (c : Thread nD τ).loc main_v1 := rfl

/-! ## The views' element sets, as rectangles of their buffers -/

theorem xV_set (i : Fin 16) :
    (xV i).view.set = (Rect.unit (s := S16384x2048) ![1024 * i.val, 0] S1024x2048.size (inb_x i)).set :=
  View.set_slice_whole main_arg0 _

theorem oVa_set (a : Fin 2) (i : Fin 16) :
    (oVa a i).view.set = (Rect.unit (s := S32768x1024) ![16384 * a.val + 1024 * i.val, 0] S1024x1024.size (inb_o a i)).set :=
  View.set_slice_whole main_v1 _

theorem vinV_set (s : Fin 2) :
    (vinV s).view.set = (Rect.unit (s := S2x1024x2048) ![s.val, 0, 0] S1x1024x2048.size (inb_vin s)).set :=
  (View.set_reshape _ _).trans (View.set_slice_whole cc0_scratch0 _)

theorem vkV_set (s : Fin 2) :
    (vkV s).view.set = (Rect.unit (s := S2x1024x1024) ![s.val, 0, 0] S1x1024x1024.size (inb_vh s)).set :=
  (View.set_reshape _ _).trans (View.set_slice_whole cc0_scratch1 _)

theorem vsV_set (s : Fin 2) :
    (vsV s).view.set = (Rect.unit (s := S2x1024x1024) ![s.val, 0, 0] S1x1024x1024.size (inb_vh s)).set :=
  (View.set_reshape _ _).trans (View.set_slice_whole cc0_scratch2 _)

/-! ## The kernel's own row offset names the block of the device's x coordinate -/

theorem oVd_eq (c : Dev nD) (i : Fin 16) : oVd c i = oVa (xf c) i :=
  Memref.slice_unit_congr _ (k0_off1_eq c i) _ _ _ _

theorem set_heq_of_eq {m m' : Memref sig .tc .hbm S1024x1024 .f32} (h : m = m') : HEq m.view.set m'.view.set := by
  subst h; rfl

theorem oVd_set (c : Dev nD) (i : Fin 16) : (oVd c i).view.set = (oVa (xf c) i).view.set :=
  eq_of_heq (set_heq_of_eq (oVd_eq c i))

/-! ## The argument block and the result, by chunks -/

/-- A whole buffer is the separating conjunction of a finite family of pairwise disjoint element sets covering it. -/
theorem pointsTo_univ_split {ℓ : Loc nD τ sig} {T : Type} [Fintype T] (K : T → Finset (Idx ℓ)) (q : PosShare TreeShare)
    (f : Buf (Elt F) ℓ) (hc : ∀ j : Idx ℓ, ∃ t, j ∈ K t) (hd : ∀ t t', t ≠ t' → Disjoint (K t) (K t')) :
    (ℓ ↦{q} f : sProp 𝕄) = bigSep Finset.univ fun t => ℓ ↦[K t]{q} f := by
  refine Eq.trans ?_ (pointsTo_biUnion Finset.univ K fun t _ t' _ hne => hd t t' hne)
  congr 1
  ext j
  simp only [Finset.mem_univ, Finset.mem_biUnion, true_and, true_iff]
  exact hc j

theorem cover_x (j : S16384x2048.Idx) : ∃ i : Fin 16, j ∈ (xV i).view.set := by
  have h0 : (j 0).val < 16384 := (j 0).isLt
  have h1 : (j 1).val < 2048 := (j 1).isLt
  refine ⟨⟨(j 0).val / 1024, by omega⟩, ?_⟩
  rw [xV_set, Rect.mem_set_unit]
  intro a
  match a with
  | ⟨0, _⟩ => show 1024 * ((j 0).val / 1024) ≤ (j 0).val ∧ (j 0).val < 1024 * ((j 0).val / 1024) + 1024; omega
  | ⟨1, _⟩ => show 0 ≤ (j 1).val ∧ (j 1).val < 0 + 2048; omega

theorem disj_x (i i' : Fin 16) (h : i ≠ i') : Disjoint (xV i).view.set (xV i').view.set := by
  rw [xV_set, xV_set]
  have hv : i.val ≠ i'.val := fun e => h (Fin.ext e)
  exact Rect.unit_disjoint (0 : Fin 2) (by
    show 1024 * i.val + 1024 ≤ 1024 * i'.val ∨ 1024 * i'.val + 1024 ≤ 1024 * i.val; omega)

theorem split_x (c : Dev nD) (q : PosShare TreeShare) (f : Buf (Elt F) ((c : Thread nD τ).loc main_arg0)) :
    (((c : Thread nD τ).loc main_arg0) ↦{q} f : sProp 𝕄)
      = bigSep Finset.univ fun i : Fin 16 => ((xV i).view.loc (c : Thread nD τ) ↦[(xV i).view.set]{q} f) := by
  exact pointsTo_univ_split (ℓ := (c : Thread nD τ).loc main_arg0) (fun i : Fin 16 => (xV i).view.set) q f cover_x disj_x

theorem cover_o (j : S32768x1024.Idx) : ∃ p : Fin 2 × Fin 16, j ∈ (oVa p.1 p.2).view.set := by
  have h0 : (j 0).val < 32768 := (j 0).isLt
  have h1 : (j 1).val < 1024 := (j 1).isLt
  refine ⟨(⟨(j 0).val / 16384, by omega⟩, ⟨(j 0).val % 16384 / 1024, by omega⟩), ?_⟩
  rw [oVa_set, Rect.mem_set_unit]
  intro a
  match a with
  | ⟨0, _⟩ =>
    show 16384 * ((j 0).val / 16384) + 1024 * ((j 0).val % 16384 / 1024) ≤ (j 0).val
      ∧ (j 0).val < 16384 * ((j 0).val / 16384) + 1024 * ((j 0).val % 16384 / 1024) + 1024
    omega
  | ⟨1, _⟩ => show 0 ≤ (j 1).val ∧ (j 1).val < 0 + 1024; omega

theorem disj_o (p p' : Fin 2 × Fin 16) (h : p ≠ p') : Disjoint (oVa p.1 p.2).view.set (oVa p'.1 p'.2).view.set := by
  rw [oVa_set, oVa_set]
  have hv : p.1.val ≠ p'.1.val ∨ p.2.val ≠ p'.2.val := by
    by_contra hc
    have hc' := not_or.mp hc
    exact h (Prod.ext (Fin.ext (not_not.mp hc'.1)) (Fin.ext (not_not.mp hc'.2)))
  have hi := p.2.isLt
  have hi' := p'.2.isLt
  exact Rect.unit_disjoint (0 : Fin 2) (by
    show 16384 * p.1.val + 1024 * p.2.val + 1024 ≤ 16384 * p'.1.val + 1024 * p'.2.val
      ∨ 16384 * p'.1.val + 1024 * p'.2.val + 1024 ≤ 16384 * p.1.val + 1024 * p.2.val
    omega)

theorem split_o (c : Dev nD) (f : Buf (Elt F) ((c : Thread nD τ).loc main_v1)) :
    (((c : Thread nD τ).loc main_v1) ↦{fullShare} f : sProp 𝕄)
      = bigSep Finset.univ fun p : Fin 2 × Fin 16 =>
          ((oVa p.1 p.2).view.loc (c : Thread nD τ) ↦[(oVa p.1 p.2).view.set]{fullShare} f) := by
  exact pointsTo_univ_split (ℓ := (c : Thread nD τ).loc main_v1) (fun p : Fin 2 × Fin 16 => (oVa p.1 p.2).view.set) fullShare f
    cover_o disj_o

/-! ## The scratch buffers, by slots -/

theorem cover_in : (Finset.univ : Finset S2x1024x2048.Idx) = (vinV 0).view.set ∪ (vinV 1).view.set := by
  ext j
  simp only [Finset.mem_univ, Finset.mem_union, true_iff]
  have h0 : (j 0).val < 2 := (j 0).isLt
  have h1 : (j 1).val < 1024 := (j 1).isLt
  have h2 : (j 2).val < 2048 := (j 2).isLt
  rw [vinV_set, vinV_set, Rect.mem_set_unit, Rect.mem_set_unit]
  by_cases hz : (j 0).val = 0
  · left; intro a
    match a with
    | ⟨0, _⟩ => show 0 ≤ (j 0).val ∧ (j 0).val < 0 + 1; omega
    | ⟨1, _⟩ => show 0 ≤ (j 1).val ∧ (j 1).val < 0 + 1024; omega
    | ⟨2, _⟩ => show 0 ≤ (j 2).val ∧ (j 2).val < 0 + 2048; omega
  · right; intro a
    match a with
    | ⟨0, _⟩ => show 1 ≤ (j 0).val ∧ (j 0).val < 1 + 1; omega
    | ⟨1, _⟩ => show 0 ≤ (j 1).val ∧ (j 1).val < 0 + 1024; omega
    | ⟨2, _⟩ => show 0 ≤ (j 2).val ∧ (j 2).val < 0 + 2048; omega

theorem disj_in : Disjoint (vinV 0).view.set (vinV 1).view.set := by
  rw [vinV_set, vinV_set]
  exact Rect.unit_disjoint (0 : Fin 3) (by show 0 + 1 ≤ 1 ∨ 1 + 1 ≤ 0; omega)

theorem cover_k : (Finset.univ : Finset S2x1024x1024.Idx) = (vkV 0).view.set ∪ (vkV 1).view.set := by
  ext j
  simp only [Finset.mem_univ, Finset.mem_union, true_iff]
  have h0 : (j 0).val < 2 := (j 0).isLt
  have h1 : (j 1).val < 1024 := (j 1).isLt
  have h2 : (j 2).val < 1024 := (j 2).isLt
  rw [vkV_set, vkV_set, Rect.mem_set_unit, Rect.mem_set_unit]
  by_cases hz : (j 0).val = 0
  · left; intro a
    match a with
    | ⟨0, _⟩ => show 0 ≤ (j 0).val ∧ (j 0).val < 0 + 1; omega
    | ⟨1, _⟩ => show 0 ≤ (j 1).val ∧ (j 1).val < 0 + 1024; omega
    | ⟨2, _⟩ => show 0 ≤ (j 2).val ∧ (j 2).val < 0 + 1024; omega
  · right; intro a
    match a with
    | ⟨0, _⟩ => show 1 ≤ (j 0).val ∧ (j 0).val < 1 + 1; omega
    | ⟨1, _⟩ => show 0 ≤ (j 1).val ∧ (j 1).val < 0 + 1024; omega
    | ⟨2, _⟩ => show 0 ≤ (j 2).val ∧ (j 2).val < 0 + 1024; omega

theorem disj_k : Disjoint (vkV 0).view.set (vkV 1).view.set := by
  rw [vkV_set, vkV_set]
  exact Rect.unit_disjoint (0 : Fin 3) (by show 0 + 1 ≤ 1 ∨ 1 + 1 ≤ 0; omega)

theorem cover_s : (Finset.univ : Finset S2x1024x1024.Idx) = (vsV 0).view.set ∪ (vsV 1).view.set := by
  rw [vsV_set, vsV_set, ← vkV_set, ← vkV_set]; exact cover_k

theorem disj_s : Disjoint (vsV 0).view.set (vsV 1).view.set := by
  rw [vsV_set, vsV_set, ← vkV_set, ← vkV_set]; exact disj_k

theorem split_in (c : Dev nD) (f : Buf (Elt F) ((c : Thread nD τ).loc cc0_scratch0)) :
    (((c : Thread nD τ).loc cc0_scratch0) ↦{fullShare} f : sProp 𝕄)
      ⊣⊢ iprop(((vinV 0).view.loc (c : Thread nD τ) ↦[(vinV 0).view.set]{fullShare} f)
          ∗ ((vinV 1).view.loc (c : Thread nD τ) ↦[(vinV 1).view.set]{fullShare} f)) := by
  have h : (((c : Thread nD τ).loc cc0_scratch0) ↦[(vinV 0).view.set ∪ (vinV 1).view.set]{fullShare} f : sProp 𝕄)
      ⊣⊢ iprop((((c : Thread nD τ).loc cc0_scratch0) ↦[(vinV 0).view.set]{fullShare} f)
          ∗ (((c : Thread nD τ).loc cc0_scratch0) ↦[(vinV 1).view.set]{fullShare} f)) := pointsTo_union disj_in
  rw [← cover_in] at h
  exact h

theorem join_in (c : Dev nD) (f0 f1 : Buf (Elt F) ((c : Thread nD τ).loc cc0_scratch0)) :
    (iprop(((vinV 0).view.loc (c : Thread nD τ) ↦[(vinV 0).view.set]{fullShare} f0)
          ∗ ((vinV 1).view.loc (c : Thread nD τ) ↦[(vinV 1).view.set]{fullShare} f1)) : sProp 𝕄)
      ⊢ iprop(∃ g, ((c : Thread nD τ).loc cc0_scratch0) ↦{fullShare} g) := by
  have h : (iprop((((c : Thread nD τ).loc cc0_scratch0) ↦[(vinV 0).view.set]{fullShare} f0)
          ∗ (((c : Thread nD τ).loc cc0_scratch0) ↦[(vinV 1).view.set]{fullShare} f1)) : sProp 𝕄)
      ⊢ (((c : Thread nD τ).loc cc0_scratch0) ↦[(vinV 0).view.set ∪ (vinV 1).view.set]{fullShare}
          ((vinV 1).view.set.piecewise f1 f0)) := pointsTo_join disj_in
  rw [← cover_in] at h
  exact h.trans (exists_intro (Φ := fun g => (((c : Thread nD τ).loc cc0_scratch0) ↦{fullShare} g : sProp 𝕄)) _)

theorem split_k (c : Dev nD) (f : Buf (Elt F) ((c : Thread nD τ).loc cc0_scratch1)) :
    (((c : Thread nD τ).loc cc0_scratch1) ↦{fullShare} f : sProp 𝕄)
      ⊣⊢ iprop(((vkV 0).view.loc (c : Thread nD τ) ↦[(vkV 0).view.set]{fullShare} f)
          ∗ ((vkV 1).view.loc (c : Thread nD τ) ↦[(vkV 1).view.set]{fullShare} f)) := by
  have h : (((c : Thread nD τ).loc cc0_scratch1) ↦[(vkV 0).view.set ∪ (vkV 1).view.set]{fullShare} f : sProp 𝕄)
      ⊣⊢ iprop((((c : Thread nD τ).loc cc0_scratch1) ↦[(vkV 0).view.set]{fullShare} f)
          ∗ (((c : Thread nD τ).loc cc0_scratch1) ↦[(vkV 1).view.set]{fullShare} f)) := pointsTo_union disj_k
  rw [← cover_k] at h
  exact h

theorem join_k (c : Dev nD) (f0 f1 : Buf (Elt F) ((c : Thread nD τ).loc cc0_scratch1)) :
    (iprop(((vkV 0).view.loc (c : Thread nD τ) ↦[(vkV 0).view.set]{fullShare} f0)
          ∗ ((vkV 1).view.loc (c : Thread nD τ) ↦[(vkV 1).view.set]{fullShare} f1)) : sProp 𝕄)
      ⊢ iprop(∃ g, ((c : Thread nD τ).loc cc0_scratch1) ↦{fullShare} g) := by
  have h : (iprop((((c : Thread nD τ).loc cc0_scratch1) ↦[(vkV 0).view.set]{fullShare} f0)
          ∗ (((c : Thread nD τ).loc cc0_scratch1) ↦[(vkV 1).view.set]{fullShare} f1)) : sProp 𝕄)
      ⊢ (((c : Thread nD τ).loc cc0_scratch1) ↦[(vkV 0).view.set ∪ (vkV 1).view.set]{fullShare}
          ((vkV 1).view.set.piecewise f1 f0)) := pointsTo_join disj_k
  rw [← cover_k] at h
  exact h.trans (exists_intro (Φ := fun g => (((c : Thread nD τ).loc cc0_scratch1) ↦{fullShare} g : sProp 𝕄)) _)

theorem split_s (c : Dev nD) (f : Buf (Elt F) ((c : Thread nD τ).loc cc0_scratch2)) :
    (((c : Thread nD τ).loc cc0_scratch2) ↦{fullShare} f : sProp 𝕄)
      ⊣⊢ iprop(((vsV 0).view.loc (c : Thread nD τ) ↦[(vsV 0).view.set]{fullShare} f)
          ∗ ((vsV 1).view.loc (c : Thread nD τ) ↦[(vsV 1).view.set]{fullShare} f)) := by
  have h : (((c : Thread nD τ).loc cc0_scratch2) ↦[(vsV 0).view.set ∪ (vsV 1).view.set]{fullShare} f : sProp 𝕄)
      ⊣⊢ iprop((((c : Thread nD τ).loc cc0_scratch2) ↦[(vsV 0).view.set]{fullShare} f)
          ∗ (((c : Thread nD τ).loc cc0_scratch2) ↦[(vsV 1).view.set]{fullShare} f)) := pointsTo_union disj_s
  rw [← cover_s] at h
  exact h

theorem join_s (c : Dev nD) (f0 f1 : Buf (Elt F) ((c : Thread nD τ).loc cc0_scratch2)) :
    (iprop(((vsV 0).view.loc (c : Thread nD τ) ↦[(vsV 0).view.set]{fullShare} f0)
          ∗ ((vsV 1).view.loc (c : Thread nD τ) ↦[(vsV 1).view.set]{fullShare} f1)) : sProp 𝕄)
      ⊢ iprop(∃ g, ((c : Thread nD τ).loc cc0_scratch2) ↦{fullShare} g) := by
  have h : (iprop((((c : Thread nD τ).loc cc0_scratch2) ↦[(vsV 0).view.set]{fullShare} f0)
          ∗ (((c : Thread nD τ).loc cc0_scratch2) ↦[(vsV 1).view.set]{fullShare} f1)) : sProp 𝕄)
      ⊢ (((c : Thread nD τ).loc cc0_scratch2) ↦[(vsV 0).view.set ∪ (vsV 1).view.set]{fullShare}
          ((vsV 1).view.set.piecewise f1 f0)) := pointsTo_join disj_s
  rw [← cover_s] at h
  exact h.trans (exists_intro (Φ := fun g => (((c : Thread nD τ).loc cc0_scratch2) ↦{fullShare} g : sProp 𝕄)) _)

/-! ## The vector loads and stores of a slot stay inside the slot -/

theorem inb_ld (s a : Fin 2) : ∀ b, (![s.val, 0, 1024 * a.val] : Fin 3 → Nat) b + S1x1024x1024.size b ≤ S2x1024x2048.size b := by
  revert s a; decide

/-- Either half of an input slot's columns lies in the slot. -/
theorem load_in_sub (s a : Fin 2) :
    (Memref.whole cc0_scratch0 : Memref sig .tc .vmem S2x1024x2048 .f32).view.setOn
        (Rect.unit (s := S2x1024x2048) ![s.val, 0, 1024 * a.val] S1x1024x1024.size (inb_ld s a)).toLoadRect.set
      ⊆ (vinV s).view.set := by
  rw [vinV_set]
  show Finset.map (Function.Embedding.refl _)
      (Rect.unit (s := S2x1024x2048) ![s.val, 0, 1024 * a.val] S1x1024x1024.size (inb_ld s a)).set ⊆ _
  rw [Finset.map_refl]
  have ha := a.isLt
  refine Rect.set_subset_of_span _ _ (fun _ => rfl) fun b => ?_
  match b with
  | ⟨0, _⟩ => show s.val ≤ s.val ∧ s.val + 1 * 1 ≤ s.val + 1 + (1 - 1); omega
  | ⟨1, _⟩ => show 0 ≤ 0 ∧ 0 + 1 * 1024 ≤ 0 + 1024 + (1 - 1); omega
  | ⟨2, _⟩ => show 0 ≤ 1024 * a.val ∧ 1024 * a.val + 1 * 1024 ≤ 0 + 2048 + (1 - 1); omega

/-- A keep or send slot is read and written whole. -/
theorem load_k_sub (s : Fin 2) :
    (Memref.whole cc0_scratch1 : Memref sig .tc .vmem S2x1024x1024 .f32).view.setOn
        (Rect.unit (s := S2x1024x1024) ![s.val, 0, 0] S1x1024x1024.size (inb_vh s)).toLoadRect.set
      ⊆ (vkV s).view.set := by
  rw [vkV_set]
  show Finset.map (Function.Embedding.refl _)
      (Rect.unit (s := S2x1024x1024) ![s.val, 0, 0] S1x1024x1024.size (inb_vh s)).set ⊆ _
  rw [Finset.map_refl]

theorem load_s_sub (s : Fin 2) :
    (Memref.whole cc0_scratch2 : Memref sig .tc .vmem S2x1024x1024 .f32).view.setOn
        (Rect.unit (s := S2x1024x1024) ![s.val, 0, 0] S1x1024x1024.size (inb_vh s)).toLoadRect.set
      ⊆ (vsV s).view.set := by
  rw [vsV_set]
  show Finset.map (Function.Embedding.refl _)
      (Rect.unit (s := S2x1024x1024) ![s.val, 0, 0] S1x1024x1024.size (inb_vh s)).set ⊆ _
  rw [Finset.map_refl]

theorem store_k_sub (s : Fin 2) :
    ((Memref.whole cc0_scratch1 : Memref sig .tc .vmem S2x1024x1024 .f32).access
        (Rect.unit (s := S2x1024x1024) ![s.val, 0, 0] S1x1024x1024.size (inb_vh s))).setOn Finset.univ
      ⊆ (vkV s).view.set := by
  rw [vkV_set, View.setOn_univ]
  exact (View.set_slice_whole cc0_scratch1 _).subset

theorem store_s_sub (s : Fin 2) :
    ((Memref.whole cc0_scratch2 : Memref sig .tc .vmem S2x1024x1024 .f32).access
        (Rect.unit (s := S2x1024x1024) ![s.val, 0, 0] S1x1024x1024.size (inb_vh s))).setOn Finset.univ
      ⊆ (vsV s).view.set := by
  rw [vsV_set, View.setOn_univ]
  exact (View.set_slice_whole cc0_scratch2 _).subset

/-- At a literal slot and half the generic rectangles are the printed ones. -/
example :
    (Rect.unit (s := S2x1024x2048) ![(1 : Fin 2).val, 0, 1024 * (1 : Fin 2).val] S1x1024x1024.size (inb_ld 1 1))
      = Rect.unit (s := S2x1024x2048) ![1, 0, 1024] S1x1024x1024.size inb_S2x1024x2048_S1x1024x1024_1_0_1024 := rfl
example :
    (Rect.unit (s := S2x1024x1024) ![(1 : Fin 2).val, 0, 0] S1x1024x1024.size (inb_vh 1))
      = Rect.unit (s := S2x1024x1024) ![1, 0, 0] S1x1024x1024.size inb_S2x1024x1024_S1x1024x1024_1_0_0 := rfl

/-- info: 'Cert.KernelIdeal.A2A.split_o' depends on axioms: [propext, Classical.choice, Quot.sound] -/
#guard_msgs in #print axioms split_o

end Cert.KernelIdeal.A2A

end
-- ==== Proof.Values.lean ====
/-
  The values of the all-to-all: what lands in a device's result rows is the final contents there.

  Chunk i of device c's argument goes through input slot (i mod 2); the half at the column offset of c's own x
  coordinate is stored into the keep slot and copied into rows 16384 (c/16) + 1024 i of c's own result, the other
  half goes through the send slot into the same rows of the peer's result.  Each step moves an element to a place
  whose coordinates are sums of offsets, so a result element, followed back, is one element of an argument block:
  the one the final contents name.
-/
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.KernelIdeal.Skeleton
import proofs.«900648_g7700000000000649_dist_a2a_v7x_xyz2x4x4_x_m16384_n1024_f32_1_alg».proof.Proof.Gen.KernelIdeal.Launch
import proofs.«900648_g7700000000000649_dist_a2a_v7x_xyz2x4x4_x_m16384_n1024_f32_1_alg».proof.Proof.Gen.KernelIdeal.Points
import proofs.«900648_g7700000000000649_dist_a2a_v7x_xyz2x4x4_x_m16384_n1024_f32_1_alg».proof.Proof.BlockIdx
import proofs.«900648_g7700000000000649_dist_a2a_v7x_xyz2x4x4_x_m16384_n1024_f32_1_alg».proof.Proof.Proto
import Idealize.ShloMosaic.Lib.Pipeline.Launch
import Idealize.ShloMosaic.Lib.Pipeline.Kit
import Idealize.ShloMosaic.Lib.Pipeline.Value
import Idealize.ShloMosaic.Lib.ValueLayout
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The payload every store writes is the loaded half itself: the reshape to 1024 x 1024 and back moves nothing. -/
theorem payId_eq (v : Vec F S1x1024x1024 .f32) : payId v = v :=
  shapeCast_shapeCast v _ _

/-! ## Where each view puts its coordinates -/

/-- Input slot s holds (r, q) at (s, r, q). -/
theorem emb_vin (s : Fin 2) (r : Fin 1024) (q : Fin 2048) :
    (vinV s).view.emb (ix2 r q) = (ix3 s r q : S2x1024x2048.Idx) := by
  have h1 : (vinV s).view.emb (ix2 r q)
      = (Rect.unit (s := S2x1024x2048) ![s.val, 0, 0] S1x1024x2048.size (inb_vin s)).emb
          (Shape.reshapeEquiv (s := S1x1024x2048) (s' := S1024x2048) squeezes_S1x1024x2048_S1024x2048.numel_eq (ix2 r q)) := rfl
  rw [h1, reshapeEquiv_ix2_1ab]
  funext a; apply Fin.ext; rw [Rect.emb_apply]
  match a with
  | ⟨0, _⟩ => show s.val + 1 * 0 = s.val; omega
  | ⟨1, _⟩ => show 0 + 1 * r.val = r.val; omega
  | ⟨2, _⟩ => show 0 + 1 * q.val = q.val; omega

/-- Keep slot s and send slot s hold (r, q) at (s, r, q). -/
theorem emb_vk (s : Fin 2) (r q : Fin 1024) :
    (vkV s).view.emb (ix2 r q) = (ix3 s r q : S2x1024x1024.Idx) := by
  have h1 : (vkV s).view.emb (ix2 r q)
      = (Rect.unit (s := S2x1024x1024) ![s.val, 0, 0] S1x1024x1024.size (inb_vh s)).emb
          (Shape.reshapeEquiv (s := S1x1024x1024) (s' := S1024x1024) squeezes_S1x1024x1024_S1024x1024.numel_eq (ix2 r q)) := rfl
  rw [h1, reshapeEquiv_ix2_1ab]
  funext a; apply Fin.ext; rw [Rect.emb_apply]
  match a with
  | ⟨0, _⟩ => show s.val + 1 * 0 = s.val; omega
  | ⟨1, _⟩ => show 0 + 1 * r.val = r.val; omega
  | ⟨2, _⟩ => show 0 + 1 * q.val = q.val; omega

theorem emb_vs (s : Fin 2) (r q : Fin 1024) :
    (vsV s).view.emb (ix2 r q) = (ix3 s r q : S2x1024x1024.Idx) := by
  have h1 : (vsV s).view.emb (ix2 r q)
      = (Rect.unit (s := S2x1024x1024) ![s.val, 0, 0] S1x1024x1024.size (inb_vh s)).emb
          (Shape.reshapeEquiv (s := S1x1024x1024) (s' := S1024x1024) squeezes_S1x1024x1024_S1024x1024.numel_eq (ix2 r q)) := rfl
  rw [h1, reshapeEquiv_ix2_1ab]
  funext a; apply Fin.ext; rw [Rect.emb_apply]
  match a with
  | ⟨0, _⟩ => show s.val + 1 * 0 = s.val; omega
  | ⟨1, _⟩ => show 0 + 1 * r.val = r.val; omega
  | ⟨2, _⟩ => show 0 + 1 * q.val = q.val; omega

/-- Chunk i of the argument holds (r, q) at row 1024 i + r. -/
theorem emb_x (i : Fin 16) (r : Fin 1024) (q : Fin 2048) :
    (xV i).view.emb (ix2 r q)
      = (ix2 (⟨1024 * i.val + r.val, by have := i.isLt; have := r.isLt; omega⟩ : Fin 16384) q : S16384x2048.Idx) := by
  have h1 : (xV i).view.emb (ix2 r q)
      = (Rect.unit (s := S16384x2048) ![1024 * i.val, 0] S1024x2048.size (inb_x i)).emb (ix2 r q) := rfl
  rw [h1]
  funext a; apply Fin.ext; rw [Rect.emb_apply]
  match a with
  | ⟨0, _⟩ => show 1024 * i.val + 1 * r.val = 1024 * i.val + r.val; omega
  | ⟨1, _⟩ => show 0 + 1 * q.val = q.val; omega

/-- The result rows of chunk i from device c hold (r, q) at row 16384 (c / 16) + 1024 i + r. -/
theorem emb_o (c : Dev nD) (i : Fin 16) (r q : Fin 1024) :
    (oVd c i).view.emb (ix2 r q)
      = (ix2 (⟨16384 * (c.val / 16) + 1024 * i.val + r.val,
              by have h : c.val / 16 < 2 := xc_lt c; have := i.isLt; have := r.isLt; omega⟩ : Fin 32768) q : S32768x1024.Idx) := by
  have h1 : (oVd c i).view.emb (ix2 r q)
      = (Rect.unit (s := S32768x1024) (k0_off1 c (BitVec.ofNat 32 (1024 * i.val))) S1024x1024.size (k0_off1_inb c i)).emb (ix2 r q) := rfl
  rw [h1]
  funext a; apply Fin.ext; rw [Rect.emb_apply]
  show (k0_off1 c (BitVec.ofNat 32 (1024 * i.val))) a + 1 * ((ix2 r q : S1024x1024.Idx) a).val = _
  rw [k0_off1_eq]
  match a with
  | ⟨0, _⟩ => show 16384 * (c.val / 16) + 1024 * i.val + 1 * r.val = 16384 * (c.val / 16) + 1024 * i.val + r.val; omega
  | ⟨1, _⟩ => show 0 + 1 * q.val = q.val; omega

/-- A store through the whole of keep or send slot s puts (0, r, q) at (s, r, q). -/
theorem emb_rH1 (s : Fin 2) (r q : Fin 1024) :
    ((Memref.whole cc0_scratch1 : Memref sig .tc .vmem S2x1024x1024 .f32).access (rH s)).emb (ix3 (⟨0, Nat.one_pos⟩ : Fin 1) r q)
      = (ix3 s r q : S2x1024x1024.Idx) := by
  have h1 : ((Memref.whole cc0_scratch1 : Memref sig .tc .vmem S2x1024x1024 .f32).access (rH s)).emb (ix3 (⟨0, Nat.one_pos⟩ : Fin 1) r q)
      = (rH s).emb (ix3 (⟨0, Nat.one_pos⟩ : Fin 1) r q) := rfl
  rw [h1]
  funext a; apply Fin.ext; rw [Rect.emb_apply]
  match a with
  | ⟨0, _⟩ => show s.val + 1 * 0 = s.val; omega
  | ⟨1, _⟩ => show 0 + 1 * r.val = r.val; omega
  | ⟨2, _⟩ => show 0 + 1 * q.val = q.val; omega

theorem emb_rH2 (s : Fin 2) (r q : Fin 1024) :
    ((Memref.whole cc0_scratch2 : Memref sig .tc .vmem S2x1024x1024 .f32).access (rH s)).emb (ix3 (⟨0, Nat.one_pos⟩ : Fin 1) r q)
      = (ix3 s r q : S2x1024x1024.Idx) := by
  have h1 : ((Memref.whole cc0_scratch2 : Memref sig .tc .vmem S2x1024x1024 .f32).access (rH s)).emb (ix3 (⟨0, Nat.one_pos⟩ : Fin 1) r q)
      = (rH s).emb (ix3 (⟨0, Nat.one_pos⟩ : Fin 1) r q) := rfl
  rw [h1]
  funext a; apply Fin.ext; rw [Rect.emb_apply]
  match a with
  | ⟨0, _⟩ => show s.val + 1 * 0 = s.val; omega
  | ⟨1, _⟩ => show 0 + 1 * r.val = r.val; omega
  | ⟨2, _⟩ => show 0 + 1 * q.val = q.val; omega

/-- A load of the half of input slot s at column offset 1024 a reads (0, r, q) at (s, r, 1024 a + q). -/
theorem idx_in (s a : Fin 2) (r q : Fin 1024) :
    (rIn s a).toLoadRect.idx (ix3 (⟨0, Nat.one_pos⟩ : Fin 1) r q)
      = (ix3 s r (⟨1024 * a.val + q.val, by have := a.isLt; have := q.isLt; omega⟩ : Fin 2048) : S2x1024x2048.Idx) := by
  funext b; apply Fin.ext; rw [LoadRect.idx_apply]
  match b with
  | ⟨0, _⟩ => show s.val + 1 * 0 = s.val; omega
  | ⟨1, _⟩ => show 0 + 1 * r.val = r.val; omega
  | ⟨2, _⟩ => show 1024 * a.val + 1 * q.val = 1024 * a.val + q.val; omega

/-! ## The buffers, element by element -/

/-- Input slot s, after chunk i has been copied into it, holds the chunk. -/
theorem vin_after_apply (c : Dev nD) (s : Fin 2) (i : Fin 16) (fd : Buf (Elt F) ((vinV s).view.loc (c : Thread nD τ)))
    (r : Fin 1024) (q : Fin 2048) :
    (vinV s).view.write (Elt F) fd ((xV i).view.read (Elt F) (Xa m c)) Finset.univ (ix3 s r q : S2x1024x2048.Idx)
      = Xa m c (ix2 (⟨1024 * i.val + r.val, by have := i.isLt; have := r.isLt; omega⟩ : Fin 16384) q : S16384x2048.Idx) := by
  rw [← emb_vin s r q, View.write_emb_of_mem _ _ (Finset.mem_univ _), View.read_apply, emb_x i r q, cast_cast]
  exact cast_eq _ _

/-- The keep slot, after the half at column offset 1024 a of input slot s has been stored into it, holds that half. -/
theorem vk_after_apply (c : Dev nD) (s a : Fin 2) (g : Buf (Elt F) ((c : Thread nD τ).loc cc0_scratch1))
    (fin : Buf (Elt F) ((c : Thread nD τ).loc cc0_scratch0)) (r q : Fin 1024) :
    ((Memref.whole cc0_scratch1 : Memref sig .tc .vmem S2x1024x1024 .f32).access (rH s)).write (Elt F) g
        (payId ((Memref.whole cc0_scratch0 : Memref sig .tc .vmem S2x1024x2048 .f32).view.readAt (Elt F) (rIn s a).toLoadRect fin)) Finset.univ
        (ix3 s r q : S2x1024x1024.Idx)
      = fin (ix3 s r (⟨1024 * a.val + q.val, by have := a.isLt; have := q.isLt; omega⟩ : Fin 2048) : S2x1024x2048.Idx) := by
  rw [← emb_rH1 s r q, View.write_emb_of_mem _ _ (Finset.mem_univ _), payId_eq, View.readAt_apply, View.read_apply, idx_in s a r q, cast_cast]
  exact cast_eq _ _

/-- The send slot likewise. -/
theorem vs_after_apply (c : Dev nD) (s a : Fin 2) (g : Buf (Elt F) ((c : Thread nD τ).loc cc0_scratch2))
    (fin : Buf (Elt F) ((c : Thread nD τ).loc cc0_scratch0)) (r q : Fin 1024) :
    ((Memref.whole cc0_scratch2 : Memref sig .tc .vmem S2x1024x1024 .f32).access (rH s)).write (Elt F) g
        (payId ((Memref.whole cc0_scratch0 : Memref sig .tc .vmem S2x1024x2048 .f32).view.readAt (Elt F) (rIn s a).toLoadRect fin)) Finset.univ
        (ix3 s r q : S2x1024x1024.Idx)
      = fin (ix3 s r (⟨1024 * a.val + q.val, by have := a.isLt; have := q.isLt; omega⟩ : Fin 2048) : S2x1024x2048.Idx) := by
  rw [← emb_rH2 s r q, View.write_emb_of_mem _ _ (Finset.mem_univ _), payId_eq, View.readAt_apply, View.read_apply, idx_in s a r q, cast_cast]
  exact cast_eq _ _

/-- Reading keep slot s, and send slot s, as a 1024 x 1024 block. -/
theorem vk_read_apply (c : Dev nD) (s : Fin 2) (K : Buf (Elt F) ((c : Thread nD τ).loc cc0_scratch1)) (r q : Fin 1024) :
    (vkV s).view.read (Elt F) K (ix2 r q) = K (ix3 s r q : S2x1024x1024.Idx) := by
  rw [View.read_apply, emb_vk s r q]
  exact cast_eq _ _

theorem vs_read_apply (c : Dev nD) (s : Fin 2) (K : Buf (Elt F) ((c : Thread nD τ).loc cc0_scratch2)) (r q : Fin 1024) :
    (vsV s).view.read (Elt F) K (ix2 r q) = K (ix3 s r q : S2x1024x1024.Idx) := by
  rw [View.read_apply, emb_vs s r q]
  exact cast_eq _ _

/-! ## What lands in the result rows -/

/-- The final contents of device c's result at a row of its own half: its own argument block there. -/
theorem outK_own (c : Dev nD) (i : Fin 16) (r q : Fin 1024) :
    outK m c (ix2 (⟨16384 * (c.val / 16) + 1024 * i.val + r.val,
              by have h : c.val / 16 < 2 := xc_lt c; have := i.isLt; have := r.isLt; omega⟩ : Fin 32768) q : S32768x1024.Idx)
      = Xa m c (ix2 (⟨1024 * i.val + r.val, by have := i.isLt; have := r.isLt; omega⟩ : Fin 16384)
          (⟨1024 * (xf c).val + q.val, by have := (xf c).isLt; have := q.isLt; omega⟩ : Fin 2048) : S16384x2048.Idx) := by
  have hc : c.val / 16 < 2 := xc_lt c
  have hi := i.isLt
  have hr := r.isLt
  have hq := q.isLt
  unfold outK
  rw [Cert.A2A.outOf_of_eq _ _ _ (by show (16384 * (c.val / 16) + 1024 * i.val + r.val) / 16384 = c.val / 16; omega)]
  congr 1
  funext a; apply Fin.ext
  match a with
  | ⟨0, _⟩ => show (16384 * (c.val / 16) + 1024 * i.val + r.val) % 16384 = 1024 * i.val + r.val; omega
  | ⟨1, _⟩ => show (1024 * (c.val / 16) + q.val) % 2048 = 1024 * (c.val / 16) + q.val; omega

/-- The final contents of the peer's result at a row of device c's half: device c's argument block there, at the
    peer's columns. -/
theorem outK_peer (c : Dev nD) (i : Fin 16) (r q : Fin 1024) :
    outK m (peer c) (ix2 (⟨16384 * (c.val / 16) + 1024 * i.val + r.val,
              by have h : c.val / 16 < 2 := xc_lt c; have := i.isLt; have := r.isLt; omega⟩ : Fin 32768) q : S32768x1024.Idx)
      = Xa m c (ix2 (⟨1024 * i.val + r.val, by have := i.isLt; have := r.isLt; omega⟩ : Fin 16384)
          (⟨1024 * (xf (peer c)).val + q.val, by have := (xf (peer c)).isLt; have := q.isLt; omega⟩ : Fin 2048) : S16384x2048.Idx) := by
  have hc : c.val / 16 < 2 := xc_lt c
  have hp : (peer c).val / 16 = 1 - c.val / 16 := xc_peer c
  have hi := i.isLt
  have hr := r.isLt
  have hq := q.isLt
  have hback : ∀ (d : Dev nD), d = c → ∀ x : S16384x2048.Idx, Xa m d x = Xa m c x := by
    rintro _ rfl x; rfl
  unfold outK
  rw [Cert.A2A.outOf_of_ne _ _ _ (by show (16384 * (c.val / 16) + 1024 * i.val + r.val) / 16384 ≠ (peer c).val / 16; omega),
    hback _ (peer_peer c)]
  congr 1
  funext a; apply Fin.ext
  match a with
  | ⟨0, _⟩ => show (16384 * (c.val / 16) + 1024 * i.val + r.val) % 16384 = 1024 * i.val + r.val; omega
  | ⟨1, _⟩ => show (1024 * ((peer c).val / 16) + q.val) % 2048 = 1024 * ((peer c).val / 16) + q.val; omega

theorem keep_value (c : Dev nD) (i : Fin 16) (fo : Buf (Elt F) ((oVd c i).view.loc (c : Thread nD τ)))
    (g : Buf (Elt F) ((c : Thread nD τ).loc cc0_scratch1)) (fd : Buf (Elt F) ((vinV (slot i)).view.loc (c : Thread nD τ))) :
    ∀ j ∈ (oVd c i).view.set,
      (oVd c i).view.write (Elt F) fo ((vkV (slot i)).view.read (Elt F) (vkAfter c i g (vinAfter m c i fd))) Finset.univ j
        = outK m c j := by
  intro j hj
  obtain ⟨x, rfl⟩ := View.exists_emb_of_mem_set _ hj
  obtain ⟨r, q, rfl⟩ : ∃ r q, x = ix2 r q := ⟨x 0, x 1, eq_ix2 x⟩
  rw [View.write_emb_of_mem _ _ (Finset.mem_univ _), vk_read_apply c,
    show vkAfter c i g (vinAfter m c i fd) (ix3 (slot i) r q : S2x1024x1024.Idx) = _ from
      vk_after_apply c (slot i) (xf c) g (vinAfter m c i fd) r q,
    show vinAfter m c i fd (ix3 (slot i) r _ : S2x1024x2048.Idx) = _ from vin_after_apply m c (slot i) i fd r _,
    emb_o c i r q, outK_own m c i r q]
  exact cast_eq _ _

theorem send_value (c : Dev nD) (i : Fin 16) (fo : Buf (Elt F) ((oVd c i).view.loc (peer c : Thread nD τ)))
    (g : Buf (Elt F) ((c : Thread nD τ).loc cc0_scratch2)) (fd : Buf (Elt F) ((vinV (slot i)).view.loc (c : Thread nD τ))) :
    ∀ j ∈ (oVd c i).view.set,
      (oVd c i).view.write (Elt F) fo ((vsV (slot i)).view.read (Elt F) (vsAfter c i g (vinAfter m c i fd))) Finset.univ j
        = outK m (peer c) j := by
  intro j hj
  obtain ⟨x, rfl⟩ := View.exists_emb_of_mem_set _ hj
  obtain ⟨r, q, rfl⟩ : ∃ r q, x = ix2 r q := ⟨x 0, x 1, eq_ix2 x⟩
  rw [View.write_emb_of_mem _ _ (Finset.mem_univ _), vs_read_apply c,
    show vsAfter c i g (vinAfter m c i fd) (ix3 (slot i) r q : S2x1024x1024.Idx) = _ from
      vs_after_apply c (slot i) (xf (peer c)) g (vinAfter m c i fd) r q,
    show vinAfter m c i fd (ix3 (slot i) r _ : S2x1024x2048.Idx) = _ from vin_after_apply m c (slot i) i fd r _,
    emb_o c i r q, outK_peer m c i r q]
  exact cast_eq _ _

theorem keep_landed (c : Dev nD) (i : Fin 16) (fo : Buf (Elt F) ((oVd c i).view.loc (c : Thread nD τ)))
    (g : Buf (Elt F) ((c : Thread nD τ).loc cc0_scratch1)) (fd : Buf (Elt F) ((vinV (slot i)).view.loc (c : Thread nD τ))) :
    (((oVd c i).view.loc (c : Thread nD τ) ↦[(oVd c i).view.set]{fullShare}
        ((oVd c i).view.write (Elt F) fo ((vkV (slot i)).view.read (Elt F) (vkAfter c i g (vinAfter m c i fd))) Finset.univ)) : sProp 𝕄)
      = ((oVd c i).view.loc (c : Thread nD τ) ↦[(oVd c i).view.set]{fullShare} outK m c) :=
  pointsTo_congr (keep_value m c i fo g fd)

theorem send_landed (c : Dev nD) (i : Fin 16) (fo : Buf (Elt F) ((oVd c i).view.loc (peer c : Thread nD τ)))
    (g : Buf (Elt F) ((c : Thread nD τ).loc cc0_scratch2)) (fd : Buf (Elt F) ((vinV (slot i)).view.loc (c : Thread nD τ))) :
    (((oVd c i).view.loc (peer c : Thread nD τ) ↦[(oVd c i).view.set]{fullShare}
        ((oVd c i).view.write (Elt F) fo ((vsV (slot i)).view.read (Elt F) (vsAfter c i g (vinAfter m c i fd))) Finset.univ)) : sProp 𝕄)
      = ((oVd c i).view.loc (peer c : Thread nD τ) ↦[(oVd c i).view.set]{fullShare} outK m (peer c)) :=
  pointsTo_congr (send_value m c i fo g fd)

/-- The printed payloads are that payload. -/
theorem pay_congr1 : (Cert.KernelIdeal.Gen.k0_pay7 (F := F)) = payId := rfl
theorem pay_congr2 : (Cert.KernelIdeal.Gen.k0_pay8 (F := F)) = payId := rfl

/-- info: 'Cert.KernelIdeal.A2A.keep_landed' depends on axioms: [propext, Classical.choice, Quot.sound] -/
#guard_msgs in #print axioms keep_landed
/-- info: 'Cert.KernelIdeal.A2A.send_landed' depends on axioms: [propext, Classical.choice, Quot.sound] -/
#guard_msgs in #print axioms send_landed

end Cert.KernelIdeal.A2A

end
-- ==== Proof.OpsLocal.lean ====
/-
  The local operations of the kernel body — the vector loads and stores of a slot, the input copy of a chunk and its
  wait, the keep copy of a chunk and its wait — as instances of the library's rules at the protocol's cells and views,
  each in the form "what is held ⊢ (what comes back -∗ the rest of the program) -∗ the operation and the rest".
-/
import proofs.«900648_g7700000000000649_dist_a2a_v7x_xyz2x4x4_x_m16384_n1024_f32_1_alg».proof.Proof.State
import proofs.«900648_g7700000000000649_dist_a2a_v7x_xyz2x4x4_x_m16384_n1024_f32_1_alg».proof.Proof.Tiles
import proofs.«900648_g7700000000000649_dist_a2a_v7x_xyz2x4x4_x_m16384_n1024_f32_1_alg».proof.Proof.Values
import proofs.«900648_g7700000000000649_dist_a2a_v7x_xyz2x4x4_x_m16384_n1024_f32_1_alg».proof.Proof.Sched
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × SemLoc sig → ℕ)

/-! ## Credits: a view's credit is its shape's -/

theorem vin_credit (s : Fin 2) : (vinV s).view.dmaCredit = Nin := rfl
theorem vk_credit (s : Fin 2) : (vkV s).view.dmaCredit = Nh := rfl
theorem vs_credit (s : Fin 2) : (vsV s).view.dmaCredit = Nh := rfl
theorem oVd_credit (c : Dev nD) (i : Fin 16) : (oVd c i).view.dmaCredit = Nh := rfl
theorem oVa_credit (a : Fin 2) (i : Fin 16) : (oVa a i).view.dmaCredit = Nh := rfl

/-! ## Vector loads and stores -/

theorem wp_ld_in (c : Dev nD) (s a : Fin 2)
    {hl : (Memref.whole cc0_scratch0 : Memref sig .tc .vmem S2x1024x2048 .f32).view.LoadsAt (rIn s a).toLoadRect}
    {α : Type} {Q : α → sProp 𝕄} {k : ((rIn s a).toLoadRect.shape.Idx → Elt F .f32) → Prog (TpuEff nD τ sig (Elt F) Λ₀ .tc) α}
    (f : Buf (Elt F) ((c : Thread nD τ).loc cc0_scratch0)) :
    (((c : Thread nD τ).loc cc0_scratch0) ↦[(vinV s).view.set]{fullShare} f : sProp 𝕄)
      ⊢ iprop(((((c : Thread nD τ).loc cc0_scratch0) ↦[(vinV s).view.set]{fullShare} f)
              -∗ wp frame (wpE (defs₀ (F := F)) 𝒱₀ (c : Thread nD τ) none) Set.univ (k ((Memref.whole cc0_scratch0 : Memref sig .tc .vmem S2x1024x2048 .f32).view.readAt (Elt F) (rIn s a).toLoadRect f)) Q)
          -∗ wp frame (wpE (defs₀ (F := F)) 𝒱₀ (c : Thread nD τ) none) Set.univ (.op (.load (Memref.whole cc0_scratch0 : Memref sig .tc .vmem S2x1024x2048 .f32) (rIn s a).toLoadRect hl) k) Q) :=
  wp_load (defs := defs₀ (F := F)) 𝒱₀ (c : Thread nD τ) none (Γ := .empty) Set.univ
    (m := (Memref.whole cc0_scratch0 : Memref sig .tc .vmem S2x1024x2048 .f32)) (r := (rIn s a).toLoadRect) (hl := hl) (k := k)
    (S := (vinV s).view.set) (q := fullShare) (f := f) (Q := Q) (load_in_sub s a)

theorem wp_ld_k (c : Dev nD) (s : Fin 2)
    {hl : (Memref.whole cc0_scratch1 : Memref sig .tc .vmem S2x1024x1024 .f32).view.LoadsAt (rH s).toLoadRect}
    {α : Type} {Q : α → sProp 𝕄} {k : ((rH s).toLoadRect.shape.Idx → Elt F .f32) → Prog (TpuEff nD τ sig (Elt F) Λ₀ .tc) α}
    (f : Buf (Elt F) ((c : Thread nD τ).loc cc0_scratch1)) :
    (((c : Thread nD τ).loc cc0_scratch1) ↦[(vkV s).view.set]{fullShare} f : sProp 𝕄)
      ⊢ iprop(((((c : Thread nD τ).loc cc0_scratch1) ↦[(vkV s).view.set]{fullShare} f)
              -∗ wp frame (wpE (defs₀ (F := F)) 𝒱₀ (c : Thread nD τ) none) Set.univ (k ((Memref.whole cc0_scratch1 : Memref sig .tc .vmem S2x1024x1024 .f32).view.readAt (Elt F) (rH s).toLoadRect f)) Q)
          -∗ wp frame (wpE (defs₀ (F := F)) 𝒱₀ (c : Thread nD τ) none) Set.univ (.op (.load (Memref.whole cc0_scratch1 : Memref sig .tc .vmem S2x1024x1024 .f32) (rH s).toLoadRect hl) k) Q) :=
  wp_load (defs := defs₀ (F := F)) 𝒱₀ (c : Thread nD τ) none (Γ := .empty) Set.univ
    (m := (Memref.whole cc0_scratch1 : Memref sig .tc .vmem S2x1024x1024 .f32)) (r := (rH s).toLoadRect) (hl := hl) (k := k)
    (S := (vkV s).view.set) (q := fullShare) (f := f) (Q := Q) (load_k_sub s)

theorem wp_ld_s (c : Dev nD) (s : Fin 2)
    {hl : (Memref.whole cc0_scratch2 : Memref sig .tc .vmem S2x1024x1024 .f32).view.LoadsAt (rH s).toLoadRect}
    {α : Type} {Q : α → sProp 𝕄} {k : ((rH s).toLoadRect.shape.Idx → Elt F .f32) → Prog (TpuEff nD τ sig (Elt F) Λ₀ .tc) α}
    (f : Buf (Elt F) ((c : Thread nD τ).loc cc0_scratch2)) :
    (((c : Thread nD τ).loc cc0_scratch2) ↦[(vsV s).view.set]{fullShare} f : sProp 𝕄)
      ⊢ iprop(((((c : Thread nD τ).loc cc0_scratch2) ↦[(vsV s).view.set]{fullShare} f)
              -∗ wp frame (wpE (defs₀ (F := F)) 𝒱₀ (c : Thread nD τ) none) Set.univ (k ((Memref.whole cc0_scratch2 : Memref sig .tc .vmem S2x1024x1024 .f32).view.readAt (Elt F) (rH s).toLoadRect f)) Q)
          -∗ wp frame (wpE (defs₀ (F := F)) 𝒱₀ (c : Thread nD τ) none) Set.univ (.op (.load (Memref.whole cc0_scratch2 : Memref sig .tc .vmem S2x1024x1024 .f32) (rH s).toLoadRect hl) k) Q) :=
  wp_load (defs := defs₀ (F := F)) 𝒱₀ (c : Thread nD τ) none (Γ := .empty) Set.univ
    (m := (Memref.whole cc0_scratch2 : Memref sig .tc .vmem S2x1024x1024 .f32)) (r := (rH s).toLoadRect) (hl := hl) (k := k)
    (S := (vsV s).view.set) (q := fullShare) (f := f) (Q := Q) (load_s_sub s)

theorem wp_st_k (c : Dev nD) (s : Fin 2)
    {hx : ((Memref.whole cc0_scratch1 : Memref sig .tc .vmem S2x1024x1024 .f32).access (rH s)).Stores Finset.univ}
    {hm : (Finset.univ : Finset (rH s).shape.Idx) = Finset.univ ∨ ∀ a, (rH s).stride a = 1}
    {α : Type} {Q : α → sProp 𝕄} {k : PUnit → Prog (TpuEff nD τ sig (Elt F) Λ₀ .tc) α}
    (f : Buf (Elt F) ((c : Thread nD τ).loc cc0_scratch1)) (w : (rH s).shape.Idx → Elt F .f32) :
    (((c : Thread nD τ).loc cc0_scratch1) ↦[(vkV s).view.set]{fullShare} f : sProp 𝕄)
      ⊢ iprop(((((c : Thread nD τ).loc cc0_scratch1) ↦[(vkV s).view.set]{fullShare}
                ((Memref.whole cc0_scratch1 : Memref sig .tc .vmem S2x1024x1024 .f32).access (rH s)).write (Elt F) f w Finset.univ)
              -∗ wp frame (wpE (defs₀ (F := F)) 𝒱₀ (c : Thread nD τ) none) Set.univ (k ⟨⟩) Q)
          -∗ wp frame (wpE (defs₀ (F := F)) 𝒱₀ (c : Thread nD τ) none) Set.univ (.op (.store (Memref.whole cc0_scratch1 : Memref sig .tc .vmem S2x1024x1024 .f32) (rH s) w Finset.univ hx hm) k) Q) :=
  wp_store (defs := defs₀ (F := F)) 𝒱₀ (c : Thread nD τ) none (Γ := .empty) Set.univ
    (m := (Memref.whole cc0_scratch1 : Memref sig .tc .vmem S2x1024x1024 .f32)) (r := rH s) (w := w) (Mk := Finset.univ) (hx := hx) (hm := hm) (k := k)
    (S := (vkV s).view.set) (f := f) (Q := Q) (store_k_sub s)

theorem wp_st_s (c : Dev nD) (s : Fin 2)
    {hx : ((Memref.whole cc0_scratch2 : Memref sig .tc .vmem S2x1024x1024 .f32).access (rH s)).Stores Finset.univ}
    {hm : (Finset.univ : Finset (rH s).shape.Idx) = Finset.univ ∨ ∀ a, (rH s).stride a = 1}
    {α : Type} {Q : α → sProp 𝕄} {k : PUnit → Prog (TpuEff nD τ sig (Elt F) Λ₀ .tc) α}
    (f : Buf (Elt F) ((c : Thread nD τ).loc cc0_scratch2)) (w : (rH s).shape.Idx → Elt F .f32) :
    (((c : Thread nD τ).loc cc0_scratch2) ↦[(vsV s).view.set]{fullShare} f : sProp 𝕄)
      ⊢ iprop(((((c : Thread nD τ).loc cc0_scratch2) ↦[(vsV s).view.set]{fullShare}
                ((Memref.whole cc0_scratch2 : Memref sig .tc .vmem S2x1024x1024 .f32).access (rH s)).write (Elt F) f w Finset.univ)
              -∗ wp frame (wpE (defs₀ (F := F)) 𝒱₀ (c : Thread nD τ) none) Set.univ (k ⟨⟩) Q)
          -∗ wp frame (wpE (defs₀ (F := F)) 𝒱₀ (c : Thread nD τ) none) Set.univ (.op (.store (Memref.whole cc0_scratch2 : Memref sig .tc .vmem S2x1024x1024 .f32) (rH s) w Finset.univ hx hm) k) Q) :=
  wp_store (defs := defs₀ (F := F)) 𝒱₀ (c : Thread nD τ) none (Γ := .empty) Set.univ
    (m := (Memref.whole cc0_scratch2 : Memref sig .tc .vmem S2x1024x1024 .f32)) (r := rH s) (w := w) (Mk := Finset.univ) (hx := hx) (hm := hm) (k := k)
    (S := (vsV s).view.set) (f := f) (Q := Q) (store_s_sub s)

/-! ## The input copy of chunk i and its wait -/

theorem wp_in_enq (c : Dev nD) (i : Fin 16)
    {hsrc : (xV i).view.WordExact} {hdst : (vinV (slot i)).view.WordExact}
    {hsem : DmaTarget.Typed (nD := nD) .hbm (.dma (inS (slot i)))
      (DmaTarget.here (vinV (slot i)) : DmaTarget nD τ sig (c : Thread nD τ).2 .vmem S1024x2048 .f32)}
    {α : Type} {Q : α → sProp 𝕄} {k : PUnit → Prog (TpuEff nD τ sig (Elt F) Λ₀ .tc) α}
    (fd : Buf (Elt F) ((vinV (slot i)).view.loc (c : Thread nD τ))) :
    (iprop(cellInv ER (a2aRd m) (K (c, .dma (inS (slot i)))) (inCell c (slot i))
        ∗ ((xV i).view.loc (c : Thread nD τ) ↦[(xV i).view.set]{fullShare} Xa m c)
        ∗ ((vinV (slot i)).view.loc (c : Thread nD τ) ↦[(vinV (slot i)).view.set]{fullShare} fd)
        ∗ dutyTok ER (inCell c (slot i)) (rnd i) () ∗ reached ER (inCell c (slot i)) (rnd i)) : sProp 𝕄)
      ⊢ iprop((cred (tallyAt (inCell c (slot i)) () Nin) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xV i) (.here (vinV (slot i))) (.dma (inS (slot i))) hsrc hdst hsem) k) Q) :=
  Rounds.wp_copy_pointsTo (defs := defs₀ (F := F)) 𝒱₀ ER (a2aRd m) (c : Thread nD τ) none (Γ := .empty) (Q := Q)
    (src := xV i) (dst := vinV (slot i)) (sem := .dma (inS (slot i))) (hsrc := hsrc) (hdst := hdst) (hsem := hsem) (k := k)
    (κ := K (c, .dma (inS (slot i)))) (r := rnd i) (d := ()) (q := fullShare) (fs := Xa m c) (fd := fd)
    (by rw [duties_in m c (slot i) (rnd i) (by have := i.isLt; show i.val / 2 < 8; omega)]; exact Finset.mem_singleton_self _)
    () Nin rfl (amount_in m c (slot i) (rnd i) ())
    (by
      rw [payload_in]; unfold inPay
      iintro ⟨Hd, Hs⟩
      isplitl [Hd]
      · iexists fd; iexact Hd
      · iexact Hs) (Es := Set.univ)

theorem wp_in_wait (c : Dev nD) (i : Fin 16)
    {hsrc : (xV i).view.WordExact} {hdst : (vinV (slot i)).view.WordExact}
    {α : Type} {Q : α → sProp 𝕄} {k : PUnit → Prog (TpuEff nD τ sig (Elt F) Λ₀ .tc) α}
    (O : CellTallies nD τ sig Unit) (W : Waits sig Unit) :
    (iprop(cellInv ER (a2aRd m) (K (c, .dma (inS (slot i)))) (inCell c (slot i)) ∗ cred (tallyAt (inCell c (slot i)) () Nin)
        ∗ owes (c : Thread nD τ) O W ∗ MayWait (c : Thread nD τ) (.dma (inS (slot i))) () O
        ∗ atPos ER (inCell c (slot i)) (rnd i) ∅ 0) : sProp 𝕄)
      ⊢ iprop(((owes (c : Thread nD τ) O (insert (SemLoc.dma (inS (slot i)), ()) W)
              ∗ atPos ER (inCell c (slot i)) (rnd i + 1) ∅ 0 ∗ reached ER (inCell c (slot i)) (rnd i + 1) ∗ inPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (inS (slot i)) (xV i) (vinV (slot i)) hsrc hdst) k) Q) :=
  by
  have h := Rounds.wp_wait_rest_token (defs := defs₀ (F := F)) 𝒱₀ ER (a2aRd m) (c : Thread nD τ) none (Γ := .empty)
    (κ := K (c, .dma (inS (slot i)))) (Q := Q) (k := k)
    (w := .waitDma2 (inS (slot i)) (xV i) (vinV (slot i)) hsrc hdst) (sm := .dma (inS (slot i))) (k' := Nin) (Es := Set.univ)
    (wpE_waitDma2_eq (defs := defs₀ (F := F)) 𝒱₀ (c : Thread nD τ) none Set.univ (sem := inS (slot i)) (src := xV i) (dst := vinV (slot i))
      (hsrc := hsrc) (hdst := hdst))
    (Set.mem_univ _) () (O := O) (W := W) (R := rnd i) (m := 0) (T := ∅)
    (by rw [Nat.zero_add, expect_in m c (slot i) (rnd i) (by have := i.isLt; show i.val / 2 < 8; omega)])
  rw [rest_in] at h
  exact h

/-! ## The keep copy of chunk i and its wait -/

theorem wp_keep_enq (c : Dev nD) (i : Fin 16)
    {hsrc : (vkV (slot i)).view.WordExact} {hdst : (oVd c i).view.WordExact}
    {hsem : DmaTarget.Typed (nD := nD) .vmem (.dma (keepS i))
      (DmaTarget.here (oVd c i) : DmaTarget nD τ sig (c : Thread nD τ).2 .hbm S1024x1024 .f32)}
    {α : Type} {Q : α → sProp 𝕄} {k : PUnit → Prog (TpuEff nD τ sig (Elt F) Λ₀ .tc) α}
    (fo : Buf (Elt F) ((oVd c i).view.loc (c : Thread nD τ))) (g : Buf (Elt F) ((c : Thread nD τ).loc cc0_scratch1))
    (fd : Buf (Elt F) ((vinV (slot i)).view.loc (c : Thread nD τ))) :
    (iprop(cellInv ER (a2aRd m) (K (c, .dma (keepS i))) (keepCell c i)
        ∗ ((vkV (slot i)).view.loc (c : Thread nD τ) ↦[(vkV (slot i)).view.set]{fullShare} vkAfter c i g (vinAfter m c i fd))
        ∗ ((oVd c i).view.loc (c : Thread nD τ) ↦[(oVd c i).view.set]{fullShare} fo)
        ∗ dutyTok ER (keepCell c i) 0 () ∗ reached ER (keepCell c i) 0) : sProp 𝕄)
      ⊢ iprop((cred (tallyAt (keepCell c i) () Nh) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (vkV (slot i)) (.here (oVd c i)) (.dma (keepS i)) hsrc hdst hsem) k) Q) :=
  Rounds.wp_copy_pointsTo (defs := defs₀ (F := F)) 𝒱₀ ER (a2aRd m) (c : Thread nD τ) none (Γ := .empty) (Q := Q)
    (src := vkV (slot i)) (dst := oVd c i) (sem := .dma (keepS i)) (hsrc := hsrc) (hdst := hdst) (hsem := hsem) (k := k)
    (κ := K (c, .dma (keepS i))) (r := 0) (d := ()) (q := fullShare) (fs := vkAfter c i g (vinAfter m c i fd)) (fd := fo)
    (by rw [duties_keep]; exact Finset.mem_singleton_self _)
    () Nh rfl (amount_keep m c i 0 ())
    (by
      rw [payload_keep, keep_landed]; unfold keepPay
      iintro ⟨Hd, Hs⟩
      isplitl [Hd]
      · iexact Hd
      · iexists _; iexact Hs) (Es := Set.univ)

theorem wp_keep_wait (c : Dev nD) (i : Fin 16)
    {hsrc : (vkV (slot i)).view.WordExact} {hdst : (oVd c i).view.WordExact}
    {α : Type} {Q : α → sProp 𝕄} {k : PUnit → Prog (TpuEff nD τ sig (Elt F) Λ₀ .tc) α}
    (O : CellTallies nD τ sig Unit) (W : Waits sig Unit) :
    (iprop(cellInv ER (a2aRd m) (K (c, .dma (keepS i))) (keepCell c i) ∗ cred (tallyAt (keepCell c i) () Nh)
        ∗ owes (c : Thread nD τ) O W ∗ MayWait (c : Thread nD τ) (.dma (keepS i)) () O
        ∗ atPos ER (keepCell c i) 0 ∅ 0) : sProp 𝕄)
      ⊢ iprop(((owes (c : Thread nD τ) O (insert (SemLoc.dma (keepS i), ()) W)
              ∗ atPos ER (keepCell c i) 1 ∅ 0 ∗ reached ER (keepCell c i) 1 ∗ keepPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (keepS i) (vkV (slot i)) (oVd c i) hsrc hdst) k) Q) :=
  by
  have h := Rounds.wp_wait_rest_token (defs := defs₀ (F := F)) 𝒱₀ ER (a2aRd m) (c : Thread nD τ) none (Γ := .empty)
    (κ := K (c, .dma (keepS i))) (Q := Q) (k := k)
    (w := .waitDma2 (keepS i) (vkV (slot i)) (oVd c i) hsrc hdst) (sm := .dma (keepS i)) (k' := Nh) (Es := Set.univ)
    (wpE_waitDma2_eq (defs := defs₀ (F := F)) 𝒱₀ (c : Thread nD τ) none Set.univ (sem := keepS i) (src := vkV (slot i)) (dst := oVd c i)
      (hsrc := hsrc) (hdst := hdst))
    (Set.mem_univ _) () (O := O) (W := W) (R := 0) (m := 0) (T := ∅)
    (by rw [Nat.zero_add, expect_keep])
  rw [rest_keep] at h
  exact h

/-! ## At a literal chunk the generic views are the printed ones -/

example : xV (3 : Fin 16)
    = (Memref.whole main_arg0).slice (Rect.unit (s := S16384x2048) ![3072, 0] S1024x2048.size inb_S16384x2048_S1024x2048_3072_0) (fun _ => rfl) := rfl
example : vinV (slot (3 : Fin 16))
    = ((Memref.whole cc0_scratch0).slice (Rect.unit (s := S2x1024x2048) ![1, 0, 0] S1x1024x2048.size inb_S2x1024x2048_S1x1024x2048_1_0_0) (fun _ => rfl)).squeeze S1024x2048 squeezes_S1x1024x2048_S1024x2048 := rfl
example : inS (slot (3 : Fin 16))
    = (((cc0_scratch3 : DmaSems sig S2).slice (Rect.unit (s := S2) ![1] S1.size inb_S2_S1_1)).squeeze S_ squeezes_S1_S_).sem := rfl
example : rnd (3 : Fin 16) = 1 := rfl

/-- info: 'Cert.KernelIdeal.A2A.wp_keep_enq' depends on axioms: [propext, Classical.choice, Quot.sound] -/
#guard_msgs in #print axioms wp_keep_enq

end Cert.KernelIdeal.A2A

end
-- ==== Proof.OpsRemote.lean ====
/-
  The remote operations and the cross-device waits of the kernel body, as instances of the rounds rules at this
  protocol's cells and views: the entry signal to the peer's barrier cell and the wait on one's own; the send of a chunk's
  other half into the peer's result rows; the waits on a send cell and on a receive cell; and the cells' closing at exit.
  Each is in continuation form: what the step consumes entails, from the continuation's proof, the step's.
-/
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.KernelIdeal.Skeleton
import proofs.«900648_g7700000000000649_dist_a2a_v7x_xyz2x4x4_x_m16384_n1024_f32_1_alg».proof.Proof.Gen.KernelIdeal.Launch
import proofs.«900648_g7700000000000649_dist_a2a_v7x_xyz2x4x4_x_m16384_n1024_f32_1_alg».proof.Proof.Gen.KernelIdeal.Points
import proofs.«900648_g7700000000000649_dist_a2a_v7x_xyz2x4x4_x_m16384_n1024_f32_1_alg».proof.Proof.Proto
import proofs.«900648_g7700000000000649_dist_a2a_v7x_xyz2x4x4_x_m16384_n1024_f32_1_alg».proof.Proof.State
import proofs.«900648_g7700000000000649_dist_a2a_v7x_xyz2x4x4_x_m16384_n1024_f32_1_alg».proof.Proof.Sched
import proofs.«900648_g7700000000000649_dist_a2a_v7x_xyz2x4x4_x_m16384_n1024_f32_1_alg».proof.Proof.Values
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Every device id the kernel computes is the peer's -/

theorem dev1_eq (c : Dev nD) : (⟨k0_dev1 c, k0_dev1_lt c⟩ : Dev nD) = peer c := Fin.ext ((k0_dev1_eq c).trans (dev_closed c))
theorem dev2_eq (c : Dev nD) : (⟨k0_dev2 c, k0_dev2_lt c⟩ : Dev nD) = peer c := Fin.ext ((k0_dev2_eq c).trans (dev_closed c))
theorem dev3_eq (c : Dev nD) : (⟨k0_dev3 c, k0_dev3_lt c⟩ : Dev nD) = peer c := Fin.ext ((k0_dev3_eq c).trans (dev_closed c))
theorem dev4_eq (c : Dev nD) : (⟨k0_dev4 c, k0_dev4_lt c⟩ : Dev nD) = peer c := Fin.ext ((k0_dev4_eq c).trans (dev_closed c))
theorem dev5_eq (c : Dev nD) : (⟨k0_dev5 c, k0_dev5_lt c⟩ : Dev nD) = peer c := Fin.ext ((k0_dev5_eq c).trans (dev_closed c))
theorem dev6_eq (c : Dev nD) : (⟨k0_dev6 c, k0_dev6_lt c⟩ : Dev nD) = peer c := Fin.ext ((k0_dev6_eq c).trans (dev_closed c))
theorem dev7_eq (c : Dev nD) : (⟨k0_dev7 c, k0_dev7_lt c⟩ : Dev nD) = peer c := Fin.ext ((k0_dev7_eq c).trans (dev_closed c))
theorem dev8_eq (c : Dev nD) : (⟨k0_dev8 c, k0_dev8_lt c⟩ : Dev nD) = peer c := Fin.ext ((k0_dev8_eq c).trans (dev_closed c))
theorem dev9_eq (c : Dev nD) : (⟨k0_dev9 c, k0_dev9_lt c⟩ : Dev nD) = peer c := Fin.ext ((k0_dev9_eq c).trans (dev_closed c))
theorem dev10_eq (c : Dev nD) : (⟨k0_dev10 c, k0_dev10_lt c⟩ : Dev nD) = peer c := Fin.ext ((k0_dev10_eq c).trans (dev_closed c))
theorem dev11_eq (c : Dev nD) : (⟨k0_dev11 c, k0_dev11_lt c⟩ : Dev nD) = peer c := Fin.ext ((k0_dev11_eq c).trans (dev_closed c))
theorem dev12_eq (c : Dev nD) : (⟨k0_dev12 c, k0_dev12_lt c⟩ : Dev nD) = peer c := Fin.ext ((k0_dev12_eq c).trans (dev_closed c))
theorem dev13_eq (c : Dev nD) : (⟨k0_dev13 c, k0_dev13_lt c⟩ : Dev nD) = peer c := Fin.ext ((k0_dev13_eq c).trans (dev_closed c))
theorem dev14_eq (c : Dev nD) : (⟨k0_dev14 c, k0_dev14_lt c⟩ : Dev nD) = peer c := Fin.ext ((k0_dev14_eq c).trans (dev_closed c))
theorem dev15_eq (c : Dev nD) : (⟨k0_dev15 c, k0_dev15_lt c⟩ : Dev nD) = peer c := Fin.ext ((k0_dev15_eq c).trans (dev_closed c))
theorem dev16_eq (c : Dev nD) : (⟨k0_dev16 c, k0_dev16_lt c⟩ : Dev nD) = peer c := Fin.ext ((k0_dev16_eq c).trans (dev_closed c))
theorem dev17_eq (c : Dev nD) : (⟨k0_dev17 c, k0_dev17_lt c⟩ : Dev nD) = peer c := Fin.ext ((k0_dev17_eq c).trans (dev_closed c))

example : ((1#32 : BitVec 32).toNat) = 1 := rfl

/-! ## Payloads, seen from the other side -/

/-- What the peer's barrier cell hands the peer: this device's rows that the peer's sends write, and that this device's
    receive cells are at round 0. -/
theorem barPay_peer (c : Dev nD) :
    (barPay (peer c) : sProp 𝕄) = iprop((bigSep Finset.univ fun i : Fin 16 => iprop(∃ fd, (oVd (peer c) i).view.loc (c : Thread nD τ) ↦[(oVd (peer c) i).view.set]{fullShare} fd))
      ∗ bigSep Finset.univ fun i : Fin 16 => reached ER (recvCell c i) 0) := by
  unfold barPay; rw [peer_peer]

/-- What the peer's receive cell of chunk i hands the peer: the rows this device's send of chunk i writes, final. -/
theorem recvPay_peer (c : Dev nD) (i : Fin 16) :
    recvPay m (peer c) i = ((oVd c i).view.loc (peer c : Thread nD τ) ↦[(oVd c i).view.set]{fullShare} outK m (peer c) : sProp 𝕄) := by
  unfold recvPay; rw [peer_peer]

/-! ## Credits: a 1024 x 1024 block's, whichever buffer it lies in -/

theorem credit_vs (s : Fin 2) : (vsV s).view.dmaCredit = Nh := by revert s; decide
theorem credit_o (c : Dev nD) (i : Fin 16) : (oVd c i).view.dmaCredit = Nh := rfl

section Ops

variable (K : Dev nD × SemLoc sig → ℕ)

/-! ## The entry handshake -/

/-- The signal to the peer's barrier cell: its one duty, paid with what the peer's sends need of this device. -/
theorem wp_sig (c : Dev nD) (W : Waits sig Unit) {α : Type} {Q : α → sProp 𝕄} {k : PUnit → Prog (TpuEff nD τ sig (Elt F) Λ₀ .tc) α} :
    iprop(cellInv ER (a2aRd m) (K (peer c, .reg barS)) (barCell (peer c)) ∗ owes (c : Thread nD τ) (O₀ c) W
        ∗ dutyTok ER (barCell (peer c)) 0 () ∗ barPay (peer c) ∗ reached ER (barCell (peer c)) 0)
      ⊢ iprop((owes (c : Thread nD τ) (owedFrom c 0) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c : Thread nD τ) barS 1) k) Q) := by
  rw [← payload_bar m (peer c) ()]
  exact Rounds.wp_signal 𝒱₀ ER (a2aRd m) (c : Thread nD τ) none (dst := (peer c : Thread nD τ)) (sem := barS) (r := 0) (d := ())
    (κ := K (peer c, .reg barS)) (by rw [duties_bar]; exact Finset.mem_singleton_self _) (amount_bar m (peer c) 0 ()) ()
    (owedFrom c 0) rfl

/-- The wait on one's own barrier cell, owing the sixteen receive credits: the peer's rows come with it. -/
theorem wp_bar_wait (c : Dev nD) (W : Waits sig Unit) {α : Type} {Q : α → sProp 𝕄} {k : PUnit → Prog (TpuEff nD τ sig (Elt F) Λ₀ .tc) α} :
    iprop(cellInv ER (a2aRd m) (K (c, .reg barS)) (barCell c) ∗ cred (tallyAt (barCell c) () 1)
        ∗ owes (c : Thread nD τ) (owedFrom c 0) W ∗ levAts L lv ∗ atPos ER (barCell c) 0 ∅ 0)
      ⊢ iprop(((owes (c : Thread nD τ) (owedFrom c 0) (insert (SemLoc.reg barS, ()) W) ∗ atPos ER (barCell c) 1 ∅ 0 ∗ barPay c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 1) k) Q) := by
  iintro ⟨HI, Hc, HO, Hlev, Hat⟩ Hk
  iapply (Rounds.wp_wait_rest_token 𝒱₀ ER (a2aRd m) (c : Thread nD τ) none (κ := K (c, .reg barS))
      (wpE_semWait_eq 𝒱₀ (c : Thread nD τ) none Set.univ) (Set.mem_univ _) () (O := owedFrom c 0) (W := W) (R := 0) (m := 0) (T := ∅)
      (by rw [expect_bar])) $$ [HI Hc HO Hlev Hat]
  · isplitl [HI]; · iexact HI
    isplitl [Hc]; · iexact Hc
    isplitl [HO]; · iexact HO
    isplitl [Hlev]; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-! ## The send of chunk i's other half -/

/-- The send: its source cell's duty is paid with the send slot, the peer's receive cell's with the rows written, at
    their final contents; the credit owed for chunk i is paid off. -/
theorem wp_send (c : Dev nD) (i : Fin 16)
    {hsc : (oVd c i : Memref sig (Dev.tc (peer c) : Thread nD τ).2.kind .hbm S1024x1024 .f32).view.ref.isScScratch = false}
    {hsrc : (vsV (slot i)).view.WordExact} {hdst : (oVd c i).view.WordExact}
    {hsem : DmaTarget.Typed .vmem (.dma (recvS i)) (.remote (Dev.tc (peer c) : Thread nD τ) (oVd c i) (.dma (sendS i)) hsc)}
    {α : Type} {Q : α → sProp 𝕄} {k : PUnit → Prog (TpuEff nD τ sig (Elt F) Λ₀ .tc) α}
    (W : Waits sig Unit) (fo : Buf (Elt F) ((oVd c i).view.loc (peer c : Thread nD τ)))
    (g : Buf (Elt F) ((c : Thread nD τ).loc cc0_scratch2)) (fd : Buf (Elt F) ((vinV (slot i)).view.loc (c : Thread nD τ))) :
    iprop(cellInv ER (a2aRd m) (K (c, .dma (sendS i))) (sendCell c i) ∗ cellInv ER (a2aRd m) (K (peer c, .dma (recvS i))) (recvCell (peer c) i)
        ∗ ((vsV (slot i)).view.loc (c : Thread nD τ) ↦[(vsV (slot i)).view.set]{fullShare} vsAfter c i g (vinAfter m c i fd))
        ∗ ((oVd c i).view.loc (peer c : Thread nD τ) ↦[(oVd c i).view.set]{fullShare} fo)
        ∗ owes (c : Thread nD τ) (owedFrom c i.val) W
        ∗ dutyTok ER (sendCell c i) 0 () ∗ reached ER (sendCell c i) 0
        ∗ dutyTok ER (recvCell (peer c) i) 0 () ∗ reached ER (recvCell (peer c) i) 0)
      ⊢ iprop(((cred (tallyAt (sendCell c i) () Nh) ∗ owes (c : Thread nD τ) (owedFrom c (i.val + 1)) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (vsV (slot i)) (.remote (Dev.tc (peer c) : Thread nD τ) (oVd c i) (.dma (sendS i)) hsc) (.dma (recvS i)) hsrc hdst hsem) k) Q) :=
  Rounds.wp_send_pointsTo 𝒱₀ ER (a2aRd m) (c : Thread nD τ) none (c' := (peer c : Thread nD τ)) (src := vsV (slot i)) (dst := oVd c i)
    (sS := .dma (sendS i)) (sem := .dma (recvS i))
    (q := fullShare) (fs := vsAfter c i g (vinAfter m c i fd)) (fd := fo)
    (κ₁ := K (c, .dma (sendS i))) (κ₂ := K (peer c, .dma (recvS i))) (r₁ := 0) (r₂ := 0) (d₁ := ()) (d₂ := ())
    (by rw [duties_send]; exact Finset.mem_singleton_self _) (by rw [duties_recv]; exact Finset.mem_singleton_self _)
    () () Nh ((View.amount_dma _ _).trans (credit_o c i)) (amount_send m c i 0 ()) (amount_recv m (peer c) i 0 ()) (owedFrom c (i.val + 1)) (owedFrom_step c i) (W := W)
    (by rw [payload_send]; unfold sendPay; iintro H; iexists _; iexact H)
    (by rw [payload_recv, recvPay_peer, send_landed])

/-! ## The waits on a send cell and on a receive cell -/

/-- The wait on chunk i's send cell: the send slot comes back. -/
theorem wp_send_wait (c : Dev nD) (i : Fin 16) {hsrc : (oVd c i).view.WordExact} {hdst : (vsV (slot i)).view.WordExact}
    {α : Type} {Q : α → sProp 𝕄} {k : PUnit → Prog (TpuEff nD τ sig (Elt F) Λ₀ .tc) α} (O : CellTallies nD τ sig Unit) (W : Waits sig Unit) :
    iprop(cellInv ER (a2aRd m) (K (c, .dma (sendS i))) (sendCell c i) ∗ cred (tallyAt (sendCell c i) () Nh)
        ∗ owes (c : Thread nD τ) O W ∗ MayWait (c : Thread nD τ) (.dma (sendS i)) () O ∗ atPos ER (sendCell c i) 0 ∅ 0)
      ⊢ iprop(((owes (c : Thread nD τ) O (insert (SemLoc.dma (sendS i), ()) W) ∗ atPos ER (sendCell c i) 1 ∅ 0
              ∗ reached ER (sendCell c i) 1 ∗ sendPay c i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) (oVd c i) (vsV (slot i)) hsrc hdst) k) Q) := by
  iintro ⟨HI, Hc, HO, Hmw, Hat⟩ Hk
  iapply (Rounds.wp_wait_rest_token 𝒱₀ ER (a2aRd m) (c : Thread nD τ) none (κ := K (c, .dma (sendS i))) (k' := Nh)
      (fun Kw => (wpE_waitDma2_eq 𝒱₀ (c : Thread nD τ) none Set.univ Kw).trans (by rw [credit_vs])) (Set.mem_univ _) ()
      (O := O) (W := W) (R := 0) (m := 0) (T := ∅) (by rw [Nat.zero_add, expect_send])) $$ [HI Hc HO Hmw Hat]
  · isplitl [HI]; · iexact HI
    isplitl [Hc]; · iexact Hc
    isplitl [HO]; · iexact HO
    isplitl [Hmw]; · iexact Hmw
    iexact Hat
  iintro ⟨HO, Hat, Hr, Hpay⟩
  iapply Hk
  isplitl [HO]; · iexact HO
  isplitl [Hat]; · iexact Hat
  isplitl [Hr]; · iexact Hr
  iapply (Entails.of_eq (rest_send m c i)); iexact Hpay

/-- The last wait, on chunk i's receive cell, owing nothing: the rows the peer's send wrote, at their final contents. -/
theorem wp_recv_wait (c : Dev nD) (i : Fin 16) {hsrc : (vsV (slot i)).view.WordExact} {hdst : (oVd c i).view.WordExact}
    {α : Type} {Q : α → sProp 𝕄} {k : PUnit → Prog (TpuEff nD τ sig (Elt F) Λ₀ .tc) α} (W : Waits sig Unit) :
    iprop(cellInv ER (a2aRd m) (K (c, .dma (recvS i))) (recvCell c i) ∗ cred (tallyAt (recvCell c i) () Nh)
        ∗ owes (c : Thread nD τ) 0 W ∗ atPos ER (recvCell c i) 0 ∅ 0)
      ⊢ iprop(((owes (c : Thread nD τ) 0 (insert (SemLoc.dma (recvS i), ()) W) ∗ atPos ER (recvCell c i) 1 ∅ 0
              ∗ reached ER (recvCell c i) 1 ∗ recvPay m c i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS i) (vsV (slot i)) (oVd c i) hsrc hdst) k) Q) := by
  iintro ⟨HI, Hc, HO, Hat⟩ Hk
  iapply (Rounds.wp_wait_rest_token 𝒱₀ ER (a2aRd m) (c : Thread nD τ) none (κ := K (c, .dma (recvS i))) (k' := Nh)
      (fun Kw => (wpE_waitDma2_eq 𝒱₀ (c : Thread nD τ) none Set.univ Kw).trans (by rw [credit_o])) (Set.mem_univ _) ()
      (O := 0) (W := W) (R := 0) (m := 0) (T := ∅) (by rw [Nat.zero_add, expect_recv])) $$ [HI Hc HO Hat]
  · isplitl [HI]; · iexact HI
    isplitl [Hc]; · iexact Hc
    isplitl [HO]; · iexact HO
    isplitr; · rw [MayWait_zero]; iempintro
    iexact Hat
  iintro ⟨HO, Hat, Hr, Hpay⟩
  iapply Hk
  isplitl [HO]; · iexact HO
  isplitl [Hat]; · iexact Hat
  isplitl [Hr]; · iexact Hr
  iapply (Entails.of_eq (rest_recv m c i)); iexact Hpay

/-! ## The cells close at exit -/

theorem close_in (c : Dev nD) (s : Fin 2) :
    iprop(cellInv ER (a2aRd m) (K (c, .dma (inS s))) (inCell c s) ∗ atPos ER (inCell c s) 8 ∅ 0) ⊢ iprop(|={Set.univ}=> semVal (inCell c s) 0) :=
  Rounds.cell_close ER (a2aRd m) (Set.mem_univ _) (fun h => h) (R := 8) (duties_later_in m c s)
theorem close_keep (c : Dev nD) (i : Fin 16) :
    iprop(cellInv ER (a2aRd m) (K (c, .dma (keepS i))) (keepCell c i) ∗ atPos ER (keepCell c i) 1 ∅ 0) ⊢ iprop(|={Set.univ}=> semVal (keepCell c i) 0) :=
  Rounds.cell_close ER (a2aRd m) (Set.mem_univ _) (fun h => h) (R := 1) (duties_later_keep m c i)
theorem close_send (c : Dev nD) (i : Fin 16) :
    iprop(cellInv ER (a2aRd m) (K (c, .dma (sendS i))) (sendCell c i) ∗ atPos ER (sendCell c i) 1 ∅ 0) ⊢ iprop(|={Set.univ}=> semVal (sendCell c i) 0) :=
  Rounds.cell_close ER (a2aRd m) (Set.mem_univ _) (fun h => h) (R := 1) (duties_later_send m c i)
theorem close_recv (c : Dev nD) (i : Fin 16) :
    iprop(cellInv ER (a2aRd m) (K (c, .dma (recvS i))) (recvCell c i) ∗ atPos ER (recvCell c i) 1 ∅ 0) ⊢ iprop(|={Set.univ}=> semVal (recvCell c i) 0) :=
  Rounds.cell_close ER (a2aRd m) (Set.mem_univ _) (fun h => h) (R := 1) (duties_later_recv m c i)

end Ops

/-- info: 'Cert.KernelIdeal.A2A.wp_send' depends on axioms: [propext, Classical.choice, Quot.sound] -/
#guard_msgs in #print axioms wp_send

end Cert.KernelIdeal.A2A

end
-- ==== Proof.Regroup.lean ====
/-
  Regrouping of separating conjunctions: a conjunction over a finite index type written out by its members, the
  result buffer cut by source device instead of by x coordinate, and a device's cells listed by kind.
-/
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.KernelIdeal.Skeleton
import proofs.«900648_g7700000000000649_dist_a2a_v7x_xyz2x4x4_x_m16384_n1024_f32_1_alg».proof.Proof.Gen.KernelIdeal.Launch
import proofs.«900648_g7700000000000649_dist_a2a_v7x_xyz2x4x4_x_m16384_n1024_f32_1_alg».proof.Proof.Gen.KernelIdeal.Points
import proofs.«900648_g7700000000000649_dist_a2a_v7x_xyz2x4x4_x_m16384_n1024_f32_1_alg».proof.Proof.Proto
import proofs.«900648_g7700000000000649_dist_a2a_v7x_xyz2x4x4_x_m16384_n1024_f32_1_alg».proof.Proof.State
import proofs.«900648_g7700000000000649_dist_a2a_v7x_xyz2x4x4_x_m16384_n1024_f32_1_alg».proof.Proof.Tiles
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over small index types, written out -/

omit [FloatOps F] in
theorem bigSep_fin2 (Φ : Fin 2 → sProp 𝕄) : bigSep Finset.univ Φ = iprop(Φ 0 ∗ Φ 1) := bigSep_univ_two Φ

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
/-- The separating conjunction is associative and commutative, as equations. -/
theorem sep_assoc_eq (P Q R : sProp 𝕄) : iprop((P ∗ Q) ∗ R) = iprop(P ∗ Q ∗ R) :=
  _root_.Idealize.SL.BI.Entails.antisymm _root_.Idealize.SL.BI.sep_assoc _root_.Idealize.SL.BI.sep_assoc'

omit [FloatOps F] in
theorem sep_comm_eq (P Q : sProp 𝕄) : iprop(P ∗ Q) = iprop(Q ∗ P) :=
  _root_.Idealize.SL.BI.Entails.antisymm _root_.Idealize.SL.BI.sep_comm _root_.Idealize.SL.BI.sep_comm

omit [FloatOps F] in
/-- A conjunction over the first a + b numbers is the one over the first a and the one over the b after them. -/
theorem bigSep_fin_add {a b : ℕ} (Φ : Fin (a + b) → sProp 𝕄) :
    bigSep Finset.univ Φ
      = iprop((bigSep Finset.univ fun i : Fin a => Φ (Fin.castAdd b i)) ∗ (bigSep Finset.univ fun j : Fin b => Φ (Fin.natAdd a j))) := by
  rw [bigSep_univ_equiv finSumFinEquiv Φ, bigSep_univ_sum]; rfl

/-! ## The result buffer, by source device -/

omit [FloatOps F] in
theorem xf_cases (c : Dev nD) : (xf c = 0 ∧ xf (peer c) = 1) ∨ (xf c = 1 ∧ xf (peer c) = 0) := by revert c; decide

omit [FloatOps F] in
/-- The rows device d's chunk i goes to are the block of d's x coordinate. -/
theorem oVd_pt (c d : Dev nD) (i : Fin 16) (f : Buf (Elt F) ((c : Thread nD τ).loc main_v1)) :
    ((oVd d i).view.loc (c : Thread nD τ) ↦[(oVd d i).view.set]{fullShare} f : sProp 𝕄)
      = ((oVa (xf d) i).view.loc (c : Thread nD τ) ↦[(oVa (xf d) i).view.set]{fullShare} f) :=
  congrArg (fun S : Finset (Idx ((c : Thread nD τ).loc main_v1)) => (((c : Thread nD τ).loc main_v1) ↦[S]{fullShare} f : sProp 𝕄)) (oVd_set d i)

theorem split_o2 (c : Dev nD) (f : Buf (Elt F) ((c : Thread nD τ).loc main_v1)) :
    (((c : Thread nD τ).loc main_v1) ↦{fullShare} f : sProp 𝕄)
      = iprop((bigSep Finset.univ fun i : Fin 16 => ((oVd c i).view.loc (c : Thread nD τ) ↦[(oVd c i).view.set]{fullShare} f))
          ∗ (bigSep Finset.univ fun i : Fin 16 =>
              ((oVd (peer c) i).view.loc (c : Thread nD τ) ↦[(oVd (peer c) i).view.set]{fullShare} f))) := by
  have e1 : (((c : Thread nD τ).loc main_v1) ↦{fullShare} f : sProp 𝕄)
      = iprop((bigSep Finset.univ fun i : Fin 16 => ((oVa 0 i).view.loc (c : Thread nD τ) ↦[(oVa 0 i).view.set]{fullShare} f))
          ∗ (bigSep Finset.univ fun i : Fin 16 => ((oVa 1 i).view.loc (c : Thread nD τ) ↦[(oVa 1 i).view.set]{fullShare} f))) := by
    refine (split_o c f).trans ?_
    refine (bigSep_univ_prod _).trans ?_
    exact bigSep_fin2 _
  have hB (d : Dev nD) : (bigSep Finset.univ fun i : Fin 16 => ((oVd d i).view.loc (c : Thread nD τ) ↦[(oVd d i).view.set]{fullShare} f : sProp 𝕄))
      = bigSep Finset.univ fun i : Fin 16 => ((oVa (xf d) i).view.loc (c : Thread nD τ) ↦[(oVa (xf d) i).view.set]{fullShare} f) :=
    bigSep_congr fun i _ => oVd_pt c d i f
  rw [hB c, hB (peer c), e1]
  rcases xf_cases c with ⟨h0, h1⟩ | ⟨h0, h1⟩
  · rw [h0, h1]
  · rw [h0, h1]; exact sep_comm_eq _ _

/-! ## A device's semaphores, by kind -/

omit [FloatOps F] in
theorem dmasems_split (Ψ : DmaSem sig → sProp 𝕄) :
    bigSep Finset.univ Ψ
      = iprop(Ψ (inS 0) ∗ Ψ (inS 1) ∗ (bigSep Finset.univ fun i : Fin 16 => Ψ (keepS i))
          ∗ (bigSep Finset.univ fun i : Fin 16 => Ψ (sendS i)) ∗ (bigSep Finset.univ fun i : Fin 16 => Ψ (recvS i))) := by
  have h1 := bigSep_fin_add (F := F) (a := 34) (b := 16) Ψ
  have h2 := bigSep_fin_add (F := F) (a := 18) (b := 16) (fun q : Fin 34 => Ψ (Fin.castAdd 16 q))
  have h3 := bigSep_fin_add (F := F) (a := 2) (b := 16) (fun q : Fin 18 => Ψ (Fin.castAdd 16 (Fin.castAdd 16 q)))
  have h4 := bigSep_fin2 (F := F) (fun q : Fin 2 => Ψ (Fin.castAdd 16 (Fin.castAdd 16 (Fin.castAdd 16 q))))
  refine h1.trans ?_
  rw [h2, h3, h4, sep_assoc_eq, sep_assoc_eq, sep_assoc_eq]
  rfl

omit [FloatOps F] in
theorem dmasems_join (c : Dev nD) (Ψ : DmaSem sig → sProp 𝕄) :
    iprop(Ψ (inS 0) ∗ Ψ (inS 1) ∗ (bigSep Finset.univ fun i : Fin 16 => Ψ (keepS i))
          ∗ (bigSep Finset.univ fun i : Fin 16 => Ψ (sendS i)) ∗ (bigSep Finset.univ fun i : Fin 16 => Ψ (recvS i)))
      = bigSep Finset.univ Ψ := (dmasems_split Ψ).symm

omit [FloatOps F] in
theorem semloc_split (Ψ : SemLoc sig → sProp 𝕄) :
    bigSep Finset.univ Ψ
      = iprop(Ψ (.reg barS) ∗ Ψ (.dma (inS 0)) ∗ Ψ (.dma (inS 1)) ∗ (bigSep Finset.univ fun i : Fin 16 => Ψ (.dma (keepS i)))
          ∗ (bigSep Finset.univ fun i : Fin 16 => Ψ (.dma (sendS i))) ∗ (bigSep Finset.univ fun i : Fin 16 => Ψ (.dma (recvS i)))) := by
  haveI : Subsingleton (Sem sig) := (inferInstance : Subsingleton (Fin 1))
  have e1 : bigSep Finset.univ Ψ
      = iprop((bigSep Finset.univ fun s : Sem sig => Ψ (.reg s)) ∗ (bigSep Finset.univ fun q : DmaSem sig => Ψ (.dma q))) := by
    rw [bigSep_univ_equiv (SemLoc.equivSum sig).symm Ψ, bigSep_univ_sum]; rfl
  have e2 : (bigSep Finset.univ fun s : Sem sig => Ψ (.reg s)) = Ψ (.reg barS) := bigSep_univ_of_subsingleton (barS : Sem sig)
  rw [e1, e2, dmasems_split (fun q => Ψ (.dma q))]

omit [FloatOps F] in
theorem positions_split (c : Dev nD) :
    (positions c : sProp 𝕄)
      = iprop(atPos ER (barCell c) 0 ∅ 0 ∗ atPos ER (inCell c 0) 0 ∅ 0 ∗ atPos ER (inCell c 1) 0 ∅ 0
          ∗ (bigSep Finset.univ fun i : Fin 16 => atPos ER (keepCell c i) 0 ∅ 0)
          ∗ (bigSep Finset.univ fun i : Fin 16 => atPos ER (sendCell c i) 0 ∅ 0)
          ∗ (bigSep Finset.univ fun i : Fin 16 => atPos ER (recvCell c i) 0 ∅ 0)) := by
  unfold positions
  exact semloc_split (fun sm => atPos ER ((c : Thread nD τ), sm) 0 ∅ 0)

/-! ## Sub-families -/

omit [FloatOps F] in
/-- Each of device c's receive cells is at round 0. -/
theorem reached_recv (K : Dev nD × SemLoc sig → ℕ) (c : Dev nD) :
    records m K ⊢ (bigSep Finset.univ fun i : Fin 16 => reached ER (recvCell c i) 0 : sProp 𝕄) :=
  bigSep_intro_persistent fun i _ => reached_at m K c (.dma (recvS i))

omit [FloatOps F] in
/-- Rows held at some contents are rows held. -/
theorem rows_exists (c d : Dev nD) (f : Buf (Elt F) ((c : Thread nD τ).loc main_v1)) :
    (bigSep Finset.univ fun i : Fin 16 => ((oVd d i).view.loc (c : Thread nD τ) ↦[(oVd d i).view.set]{fullShare} f) : sProp 𝕄)
      ⊢ bigSep Finset.univ fun i : Fin 16 => iprop(∃ fd, (oVd d i).view.loc (c : Thread nD τ) ↦[(oVd d i).view.set]{fullShare} fd) :=
  bigSep_mono fun i _ =>
    exists_intro (Φ := fun fd => ((oVd d i).view.loc (c : Thread nD τ) ↦[(oVd d i).view.set]{fullShare} fd : sProp 𝕄)) f

/-- info: 'Cert.KernelIdeal.A2A.split_o2' depends on axioms: [propext, Classical.choice, Quot.sound] -/
#guard_msgs in #print axioms split_o2
/-- info: 'Cert.KernelIdeal.A2A.positions_split' depends on axioms: [propext, Classical.choice, Quot.sound] -/
#guard_msgs in #print axioms positions_split
/-- info: 'Cert.KernelIdeal.A2A.dmasems_join' depends on axioms: [propext, Classical.choice, Quot.sound] -/
#guard_msgs in #print axioms dmasems_join

end Cert.KernelIdeal.A2A

end
-- ==== Proof.Block.lean ====
/-
  One iteration's compute block of the all-to-all, eight operations fused: the kept half of the input slot is loaded
  and stored into the keep slot, the other half into the send slot; the keep copy into the device's own result rows and
  the send into the peer's are enqueued.  The input slot comes back as it was; the keep and send slots and the result
  rows have gone into the copies, which leave their credits; what the device owes its peer's receive cells goes down by
  chunk i's.
-/
import proofs.«900648_g7700000000000649_dist_a2a_v7x_xyz2x4x4_x_m16384_n1024_f32_1_alg».proof.Proof.State
import proofs.«900648_g7700000000000649_dist_a2a_v7x_xyz2x4x4_x_m16384_n1024_f32_1_alg».proof.Proof.Tiles
import proofs.«900648_g7700000000000649_dist_a2a_v7x_xyz2x4x4_x_m16384_n1024_f32_1_alg».proof.Proof.Values
import proofs.«900648_g7700000000000649_dist_a2a_v7x_xyz2x4x4_x_m16384_n1024_f32_1_alg».proof.Proof.Sched
import proofs.«900648_g7700000000000649_dist_a2a_v7x_xyz2x4x4_x_m16384_n1024_f32_1_alg».proof.Proof.OpsLocal
import proofs.«900648_g7700000000000649_dist_a2a_v7x_xyz2x4x4_x_m16384_n1024_f32_1_alg».proof.Proof.OpsRemote
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × SemLoc sig → ℕ)

theorem wp_blk (c : Dev nD) (i : Fin 16) (a b : Fin 2) (ha : xf c = a) (hb : xf (peer c) = b)
    {e1 : (Memref.whole cc0_scratch0 : Memref sig .tc .vmem S2x1024x2048 .f32).view.LoadsAt (rIn (slot i) a).toLoadRect}
    {e2 : (Memref.whole cc0_scratch1 : Memref sig .tc .vmem S2x1024x1024 .f32).view.LoadsAt (rH (slot i)).toLoadRect}
    {e3 : ((Memref.whole cc0_scratch1 : Memref sig .tc .vmem S2x1024x1024 .f32).access (rH (slot i))).Stores Finset.univ}
    {e4 : (Finset.univ : Finset (rH (slot i)).shape.Idx) = Finset.univ ∨ ∀ x, (rH (slot i)).stride x = 1}
    {e5 : (Memref.whole cc0_scratch0 : Memref sig .tc .vmem S2x1024x2048 .f32).view.LoadsAt (rIn (slot i) b).toLoadRect}
    {e6 : (Memref.whole cc0_scratch2 : Memref sig .tc .vmem S2x1024x1024 .f32).view.LoadsAt (rH (slot i)).toLoadRect}
    {e7 : ((Memref.whole cc0_scratch2 : Memref sig .tc .vmem S2x1024x1024 .f32).access (rH (slot i))).Stores Finset.univ}
    {e8 : (Finset.univ : Finset (rH (slot i)).shape.Idx) = Finset.univ ∨ ∀ x, (rH (slot i)).stride x = 1}
    {e9 : (vkV (slot i)).view.WordExact} {e10 : (oVd c i).view.WordExact}
    {e11 : DmaTarget.Typed (nD := nD) .vmem (.dma (keepS i))
      (DmaTarget.here (oVd c i) : DmaTarget nD τ sig (c : Thread nD τ).2 .hbm S1024x1024 .f32)}
    {e12 : (oVd c i : Memref sig (Dev.tc (peer c) : Thread nD τ).2.kind .hbm S1024x1024 .f32).view.ref.isScScratch = false}
    {e13 : (vsV (slot i)).view.WordExact} {e14 : (oVd c i).view.WordExact}
    {e15 : DmaTarget.Typed .vmem (.dma (recvS i)) (.remote (Dev.tc (peer c) : Thread nD τ) (oVd c i) (.dma (sendS i)) e12)}
    {α : Type} {Q : α → sProp 𝕄} {k : PUnit → Prog (TpuEff nD τ sig (Elt F) Λ₀ .tc) α}
    (W : Waits sig Unit) (fd : Buf (Elt F) ((vinV (slot i)).view.loc (c : Thread nD τ)))
    (gk : Buf (Elt F) ((c : Thread nD τ).loc cc0_scratch1)) (gs : Buf (Elt F) ((c : Thread nD τ).loc cc0_scratch2))
    (fo : Buf (Elt F) ((oVd c i).view.loc (c : Thread nD τ))) (fp : Buf (Elt F) ((oVd c i).view.loc (peer c : Thread nD τ))) :
    (iprop(records m K
        ∗ (((c : Thread nD τ).loc cc0_scratch0) ↦[(vinV (slot i)).view.set]{fullShare} vinAfter m c i fd)
        ∗ (((c : Thread nD τ).loc cc0_scratch1) ↦[(vkV (slot i)).view.set]{fullShare} gk)
        ∗ (((c : Thread nD τ).loc cc0_scratch2) ↦[(vsV (slot i)).view.set]{fullShare} gs)
        ∗ ((oVd c i).view.loc (c : Thread nD τ) ↦[(oVd c i).view.set]{fullShare} fo)
        ∗ ((oVd c i).view.loc (peer c : Thread nD τ) ↦[(oVd c i).view.set]{fullShare} fp)
        ∗ owes (c : Thread nD τ) (owedFrom c i.val) W
        ∗ dutyTok ER (keepCell c i) 0 () ∗ dutyTok ER (sendCell c i) 0 () ∗ dutyTok ER (recvCell (peer c) i) 0 ()) : sProp 𝕄)
      ⊢ iprop((((((c : Thread nD τ).loc cc0_scratch0) ↦[(vinV (slot i)).view.set]{fullShare} vinAfter m c i fd)
                ∗ cred (tallyAt (keepCell c i) () Nh) ∗ cred (tallyAt (sendCell c i) () Nh)
                ∗ owes (c : Thread nD τ) (owedFrom c (i.val + 1)) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch0 : Memref sig .tc .vmem S2x1024x2048 .f32) (rIn (slot i) a).toLoadRect e1) fun v1 =>
               .op (.load (Memref.whole cc0_scratch1 : Memref sig .tc .vmem S2x1024x1024 .f32) (rH (slot i)).toLoadRect e2) fun _ =>
               .op (.store (Memref.whole cc0_scratch1 : Memref sig .tc .vmem S2x1024x1024 .f32) (rH (slot i)) (payId v1) Finset.univ e3 e4) fun _ =>
               .op (.load (Memref.whole cc0_scratch0 : Memref sig .tc .vmem S2x1024x2048 .f32) (rIn (slot i) b).toLoadRect e5) fun v2 =>
               .op (.load (Memref.whole cc0_scratch2 : Memref sig .tc .vmem S2x1024x1024 .f32) (rH (slot i)).toLoadRect e6) fun _ =>
               .op (.store (Memref.whole cc0_scratch2 : Memref sig .tc .vmem S2x1024x1024 .f32) (rH (slot i)) (payId v2) Finset.univ e7 e8) fun _ =>
               .op (.enqueueDma (vkV (slot i)) (.here (oVd c i)) (.dma (keepS i)) e9 e10 e11) fun _ =>
               .op (.enqueueDma (vsV (slot i)) (.remote (Dev.tc (peer c) : Thread nD τ) (oVd c i) (.dma (sendS i)) e12) (.dma (recvS i)) e13 e14 e15) k) Q) := by
  subst ha; subst hb
  iintro ⟨#HR, Hin, Hk1, Hs1, Ho, Hp, HO, Tk, Ts, Tr⟩ Hk
  -- the kept half of the input slot
  iapply (wp_ld_in c (slot i) (xf c) (hl := e1) (Q := Q) (vinAfter m c i fd)) $$ Hin
  iintro Hin
  -- the keep slot (its value is not used)
  iapply (wp_ld_k c (slot i) (hl := e2) (Q := Q) gk) $$ Hk1
  iintro Hk1
  -- the kept half into the keep slot
  iapply (wp_st_k c (slot i) (hx := e3) (hm := e4) (Q := Q) gk _) $$ Hk1
  iintro Hk1
  -- the sent half of the input slot
  iapply (wp_ld_in c (slot i) (xf (peer c)) (hl := e5) (Q := Q) (vinAfter m c i fd)) $$ Hin
  iintro Hin
  -- the send slot (its value is not used)
  iapply (wp_ld_s c (slot i) (hl := e6) (Q := Q) gs) $$ Hs1
  iintro Hs1
  -- the sent half into the send slot
  iapply (wp_st_s c (slot i) (hx := e7) (hm := e8) (Q := Q) gs _) $$ Hs1
  iintro Hs1
  -- the keep copy
  iapply (wp_keep_enq m K c i (hsrc := e9) (hdst := e10) (hsem := e11) (Q := Q) fo gk fd) $$ [Hk1 Ho Tk]
  · isplitr; · iapply (inv_at m K c (.dma (keepS i))); iexact HR
    isplitl [Hk1]; · iexact Hk1
    isplitl [Ho]; · iexact Ho
    isplitl [Tk]; · iexact Tk
    iapply (reached_at m K c (.dma (keepS i))); iexact HR
  iintro Hck
  -- the send
  iapply (wp_send m K c i (hsc := e12) (hsrc := e13) (hdst := e14) (hsem := e15) (Q := Q) (k := k) W fp gs fd) $$ [Hs1 Hp HO Ts Tr]
  · isplitr; · iapply (inv_at m K c (.dma (sendS i))); iexact HR
    isplitr; · iapply (inv_at m K (peer c) (.dma (recvS i))); iexact HR
    isplitl [Hs1]; · iexact Hs1
    isplitl [Hp]; · iexact Hp
    isplitl [HO]; · iexact HO
    isplitl [Ts]; · iexact Ts
    isplitr; · iapply (reached_at m K c (.dma (sendS i))); iexact HR
    isplitl [Tr]; · iexact Tr
    iapply (reached_at m K (peer c) (.dma (recvS i))); iexact HR
  iintro ⟨Hcs, HO⟩
  iapply Hk
  isplitl [Hin]; · iexact Hin
  isplitl [Hck]; · iexact Hck
  isplitl [Hcs]; · iexact Hcs
  iexact HO

/-! ## The printed text of iteration 1, at x coordinate 0, is an instance -/

example (c : Dev nD) (hc : xf c = 0) (hp : xf (peer c) = 1)
    {α : Type} {Q : α → sProp 𝕄} {k : PUnit → Prog (TpuEff nD τ sig (Elt F) Λ₀ .tc) α}
    (W : Waits sig Unit) (fd : Buf (Elt F) ((vinV (slot 1)).view.loc (c : Thread nD τ)))
    (gk : Buf (Elt F) ((c : Thread nD τ).loc cc0_scratch1)) (gs : Buf (Elt F) ((c : Thread nD τ).loc cc0_scratch2))
    (fo : Buf (Elt F) ((oVd c 1).view.loc (c : Thread nD τ))) (fp : Buf (Elt F) ((oVd c 1).view.loc (peer c : Thread nD τ))) :
    (iprop(records m K
        ∗ (((c : Thread nD τ).loc cc0_scratch0) ↦[(vinV (slot 1)).view.set]{fullShare} vinAfter m c 1 fd)
        ∗ (((c : Thread nD τ).loc cc0_scratch1) ↦[(vkV (slot 1)).view.set]{fullShare} gk)
        ∗ (((c : Thread nD τ).loc cc0_scratch2) ↦[(vsV (slot 1)).view.set]{fullShare} gs)
        ∗ ((oVd c 1).view.loc (c : Thread nD τ) ↦[(oVd c 1).view.set]{fullShare} fo)
        ∗ ((oVd c 1).view.loc (peer c : Thread nD τ) ↦[(oVd c 1).view.set]{fullShare} fp)
        ∗ owes (c : Thread nD τ) (owedFrom c (1 : Fin 16).val) W
        ∗ dutyTok ER (keepCell c 1) 0 () ∗ dutyTok ER (sendCell c 1) 0 () ∗ dutyTok ER (recvCell (peer c) 1) 0 ()) : sProp 𝕄)
      ⊢ iprop((((((c : Thread nD τ).loc cc0_scratch0) ↦[(vinV (slot 1)).view.set]{fullShare} vinAfter m c 1 fd)
                ∗ cred (tallyAt (keepCell c 1) () Nh) ∗ cred (tallyAt (sendCell c 1) () Nh)
                ∗ owes (c : Thread nD τ) (owedFrom c ((1 : Fin 16).val + 1)) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch0 : Memref sig .tc .vmem S2x1024x2048 .f32) (Rect.unit (s := S2x1024x2048) ![1, 0, 0] S1x1024x1024.size inb_S2x1024x2048_S1x1024x1024_1_0_0).toLoadRect (View.loadsAt_vmem h_S1x1024x1024)) fun v961 =>
               .op (.load (Memref.whole cc0_scratch1 : Memref sig .tc .vmem S2x1024x1024 .f32) (Rect.unit (s := S2x1024x1024) ![1, 0, 0] S1x1024x1024.size inb_S2x1024x1024_S1x1024x1024_1_0_0).toLoadRect (View.loadsAt_vmem h_S1x1024x1024)) fun v963 =>
               .op (.store (Memref.whole cc0_scratch1 : Memref sig .tc .vmem S2x1024x1024 .f32) (Rect.unit (s := S2x1024x1024) ![1, 0, 0] S1x1024x1024.size inb_S2x1024x1024_S1x1024x1024_1_0_0) (k0_pay5 v961) Finset.univ (View.stores_vmem_bits_univ h_S1x1024x1024 rfl) (.inl rfl)) fun _ =>
               .op (.load (Memref.whole cc0_scratch0 : Memref sig .tc .vmem S2x1024x2048 .f32) (Rect.unit (s := S2x1024x2048) ![1, 0, 1024] S1x1024x1024.size inb_S2x1024x2048_S1x1024x1024_1_0_1024).toLoadRect (View.loadsAt_vmem h_S1x1024x1024)) fun v966 =>
               .op (.load (Memref.whole cc0_scratch2 : Memref sig .tc .vmem S2x1024x1024 .f32) (Rect.unit (s := S2x1024x1024) ![1, 0, 0] S1x1024x1024.size inb_S2x1024x1024_S1x1024x1024_1_0_0).toLoadRect (View.loadsAt_vmem h_S1x1024x1024)) fun v968 =>
               .op (.store (Memref.whole cc0_scratch2 : Memref sig .tc .vmem S2x1024x1024 .f32) (Rect.unit (s := S2x1024x1024) ![1, 0, 0] S1x1024x1024.size inb_S2x1024x1024_S1x1024x1024_1_0_0) (k0_pay6 v966) Finset.univ (View.stores_vmem_bits_univ h_S1x1024x1024 rfl) (.inl rfl)) fun _ =>
               .op (.enqueueDma
                  (((Memref.whole cc0_scratch1 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024)
                  (.here ((Memref.whole main_v1 : Memref sig .tc .hbm S32768x1024 .f32).slice (Rect.unit (s := S32768x1024) (k0_off1 c 1024#32) S1024x1024.size (k0_off1_inb c 1)) (fun _ => rfl)))
                  (.dma (((cc0_scratch4 : DmaSems sig S16).slice (Rect.unit (s := S16) ![1] S1.size inb_S16_S1_1)).squeeze S_ squeezes_S1_S_).sem)
                  ((View.wordExact_bits rfl).reshape _ _) (View.wordExact_bits rfl) ⟨Or.inl rfl, trivial⟩) fun _ =>
               .op (.enqueueDma
                  (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024)
                  (.remote (Dev.tc (peer c) : Thread nD τ)
                    ((Memref.whole main_v1 : Memref sig .tc .hbm S32768x1024 .f32).slice (Rect.unit (s := S32768x1024) (k0_off1 c 1024#32) S1024x1024.size (k0_off1_inb c 1)) (fun _ => rfl))
                    (.dma (((cc0_scratch5 : DmaSems sig S16).slice (Rect.unit (s := S16) ![1] S1.size inb_S16_S1_1)).squeeze S_ squeezes_S1_S_).sem))
                  (.dma (((cc0_scratch6 : DmaSems sig S16).slice (Rect.unit (s := S16) ![1] S1.size inb_S16_S1_1)).squeeze S_ squeezes_S1_S_).sem)
                  ((View.wordExact_bits rfl).reshape _ _) (View.wordExact_bits rfl) ⟨⟨rfl, Or.inl rfl⟩, trivial⟩) k) Q) :=
  wp_blk m K c 1 0 1 hc hp W fd gk gs fo fp

/-- info: 'Cert.KernelIdeal.A2A.wp_blk' depends on axioms: [propext, Classical.choice, Quot.sound] -/
#guard_msgs in #print axioms wp_blk

end Cert.KernelIdeal.A2A

end
-- ==== Proof.Iter.lean ====
/-
  The operations of the body over the persistent records: each rule of the two operation modules restated with
  "every cell's invariant and round-0 fact" (records) and the level facts in place of the one invariant, round-0 fact or
  permission to wait it needs, and with whatever varies from step to step — a buffer's contents, the set of waits
  recorded — under an existential, so that the body proof threads closed assertions.
-/
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.KernelIdeal.Skeleton
import proofs.«900648_g7700000000000649_dist_a2a_v7x_xyz2x4x4_x_m16384_n1024_f32_1_alg».proof.Proof.Gen.KernelIdeal.Launch
import proofs.«900648_g7700000000000649_dist_a2a_v7x_xyz2x4x4_x_m16384_n1024_f32_1_alg».proof.Proof.Gen.KernelIdeal.Points
import proofs.«900648_g7700000000000649_dist_a2a_v7x_xyz2x4x4_x_m16384_n1024_f32_1_alg».proof.Proof.OpsLocal
import proofs.«900648_g7700000000000649_dist_a2a_v7x_xyz2x4x4_x_m16384_n1024_f32_1_alg».proof.Proof.OpsRemote
import proofs.«900648_g7700000000000649_dist_a2a_v7x_xyz2x4x4_x_m16384_n1024_f32_1_alg».proof.Proof.Regroup
import proofs.«900648_g7700000000000649_dist_a2a_v7x_xyz2x4x4_x_m16384_n1024_f32_1_alg».proof.Proof.Block
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ)

/-- Device c owes its peer's receive cells a block's credit for every chunk from o on (whatever waits it has recorded). -/
def OW (c : Dev nD) (o : ℕ) : sProp 𝕄 := iprop(∃ W, owes (c : Thread nD τ) (owedFrom c o) W)
/-- Device c owes nothing. -/
def OW0 (c : Dev nD) : sProp 𝕄 := iprop(∃ W, owes (c : Thread nD τ) 0 W)

omit [FloatOps F] in
theorem OW_16 (c : Dev nD) : (OW c 16 : sProp 𝕄) = OW0 c := by unfold OW OW0; rw [owedFrom_16]

/-! ## The entry handshake -/

/-- The signal to the peer: it hands over the rows of this device's result that the peer's sends write. -/
theorem r_sig (c : Dev nD) {α : Type} {Q : α → sProp 𝕄} {k : PUnit → Prog (TpuEff nD τ sig (Elt F) Λ₀ .tc) α} (f : Buf (Elt F) ((c : Thread nD τ).loc main_v1)) :
    (iprop(records m K ∗ (∃ W, owes (c : Thread nD τ) (O₀ c) W) ∗ dutyTok ER (barCell (peer c)) 0 ()
        ∗ (bigSep Finset.univ fun i : Fin 16 => ((oVd (peer c) i).view.loc (c : Thread nD τ) ↦[(oVd (peer c) i).view.set]{fullShare} f))) : sProp 𝕄)
      ⊢ iprop((OW c 0 -∗ wp frame (wpE (defs₀ (F := F)) 𝒱₀ (c : Thread nD τ) none) Set.univ (k ⟨⟩) Q) -∗ wp frame (wpE (defs₀ (F := F)) 𝒱₀ (c : Thread nD τ) none) Set.univ (.op (.semSignal (peer c : Thread nD τ) barS 1) k) Q) := by
  unfold OW
  iintro ⟨#HR, ⟨%W, HO⟩, Ht, Hrows⟩ Hk
  iapply (wp_sig m K c W (Q := Q) (k := k)) $$ [HO Ht Hrows]
  · isplitr; · iapply (inv_at m K (peer c) (.reg barS)); iexact HR
    isplitl [HO]; · iexact HO
    isplitl [Ht]; · iexact Ht
    isplitl [Hrows]
    · rw [barPay_peer]
      isplitl [Hrows]; · iapply (rows_exists c (peer c) f); iexact Hrows
      iapply (reached_recv m K c); iexact HR
    iapply (reached_at m K (peer c) (.reg barS)); iexact HR
  iintro HO
  iapply Hk
  iexists _; iexact HO

/-- The wait for the peer's signal: the rows of the peer's result that this device's sends write come with it. -/
theorem r_bar_wait (c : Dev nD) {α : Type} {Q : α → sProp 𝕄} {k : PUnit → Prog (TpuEff nD τ sig (Elt F) Λ₀ .tc) α} :
    (iprop(records m K ∗ levAts L lv ∗ cred (tallyAt (barCell c) () 1) ∗ OW c 0 ∗ atPos ER (barCell c) 0 ∅ 0) : sProp 𝕄)
      ⊢ iprop(((OW c 0 ∗ atPos ER (barCell c) 1 ∅ 0
              ∗ (bigSep Finset.univ fun i : Fin 16 => iprop(∃ fd, (oVd c i).view.loc (peer c : Thread nD τ) ↦[(oVd c i).view.set]{fullShare} fd)))
            -∗ wp frame (wpE (defs₀ (F := F)) 𝒱₀ (c : Thread nD τ) none) Set.univ (k ⟨⟩) Q) -∗ wp frame (wpE (defs₀ (F := F)) 𝒱₀ (c : Thread nD τ) none) Set.univ (.op (.semWait barS 1) k) Q) := by
  unfold OW
  iintro ⟨#HR, #Hlev, Hc, ⟨%W, HO⟩, Hat⟩ Hk
  iapply (wp_bar_wait m K c W (Q := Q) (k := k)) $$ [Hc HO Hat]
  · isplitr; · iapply (inv_at m K c (.reg barS)); iexact HR
    isplitl [Hc]; · iexact Hc
    isplitl [HO]; · iexact HO
    isplitr; · iexact Hlev
    iexact Hat
  unfold barPay
  iintro ⟨HO, Hat, ⟨Hrows, -⟩⟩
  iapply Hk
  isplitl [HO]; · iexists _; iexact HO
  isplitl [Hat]; · iexact Hat
  iexact Hrows

/-! ## The input copies -/

/-- The input copy of chunk n, at whatever round its cell has reached. -/
theorem r_in_enq (c : Dev nD) (n : Fin 16)
    {hsrc : (xV n).view.WordExact} {hdst : (vinV (slot n)).view.WordExact}
    {hsem : DmaTarget.Typed (nD := nD) .hbm (.dma (inS (slot n))) (DmaTarget.here (vinV (slot n)) : DmaTarget nD τ sig (c : Thread nD τ).2 .vmem S1024x2048 .f32)}
    {α : Type} {Q : α → sProp 𝕄} {k : PUnit → Prog (TpuEff nD τ sig (Elt F) Λ₀ .tc) α} :
    (iprop(records m K
        ∗ ((xV n).view.loc (c : Thread nD τ) ↦[(xV n).view.set]{fullShare} Xa m c)
        ∗ (∃ fd, (vinV (slot n)).view.loc (c : Thread nD τ) ↦[(vinV (slot n)).view.set]{fullShare} fd)
        ∗ dutyTok ER (inCell c (slot n)) (rnd n) () ∗ reached ER (inCell c (slot n)) (rnd n)) : sProp 𝕄)
      ⊢ iprop((cred (tallyAt (inCell c (slot n)) () Nin) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xV n) (.here (vinV (slot n))) (.dma (inS (slot n))) hsrc hdst hsem) k) Q) := by
  iintro ⟨#HR, Hx, ⟨%fd, Hv⟩, Ht, #Hr⟩ Hk
  iapply (wp_in_enq m K c n (hsrc := hsrc) (hdst := hdst) (hsem := hsem) (Q := Q) (k := k) fd) $$ [Hx Hv Ht]
  · isplitr; · iapply (inv_at m K c (.dma (inS (slot n)))); iexact HR
    isplitl [Hx]; · iexact Hx
    isplitl [Hv]; · iexact Hv
    isplitl [Ht]; · iexact Ht
    iexact Hr
  iexact Hk

/-- The wait for chunk i's input copy, while owing the receive credits from chunk o on. -/
theorem r_in_wait (c : Dev nD) (i : Fin 16)
    {hsrc : (xV i).view.WordExact} {hdst : (vinV (slot i)).view.WordExact}
    {α : Type} {Q : α → sProp 𝕄} {k : PUnit → Prog (TpuEff nD τ sig (Elt F) Λ₀ .tc) α} (o : ℕ) :
    (iprop(records m K ∗ levAts L lv ∗ cred (tallyAt (inCell c (slot i)) () Nin) ∗ OW c o
        ∗ atPos ER (inCell c (slot i)) (rnd i) ∅ 0) : sProp 𝕄)
      ⊢ iprop(((OW c o ∗ atPos ER (inCell c (slot i)) (rnd i + 1) ∅ 0 ∗ reached ER (inCell c (slot i)) (rnd i + 1) ∗ inPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (inS (slot i)) (xV i) (vinV (slot i)) hsrc hdst) k) Q) := by
  unfold OW
  iintro ⟨#HR, #Hlev, Hc, ⟨%W, HO⟩, Hat⟩ Hk
  iapply (wp_in_wait m K c i (hsrc := hsrc) (hdst := hdst) (Q := Q) (k := k) (owedFrom c o) W) $$ [Hc HO Hat]
  · isplitr; · iapply (inv_at m K c (.dma (inS (slot i)))); iexact HR
    isplitl [Hc]; · iexact Hc
    isplitl [HO]; · iexact HO
    isplitr; · iapply (mayWait_low c (inS (slot i)) (by have := (slot i).isLt; show (slot i).val < 34; omega) o); iexact Hlev
    iexact Hat
  iintro ⟨HO, Hat, Hr, Hp⟩
  iapply Hk
  isplitl [HO]; · iexists _; iexact HO
  isplitl [Hat]; · iexact Hat
  isplitl [Hr]; · iexact Hr
  iexact Hp

/-! ## The waits on the keep and send cells -/

/-- The wait for chunk j's keep copy: its result rows, final, and the keep slot. -/
theorem r_keep_wait (c : Dev nD) (j : Fin 16)
    {hsrc : (vkV (slot j)).view.WordExact} {hdst : (oVd c j).view.WordExact}
    {α : Type} {Q : α → sProp 𝕄} {k : PUnit → Prog (TpuEff nD τ sig (Elt F) Λ₀ .tc) α} (o : ℕ) :
    (iprop(records m K ∗ levAts L lv ∗ cred (tallyAt (keepCell c j) () Nh) ∗ OW c o ∗ atPos ER (keepCell c j) 0 ∅ 0) : sProp 𝕄)
      ⊢ iprop(((OW c o ∗ atPos ER (keepCell c j) 1 ∅ 0 ∗ keepPay m c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (keepS j) (vkV (slot j)) (oVd c j) hsrc hdst) k) Q) := by
  unfold OW
  iintro ⟨#HR, #Hlev, Hc, ⟨%W, HO⟩, Hat⟩ Hk
  iapply (wp_keep_wait m K c j (hsrc := hsrc) (hdst := hdst) (Q := Q) (k := k) (owedFrom c o) W) $$ [Hc HO Hat]
  · isplitr; · iapply (inv_at m K c (.dma (keepS j))); iexact HR
    isplitl [Hc]; · iexact Hc
    isplitl [HO]; · iexact HO
    isplitr; · iapply (mayWait_low c (keepS j) (by have := j.isLt; show 2 + j.val < 34; omega) o); iexact Hlev
    iexact Hat
  iintro ⟨HO, Hat, -, Hp⟩
  iapply Hk
  isplitl [HO]; · iexists _; iexact HO
  isplitl [Hat]; · iexact Hat
  iexact Hp

/-- The wait for chunk j's send to have read its slot: the send slot. -/
theorem r_send_wait (c : Dev nD) (j : Fin 16)
    {hsrc : (oVd c j).view.WordExact} {hdst : (vsV (slot j)).view.WordExact}
    {α : Type} {Q : α → sProp 𝕄} {k : PUnit → Prog (TpuEff nD τ sig (Elt F) Λ₀ .tc) α} (o : ℕ) :
    (iprop(records m K ∗ levAts L lv ∗ cred (tallyAt (sendCell c j) () Nh) ∗ OW c o ∗ atPos ER (sendCell c j) 0 ∅ 0) : sProp 𝕄)
      ⊢ iprop(((OW c o ∗ atPos ER (sendCell c j) 1 ∅ 0 ∗ sendPay c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) (oVd c j) (vsV (slot j)) hsrc hdst) k) Q) := by
  unfold OW
  iintro ⟨#HR, #Hlev, Hc, ⟨%W, HO⟩, Hat⟩ Hk
  iapply (wp_send_wait m K c j (hsrc := hsrc) (hdst := hdst) (Q := Q) (k := k) (owedFrom c o) W) $$ [Hc HO Hat]
  · isplitr; · iapply (inv_at m K c (.dma (sendS j))); iexact HR
    isplitl [Hc]; · iexact Hc
    isplitl [HO]; · iexact HO
    isplitr; · iapply (mayWait_low c (sendS j) (by have := j.isLt; show 18 + j.val < 34; omega) o); iexact Hlev
    iexact Hat
  iintro ⟨HO, Hat, -, Hp⟩
  iapply Hk
  isplitl [HO]; · iexists _; iexact HO
  isplitl [Hat]; · iexact Hat
  iexact Hp

/-- The final wait for the peer's send of chunk t, owing nothing. -/
theorem r_recv_wait (c : Dev nD) (t : Fin 16)
    {hsrc : (vsV (slot t)).view.WordExact} {hdst : (oVd c t).view.WordExact}
    {α : Type} {Q : α → sProp 𝕄} {k : PUnit → Prog (TpuEff nD τ sig (Elt F) Λ₀ .tc) α} :
    (iprop(records m K ∗ cred (tallyAt (recvCell c t) () Nh) ∗ OW0 c ∗ atPos ER (recvCell c t) 0 ∅ 0) : sProp 𝕄)
      ⊢ iprop(((OW0 c ∗ atPos ER (recvCell c t) 1 ∅ 0 ∗ recvPay m c t) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS t) (vsV (slot t)) (oVd c t) hsrc hdst) k) Q) := by
  unfold OW0
  iintro ⟨#HR, Hc, ⟨%W, HO⟩, Hat⟩ Hk
  iapply (wp_recv_wait m K c t (hsrc := hsrc) (hdst := hdst) (Q := Q) (k := k) W) $$ [Hc HO Hat]
  · isplitr; · iapply (inv_at m K c (.dma (recvS t))); iexact HR
    isplitl [Hc]; · iexact Hc
    isplitl [HO]; · iexact HO
    iexact Hat
  iintro ⟨HO, Hat, -, Hp⟩
  iapply Hk
  isplitl [HO]; · iexists _; iexact HO
  isplitl [Hat]; · iexact Hat
  iexact Hp

/-! ## An iteration's compute block -/

/-- Chunk i, landed in its input slot, is halved into the keep and send slots; the kept half is copied to the device's
    own result rows and the other half sent to the peer's. The receive credit owed for chunk i is paid off. -/
theorem r_blk (c : Dev nD) (i : Fin 16) (a b : Fin 2) (ha : xf c = a) (hb : xf (peer c) = b)
    {e1 : (Memref.whole cc0_scratch0 : Memref sig .tc .vmem S2x1024x2048 .f32).view.LoadsAt (rIn (slot i) a).toLoadRect}
    {e2 : (Memref.whole cc0_scratch1 : Memref sig .tc .vmem S2x1024x1024 .f32).view.LoadsAt (rH (slot i)).toLoadRect}
    {e3 : ((Memref.whole cc0_scratch1 : Memref sig .tc .vmem S2x1024x1024 .f32).access (rH (slot i))).Stores Finset.univ}
    {e4 : (Finset.univ : Finset (rH (slot i)).shape.Idx) = Finset.univ ∨ ∀ x, (rH (slot i)).stride x = 1}
    {e5 : (Memref.whole cc0_scratch0 : Memref sig .tc .vmem S2x1024x2048 .f32).view.LoadsAt (rIn (slot i) b).toLoadRect}
    {e6 : (Memref.whole cc0_scratch2 : Memref sig .tc .vmem S2x1024x1024 .f32).view.LoadsAt (rH (slot i)).toLoadRect}
    {e7 : ((Memref.whole cc0_scratch2 : Memref sig .tc .vmem S2x1024x1024 .f32).access (rH (slot i))).Stores Finset.univ}
    {e8 : (Finset.univ : Finset (rH (slot i)).shape.Idx) = Finset.univ ∨ ∀ x, (rH (slot i)).stride x = 1}
    {e9 : (vkV (slot i)).view.WordExact} {e10 : (oVd c i).view.WordExact}
    {e11 : DmaTarget.Typed (nD := nD) .vmem (.dma (keepS i)) (DmaTarget.here (oVd c i) : DmaTarget nD τ sig (c : Thread nD τ).2 .hbm S1024x1024 .f32)}
    {e12 : (oVd c i : Memref sig (Dev.tc (peer c) : Thread nD τ).2.kind .hbm S1024x1024 .f32).view.ref.isScScratch = false}
    {e13 : (vsV (slot i)).view.WordExact} {e14 : (oVd c i).view.WordExact}
    {e15 : DmaTarget.Typed .vmem (.dma (recvS i)) (.remote (Dev.tc (peer c) : Thread nD τ) (oVd c i) (.dma (sendS i)) e12)}
    {α : Type} {Q : α → sProp 𝕄} {k : PUnit → Prog (TpuEff nD τ sig (Elt F) Λ₀ .tc) α} :
    (iprop(records m K
        ∗ (∃ fd, (vinV (slot i)).view.loc (c : Thread nD τ) ↦[(vinV (slot i)).view.set]{fullShare} vinAfter m c i fd)
        ∗ (∃ g, (vkV (slot i)).view.loc (c : Thread nD τ) ↦[(vkV (slot i)).view.set]{fullShare} g)
        ∗ (∃ g, (vsV (slot i)).view.loc (c : Thread nD τ) ↦[(vsV (slot i)).view.set]{fullShare} g)
        ∗ (∃ fo, (oVd c i).view.loc (c : Thread nD τ) ↦[(oVd c i).view.set]{fullShare} fo)
        ∗ (∃ fp, (oVd c i).view.loc (peer c : Thread nD τ) ↦[(oVd c i).view.set]{fullShare} fp)
        ∗ OW c i.val
        ∗ dutyTok ER (keepCell c i) 0 () ∗ dutyTok ER (sendCell c i) 0 () ∗ dutyTok ER (recvCell (peer c) i) 0 ()) : sProp 𝕄)
      ⊢ iprop((((∃ f, (vinV (slot i)).view.loc (c : Thread nD τ) ↦[(vinV (slot i)).view.set]{fullShare} f)
                ∗ cred (tallyAt (keepCell c i) () Nh) ∗ cred (tallyAt (sendCell c i) () Nh) ∗ OW c (i.val + 1))
              -∗ wp frame (wpE (defs₀ (F := F)) 𝒱₀ (c : Thread nD τ) none) Set.univ (k ⟨⟩) Q)
          -∗ wp frame (wpE (defs₀ (F := F)) 𝒱₀ (c : Thread nD τ) none) Set.univ
             (.op (.load (Memref.whole cc0_scratch0 : Memref sig .tc .vmem S2x1024x2048 .f32) (rIn (slot i) a).toLoadRect e1) fun v1 =>
              .op (.load (Memref.whole cc0_scratch1 : Memref sig .tc .vmem S2x1024x1024 .f32) (rH (slot i)).toLoadRect e2) fun _ =>
              .op (.store (Memref.whole cc0_scratch1 : Memref sig .tc .vmem S2x1024x1024 .f32) (rH (slot i)) (payId v1) Finset.univ e3 e4) fun _ =>
              .op (.load (Memref.whole cc0_scratch0 : Memref sig .tc .vmem S2x1024x2048 .f32) (rIn (slot i) b).toLoadRect e5) fun v2 =>
              .op (.load (Memref.whole cc0_scratch2 : Memref sig .tc .vmem S2x1024x1024 .f32) (rH (slot i)).toLoadRect e6) fun _ =>
              .op (.store (Memref.whole cc0_scratch2 : Memref sig .tc .vmem S2x1024x1024 .f32) (rH (slot i)) (payId v2) Finset.univ e7 e8) fun _ =>
              .op (.enqueueDma (vkV (slot i)) (.here (oVd c i)) (.dma (keepS i)) e9 e10 e11) fun _ =>
              .op (.enqueueDma (vsV (slot i)) (.remote (Dev.tc (peer c) : Thread nD τ) (oVd c i) (.dma (sendS i)) e12) (.dma (recvS i)) e13 e14 e15) k) Q) := by
  unfold OW
  iintro ⟨#HR, ⟨%fd, Hin⟩, ⟨%gk, Hvk⟩, ⟨%gs, Hvs⟩, ⟨%fo, Hoo⟩, ⟨%fp, Hop⟩, ⟨%W, HO⟩, HtK, HtS, HtR⟩ Hk
  iapply (wp_blk m K c i a b ha hb (e1 := e1) (e2 := e2) (e3 := e3) (e4 := e4) (e5 := e5) (e6 := e6) (e7 := e7) (e8 := e8)
      (e9 := e9) (e10 := e10) (e11 := e11) (e12 := e12) (e13 := e13) (e14 := e14) (e15 := e15) (Q := Q) (k := k) W fd gk gs fo fp)
    $$ [Hin Hvk Hvs Hoo Hop HO HtK HtS HtR]
  · isplitr; · iexact HR
    isplitl [Hin]; · iexact Hin
    isplitl [Hvk]; · iexact Hvk
    isplitl [Hvs]; · iexact Hvs
    isplitl [Hoo]; · iexact Hoo
    isplitl [Hop]; · iexact Hop
    isplitl [HO]; · iexact HO
    isplitl [HtK]; · iexact HtK
    isplitl [HtS]; · iexact HtS
    iexact HtR
  iintro ⟨Hin, HcK, HcS, HO⟩
  iapply Hk
  isplitl [Hin]; · iexists _; iexact Hin
  isplitl [HcK]; · iexact HcK
  isplitl [HcS]; · iexact HcS
  iexists _; iexact HO

/-! ## The cells close at exit -/

theorem r_close_in (c : Dev nD) (s : Fin 2) :
    (iprop(records m K ∗ atPos ER (inCell c s) 8 ∅ 0) : sProp 𝕄) ⊢ iprop(|={Set.univ}=> semVal (inCell c s) 0) := by
  iintro ⟨#HR, Hat⟩
  iapply (close_in m K c s)
  isplitr; · iapply (inv_at m K c (.dma (inS s))); iexact HR
  iexact Hat
theorem r_close_keep (c : Dev nD) (i : Fin 16) :
    (iprop(records m K ∗ atPos ER (keepCell c i) 1 ∅ 0) : sProp 𝕄) ⊢ iprop(|={Set.univ}=> semVal (keepCell c i) 0) := by
  iintro ⟨#HR, Hat⟩
  iapply (close_keep m K c i)
  isplitr; · iapply (inv_at m K c (.dma (keepS i))); iexact HR
  iexact Hat
theorem r_close_send (c : Dev nD) (i : Fin 16) :
    (iprop(records m K ∗ atPos ER (sendCell c i) 1 ∅ 0) : sProp 𝕄) ⊢ iprop(|={Set.univ}=> semVal (sendCell c i) 0) := by
  iintro ⟨#HR, Hat⟩
  iapply (close_send m K c i)
  isplitr; · iapply (inv_at m K c (.dma (sendS i))); iexact HR
  iexact Hat
theorem r_close_recv (c : Dev nD) (i : Fin 16) :
    (iprop(records m K ∗ atPos ER (recvCell c i) 1 ∅ 0) : sProp 𝕄) ⊢ iprop(|={Set.univ}=> semVal (recvCell c i) 0) := by
  iintro ⟨#HR, Hat⟩
  iapply (close_recv m K c i)
  isplitr; · iapply (inv_at m K c (.dma (recvS i))); iexact HR
  iexact Hat

end Cert.KernelIdeal.A2A

end
-- ==== Proof.BlockSteps.lean ====
/-
  The two copies of an iteration's compute block, stepped one at a time over the persistent records: the keep copy of
  chunk i and the send of its other half, each taking the slot as the stores left it — the half at an explicit column
  offset, which is the device's own x coordinate for the keep slot and its peer's for the send slot.
-/
import proofs.«900648_g7700000000000649_dist_a2a_v7x_xyz2x4x4_x_m16384_n1024_f32_1_alg».proof.Proof.Iter
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ)

/-- The keep copy of chunk i, from the keep slot as the store of the kept half (columns 1024 a …) left it. -/
theorem r_keep_enq (c : Dev nD) (i : Fin 16) (a : Fin 2) (ha : xf c = a)
    {hsrc : (vkV (slot i)).view.WordExact} {hdst : (oVd c i).view.WordExact}
    {hsem : DmaTarget.Typed (nD := nD) .vmem (.dma (keepS i))
      (DmaTarget.here (oVd c i) : DmaTarget nD τ sig (c : Thread nD τ).2 .hbm S1024x1024 .f32)}
    {α : Type} {Q : α → sProp 𝕄} {k : PUnit → Prog (TpuEff nD τ sig (Elt F) Λ₀ .tc) α} :
    (iprop(records m K
        ∗ (∃ g fd, (vkV (slot i)).view.loc (c : Thread nD τ) ↦[(vkV (slot i)).view.set]{fullShare}
              ((Memref.whole cc0_scratch1 : Memref sig .tc .vmem S2x1024x1024 .f32).access (rH (slot i))).write (Elt F) g
                (payId ((Memref.whole cc0_scratch0 : Memref sig .tc .vmem S2x1024x2048 .f32).view.readAt (Elt F) (rIn (slot i) a).toLoadRect (vinAfter m c i fd))) Finset.univ)
        ∗ (∃ fo, (oVd c i).view.loc (c : Thread nD τ) ↦[(oVd c i).view.set]{fullShare} fo)
        ∗ dutyTok ER (keepCell c i) 0 ()) : sProp 𝕄)
      ⊢ iprop((cred (tallyAt (keepCell c i) () Nh) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (vkV (slot i)) (.here (oVd c i)) (.dma (keepS i)) hsrc hdst hsem) k) Q) := by
  subst ha
  iintro ⟨#HR, ⟨%g, %fd, Hvk⟩, ⟨%fo, Hoo⟩, Ht⟩ Hk
  iapply (wp_keep_enq m K c i (hsrc := hsrc) (hdst := hdst) (hsem := hsem) (Q := Q) (k := k) fo g fd) $$ [Hvk Hoo Ht]
  · isplitr; · iapply (inv_at m K c (.dma (keepS i))); iexact HR
    isplitl [Hvk]; · iexact Hvk
    isplitl [Hoo]; · iexact Hoo
    isplitl [Ht]; · iexact Ht
    iapply (reached_at m K c (.dma (keepS i))); iexact HR
  iexact Hk

/-- The send of chunk i's other half, from the send slot as the store of that half (columns 1024 b …) left it. -/
theorem r_send (c : Dev nD) (i : Fin 16) (b : Fin 2) (hb : xf (peer c) = b)
    {hsc : (oVd c i : Memref sig (Dev.tc (peer c) : Thread nD τ).2.kind .hbm S1024x1024 .f32).view.ref.isScScratch = false}
    {hsrc : (vsV (slot i)).view.WordExact} {hdst : (oVd c i).view.WordExact}
    {hsem : DmaTarget.Typed .vmem (.dma (recvS i)) (.remote (Dev.tc (peer c) : Thread nD τ) (oVd c i) (.dma (sendS i)) hsc)}
    {α : Type} {Q : α → sProp 𝕄} {k : PUnit → Prog (TpuEff nD τ sig (Elt F) Λ₀ .tc) α} :
    (iprop(records m K
        ∗ (∃ g fd, (vsV (slot i)).view.loc (c : Thread nD τ) ↦[(vsV (slot i)).view.set]{fullShare}
              ((Memref.whole cc0_scratch2 : Memref sig .tc .vmem S2x1024x1024 .f32).access (rH (slot i))).write (Elt F) g
                (payId ((Memref.whole cc0_scratch0 : Memref sig .tc .vmem S2x1024x2048 .f32).view.readAt (Elt F) (rIn (slot i) b).toLoadRect (vinAfter m c i fd))) Finset.univ)
        ∗ (∃ fp, (oVd c i).view.loc (peer c : Thread nD τ) ↦[(oVd c i).view.set]{fullShare} fp)
        ∗ OW c i.val ∗ dutyTok ER (sendCell c i) 0 () ∗ dutyTok ER (recvCell (peer c) i) 0 ()) : sProp 𝕄)
      ⊢ iprop(((cred (tallyAt (sendCell c i) () Nh) ∗ OW c (i.val + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (vsV (slot i)) (.remote (Dev.tc (peer c) : Thread nD τ) (oVd c i) (.dma (sendS i)) hsc) (.dma (recvS i)) hsrc hdst hsem) k) Q) := by
  subst hb
  unfold OW
  iintro ⟨#HR, ⟨%g, %fd, Hvs⟩, ⟨%fp, Hop⟩, ⟨%W, HO⟩, HtS, HtR⟩ Hk
  iapply (wp_send m K c i (hsc := hsc) (hsrc := hsrc) (hdst := hdst) (hsem := hsem) (Q := Q) (k := k) W fp g fd) $$ [Hvs Hop HO HtS HtR]
  · isplitr; · iapply (inv_at m K c (.dma (sendS i))); iexact HR
    isplitr; · iapply (inv_at m K (peer c) (.dma (recvS i))); iexact HR
    isplitl [Hvs]; · iexact Hvs
    isplitl [Hop]; · iexact Hop
    isplitl [HO]; · iexact HO
    isplitl [HtS]; · iexact HtS
    isplitr; · iapply (reached_at m K c (.dma (sendS i))); iexact HR
    isplitl [HtR]; · iexact HtR
    iapply (reached_at m K (peer c) (.dma (recvS i))); iexact HR
  iintro ⟨HcS, HO⟩
  iapply Hk
  isplitl [HcS]; · iexact HcS
  iexists _; iexact HO

/-- info: 'Cert.KernelIdeal.A2A.r_send' depends on axioms: [propext, Classical.choice, Quot.sound] -/
#guard_msgs in #print axioms r_send
/-- info: 'Cert.KernelIdeal.A2A.r_keep_enq' depends on axioms: [propext, Classical.choice, Quot.sound] -/
#guard_msgs in #print axioms r_keep_enq

end Cert.KernelIdeal.A2A

end
-- ==== Proof.SendAt.lean ====
/-
  The send of chunk i, addressed as the kernel computes the device: to a device n that IS the peer (the equation is
  substituted, not rewritten: the operation's evidence depends on the device).
-/
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.KernelIdeal.Skeleton
import proofs.«900648_g7700000000000649_dist_a2a_v7x_xyz2x4x4_x_m16384_n1024_f32_1_alg».proof.Proof.Gen.KernelIdeal.Launch
import proofs.«900648_g7700000000000649_dist_a2a_v7x_xyz2x4x4_x_m16384_n1024_f32_1_alg».proof.Proof.Gen.KernelIdeal.Points
import proofs.«900648_g7700000000000649_dist_a2a_v7x_xyz2x4x4_x_m16384_n1024_f32_1_alg».proof.Proof.BlockSteps
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ)

theorem r_send_at (c : Dev nD) (i : Fin 16) (b : Fin 2) (hb : xf (peer c) = b) (n : Dev nD) (hn : n = peer c)
    {hsc : (oVd c i : Memref sig (Dev.tc n : Thread nD τ).2.kind .hbm S1024x1024 .f32).view.ref.isScScratch = false}
    {hsrc : (vsV (slot i)).view.WordExact} {hdst : (oVd c i).view.WordExact}
    {hsem : DmaTarget.Typed .vmem (.dma (recvS i)) (.remote (Dev.tc n : Thread nD τ) (oVd c i) (.dma (sendS i)) hsc)}
    {α : Type} {Q : α → sProp 𝕄} {k : PUnit → Prog (TpuEff nD τ sig (Elt F) Λ₀ .tc) α} :
    (iprop(records m K
        ∗ (∃ g fd, (vsV (slot i)).view.loc (c : Thread nD τ) ↦[(vsV (slot i)).view.set]{fullShare}
              ((Memref.whole cc0_scratch2 : Memref sig .tc .vmem S2x1024x1024 .f32).access (rH (slot i))).write (Elt F) g
                (payId ((Memref.whole cc0_scratch0 : Memref sig .tc .vmem S2x1024x2048 .f32).view.readAt (Elt F) (rIn (slot i) b).toLoadRect (vinAfter m c i fd))) Finset.univ)
        ∗ (∃ fp, (oVd c i).view.loc (peer c : Thread nD τ) ↦[(oVd c i).view.set]{fullShare} fp)
        ∗ OW c i.val ∗ dutyTok ER (sendCell c i) 0 () ∗ dutyTok ER (recvCell (peer c) i) 0 ()) : sProp 𝕄)
      ⊢ iprop(((cred (tallyAt (sendCell c i) () Nh) ∗ OW c (i.val + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vsV (slot i)) (.remote (Dev.tc n : Thread nD τ) (oVd c i) (.dma (sendS i)) hsc) (.dma (recvS i)) hsrc hdst hsem) k) Q) := by
  subst hn
  exact r_send m K c i b hb (hsc := hsc) (hsrc := hsrc) (hdst := hdst) (hsem := hsem) (Q := Q) (k := k)

/-- info: 'Cert.KernelIdeal.A2A.r_send_at' depends on axioms: [propext, Classical.choice, Quot.sound] -/
#guard_msgs in #print axioms r_send_at

end Cert.KernelIdeal.A2A

end
-- ==== Proof.BodyTac.lean ====
/-
  The tactics of the body proof: one per kind of operation, each applying that operation's rule to the hypotheses of
  the chunk it concerns (hypotheses are named by role and chunk number), and the whole chain of operations in the
  printed order.
-/
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.KernelIdeal.Skeleton
import proofs.«900648_g7700000000000649_dist_a2a_v7x_xyz2x4x4_x_m16384_n1024_f32_1_alg».proof.Proof.Gen.KernelIdeal.Launch
import proofs.«900648_g7700000000000649_dist_a2a_v7x_xyz2x4x4_x_m16384_n1024_f32_1_alg».proof.Proof.Gen.KernelIdeal.Points
import proofs.«900648_g7700000000000649_dist_a2a_v7x_xyz2x4x4_x_m16384_n1024_f32_1_alg».proof.Proof.Iter
import proofs.«900648_g7700000000000649_dist_a2a_v7x_xyz2x4x4_x_m16384_n1024_f32_1_alg».proof.Proof.SendAt
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The printed guards, decided over the mesh: "my x coordinate is 0" and "my x coordinate is 1". -/
theorem cond_eq0 (c : Dev nD) : Scalar.cmpi CmpIPredicate.ne (Scalar.extui (Scalar.cmpi CmpIPredicate.eq (Scalar.remsi (Scalar.divsi c.word 16#32) 2#32) 0#32)) 0#32
    = if xf c = 0 then 1#1 else 0#1 := by revert c; decide
theorem cond_eq1 (c : Dev nD) : Scalar.cmpi CmpIPredicate.ne (Scalar.extui (Scalar.cmpi CmpIPredicate.eq (Scalar.remsi (Scalar.divsi c.word 16#32) 2#32) 1#32)) 0#32
    = if xf c = 0 then 0#1 else 1#1 := by revert c; decide

omit [FloatOps F] in
theorem ex_vin (c : Dev nD) (s : Fin 2) (f : Buf (Elt F) ((c : Thread nD τ).loc cc0_scratch0)) :
    ((vinV s).view.loc (c : Thread nD τ) ↦[(vinV s).view.set]{fullShare} f : sProp 𝕄) ⊢ iprop(∃ fd, (vinV s).view.loc (c : Thread nD τ) ↦[(vinV s).view.set]{fullShare} fd) := by
  iintro H; iexists f; iexact H
omit [FloatOps F] in
theorem ex_vk (c : Dev nD) (s : Fin 2) (f : Buf (Elt F) ((c : Thread nD τ).loc cc0_scratch1)) :
    ((vkV s).view.loc (c : Thread nD τ) ↦[(vkV s).view.set]{fullShare} f : sProp 𝕄) ⊢ iprop(∃ fd, (vkV s).view.loc (c : Thread nD τ) ↦[(vkV s).view.set]{fullShare} fd) := by
  iintro H; iexists f; iexact H
omit [FloatOps F] in
theorem ex_vs (c : Dev nD) (s : Fin 2) (f : Buf (Elt F) ((c : Thread nD τ).loc cc0_scratch2)) :
    ((vsV s).view.loc (c : Thread nD τ) ↦[(vsV s).view.set]{fullShare} f : sProp 𝕄) ⊢ iprop(∃ fd, (vsV s).view.loc (c : Thread nD τ) ↦[(vsV s).view.set]{fullShare} fd) := by
  iintro H; iexists f; iexact H

section Macros
open Lean

/-- The hypothesis name of a role and a chunk (or slot) number. -/
private def hy (p : String) (n : Nat) : Ident := mkIdent (Name.mkSimple (p ++ toString n))

/-- Sixteen conjuncts of a hypothesis (a sixteen-fold separating conjunction, chunk by chunk), named by chunk. -/
syntax "a2a_split16 " ident str : tactic
macro_rules
  | `(tactic| a2a_split16 $h:ident $p:str) => do
    let q := p.getString
    let n (i : Nat) : Ident := hy q i
    `(tactic| (ihave Hsp := (Entails.of_eq (bigSep_fin16 _)) $$ $h:ident
               icases Hsp with ⟨$(n 0):ident, $(n 1):ident, $(n 2):ident, $(n 3):ident, $(n 4):ident, $(n 5):ident, $(n 6):ident, $(n 7):ident, $(n 8):ident, $(n 9):ident, $(n 10):ident, $(n 11):ident, $(n 12):ident, $(n 13):ident, $(n 14):ident, $(n 15):ident⟩))

/-- Chunk n's input copy is issued. -/
syntax "a2a_enq " num : tactic
macro_rules
  | `(tactic| a2a_enq $n:num) => do
    let k := n.getNat
    let hx := hy "Hx" k; let hv := hy "Hvin" (k % 2); let ht := hy "HtI" k; let hr := hy "HrI" (k % 2); let hc := hy "HcI" k
    `(tactic| (iapply (r_in_enq $(mkIdent `m) $(mkIdent `K) $(mkIdent `c) ($n : Fin 16)) $$ [$hx:ident $hv:ident $ht:ident]
               isplitr; iexact $(mkIdent `HR)
               isplitl [$hx:ident]; iexact $hx:ident
               isplitl [$hv:ident]; iexact $hv:ident
               isplitl [$ht:ident]; iexact $ht:ident
               iexact $hr:ident
               iintro $hc:ident))

/-- Chunk i's input copy is waited for (owing the receive credits from chunk o on): its slot holds the chunk, and
    the chunk of the argument is back. -/
syntax "a2a_wait " num num : tactic
macro_rules
  | `(tactic| a2a_wait $i:num $o:num) => do
    let k := i.getNat
    let hc := hy "HcI" k; let hp := hy "HpI" (k % 2); let hr := hy "HrI" (k % 2); let hin := hy "Hin" k; let hx := hy "Hx" k
    `(tactic| (iapply (r_in_wait $(mkIdent `m) $(mkIdent `K) $(mkIdent `c) ($i : Fin 16) $o) $$ [$hc:ident $(mkIdent `HO):ident $hp:ident]
               isplitr; iexact $(mkIdent `HR)
               isplitr; iexact $(mkIdent `Hlev)
               isplitl [$hc:ident]; iexact $hc:ident
               isplitl [$(mkIdent `HO):ident]; iexact $(mkIdent `HO)
               iexact $hp:ident
               iintro ⟨$(mkIdent `HO):ident, $hp:ident, #$hr:ident, Hpay⟩
               unfold inPay
               icases Hpay with ⟨$hin:ident, $hx:ident⟩))

/-- Chunk j's keep copy is waited for: its result rows are final, the keep slot is back. -/
syntax "a2a_kwait " num num : tactic
macro_rules
  | `(tactic| a2a_kwait $j:num $o:num) => do
    let k := j.getNat
    let hc := hy "HcK" k; let hp := hy "HpK" k; let hd := hy "Hdn" k; let hv := hy "Hvk" (k % 2)
    `(tactic| (iapply (r_keep_wait $(mkIdent `m) $(mkIdent `K) $(mkIdent `c) ($j : Fin 16) $o) $$ [$hc:ident $(mkIdent `HO):ident $hp:ident]
               isplitr; iexact $(mkIdent `HR)
               isplitr; iexact $(mkIdent `Hlev)
               isplitl [$hc:ident]; iexact $hc:ident
               isplitl [$(mkIdent `HO):ident]; iexact $(mkIdent `HO)
               iexact $hp:ident
               iintro ⟨$(mkIdent `HO):ident, $hp:ident, Hpay⟩
               unfold keepPay
               icases Hpay with ⟨$hd:ident, $hv:ident⟩))

/-- Chunk j's send has read its slot: the send slot is back. -/
syntax "a2a_swait " num num : tactic
macro_rules
  | `(tactic| a2a_swait $j:num $o:num) => do
    let k := j.getNat
    let hc := hy "HcS" k; let hp := hy "HpS" k; let hv := hy "Hvs" (k % 2)
    `(tactic| (iapply (r_send_wait $(mkIdent `m) $(mkIdent `K) $(mkIdent `c) ($j : Fin 16) $o) $$ [$hc:ident $(mkIdent `HO):ident $hp:ident]
               isplitr; iexact $(mkIdent `HR)
               isplitr; iexact $(mkIdent `Hlev)
               isplitl [$hc:ident]; iexact $hc:ident
               isplitl [$(mkIdent `HO):ident]; iexact $(mkIdent `HO)
               iexact $hp:ident
               iintro ⟨$(mkIdent `HO):ident, $hp:ident, Hpay⟩
               unfold sendPay
               irename Hpay => $hv:ident))

/-- The peer's send of chunk t is waited for: its rows of the result are final. -/
syntax "a2a_rwait " num : tactic
macro_rules
  | `(tactic| a2a_rwait $t:num) => do
    let k := t.getNat
    let hc := hy "HcR" k; let hp := hy "HpR" k; let hr := hy "Hrv" k
    `(tactic| (iapply (r_recv_wait $(mkIdent `m) $(mkIdent `K) $(mkIdent `c) ($t : Fin 16)) $$ [$hc:ident $(mkIdent `HO):ident $hp:ident]
               isplitr; iexact $(mkIdent `HR)
               isplitl [$hc:ident]; iexact $hc:ident
               isplitl [$(mkIdent `HO):ident]; iexact $(mkIdent `HO)
               iexact $hp:ident
               iintro ⟨$(mkIdent `HO):ident, $hp:ident, $hr:ident⟩))

/-- Chunk t's three cells close: their counters are the device's again, at zero. -/
syntax "a2a_close " num : tactic
macro_rules
  | `(tactic| a2a_close $t:num) => do
    let k := t.getNat
    let hpk := hy "HpK" k; let hps := hy "HpS" k; let hpr := hy "HpR" k
    let hzk := hy "HzK" k; let hzs := hy "HzS" k; let hzr := hy "HzR" k
    let HR := mkIdent `HR; let m := mkIdent `m; let K := mkIdent `K; let c := mkIdent `c
    `(tactic| (imod (r_close_keep $m $K $c ($t : Fin 16)) $$ [$hpk:ident] with $hzk:ident
               · isplitr; iexact $HR; iexact $hpk:ident
               imod (r_close_send $m $K $c ($t : Fin 16)) $$ [$hps:ident] with $hzs:ident
               · isplitr; iexact $HR; iexact $hps:ident
               imod (r_close_recv $m $K $c ($t : Fin 16)) $$ [$hpr:ident] with $hzr:ident
               · isplitr; iexact $HR; iexact $hpr:ident))

/-- A sixteen-fold separating conjunction, from its sixteen named conjuncts. -/
syntax "a2a_join16 " str : tactic
macro_rules
  | `(tactic| a2a_join16 $p:str) => do
    let q := p.getString
    let n (i : Nat) : Ident := hy q i
    `(tactic| (iapply (Entails.of_eq (bigSep_fin16 _).symm)
               isplitl [$(n 0):ident]; iexact $(n 0):ident
               isplitl [$(n 1):ident]; iexact $(n 1):ident
               isplitl [$(n 2):ident]; iexact $(n 2):ident
               isplitl [$(n 3):ident]; iexact $(n 3):ident
               isplitl [$(n 4):ident]; iexact $(n 4):ident
               isplitl [$(n 5):ident]; iexact $(n 5):ident
               isplitl [$(n 6):ident]; iexact $(n 6):ident
               isplitl [$(n 7):ident]; iexact $(n 7):ident
               isplitl [$(n 8):ident]; iexact $(n 8):ident
               isplitl [$(n 9):ident]; iexact $(n 9):ident
               isplitl [$(n 10):ident]; iexact $(n 10):ident
               isplitl [$(n 11):ident]; iexact $(n 11):ident
               isplitl [$(n 12):ident]; iexact $(n 12):ident
               isplitl [$(n 13):ident]; iexact $(n 13):ident
               isplitl [$(n 14):ident]; iexact $(n 14):ident
               iexact $(n 15):ident))

/-- The spatial hypotheses of a role, all sixteen chunks, go to the left conjunct. -/
syntax "a2a_left16 " str : tactic
macro_rules
  | `(tactic| a2a_left16 $p:str) => do
    let q := p.getString
    let n (i : Nat) : Ident := hy q i
    `(tactic| isplitl [$(n 0):ident $(n 1):ident $(n 2):ident $(n 3):ident $(n 4):ident $(n 5):ident $(n 6):ident $(n 7):ident $(n 8):ident $(n 9):ident $(n 10):ident $(n 11):ident $(n 12):ident $(n 13):ident $(n 14):ident $(n 15):ident])
syntax "a2a_left32 " str str : tactic
macro_rules
  | `(tactic| a2a_left32 $p:str $p2:str) => do
    let q := p.getString; let q2 := p2.getString
    let n (i : Nat) : Ident := hy q i
    let n2 (i : Nat) : Ident := hy q2 i
    `(tactic| isplitl [$(n 0):ident $(n 1):ident $(n 2):ident $(n 3):ident $(n 4):ident $(n 5):ident $(n 6):ident $(n 7):ident $(n 8):ident $(n 9):ident $(n 10):ident $(n 11):ident $(n 12):ident $(n 13):ident $(n 14):ident $(n 15):ident $(n2 0):ident $(n2 1):ident $(n2 2):ident $(n2 3):ident $(n2 4):ident $(n2 5):ident $(n2 6):ident $(n2 7):ident $(n2 8):ident $(n2 9):ident $(n2 10):ident $(n2 11):ident $(n2 12):ident $(n2 13):ident $(n2 14):ident $(n2 15):ident])

/-- Part k of the printed body is opened: its operations are laid out and its guards on the x coordinate decided. -/
syntax "a2a_open " num : tactic
macro_rules
  | `(tactic| a2a_open $k:num) => do
    let n := k.getNat
    let eqn := mkIdent (Name.mkSimple ("k0_part" ++ toString n ++ "_eq_skeleton"))
    let sk := mkIdent (Name.mkSimple ("k0_part" ++ toString n ++ "_skel"))
    `(tactic| (simp only [$eqn:ident]; unfold $sk:ident
               simp only [semSignalWord, semWaitWord, Prog.lift, Prog.bind_op, Prog.bind_ret, Prog.pure_eq_ret, Prog.bind_assoc, wp_deviceId,
                 dev1_eq, dev2_eq, dev3_eq, dev4_eq, dev5_eq, dev6_eq, dev7_eq, dev8_eq, dev9_eq, dev10_eq, dev11_eq, dev12_eq, dev13_eq, dev14_eq, dev15_eq, dev16_eq, dev17_eq, cond_eq0, cond_eq1, $(mkIdent `ha):ident, if_true, if_false, ↓reduceIte, ↓reduceDIte,
                 show (1 : Fin 2) ≠ 0 from by decide, show (0#1 : BitVec 1) ≠ 1#1 from by decide]))

/-- The six loads and stores of iteration i: the half at column offset 1024 a goes to the keep slot, the half at
    1024 b to the send slot. -/
syntax "a2a_halves " num num num : tactic
macro_rules
  | `(tactic| a2a_halves $i:num $a:num $b:num) => do
    let k := i.getNat
    let s := k % 2
    let hin := hy "Hin" k; let hvf := hy "Hvf" k; let hvk := hy "Hvk" s; let hvs := hy "Hvs" s
    let fd := hy "fd" k; let gk := hy "gk" k; let gs := hy "gs" k
    let c := mkIdent `c; let m := mkIdent `m
    `(tactic| (icases $hin:ident with ⟨%_, $hvf:ident⟩
               icases $hvk:ident with ⟨%_, $hvk:ident⟩
               icases $hvs:ident with ⟨%_, $hvs:ident⟩
               iapply (wp_ld_in $c (slot ($i : Fin 16)) ($a : Fin 2) _) $$ [$hvf:ident]; iexact $hvf:ident; iintro $hvf:ident
               iapply (wp_ld_k $c (slot ($i : Fin 16)) _) $$ [$hvk:ident]; iexact $hvk:ident; iintro $hvk:ident
               iapply (wp_st_k $c (slot ($i : Fin 16)) _ _) $$ [$hvk:ident]; iexact $hvk:ident; iintro $hvk:ident
               iapply (wp_ld_in $c (slot ($i : Fin 16)) ($b : Fin 2) _) $$ [$hvf:ident]; iexact $hvf:ident; iintro $hvf:ident
               iapply (wp_ld_s $c (slot ($i : Fin 16)) _) $$ [$hvs:ident]; iexact $hvs:ident; iintro $hvs:ident
               iapply (wp_st_s $c (slot ($i : Fin 16)) _ _) $$ [$hvs:ident]; iexact $hvs:ident; iintro $hvs:ident))

/-- The keep copy of chunk i is issued. -/
syntax "a2a_kenq " num num : tactic
macro_rules
  | `(tactic| a2a_kenq $i:num $a:num) => do
    let k := i.getNat
    let s := k % 2
    let hvk := hy "Hvk" s; let hoo := hy "Hoo" k; let htk := hy "HtK" k; let hck := hy "HcK" k
    let fd := hy "fd" k; let gk := hy "gk" k
    `(tactic| (iapply (r_keep_enq $(mkIdent `m) $(mkIdent `K) $(mkIdent `c) ($i : Fin 16) ($a : Fin 2) $(mkIdent `ha)) $$ [$hvk:ident $hoo:ident $htk:ident]
               isplitr; iexact $(mkIdent `HR)
               isplitl [$hvk:ident]; (iexists _, _; iexact $hvk:ident)
               isplitl [$hoo:ident]; iexact $hoo:ident
               iexact $htk:ident
               iintro $hck:ident))

/-- The send of chunk i's other half is issued; the input slot is free again. -/
syntax "a2a_send " num num : tactic
macro_rules
  | `(tactic| a2a_send $i:num $b:num) => do
    let k := i.getNat
    let s := k % 2
    let hvs := hy "Hvs" s; let hop := hy "Hop" k; let hts := hy "HtS" k; let htr := hy "HtR" k; let hcs := hy "HcS" k
    let hvf := hy "Hvf" k; let hvin := hy "Hvin" s
    let fd := hy "fd" k; let gs := hy "gs" k
    let HO := mkIdent `HO
    let dv := mkIdent (Name.mkSimple ("dev" ++ toString (k + 2) ++ "_eq"))
    `(tactic| (iapply (r_send_at $(mkIdent `m) $(mkIdent `K) $(mkIdent `c) ($i : Fin 16) ($b : Fin 2) $(mkIdent `hb) _ ($dv:ident $(mkIdent `c))) $$ [$hvs:ident $hop:ident $HO:ident $hts:ident $htr:ident]
               isplitr; iexact $(mkIdent `HR)
               isplitl [$hvs:ident]; (iexists _, _; iexact $hvs:ident)
               isplitl [$hop:ident]; iexact $hop:ident
               isplitl [$HO:ident]; iexact $HO:ident
               isplitl [$hts:ident]; iexact $hts:ident
               iexact $htr:ident
               iintro ⟨$hcs:ident, $HO:ident⟩
               ihave $hvin:ident := (ex_vin $(mkIdent `c) (slot ($i : Fin 16)) _) $$ $hvf:ident))

/-- Every send is issued: nothing is owed any more. -/
syntax "a2a_owes_done" : tactic
macro_rules
  | `(tactic| a2a_owes_done) => `(tactic| ihave $(mkIdent `HO):ident := (Entails.of_eq (OW_16 $(mkIdent `c))) $$ $(mkIdent `HO):ident)

end Macros

end Cert.KernelIdeal.A2A

end
-- ==== Proof.BodyChain.lean ====
import proofs.«900648_g7700000000000649_dist_a2a_v7x_xyz2x4x4_x_m16384_n1024_f32_1_alg».proof.Proof.BodyTac

namespace Cert.KernelIdeal.A2A

open Lean in
/-- The sixteen chunks and the last waits, in the printed order of operations, for a device whose own half lies at
    column offset 1024 a and whose peer's at 1024 b. The steps before it (the handshake) are the theorem's own. -/
syntax "a2a_chain " num num : tactic
macro_rules
  | `(tactic| a2a_chain $a:num $b:num) =>
    `(tactic| (
      a2a_enq 0
      a2a_enq 1
      a2a_open 2
      a2a_wait 0 0
      a2a_halves 0 $a $b
      a2a_kenq 0 $a
      a2a_open 3
      a2a_send 0 $b
      a2a_enq 2
      a2a_wait 1 1
      a2a_halves 1 $a $b
      a2a_kenq 1 $a
      a2a_open 4
      a2a_send 1 $b
      a2a_enq 3
      a2a_wait 2 2
      a2a_kwait 0 2
      a2a_open 5
      a2a_swait 0 2
      a2a_halves 2 $a $b
      a2a_kenq 2 $a
      a2a_open 6
      a2a_send 2 $b
      a2a_enq 4
      a2a_wait 3 3
      a2a_kwait 1 3
      a2a_swait 1 3
      a2a_open 7
      a2a_halves 3 $a $b
      a2a_kenq 3 $a
      a2a_send 3 $b
      a2a_open 8
      a2a_enq 5
      a2a_wait 4 4
      a2a_kwait 2 4
      a2a_swait 2 4
      a2a_halves 4 $a $b
      a2a_open 9
      a2a_kenq 4 $a
      a2a_send 4 $b
      a2a_enq 6
      a2a_wait 5 5
      a2a_open 10
      a2a_kwait 3 5
      a2a_swait 3 5
      a2a_halves 5 $a $b
      a2a_kenq 5 $a
      a2a_open 11
      a2a_send 5 $b
      a2a_enq 7
      a2a_wait 6 6
      a2a_kwait 4 6
      a2a_open 12
      a2a_swait 4 6
      a2a_halves 6 $a $b
      a2a_kenq 6 $a
      a2a_send 6 $b
      a2a_open 13
      a2a_enq 8
      a2a_wait 7 7
      a2a_kwait 5 7
      a2a_swait 5 7
      a2a_halves 7 $a $b
      a2a_open 14
      a2a_kenq 7 $a
      a2a_send 7 $b
      a2a_enq 9
      a2a_open 15
      a2a_wait 8 8
      a2a_kwait 6 8
      a2a_swait 6 8
      a2a_halves 8 $a $b
      a2a_kenq 8 $a
      a2a_open 16
      a2a_send 8 $b
      a2a_enq 10
      a2a_wait 9 9
      a2a_kwait 7 9
      a2a_open 17
      a2a_swait 7 9
      a2a_halves 9 $a $b
      a2a_kenq 9 $a
      a2a_open 18
      a2a_send 9 $b
      a2a_enq 11
      a2a_wait 10 10
      a2a_kwait 8 10
      a2a_swait 8 10
      a2a_open 19
      a2a_halves 10 $a $b
      a2a_kenq 10 $a
      a2a_send 10 $b
      a2a_open 20
      a2a_enq 12
      a2a_wait 11 11
      a2a_kwait 9 11
      a2a_swait 9 11
      a2a_halves 11 $a $b
      a2a_open 21
      a2a_kenq 11 $a
      a2a_send 11 $b
      a2a_enq 13
      a2a_wait 12 12
      a2a_open 22
      a2a_kwait 10 12
      a2a_swait 10 12
      a2a_halves 12 $a $b
      a2a_kenq 12 $a
      a2a_open 23
      a2a_send 12 $b
      a2a_enq 14
      a2a_wait 13 13
      a2a_kwait 11 13
      a2a_open 24
      a2a_swait 11 13
      a2a_halves 13 $a $b
      a2a_kenq 13 $a
      a2a_send 13 $b
      a2a_open 25
      a2a_enq 15
      a2a_wait 14 14
      a2a_kwait 12 14
      a2a_swait 12 14
      a2a_halves 14 $a $b
      a2a_open 26
      a2a_kenq 14 $a
      a2a_send 14 $b
      a2a_wait 15 15
      a2a_open 27
      a2a_kwait 13 15
      a2a_swait 13 15
      a2a_halves 15 $a $b
      a2a_kenq 15 $a
      a2a_open 28
      a2a_send 15 $b
      a2a_kwait 14 16
      a2a_kwait 15 16
      a2a_swait 14 16
      a2a_open 29
      a2a_swait 15 16
      a2a_owes_done
      a2a_rwait 0
      a2a_rwait 1
      a2a_open 30
      a2a_rwait 2
      a2a_rwait 3
      a2a_rwait 4
      a2a_open 31
      a2a_rwait 5
      a2a_rwait 6
      a2a_rwait 7
      a2a_open 32
      a2a_rwait 8
      a2a_rwait 9
      a2a_open 33
      a2a_rwait 10
      a2a_rwait 11
      a2a_rwait 12
      a2a_rwait 13
      a2a_rwait 14
      a2a_rwait 15))

end Cert.KernelIdeal.A2A
-- ==== Proof.Body0.lean ====
/-
  The body of a device whose own half of each chunk lies at column offset 0 and whose peer's at 1024: from what
  the launch hands it to what it hands back.
-/
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.KernelIdeal.Skeleton
import proofs.«900648_g7700000000000649_dist_a2a_v7x_xyz2x4x4_x_m16384_n1024_f32_1_alg».proof.Proof.Gen.KernelIdeal.Launch
import proofs.«900648_g7700000000000649_dist_a2a_v7x_xyz2x4x4_x_m16384_n1024_f32_1_alg».proof.Proof.Gen.KernelIdeal.Points
import proofs.«900648_g7700000000000649_dist_a2a_v7x_xyz2x4x4_x_m16384_n1024_f32_1_alg».proof.Proof.BodyChain
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536 in
set_option maxHeartbeats 4000000 in
theorem sound_body0 (c : Dev nD) (ha : xf c = 0) (hb : xf (peer c) = 1) (Kt : PUnit → sProp 𝕄) :
    iprop(bodyPre m c ∗ (bodyPost m c -∗ Kt ⟨⟩))
      ⊢ wp frame (wpE (defs₀ (F := F)) 𝒱₀ (c : Thread nD τ) none) Set.univ (bodyAt0 (F := F) t₀) Kt := by
  unfold bodyAt0
  simp only [cc0_body_eq_skeleton]; unfold cc0_body_skel
  a2a_open 34
  unfold bodyPre Φ₀ start scratch ghost creds payToks
  iintro ⟨⟨⟨⟨⟨%K, #HR, Hpos, HtB, HtI, HtK, HtS, HtR⟩, ⟨HcB, HcR⟩, #Hlev, Hx, Ho⟩, ⟨%f0, Hv0⟩, ⟨%f1, Hv1⟩, ⟨%f2, Hv2⟩⟩, Howes⟩, Hk⟩
  unfold Dat.owesAt Pipeline.owesWithin
  icases Howes with ⟨%W, %hW, HO⟩
  rw [show (dats m 0 c).owed t₀.castSucc = O₀ c from rfl]
  -- the pools, chunk by chunk
  ihave Hp := (Entails.of_eq (positions_split c)) $$ Hpos
  icases Hp with ⟨HpB, HpI0, HpI1, HpK, HpS, HpR⟩
  a2a_split16 HpK "HpK"
  a2a_split16 HpS "HpS"
  a2a_split16 HpR "HpR"
  a2a_split16 HtI "HtI"
  a2a_split16 HtK "HtK"
  a2a_split16 HtS "HtS"
  a2a_split16 HtR "HtR"
  a2a_split16 HcR "HcR"
  ihave Hxs := (Entails.of_eq (split_x c fullShare (Xa m c))) $$ Hx
  a2a_split16 Hxs "Hx"
  ihave Hos := (Entails.of_eq (split_o2 c (m ((c : Thread nD τ).loc main_v1)))) $$ Ho
  icases Hos with ⟨Hoo, Hop⟩
  ihave Hs0 := (split_in c f0).1 $$ Hv0
  icases Hs0 with ⟨Hvin0, Hvin1⟩
  ihave Hvin0 := (ex_vin c 0 f0) $$ Hvin0
  ihave Hvin1 := (ex_vin c 1 f0) $$ Hvin1
  ihave Hs1 := (split_k c f1).1 $$ Hv1
  icases Hs1 with ⟨Hvk0, Hvk1⟩
  ihave Hvk0 := (ex_vk c 0 f1) $$ Hvk0
  ihave Hvk1 := (ex_vk c 1 f1) $$ Hvk1
  ihave Hs2 := (split_s c f2).1 $$ Hv2
  icases Hs2 with ⟨Hvs0, Hvs1⟩
  ihave Hvs0 := (ex_vs c 0 f2) $$ Hvs0
  ihave Hvs1 := (ex_vs c 1 f2) $$ Hvs1
  ihave #HrI0 := (reached_at m K c (.dma (inS 0))) $$ HR
  ihave #HrI1 := (reached_at m K c (.dma (inS 1))) $$ HR
  -- the entry handshake
  a2a_open 1
  iapply (r_sig m K c (m ((c : Thread nD τ).loc main_v1))) $$ [HO HtB Hop]
  · isplitr; · iexact HR
    isplitl [HO]; · iexists W; iexact HO
    isplitl [HtB]; · iexact HtB
    iexact Hop
  iintro HO
  iapply (r_bar_wait m K c) $$ [HcB HO HpB]
  · isplitr; · iexact HR
    isplitr; · iexact Hlev
    isplitl [HcB]; · iexact HcB
    isplitl [HO]; · iexact HO
    iexact HpB
  iintro ⟨HO, HpB, Hpeer⟩
  a2a_split16 Hpeer "Hop"
  ihave Hoo := (rows_exists c c (m ((c : Thread nD τ).loc main_v1))) $$ Hoo
  a2a_split16 Hoo "Hoo"
  -- the sixteen chunks and the last waits
  a2a_chain 0 1
  -- the own cells close
  imod (r_close_in m K c 0) $$ [HpI0] with HzI0
  · isplitr; iexact HR; iexact HpI0
  imod (r_close_in m K c 1) $$ [HpI1] with HzI1
  · isplitr; iexact HR; iexact HpI1
  a2a_close 0
  a2a_close 1
  a2a_close 2
  a2a_close 3
  a2a_close 4
  a2a_close 5
  a2a_close 6
  a2a_close 7
  a2a_close 8
  a2a_close 9
  a2a_close 10
  a2a_close 11
  a2a_close 12
  a2a_close 13
  a2a_close 14
  a2a_close 15
  rw [wp_ret]; imodintro
  iapply Hk
  unfold bodyPost Φ₁ scratch Dat.owesAt Pipeline.owesWithin OW0 recvPay
  rw [show (dats m 0 c).owed t₀.succ = 0 from rfl]
  isplitr [HO]
  · -- the argument, whole again
    a2a_left16 "Hx"
    · iapply (Entails.of_eq (split_x c fullShare (Xa m c)).symm)
      a2a_join16 "Hx"
    -- the result: the sixteen kept row blocks and the sixteen received ones
    a2a_left32 "Hdn" "Hrv"
    · iapply (Entails.of_eq (split_o2 c (outK m c)).symm)
      a2a_left16 "Hdn"
      · a2a_join16 "Hdn"
      a2a_join16 "Hrv"
    -- the scratch buffers
    isplitl [Hvin0 Hvin1 Hvk0 Hvk1 Hvs0 Hvs1]
    · isplitl [Hvin0 Hvin1]
      · icases Hvin0 with ⟨%g0, Hvin0⟩
        icases Hvin1 with ⟨%g1, Hvin1⟩
        iapply (join_in c g0 g1)
        isplitl [Hvin0]; iexact Hvin0; iexact Hvin1
      isplitl [Hvk0 Hvk1]
      · icases Hvk0 with ⟨%g0, Hvk0⟩
        icases Hvk1 with ⟨%g1, Hvk1⟩
        iapply (join_k c g0 g1)
        isplitl [Hvk0]; iexact Hvk0; iexact Hvk1
      icases Hvs0 with ⟨%g0, Hvs0⟩
      icases Hvs1 with ⟨%g1, Hvs1⟩
      iapply (join_s c g0 g1)
      isplitl [Hvs0]; iexact Hvs0; iexact Hvs1
    -- the fifty own semaphores, at zero
    iapply (Entails.of_eq (dmasems_join c (fun q => semVal ((c : Thread nD τ), osem q) 0)))
    isplitl [HzI0]; iexact HzI0
    isplitl [HzI1]; iexact HzI1
    a2a_left16 "HzK"
    · a2a_join16 "HzK"
    a2a_left16 "HzS"
    · a2a_join16 "HzS"
    a2a_join16 "HzR"
  · icases HO with ⟨%W', HO⟩
    iexists W'
    isplitr; · ipureintro; exact fun _ _ => Or.inl trivial
    iexact HO

end Cert.KernelIdeal.A2A

end
-- ==== Proof.Body1.lean ====
/-
  The body of a device whose own half of each chunk lies at column offset 1024 and whose peer's at 0: from what
  the launch hands it to what it hands back.
-/
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.KernelIdeal.Skeleton
import proofs.«900648_g7700000000000649_dist_a2a_v7x_xyz2x4x4_x_m16384_n1024_f32_1_alg».proof.Proof.Gen.KernelIdeal.Launch
import proofs.«900648_g7700000000000649_dist_a2a_v7x_xyz2x4x4_x_m16384_n1024_f32_1_alg».proof.Proof.Gen.KernelIdeal.Points
import proofs.«900648_g7700000000000649_dist_a2a_v7x_xyz2x4x4_x_m16384_n1024_f32_1_alg».proof.Proof.BodyChain
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536 in
set_option maxHeartbeats 4000000 in
theorem sound_body1 (c : Dev nD) (ha : xf c = 1) (hb : xf (peer c) = 0) (Kt : PUnit → sProp 𝕄) :
    iprop(bodyPre m c ∗ (bodyPost m c -∗ Kt ⟨⟩))
      ⊢ wp frame (wpE (defs₀ (F := F)) 𝒱₀ (c : Thread nD τ) none) Set.univ (bodyAt0 (F := F) t₀) Kt := by
  unfold bodyAt0
  simp only [cc0_body_eq_skeleton]; unfold cc0_body_skel
  a2a_open 34
  unfold bodyPre Φ₀ start scratch ghost creds payToks
  iintro ⟨⟨⟨⟨⟨%K, #HR, Hpos, HtB, HtI, HtK, HtS, HtR⟩, ⟨HcB, HcR⟩, #Hlev, Hx, Ho⟩, ⟨%f0, Hv0⟩, ⟨%f1, Hv1⟩, ⟨%f2, Hv2⟩⟩, Howes⟩, Hk⟩
  unfold Dat.owesAt Pipeline.owesWithin
  icases Howes with ⟨%W, %hW, HO⟩
  rw [show (dats m 0 c).owed t₀.castSucc = O₀ c from rfl]
  -- the pools, chunk by chunk
  ihave Hp := (Entails.of_eq (positions_split c)) $$ Hpos
  icases Hp with ⟨HpB, HpI0, HpI1, HpK, HpS, HpR⟩
  a2a_split16 HpK "HpK"
  a2a_split16 HpS "HpS"
  a2a_split16 HpR "HpR"
  a2a_split16 HtI "HtI"
  a2a_split16 HtK "HtK"
  a2a_split16 HtS "HtS"
  a2a_split16 HtR "HtR"
  a2a_split16 HcR "HcR"
  ihave Hxs := (Entails.of_eq (split_x c fullShare (Xa m c))) $$ Hx
  a2a_split16 Hxs "Hx"
  ihave Hos := (Entails.of_eq (split_o2 c (m ((c : Thread nD τ).loc main_v1)))) $$ Ho
  icases Hos with ⟨Hoo, Hop⟩
  ihave Hs0 := (split_in c f0).1 $$ Hv0
  icases Hs0 with ⟨Hvin0, Hvin1⟩
  ihave Hvin0 := (ex_vin c 0 f0) $$ Hvin0
  ihave Hvin1 := (ex_vin c 1 f0) $$ Hvin1
  ihave Hs1 := (split_k c f1).1 $$ Hv1
  icases Hs1 with ⟨Hvk0, Hvk1⟩
  ihave Hvk0 := (ex_vk c 0 f1) $$ Hvk0
  ihave Hvk1 := (ex_vk c 1 f1) $$ Hvk1
  ihave Hs2 := (split_s c f2).1 $$ Hv2
  icases Hs2 with ⟨Hvs0, Hvs1⟩
  ihave Hvs0 := (ex_vs c 0 f2) $$ Hvs0
  ihave Hvs1 := (ex_vs c 1 f2) $$ Hvs1
  ihave #HrI0 := (reached_at m K c (.dma (inS 0))) $$ HR
  ihave #HrI1 := (reached_at m K c (.dma (inS 1))) $$ HR
  -- the entry handshake
  a2a_open 1
  iapply (r_sig m K c (m ((c : Thread nD τ).loc main_v1))) $$ [HO HtB Hop]
  · isplitr; · iexact HR
    isplitl [HO]; · iexists W; iexact HO
    isplitl [HtB]; · iexact HtB
    iexact Hop
  iintro HO
  iapply (r_bar_wait m K c) $$ [HcB HO HpB]
  · isplitr; · iexact HR
    isplitr; · iexact Hlev
    isplitl [HcB]; · iexact HcB
    isplitl [HO]; · iexact HO
    iexact HpB
  iintro ⟨HO, HpB, Hpeer⟩
  a2a_split16 Hpeer "Hop"
  ihave Hoo := (rows_exists c c (m ((c : Thread nD τ).loc main_v1))) $$ Hoo
  a2a_split16 Hoo "Hoo"
  -- the sixteen chunks and the last waits
  a2a_chain 1 0
  -- the own cells close
  imod (r_close_in m K c 0) $$ [HpI0] with HzI0
  · isplitr; iexact HR; iexact HpI0
  imod (r_close_in m K c 1) $$ [HpI1] with HzI1
  · isplitr; iexact HR; iexact HpI1
  a2a_close 0
  a2a_close 1
  a2a_close 2
  a2a_close 3
  a2a_close 4
  a2a_close 5
  a2a_close 6
  a2a_close 7
  a2a_close 8
  a2a_close 9
  a2a_close 10
  a2a_close 11
  a2a_close 12
  a2a_close 13
  a2a_close 14
  a2a_close 15
  rw [wp_ret]; imodintro
  iapply Hk
  unfold bodyPost Φ₁ scratch Dat.owesAt Pipeline.owesWithin OW0 recvPay
  rw [show (dats m 0 c).owed t₀.succ = 0 from rfl]
  isplitr [HO]
  · -- the argument, whole again
    a2a_left16 "Hx"
    · iapply (Entails.of_eq (split_x c fullShare (Xa m c)).symm)
      a2a_join16 "Hx"
    -- the result: the sixteen kept row blocks and the sixteen received ones
    a2a_left32 "Hdn" "Hrv"
    · iapply (Entails.of_eq (split_o2 c (outK m c)).symm)
      a2a_left16 "Hdn"
      · a2a_join16 "Hdn"
      a2a_join16 "Hrv"
    -- the scratch buffers
    isplitl [Hvin0 Hvin1 Hvk0 Hvk1 Hvs0 Hvs1]
    · isplitl [Hvin0 Hvin1]
      · icases Hvin0 with ⟨%g0, Hvin0⟩
        icases Hvin1 with ⟨%g1, Hvin1⟩
        iapply (join_in c g0 g1)
        isplitl [Hvin0]; iexact Hvin0; iexact Hvin1
      isplitl [Hvk0 Hvk1]
      · icases Hvk0 with ⟨%g0, Hvk0⟩
        icases Hvk1 with ⟨%g1, Hvk1⟩
        iapply (join_k c g0 g1)
        isplitl [Hvk0]; iexact Hvk0; iexact Hvk1
      icases Hvs0 with ⟨%g0, Hvs0⟩
      icases Hvs1 with ⟨%g1, Hvs1⟩
      iapply (join_s c g0 g1)
      isplitl [Hvs0]; iexact Hvs0; iexact Hvs1
    -- the fifty own semaphores, at zero
    iapply (Entails.of_eq (dmasems_join c (fun q => semVal ((c : Thread nD τ), osem q) 0)))
    isplitl [HzI0]; iexact HzI0
    isplitl [HzI1]; iexact HzI1
    a2a_left16 "HzK"
    · a2a_join16 "HzK"
    a2a_left16 "HzS"
    · a2a_join16 "HzS"
    a2a_join16 "HzR"
  · icases HO with ⟨%W', HO⟩
    iexists W'
    isplitr; · ipureintro; exact fun _ _ => Or.inl trivial
    iexact HO

end Cert.KernelIdeal.A2A

end
-- ==== Proof.BodyOb.lean ====
/-
  The body obligation of a device: whichever x coordinate it sits at.
-/
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.KernelIdeal.Skeleton
import proofs.«900648_g7700000000000649_dist_a2a_v7x_xyz2x4x4_x_m16384_n1024_f32_1_alg».proof.Proof.Gen.KernelIdeal.Launch
import proofs.«900648_g7700000000000649_dist_a2a_v7x_xyz2x4x4_x_m16384_n1024_f32_1_alg».proof.Proof.Gen.KernelIdeal.Points
import proofs.«900648_g7700000000000649_dist_a2a_v7x_xyz2x4x4_x_m16384_n1024_f32_1_alg».proof.Proof.Body0
import proofs.«900648_g7700000000000649_dist_a2a_v7x_xyz2x4x4_x_m16384_n1024_f32_1_alg».proof.Proof.Body1
import Idealize.ShloMosaic.Lib.Pipeline.Launch
import Idealize.ShloMosaic.Lib.Pipeline.Kit
import Idealize.ShloMosaic.Lib.Tactic

noncomputable section

namespace Cert.KernelIdeal.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- The launch has no window: a conjunction over the windows is empty. -/
theorem bigSep_noWindow (Φ : Fin cfg0.W → sProp 𝕄) : bigSep (Finset.univ : Finset (Fin cfg0.W)) Φ = iprop(emp) := by
  have h : (Finset.univ : Finset (Fin cfg0.W)) = ∅ := by decide
  rw [h]; exact bigSep_empty

theorem body_obligation (c : Dev nD) : BodyObligation (dats (F := F) m 0 c) (defs₀ (F := F)) 𝒱₀ () Set.univ := fun t => by
  rw [fin_N t]
  rw [bigSep_noWindow, bigSep_noWindow]
  show iprop(Φ₀ m c ∗ (dats m 0 c).owesAt () t₀.castSucc ∗ emp)
    ⊢ wp frame (wpE (defs₀ (F := F)) 𝒱₀ (c : Thread nD τ) none) Set.univ (bodyAt0 (F := F) t₀)
        (fun _ => iprop(Φ₁ m c ∗ (dats m 0 c).owesAt () t₀.succ ∗ emp))
  rcases xf_cases c with ⟨ha, hb⟩ | ⟨ha, hb⟩
  · iintro ⟨HΦ, Ho, -⟩
    iapply (sound_body0 m c ha hb _)
    isplitl [HΦ Ho]
    · unfold bodyPre; isplitl [HΦ]; iexact HΦ; iexact Ho
    · unfold bodyPost; iintro ⟨H1, H2⟩
      isplitl [H1]; iexact H1
      isplitl [H2]; iexact H2
      iempintro
  · iintro ⟨HΦ, Ho, -⟩
    iapply (sound_body1 m c ha hb _)
    isplitl [HΦ Ho]
    · unfold bodyPre; isplitl [HΦ]; iexact HΦ; iexact Ho
    · unfold bodyPost; iintro ⟨H1, H2⟩
      isplitl [H1]; iexact H1
      isplitl [H2]; iexact H2
      iempintro

/-- info: 'Cert.KernelIdeal.A2A.body_obligation' depends on axioms: [propext, Classical.choice, Quot.sound] -/
#guard_msgs in #print axioms body_obligation

end Cert.KernelIdeal.A2A

end
-- ==== Proof.K_Proto.lean ====
/-
  The all-to-all across mesh axis x, as a protocol of rounds on semaphore cells.

  Thirty-two devices; device c sits at x coordinate c / 16 and exchanges with the one device that differs from it in
  that coordinate only, its peer (c + 16) mod 32. Each device cuts its 16384 x 2048 argument block into sixteen
  chunks of 1024 rows; of chunk i it keeps the columns of its own x coordinate (a local copy into rows
  16384 (c/16) + 1024 i of its own result) and sends the other 1024 columns to the same rows of the peer's result.

  Every semaphore of a device is a cell whose rounds each hold ONE duty:
    the barrier cell        one round: the peer's entry signal, which hands over the half of the peer's result that
                            this device's sends write into, and that the peer's receive cells are at round 0;
    the two input cells     eight rounds each: chunk 2k + s of the argument copied into input slot s;
    a keep cell per chunk   one round: the kept half copied into the device's own result rows;
    a send cell per chunk   one round: the sent half has been read out of its slot;
    a receive cell per chunk one round: the peer's sent half has landed in this device's result rows.
-/
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.Kernel.Skeleton
import proofs.«900648_g7700000000000649_dist_a2a_v7x_xyz2x4x4_x_m16384_n1024_f32_1_alg».proof.Proof.Gen.Kernel.Launch
import proofs.«900648_g7700000000000649_dist_a2a_v7x_xyz2x4x4_x_m16384_n1024_f32_1_alg».proof.Proof.Gen.Kernel.Points
import proofs.«900648_g7700000000000649_dist_a2a_v7x_xyz2x4x4_x_m16384_n1024_f32_1_alg».proof.Proof.BlockIdx
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline library's copy beside the protocol's (single-duty rounds) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The peer -/

/-- The device across mesh axis x. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide
/-- A device's x coordinate. -/
abbrev xc (c : Dev nD) : ℕ := c.val / 16
theorem xc_lt (c : Dev nD) : xc c < 2 := by revert c; decide
theorem xc_peer (c : Dev nD) : xc (peer c) = 1 - xc c := by revert c; decide

/-- Every device id the kernel computes names the peer. -/
theorem dev_closed (c : Dev nD) : (4 * ((c.val / 4) % 4) + (c.val % 4) + 16) - 16 * (c.val / 16) = (peer c).val := by revert c; decide

/-! ## Semaphores and cells -/

abbrev barS : Sem sig := (SemArray.scalar (sig.barrier 0 rfl) : Sems sig S_).sem
abbrev inS (s : Fin 2) : DmaSem sig := ⟨s.val, by have := s.isLt; show s.val < 50; omega⟩
abbrev keepS (i : Fin 16) : DmaSem sig := ⟨2 + i.val, by have := i.isLt; show 2 + i.val < 50; omega⟩
abbrev sendS (i : Fin 16) : DmaSem sig := ⟨18 + i.val, by have := i.isLt; show 18 + i.val < 50; omega⟩
abbrev recvS (i : Fin 16) : DmaSem sig := ⟨34 + i.val, by have := i.isLt; show 34 + i.val < 50; omega⟩

abbrev barCell (c : Dev nD) : GSem nD τ sig := ((c : Thread nD τ), .reg barS)
abbrev inCell (c : Dev nD) (s : Fin 2) : GSem nD τ sig := ((c : Thread nD τ), .dma (inS s))
abbrev keepCell (c : Dev nD) (i : Fin 16) : GSem nD τ sig := ((c : Thread nD τ), .dma (keepS i))
abbrev sendCell (c : Dev nD) (i : Fin 16) : GSem nD τ sig := ((c : Thread nD τ), .dma (sendS i))
abbrev recvCell (c : Dev nD) (i : Fin 16) : GSem nD τ sig := ((c : Thread nD τ), .dma (recvS i))

/-- Which kind of cell a DMA semaphore is, by its number. -/
abbrev isIn (q : DmaSem sig) : Prop := q.val < 2
abbrev isKeep (q : DmaSem sig) : Prop := 2 ≤ q.val ∧ q.val < 18
abbrev isSend (q : DmaSem sig) : Prop := 18 ≤ q.val ∧ q.val < 34
abbrev isRecv (q : DmaSem sig) : Prop := 34 ≤ q.val
/-- The chunk a keep, send or receive semaphore belongs to. -/
def chunkOf (q : DmaSem sig) : Fin 16 := ⟨(q.val - 2) % 16, Nat.mod_lt _ (by decide)⟩
theorem chunkOf_keep (i : Fin 16) : chunkOf (keepS i) = i := by revert i; decide
theorem chunkOf_send (i : Fin 16) : chunkOf (sendS i) = i := by revert i; decide
theorem chunkOf_recv (i : Fin 16) : chunkOf (recvS i) = i := by revert i; decide

/-! ## The views, by slot and by chunk -/

theorem inb_x (i : Fin 16) : ∀ a, (![1024 * i.val, 0] : Fin 2 → Nat) a + S1024x2048.size a ≤ S16384x2048.size a := by
  revert i; decide
theorem inb_vin (s : Fin 2) : ∀ a, (![s.val, 0, 0] : Fin 3 → Nat) a + S1x1024x2048.size a ≤ S2x1024x2048.size a := by
  revert s; decide
theorem inb_vh (s : Fin 2) : ∀ a, (![s.val, 0, 0] : Fin 3 → Nat) a + S1x1024x1024.size a ≤ S2x1024x1024.size a := by
  revert s; decide
theorem inb_o (a : Fin 2) (i : Fin 16) : ∀ b, (![16384 * a.val + 1024 * i.val, 0] : Fin 2 → Nat) b + S1024x1024.size b ≤ S32768x1024.size b := by
  revert a i; decide

/-- Chunk i of the argument block: rows 1024 i … 1024 i + 1023. -/
abbrev xV (i : Fin 16) : Memref sig .tc .hbm S1024x2048 .f32 :=
  (Memref.whole main_arg0).slice (Rect.unit (s := S16384x2048) ![1024 * i.val, 0] S1024x2048.size (inb_x i)) (fun _ => rfl)
/-- Input slot s, as a 1024 x 2048 memref. -/
abbrev vinV (s : Fin 2) : Memref sig .tc .vmem S1024x2048 .f32 :=
  ((Memref.whole cc0_scratch0).slice (Rect.unit (s := S2x1024x2048) ![s.val, 0, 0] S1x1024x2048.size (inb_vin s)) (fun _ => rfl)).squeeze S1024x2048 squeezes_S1x1024x2048_S1024x2048
/-- Keep slot s and send slot s, as 1024 x 1024 memrefs. -/
abbrev vkV (s : Fin 2) : Memref sig .tc .vmem S1024x1024 .f32 :=
  ((Memref.whole cc0_scratch1).slice (Rect.unit (s := S2x1024x1024) ![s.val, 0, 0] S1x1024x1024.size (inb_vh s)) (fun _ => rfl)).squeeze S1024x1024 squeezes_S1x1024x1024_S1024x1024
abbrev vsV (s : Fin 2) : Memref sig .tc .vmem S1024x1024 .f32 :=
  ((Memref.whole cc0_scratch2).slice (Rect.unit (s := S2x1024x1024) ![s.val, 0, 0] S1x1024x1024.size (inb_vh s)) (fun _ => rfl)).squeeze S1024x1024 squeezes_S1x1024x1024_S1024x1024
/-- Rows 16384 a + 1024 i … + 1023 of a result buffer, a an x coordinate: the thirty-two row blocks of the result. -/
abbrev oVa (a : Fin 2) (i : Fin 16) : Memref sig .tc .hbm S1024x1024 .f32 :=
  (Memref.whole main_v1).slice (Rect.unit (s := S32768x1024) ![16384 * a.val + 1024 * i.val, 0] S1024x1024.size (inb_o a i)) (fun _ => rfl)
/-- Where device c puts chunk i — in its own result (the kept half) and in its peer's (the sent half) —, spelt through
    the kernel's own row offset: rows 16384 (c / 16) + 1024 i … + 1023. -/
abbrev oVd (c : Dev nD) (i : Fin 16) : Memref sig .tc .hbm S1024x1024 .f32 :=
  (Memref.whole main_v1).slice (Rect.unit (s := S32768x1024) (k0_off1 c (BitVec.ofNat 32 (1024 * i.val))) S1024x1024.size (k0_off1_inb c i)) (fun _ => rfl)

/-- A device's x coordinate as an index. -/
def xf (c : Dev nD) : Fin 2 := ⟨xc c, xc_lt c⟩

/-- The credit of a 1024 x 2048 block and of a 1024 x 1024 block. -/
abbrev Nin : ℕ := (vinV 0).view.dmaCredit
abbrev Nh : ℕ := (vkV 0).view.dmaCredit
theorem Nin_pos : 0 < Nin := View.dmaCredit_pos _ (by decide)
theorem Nh_pos : 0 < Nh := View.dmaCredit_pos _ (by decide)

/-! ## Slots, rounds and rectangles -/

/-- The slot chunk i goes through, and the round of that slot's input cell it is. -/
def slot (i : Fin 16) : Fin 2 := ⟨i.val % 2, Nat.mod_lt _ (by decide)⟩
abbrev rnd (i : Fin 16) : ℕ := i.val / 2
/-- The chunk that round r of input slot s carries. -/
def chunkAt (s : Fin 2) (r : ℕ) : Fin 16 := ⟨(2 * r + s.val) % 16, Nat.mod_lt _ (by decide)⟩
theorem chunkAt_slot_rnd (i : Fin 16) : chunkAt (slot i) (rnd i) = i := by revert i; decide
theorem inS_slot_chunkAt (s : Fin 2) (r : ℕ) (hr : r < 8) : slot (chunkAt s r) = s ∧ rnd (chunkAt s r) = r := by
  have hs := s.isLt
  constructor
  · apply Fin.ext; show (2 * r + s.val) % 16 % 2 = s.val; omega
  · show (2 * r + s.val) % 16 / 2 = r; omega

theorem inb_in (s a : Fin 2) : ∀ b, (![s.val, 0, 1024 * a.val] : Fin 3 → Nat) b + S1x1024x1024.size b ≤ S2x1024x2048.size b := by
  revert s a; decide
/-- The half of input slot s at column offset 1024 a, and the whole of a keep or send slot, as the loads and stores
    address them (1 x 1024 x 1024 rectangles). -/
abbrev rIn (s a : Fin 2) : Rect S2x1024x2048 := Rect.unit (s := S2x1024x2048) ![s.val, 0, 1024 * a.val] S1x1024x1024.size (inb_in s a)
abbrev rH (s : Fin 2) : Rect S2x1024x1024 := Rect.unit (s := S2x1024x1024) ![s.val, 0, 0] S1x1024x1024.size (inb_vh s)

/-- What every store of the kernel writes: the loaded half, reshaped to 1024 x 1024 and back. -/
def payId (v : Vec F S1x1024x1024 .f32) : FVec F S1x1024x1024 .f32 :=
  shapeCast S1x1024x1024 (shapeCast S1024x1024 v shapeCasts_S1x1024x1024_S1024x1024) shapeCasts_S1024x1024_S1x1024x1024

/-! ## Contents -/

/-- Device c's argument block, as launched. -/
abbrev Xa (c : Dev nD) : Buf (Elt F) ((c : Thread nD τ).loc main_arg0) := m ((c : Thread nD τ).loc main_arg0)

/-- What device c's result buffer ends as: row j₀ comes from the device at x coordinate j₀ / 16384, row j₀ mod 16384
    of its argument block, the 1024 columns of c's own x coordinate. -/
def outK (c : Dev nD) : Buf (Elt F) ((c : Thread nD τ).loc main_v1) :=
  Cert.A2A.outOf (xc c) (Xa m c) (Xa m (peer c))

/-- Input slot s after chunk i has landed over contents fd. -/
abbrev vinAfter (c : Dev nD) (i : Fin 16) (fd : Buf (Elt F) ((vinV (slot i)).view.loc (c : Thread nD τ))) :
    Buf (Elt F) ((vinV (slot i)).view.loc (c : Thread nD τ)) :=
  (vinV (slot i)).view.write (Elt F) fd ((xV i).view.read (Elt F) (Xa m c)) Finset.univ

/-- The keep slot and the send slot after iteration i's stores, over contents g, from the input buffer's contents fin:
    the kept half is the columns of the device's own x coordinate, the sent half the peer's. -/
abbrev vkAfter (c : Dev nD) (i : Fin 16) (g : Buf (Elt F) ((c : Thread nD τ).loc cc0_scratch1)) (fin : Buf (Elt F) ((c : Thread nD τ).loc cc0_scratch0)) :
    Buf (Elt F) ((c : Thread nD τ).loc cc0_scratch1) :=
  ((Memref.whole cc0_scratch1 : Memref sig .tc .vmem S2x1024x1024 .f32).access (rH (slot i))).write (Elt F) g
    (payId ((Memref.whole cc0_scratch0 : Memref sig .tc .vmem S2x1024x2048 .f32).view.readAt (Elt F) (rIn (slot i) (xf c)).toLoadRect fin)) Finset.univ
abbrev vsAfter (c : Dev nD) (i : Fin 16) (g : Buf (Elt F) ((c : Thread nD τ).loc cc0_scratch2)) (fin : Buf (Elt F) ((c : Thread nD τ).loc cc0_scratch0)) :
    Buf (Elt F) ((c : Thread nD τ).loc cc0_scratch2) :=
  ((Memref.whole cc0_scratch2 : Memref sig .tc .vmem S2x1024x1024 .f32).access (rH (slot i))).write (Elt F) g
    (payId ((Memref.whole cc0_scratch0 : Memref sig .tc .vmem S2x1024x2048 .f32).view.readAt (Elt F) (rIn (slot i) (xf (peer c))).toLoadRect fin)) Finset.univ

/-! ## What each duty hands the cell's owner -/

/-- The peer's entry signal hands device c the rows of the peer's result that c's sends write — rows
    16384 (c/16) + 1024 i, chunk by chunk — and that the peer's receive cells are at round 0. -/
def barPay (c : Dev nD) : sProp 𝕄 :=
  iprop((bigSep Finset.univ fun i : Fin 16 => iprop(∃ fd, (oVd c i).view.loc (peer c : Thread nD τ) ↦[(oVd c i).view.set]{fullShare} fd))
    ∗ bigSep Finset.univ fun i : Fin 16 => reached ER (recvCell (peer c) i) 0)
/-- An input copy hands back the slot holding the chunk, and the chunk of the argument it read. -/
def inPay (c : Dev nD) (i : Fin 16) : sProp 𝕄 :=
  iprop((∃ fd, (vinV (slot i)).view.loc (c : Thread nD τ) ↦[(vinV (slot i)).view.set]{fullShare} vinAfter m c i fd)
    ∗ ((xV i).view.loc (c : Thread nD τ) ↦[(xV i).view.set]{fullShare} Xa m c))
/-- A keep copy hands back the result rows, at their final contents, and the keep slot. -/
def keepPay (c : Dev nD) (i : Fin 16) : sProp 𝕄 :=
  iprop(((oVd c i).view.loc (c : Thread nD τ) ↦[(oVd c i).view.set]{fullShare} outK m c)
    ∗ ∃ f, (vkV (slot i)).view.loc (c : Thread nD τ) ↦[(vkV (slot i)).view.set]{fullShare} f)
/-- A send's source cell hands back the send slot. -/
def sendPay (c : Dev nD) (i : Fin 16) : sProp 𝕄 :=
  iprop(∃ f, (vsV (slot i)).view.loc (c : Thread nD τ) ↦[(vsV (slot i)).view.set]{fullShare} f)
/-- The peer's send of chunk i hands device c the rows it landed in, at their final contents. -/
def recvPay (c : Dev nD) (i : Fin 16) : sProp 𝕄 :=
  (oVd (peer c) i).view.loc (c : Thread nD τ) ↦[(oVd (peer c) i).view.set]{fullShare} outK m c

/-! ## The schedule -/

/-- Which rounds of a semaphore's cell have their one duty. -/
def hasDuty : SemLoc sig → ℕ → Prop
  | .reg _, r => r = 0
  | .dma q, r => if q.val < 2 then r < 8 else r = 0
instance (sm : SemLoc sig) (r : ℕ) : Decidable (hasDuty sm r) := by
  cases sm <;> unfold hasDuty <;> infer_instance

def a2aRd : Rounds.Schedule (GSem nD τ sig) Unit 𝕄 where
  duties g r := if g.1.2 = .tc ∧ hasDuty g.2 r then {()} else ∅
  unitless _ := False
  amount g _ _ := match g.2 with
    | .reg _ => 1
    | .dma q => if q.val < 2 then Nin else Nh
  payload g r _ := match g.2 with
    | .reg _ => barPay g.1.1
    | .dma q =>
      if q.val < 2 then inPay m g.1.1 (chunkAt ⟨q.val % 2, Nat.mod_lt _ (by decide)⟩ r)
      else if q.val < 18 then keepPay m g.1.1 (chunkOf q)
      else if q.val < 34 then sendPay g.1.1 (chunkOf q)
      else recvPay m g.1.1 (chunkOf q)
  amount_pos g _ _ _ := by
    rcases g with ⟨t, sm⟩
    cases sm with
    | reg s => exact Nat.one_pos
    | dma q => dsimp only; split <;> [exact Nin_pos; exact Nh_pos]

/-! ## What a device owes at launch, and the levels -/

/-- What device c still owes its peer's receive cells before its send of chunk k: a block's credit for every chunk from k on. -/
def owedFrom (c : Dev nD) (k : ℕ) : CellTallies nD τ sig Unit :=
  ∑ i ∈ Finset.univ.filter (fun i : Fin 16 => k ≤ i.val), tallyAt (recvCell (peer c) i) () Nh
/-- At launch: those sixteen, and the unit of the peer's barrier cell. -/
def O₀ (c : Dev nD) : CellTallies nD τ sig Unit := owedFrom c 0 + tallyAt (barCell (peer c)) () 1

def L (g : GSem nD τ sig) : Finset Unit := if g.1.2 = .tc then {()} else ∅
/-- The barrier cells at 1, the receive cells at 2, every other cell at 0. -/
def lv (g : GSem nD τ sig) (_ : Unit) : ℕ := match g.2 with
  | .reg _ => 1
  | .dma q => if 34 ≤ q.val then 2 else 0

end Cert.Kernel.A2A

end
-- ==== Proof.K_State.lean ====
/-
  What each device holds when its kernel body starts and when it ends, and the proof data of the launch.
  A device starts from: every cell's invariant (of every device: they are persistent, and a device opens its own
  cells' and its peer's barrier and receive cells'); its own cells' positions at round 0; the tokens of the duties it
  pays (its own input, keep and send cells', and its peer's barrier and receive cells'); the credit its peer owes its
  barrier and receive cells; its argument and result buffers whole. It ends with the argument unchanged, the result at
  its final contents, and its own semaphores closed at zero.
-/
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.Kernel.Skeleton
import proofs.«900648_g7700000000000649_dist_a2a_v7x_xyz2x4x4_x_m16384_n1024_f32_1_alg».proof.Proof.Gen.Kernel.Launch
import proofs.«900648_g7700000000000649_dist_a2a_v7x_xyz2x4x4_x_m16384_n1024_f32_1_alg».proof.Proof.Gen.Kernel.Points
import proofs.«900648_g7700000000000649_dist_a2a_v7x_xyz2x4x4_x_m16384_n1024_f32_1_alg».proof.Proof.K_Proto
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The memory at launch: arbitrary contents, every semaphore counter zero, arbitrary generator registers. -/
def s₀ : MemSt nD τ sig (Elt F) := ⟨m, fun _ => 0, ρ⟩

/-! ## The cells of the mesh -/

/-- Every (device, semaphore) pair is a cell of the protocol. -/
abbrev kcell (ck : Dev nD × SemLoc sig) : GSem nD τ sig := ((ck.1 : Thread nD τ), ck.2)

/-- Every cell's invariant, under the names K, and that every cell is at round 0. -/
def records (K : Dev nD × SemLoc sig → ℕ) : sProp 𝕄 :=
  iprop((bigSep Finset.univ fun ck : Dev nD × SemLoc sig => cellInv ER (a2aRd m) (K ck) (kcell ck))
    ∗ bigSep Finset.univ fun ck : Dev nD × SemLoc sig => reached ER (kcell ck) 0)

instance records_persistent (K : Dev nD × SemLoc sig → ℕ) : BI.Persistent (records m K) := by unfold records; infer_instance

omit [FloatOps F] in
theorem inv_at0 (K : Dev nD × SemLoc sig → ℕ) (ck : Dev nD × SemLoc sig) :
    (bigSep Finset.univ fun ck : Dev nD × SemLoc sig => (cellInv ER (a2aRd m) (K ck) (kcell ck) : sProp 𝕄)) ⊢ cellInv ER (a2aRd m) (K ck) (kcell ck) :=
  bigSep_elim (Finset.mem_univ ck)
omit [FloatOps F] in
theorem reached_at0 (ck : Dev nD × SemLoc sig) :
    (bigSep Finset.univ fun ck : Dev nD × SemLoc sig => (reached ER (kcell ck) 0 : sProp 𝕄)) ⊢ reached ER (kcell ck) 0 :=
  bigSep_elim (Finset.mem_univ ck)
omit [FloatOps F] in
/-- Any cell's invariant, and that it is at round 0, out of the records. -/
theorem inv_at (K : Dev nD × SemLoc sig → ℕ) (c : Dev nD) (sm : SemLoc sig) :
    records m K ⊢ cellInv ER (a2aRd m) (K (c, sm)) ((c : Thread nD τ), sm) := by
  unfold records
  iintro ⟨HI, -⟩
  iapply (inv_at0 m K (c, sm)); iexact HI
omit [FloatOps F] in
theorem reached_at (K : Dev nD × SemLoc sig → ℕ) (c : Dev nD) (sm : SemLoc sig) :
    records m K ⊢ reached ER ((c : Thread nD τ), sm) 0 := by
  unfold records
  iintro ⟨-, HR⟩
  iapply (reached_at0 (F := F) (c, sm)); iexact HR

/-! ## A device's own share of the ghost state -/

/-- Device c at round 0 of each of its cells, nothing taken. -/
def positions (c : Dev nD) : sProp 𝕄 := bigSep Finset.univ fun sm : SemLoc sig => atPos ER ((c : Thread nD τ), sm) 0 ∅ 0

/-- The tokens of the duties device c pays: its peer's barrier unit; its own sixteen input copies (chunk i is round
    i / 2 of slot i mod 2), keep copies and sends' source cells; its peer's sixteen receive cells. -/
def payToks (c : Dev nD) : sProp 𝕄 :=
  iprop(dutyTok ER (barCell (peer c)) 0 ()
    ∗ (bigSep Finset.univ fun i : Fin 16 => dutyTok ER (inCell c (slot i)) (rnd i) ())
    ∗ (bigSep Finset.univ fun i : Fin 16 => dutyTok ER (keepCell c i) 0 ())
    ∗ (bigSep Finset.univ fun i : Fin 16 => dutyTok ER (sendCell c i) 0 ())
    ∗ (bigSep Finset.univ fun i : Fin 16 => dutyTok ER (recvCell (peer c) i) 0 ()))

def ghost (K : Dev nD × SemLoc sig → ℕ) (c : Dev nD) : sProp 𝕄 := iprop(records m K ∗ positions c ∗ payToks c)

/-- The credit device c's waits on its barrier and receive cells consume: what its peer owes them. -/
def creds (c : Dev nD) : sProp 𝕄 :=
  iprop(cred (tallyAt (barCell c) () 1) ∗ bigSep Finset.univ fun i : Fin 16 => cred (tallyAt (recvCell c i) () Nh))

/-- What the launch hands device c's body besides its scratch buffers. -/
def start (c : Dev nD) : sProp 𝕄 :=
  iprop((∃ K, ghost m K c) ∗ creds c ∗ levAts L lv
    ∗ (((c : Thread nD τ).loc main_arg0) ↦{fullShare} Xa m c)
    ∗ (((c : Thread nD τ).loc main_v1) ↦{fullShare} m ((c : Thread nD τ).loc main_v1)))

/-- The three scratch buffers, each whole at some contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ (∃ f, ((c : Thread nD τ).loc cc0_scratch2) ↦{fullShare} f))

def Φ₀ (c : Dev nD) : sProp 𝕄 := iprop(start m c ∗ scratch c)

/-- The kernel's own semaphores: the fifty DMA semaphores. -/
abbrev osem : DmaSem sig → SemLoc sig := fun q => .dma q

/-- After the point: the argument unchanged, the result at its final contents, the scratch buffers and the own
    semaphores back (the barrier semaphore is the runtime's: nothing to hand back). -/
def Φ₁ (c : Dev nD) : sProp 𝕄 :=
  iprop((((c : Thread nD τ).loc main_arg0) ↦{fullShare} Xa m c) ∗ (((c : Thread nD τ).loc main_v1) ↦{fullShare} outK m c)
    ∗ scratch c ∗ bigSep Finset.univ fun q : DmaSem sig => semVal ((c : Thread nD τ), osem q) 0)

/-! ## The proof data: no window, one point -/

def dats (_ : Fin 1) (c : Dev nD) : Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- What the body starts from and what it must reach (the body obligation's two sides, the windows being none). -/
def bodyPre (c : Dev nD) : sProp 𝕄 := iprop(Φ₀ m c ∗ (dats m 0 c).owesAt () t₀.castSucc)
def bodyPost (c : Dev nD) : sProp 𝕄 := iprop(Φ₁ m c ∗ (dats m 0 c).owesAt () t₀.succ)

end Cert.Kernel.A2A

end
-- ==== Proof.K_Sched.lean ====
/-
  The schedule's tables, cell by cell, and the levels.

  Every cell of the all-to-all has ONE duty a round: the barrier, keep, send and receive cells one round, the two input
  cells eight. Below, per kind of cell: which rounds have the duty, its amount, the round's expected units, its payload,
  and the payload of the whole round. Then the levels: a device owes only receive credits (level 2) while it waits on its
  input, keep and send cells (level 0) and on its barrier cell (level 1).
-/
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.Kernel.Skeleton
import proofs.«900648_g7700000000000649_dist_a2a_v7x_xyz2x4x4_x_m16384_n1024_f32_1_alg».proof.Proof.Gen.Kernel.Launch
import proofs.«900648_g7700000000000649_dist_a2a_v7x_xyz2x4x4_x_m16384_n1024_f32_1_alg».proof.Proof.Gen.Kernel.Points
import proofs.«900648_g7700000000000649_dist_a2a_v7x_xyz2x4x4_x_m16384_n1024_f32_1_alg».proof.Proof.BlockIdx
import proofs.«900648_g7700000000000649_dist_a2a_v7x_xyz2x4x4_x_m16384_n1024_f32_1_alg».proof.Proof.K_Proto
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The payloads can be stored in a cell's invariant -/

instance a2aRd_payload_storable (g : GSem nD τ sig) (r : ℕ) (d : Unit) :
    BI.Storable (upEmb : UEmb _ 𝕄) ((a2aRd (F := F) m).payload g r d) := by
  rcases g with ⟨t, sm⟩
  cases sm with
  | reg s =>
    show BI.Storable upEmb (barPay t.1)
    unfold barPay; infer_instance
  | dma q =>
    show BI.Storable upEmb (if q.val < 2 then inPay m t.1 (chunkAt ⟨q.val % 2, Nat.mod_lt _ (by decide)⟩ r)
      else if q.val < 18 then keepPay m t.1 (chunkOf q)
      else if q.val < 34 then sendPay t.1 (chunkOf q)
      else recvPay m t.1 (chunkOf q))
    unfold inPay keepPay sendPay recvPay
    (repeat' split) <;> infer_instance

/-! ## Which rounds have their duty -/

section Sched
variable (c : Dev nD) (s : Fin 2) (i : Fin 16) (r : ℕ)

theorem keep_not_in : ¬ (keepS i).val < 2 := by show ¬ 2 + i.val < 2; omega
theorem send_not_in : ¬ (sendS i).val < 2 := by show ¬ 18 + i.val < 2; omega
theorem recv_not_in : ¬ (recvS i).val < 2 := by show ¬ 34 + i.val < 2; omega
theorem in_is_in : (inS s).val < 2 := s.isLt

theorem duties_bar : (a2aRd (F := F) m).duties (barCell c) 0 = {()} := by
  dsimp only [a2aRd]; exact if_pos ⟨rfl, rfl⟩
theorem duties_in (hr : r < 8) : (a2aRd (F := F) m).duties (inCell c s) r = {()} := by
  dsimp only [a2aRd]; refine if_pos ⟨rfl, ?_⟩
  show (if (inS s).val < 2 then r < 8 else r = 0); rw [if_pos (in_is_in s)]; exact hr
theorem duties_keep : (a2aRd (F := F) m).duties (keepCell c i) 0 = {()} := by
  dsimp only [a2aRd]; refine if_pos ⟨rfl, ?_⟩
  show (if (keepS i).val < 2 then 0 < 8 else 0 = 0); rw [if_neg (keep_not_in i)]
theorem duties_send : (a2aRd (F := F) m).duties (sendCell c i) 0 = {()} := by
  dsimp only [a2aRd]; refine if_pos ⟨rfl, ?_⟩
  show (if (sendS i).val < 2 then 0 < 8 else 0 = 0); rw [if_neg (send_not_in i)]
theorem duties_recv : (a2aRd (F := F) m).duties (recvCell c i) 0 = {()} := by
  dsimp only [a2aRd]; refine if_pos ⟨rfl, ?_⟩
  show (if (recvS i).val < 2 then 0 < 8 else 0 = 0); rw [if_neg (recv_not_in i)]

theorem duties_later_bar : ∀ r, 1 ≤ r → (a2aRd (F := F) m).duties (barCell c) r = ∅ := fun r hr => by
  dsimp only [a2aRd]; refine if_neg fun h => ?_
  have h2 : r = 0 := h.2
  omega
theorem duties_later_in : ∀ r, 8 ≤ r → (a2aRd (F := F) m).duties (inCell c s) r = ∅ := fun r hr => by
  dsimp only [a2aRd]; refine if_neg fun h => ?_
  have h2 : (if (inS s).val < 2 then r < 8 else r = 0) := h.2
  rw [if_pos (in_is_in s)] at h2; omega
theorem duties_later_keep : ∀ r, 1 ≤ r → (a2aRd (F := F) m).duties (keepCell c i) r = ∅ := fun r hr => by
  dsimp only [a2aRd]; refine if_neg fun h => ?_
  have h2 : (if (keepS i).val < 2 then r < 8 else r = 0) := h.2
  rw [if_neg (keep_not_in i)] at h2; omega
theorem duties_later_send : ∀ r, 1 ≤ r → (a2aRd (F := F) m).duties (sendCell c i) r = ∅ := fun r hr => by
  dsimp only [a2aRd]; refine if_neg fun h => ?_
  have h2 : (if (sendS i).val < 2 then r < 8 else r = 0) := h.2
  rw [if_neg (send_not_in i)] at h2; omega
theorem duties_later_recv : ∀ r, 1 ≤ r → (a2aRd (F := F) m).duties (recvCell c i) r = ∅ := fun r hr => by
  dsimp only [a2aRd]; refine if_neg fun h => ?_
  have h2 : (if (recvS i).val < 2 then r < 8 else r = 0) := h.2
  rw [if_neg (recv_not_in i)] at h2; omega

/-! ## Amounts and expected units -/

theorem amount_bar (d : Unit) : (a2aRd (F := F) m).amount (barCell c) r d = 1 := rfl
theorem amount_in (d : Unit) : (a2aRd (F := F) m).amount (inCell c s) r d = Nin := by
  show (if (inS s).val < 2 then Nin else Nh) = Nin; exact if_pos (in_is_in s)
theorem amount_keep (d : Unit) : (a2aRd (F := F) m).amount (keepCell c i) r d = Nh := by
  show (if (keepS i).val < 2 then Nin else Nh) = Nh; exact if_neg (keep_not_in i)
theorem amount_send (d : Unit) : (a2aRd (F := F) m).amount (sendCell c i) r d = Nh := by
  show (if (sendS i).val < 2 then Nin else Nh) = Nh; exact if_neg (send_not_in i)
theorem amount_recv (d : Unit) : (a2aRd (F := F) m).amount (recvCell c i) r d = Nh := by
  show (if (recvS i).val < 2 then Nin else Nh) = Nh; exact if_neg (recv_not_in i)

theorem expect_bar : (a2aRd (F := F) m).expect (barCell c) 0 = 1 := by
  unfold Schedule.expect Schedule.amountOf; rw [duties_bar, Finset.sum_singleton, amount_bar]
theorem expect_in (hr : r < 8) : (a2aRd (F := F) m).expect (inCell c s) r = Nin := by
  unfold Schedule.expect Schedule.amountOf; rw [duties_in m c s r hr, Finset.sum_singleton, amount_in]
theorem expect_keep : (a2aRd (F := F) m).expect (keepCell c i) 0 = Nh := by
  unfold Schedule.expect Schedule.amountOf; rw [duties_keep, Finset.sum_singleton, amount_keep]
theorem expect_send : (a2aRd (F := F) m).expect (sendCell c i) 0 = Nh := by
  unfold Schedule.expect Schedule.amountOf; rw [duties_send, Finset.sum_singleton, amount_send]
theorem expect_recv : (a2aRd (F := F) m).expect (recvCell c i) 0 = Nh := by
  unfold Schedule.expect Schedule.amountOf; rw [duties_recv, Finset.sum_singleton, amount_recv]

/-! ## Payloads -/

/-- The chunk that the schedule reads off input slot (slot i) at round (rnd i) is i. -/
theorem chunkAt_in : chunkAt ⟨(inS (slot i)).val % 2, Nat.mod_lt _ (by decide)⟩ (rnd i) = i := by revert i; decide

theorem payload_bar (d : Unit) : (a2aRd (F := F) m).payload (barCell c) 0 d = barPay c := rfl
theorem payload_in (d : Unit) : (a2aRd (F := F) m).payload (inCell c (slot i)) (rnd i) d = inPay m c i := by
  show (if (inS (slot i)).val < 2 then inPay m c (chunkAt ⟨(inS (slot i)).val % 2, Nat.mod_lt _ (by decide)⟩ (rnd i))
      else if (inS (slot i)).val < 18 then keepPay m c (chunkOf (inS (slot i)))
      else if (inS (slot i)).val < 34 then sendPay c (chunkOf (inS (slot i)))
      else recvPay m c (chunkOf (inS (slot i)))) = _
  rw [if_pos (in_is_in (slot i)), chunkAt_in]
theorem payload_keep (d : Unit) : (a2aRd (F := F) m).payload (keepCell c i) 0 d = keepPay m c i := by
  show (if (keepS i).val < 2 then inPay m c (chunkAt ⟨(keepS i).val % 2, Nat.mod_lt _ (by decide)⟩ 0)
      else if (keepS i).val < 18 then keepPay m c (chunkOf (keepS i))
      else if (keepS i).val < 34 then sendPay c (chunkOf (keepS i))
      else recvPay m c (chunkOf (keepS i))) = _
  rw [if_neg (keep_not_in i), if_pos (show (keepS i).val < 18 by show 2 + i.val < 18; omega), chunkOf_keep]
theorem payload_send (d : Unit) : (a2aRd (F := F) m).payload (sendCell c i) 0 d = sendPay c i := by
  show (if (sendS i).val < 2 then inPay m c (chunkAt ⟨(sendS i).val % 2, Nat.mod_lt _ (by decide)⟩ 0)
      else if (sendS i).val < 18 then keepPay m c (chunkOf (sendS i))
      else if (sendS i).val < 34 then sendPay c (chunkOf (sendS i))
      else recvPay m c (chunkOf (sendS i))) = _
  rw [if_neg (send_not_in i), if_neg (show ¬ (sendS i).val < 18 by show ¬ 18 + i.val < 18; omega),
    if_pos (show (sendS i).val < 34 by show 18 + i.val < 34; omega), chunkOf_send]
theorem payload_recv (d : Unit) : (a2aRd (F := F) m).payload (recvCell c i) 0 d = recvPay m c i := by
  show (if (recvS i).val < 2 then inPay m c (chunkAt ⟨(recvS i).val % 2, Nat.mod_lt _ (by decide)⟩ 0)
      else if (recvS i).val < 18 then keepPay m c (chunkOf (recvS i))
      else if (recvS i).val < 34 then sendPay c (chunkOf (recvS i))
      else recvPay m c (chunkOf (recvS i))) = _
  rw [if_neg (recv_not_in i), if_neg (show ¬ (recvS i).val < 18 by show ¬ 34 + i.val < 18; omega),
    if_neg (show ¬ (recvS i).val < 34 by show ¬ 34 + i.val < 34; omega), chunkOf_recv]

/-! ## The whole round's payload, no duty taken -/

theorem rest_bar : bigSep ((a2aRd (F := F) m).duties (barCell c) 0 \ ∅) (fun d => (a2aRd (F := F) m).payload (barCell c) 0 d) = barPay c := by
  rw [Finset.sdiff_empty, duties_bar, bigSep_singleton, payload_bar]
theorem rest_in : bigSep ((a2aRd (F := F) m).duties (inCell c (slot i)) (rnd i) \ ∅) (fun d => (a2aRd (F := F) m).payload (inCell c (slot i)) (rnd i) d) = inPay m c i := by
  rw [Finset.sdiff_empty, duties_in m c (slot i) (rnd i) (by have := i.isLt; show i.val / 2 < 8; omega), bigSep_singleton, payload_in]
theorem rest_keep : bigSep ((a2aRd (F := F) m).duties (keepCell c i) 0 \ ∅) (fun d => (a2aRd (F := F) m).payload (keepCell c i) 0 d) = keepPay m c i := by
  rw [Finset.sdiff_empty, duties_keep, bigSep_singleton, payload_keep]
theorem rest_send : bigSep ((a2aRd (F := F) m).duties (sendCell c i) 0 \ ∅) (fun d => (a2aRd (F := F) m).payload (sendCell c i) 0 d) = sendPay c i := by
  rw [Finset.sdiff_empty, duties_send, bigSep_singleton, payload_send]
theorem rest_recv : bigSep ((a2aRd (F := F) m).duties (recvCell c i) 0 \ ∅) (fun d => (a2aRd (F := F) m).payload (recvCell c i) 0 d) = recvPay m c i := by
  rw [Finset.sdiff_empty, duties_recv, bigSep_singleton, payload_recv]

end Sched

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- The send of chunk i pays off exactly the credit owed for chunk i. -/
theorem owedFrom_step (c : Dev nD) (i : Fin 16) :
    owedFrom c i.val = owedFrom c (i.val + 1) + tallyAt (recvCell (peer c) i) () Nh := by
  unfold owedFrom
  have h : Finset.univ.filter (fun j : Fin 16 => i.val ≤ j.val)
      = insert i (Finset.univ.filter (fun j : Fin 16 => i.val + 1 ≤ j.val)) := by
    ext j
    simp only [Finset.mem_filter, Finset.mem_univ, true_and, Finset.mem_insert]
    constructor
    · intro hj
      by_cases hji : j = i
      · exact .inl hji
      · right; have : j.val ≠ i.val := fun h' => hji (Fin.ext h'); omega
    · rintro (rfl | hj) <;> omega
  rw [h, Finset.sum_insert (fun hi => by have := (Finset.mem_filter.mp hi).2; omega), add_comm]

theorem owedFrom_16 (c : Dev nD) : owedFrom c 16 = 0 := by
  unfold owedFrom
  rw [Finset.filter_false_of_mem (fun j _ => by have := j.isLt; omega), Finset.sum_empty]

/-- A device owes only to its peer's receive cells. -/
theorem owedFrom_pos {c : Dev nD} {k : ℕ} {g : GSem nD τ sig} {u : Unit} (h : 0 < owedFrom c k g u) :
    ∃ i : Fin 16, g = recvCell (peer c) i := by
  unfold owedFrom at h
  obtain ⟨i, _, hi⟩ := Pipeline.sum_pos_exists h
  rw [tallyAt_apply] at hi
  by_cases hg : g = recvCell (peer c) i ∧ u = ()
  · exact ⟨i, hg.1⟩
  · rw [if_neg hg] at hi; exact absurd hi (Nat.lt_irrefl 0)

/-- A wait on an input, keep or send cell (level 0) while owing receive credits (level 2). -/
theorem mayWait_low (c : Dev nD) (q : DmaSem sig) (hq : q.val < 34) (k : ℕ) :
    (levAts L lv : sProp 𝕄) ⊢ MayWait (c : Thread nD τ) (.dma q) () (owedFrom c k) :=
  MayOwe.of_cut (L := L) (lev := lv) 0
    (fun p hp => by rw [Finset.mem_singleton.mp hp, L_tc]; exact Finset.mem_singleton_self _)
    (fun g u hg => by obtain ⟨i, rfl⟩ := owedFrom_pos hg; rw [L_tc]; exact Finset.mem_singleton_self _)
    (fun p hp => by
      rw [Finset.mem_singleton.mp hp]
      show (if 34 ≤ q.val then 2 else 0) ≤ 0
      rw [if_neg (by omega)])
    (fun g u hg => by
      obtain ⟨i, rfl⟩ := owedFrom_pos hg
      show 0 < (if 34 ≤ (recvS i).val then 2 else 0)
      rw [if_pos (show 34 ≤ (recvS i).val by show 34 ≤ 34 + i.val; omega)]; decide)

/-- The barrier wait (level 1) while owing receive credits (level 2). -/
theorem mayWait_bar (c : Dev nD) :
    (levAts L lv : sProp 𝕄) ⊢ MayWait (c : Thread nD τ) (.reg barS) () (owedFrom c 0) :=
  MayOwe.of_cut (L := L) (lev := lv) 1
    (fun p hp => by rw [Finset.mem_singleton.mp hp, L_tc]; exact Finset.mem_singleton_self _)
    (fun g u hg => by obtain ⟨i, rfl⟩ := owedFrom_pos hg; rw [L_tc]; exact Finset.mem_singleton_self _)
    (fun p hp => by rw [Finset.mem_singleton.mp hp]; exact le_rfl)
    (fun g u hg => by
      obtain ⟨i, rfl⟩ := owedFrom_pos hg
      show 1 < (if 34 ≤ (recvS i).val then 2 else 0)
      rw [if_pos (show 34 ≤ (recvS i).val by show 34 ≤ 34 + i.val; omega)]; decide)

/-- info: 'Cert.Kernel.A2A.mayWait_low' depends on axioms: [propext, Classical.choice, Quot.sound] -/
#guard_msgs in #print axioms mayWait_low

end Cert.Kernel.A2A

end
-- ==== Proof.K_LaunchGhost.lean ====
/-
  Dealing the ghost state at launch.

  The launch element of the protocol's algebra is the round state of every cell of the mesh — every (device,
  semaphore) pair, 32 x 51 of them — at counter zero, each cell's position at round 0 and its reached mark, and one
  token per duty: a device's cells mint its barrier's one token, its two input cells' eight each (chunk i being round
  i / 2 of slot i mod 2), and one for each of its sixteen keep, send and receive cells.

  The global step then allocates every cell's invariant from its counter at zero and its round state, under one
  update for the whole mesh, picks the names, hands the persistent records to every device, leaves each device its
  positions, and deals the tokens to the devices that PAY them: a device's barrier and receive tokens go to its peer,
  its input, keep and send tokens stay.
-/
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.Kernel.Skeleton
import proofs.«900648_g7700000000000649_dist_a2a_v7x_xyz2x4x4_x_m16384_n1024_f32_1_alg».proof.Proof.Gen.Kernel.Launch
import proofs.«900648_g7700000000000649_dist_a2a_v7x_xyz2x4x4_x_m16384_n1024_f32_1_alg».proof.Proof.Gen.Kernel.Points
import proofs.«900648_g7700000000000649_dist_a2a_v7x_xyz2x4x4_x_m16384_n1024_f32_1_alg».proof.Proof.K_Sched
import proofs.«900648_g7700000000000649_dist_a2a_v7x_xyz2x4x4_x_m16384_n1024_f32_1_alg».proof.Proof.K_State
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the tokens of the launch element -/

theorem kcell_injective : Function.Injective (kcell : Dev nD × SemLoc sig → GSem nD τ sig) := by
  rintro ⟨c, k⟩ ⟨c', k'⟩ h
  have h1 : c = c' := congrArg (fun g : GSem nD τ sig => g.1.1) h
  have h2 : k = k' := congrArg Prod.snd h
  subst h1; subst h2; rfl

/-- Every cell of the mesh. -/
def allCells : Finset (GSem nD τ sig) := Finset.univ.map ⟨kcell, kcell_injective⟩

/-- The duties of one device's cells: the barrier's; then, chunk by chunk, the input copy's (0), the keep copy's (1),
    the send's source side (2), the receive (3). -/
abbrev Tk : Type := Unit ⊕ (Fin 4 × Fin 16)

/-- The token of a duty of a device's own cells, as minted: (cell, round, duty). -/
abbrev tokOf (cj : Dev nD × Tk) : GSem nD τ sig × ℕ × Unit := match cj.2 with
  | .inl _ => (barCell cj.1, 0, ())
  | .inr (0, i) => (inCell cj.1 (slot i), rnd i, ())
  | .inr (1, i) => (keepCell cj.1 i, 0, ())
  | .inr (2, i) => (sendCell cj.1 i, 0, ())
  | .inr (3, i) => (recvCell cj.1 i, 0, ())

/-- A semaphore's number among a device's fifty-one: the DMA semaphores 0 … 49, the barrier semaphore 50. -/
def semNo : SemLoc sig → ℕ
  | .reg _ => 50
  | .dma q => q.val

/-- A duty's semaphore number and round: input chunk i is round i / 2 of semaphore i mod 2; keep, send and receive
    chunk i are round 0 of semaphores 2 + i, 18 + i, 34 + i. -/
def tkKey : Tk → ℕ × ℕ
  | .inl _ => (50, 0)
  | .inr (0, i) => (i.val % 2, i.val / 2)
  | .inr (1, i) => (2 + i.val, 0)
  | .inr (2, i) => (18 + i.val, 0)
  | .inr (3, i) => (34 + i.val, 0)

theorem tkKey_injective : Function.Injective tkKey := by
  rintro (_ | ⟨k, i⟩) (_ | ⟨k', i'⟩) h
  · rfl
  · exfalso; have hi' := i'.isLt; fin_cases k' <;> simp only [tkKey, Prod.mk.injEq] at h <;> omega
  · exfalso; have hi := i.isLt; fin_cases k <;> simp only [tkKey, Prod.mk.injEq] at h <;> omega
  · have hi := i.isLt; have hi' := i'.isLt
    fin_cases k <;> fin_cases k' <;> simp only [tkKey, Prod.mk.injEq] at h <;>
      first
        | (have : i = i' := Fin.ext (by omega); subst this; rfl)
        | (exfalso; omega)

theorem tokOf_dev (c : Dev nD) (j : Tk) : (tokOf (c, j)).1.1.1 = c := by
  rcases j with _ | ⟨k, i⟩
  · rfl
  · fin_cases k <;> rfl

theorem tokOf_key (c : Dev nD) (j : Tk) : (semNo (tokOf (c, j)).1.2, (tokOf (c, j)).2.1) = tkKey j := by
  rcases j with _ | ⟨k, i⟩
  · rfl
  · fin_cases k <;> rfl

theorem tokOf_injective : Function.Injective (tokOf : Dev nD × Tk → GSem nD τ sig × ℕ × Unit) := by
  rintro ⟨c, j⟩ ⟨c', j'⟩ h
  have h1 : c = c' := (tokOf_dev c j).symm.trans ((congrArg (fun x : GSem nD τ sig × ℕ × Unit => x.1.1.1) h).trans (tokOf_dev c' j'))
  subst h1
  have h2 : tkKey j = tkKey j' :=
    (tokOf_key c j).symm.trans ((congrArg (fun x : GSem nD τ sig × ℕ × Unit => (semNo x.1.2, x.2.1)) h).trans (tokOf_key c j'))
  rw [tkKey_injective h2]

def allToks : Finset (GSem nD τ sig × ℕ × Unit) := Finset.univ.map ⟨tokOf, tokOf_injective⟩

/-- The launch element: the pipeline library's (no window: no cell, no token) beside the protocol's. -/
def u₀ : UU :=
  (initOf (Pipeline.cells cfgs cellOf_inj) (Pipeline.launchToks cfgs cellOf_inj), initOf allCells allToks)

/-- The tokens of the duties of device c's OWN cells. -/
def toks (c : Dev nD) : sProp 𝕄 :=
  iprop(dutyTok ER (barCell c) 0 ()
    ∗ (bigSep Finset.univ fun i : Fin 16 => dutyTok ER (inCell c (slot i)) (rnd i) ())
    ∗ (bigSep Finset.univ fun i : Fin 16 => dutyTok ER (keepCell c i) 0 ())
    ∗ (bigSep Finset.univ fun i : Fin 16 => dutyTok ER (sendCell c i) 0 ())
    ∗ (bigSep Finset.univ fun i : Fin 16 => dutyTok ER (recvCell c i) 0 ()))

/-- What the launch element deals device c: its cells' round states, positions and reached marks, its cells' tokens. -/
def G (c : Dev nD) : sProp 𝕄 :=
  iprop((bigSep Finset.univ fun sm : SemLoc sig => roundState ER (a2aRd m) ((c : Thread nD τ), sm) 0)
    ∗ (bigSep Finset.univ fun sm : SemLoc sig => iprop(atPos ER ((c : Thread nD τ), sm) 0 ∅ 0 ∗ reached ER ((c : Thread nD τ), sm) 0))
    ∗ toks c)

/-- What the global step makes of it. -/
def G' (c : Dev nD) : sProp 𝕄 := iprop(∃ K, ghost m K c)

/-! ## Big stars over the four kinds, the duties of a device, the semaphores of a device -/

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_tk (Φ : Tk → sProp 𝕄) :
    bigSep Finset.univ Φ = iprop(Φ (.inl ()) ∗ (bigSep Finset.univ fun i : Fin 16 => Φ (.inr (0, i))) ∗ (bigSep Finset.univ fun i : Fin 16 => Φ (.inr (1, i)))
      ∗ (bigSep Finset.univ fun i : Fin 16 => Φ (.inr (2, i))) ∗ (bigSep Finset.univ fun i : Fin 16 => Φ (.inr (3, i)))) := by
  rw [bigSep_univ_sum, bigSep_univ_of_subsingleton (), bigSep_univ_prod, bigSep_fin4]
  rfl

/-- A device's semaphores: the barrier semaphore and the fifty DMA semaphores. -/
theorem bigSep_semLoc (Φ : SemLoc sig → sProp 𝕄) :
    bigSep Finset.univ Φ = iprop(Φ (.reg barS) ∗ bigSep Finset.univ fun q : DmaSem sig => Φ (.dma q)) := by
  rw [bigSep_univ_equiv (SemLoc.equivSum sig).symm Φ, bigSep_univ_sum, bigSep_univ_eq_bigSepL [barS] (by decide) (by decide)]
  rfl

/-! ## Funding -/

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun sm : SemLoc sig => Φ ((c : Thread nD τ), sm) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_tk]; rfl
  iintro HX
  imod (Rounds.fund ER (a2aRd m) allCells allToks) $$ HX with ⟨Hst, Hr, Hat, Htok⟩
  imodintro
  ihave Hst' := (Entails.of_eq (hX fun g => roundState ER (a2aRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step -/

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's own semaphores and the barrier semaphore are all of a device's. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun sm : SemLoc sig => semVal ((c : Thread nD τ), sm) 0 : sProp 𝕄) := by
  rw [unscopedSems0_eq, bigSep_semLoc]
  unfold Pipeline.ownSems0
  iintro ⟨HO, HB⟩
  isplitl [HB]; · iexact HB
  iexact HO

/-- Each cell of a device, from its counter at zero and its round state, gets its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun sm : SemLoc sig => iprop(∃ κ : ℕ, cellInv ER (a2aRd m) κ ((c : Thread nD τ), sm)))
          ∗ (bigSep Finset.univ fun sm : SemLoc sig => iprop(atPos ER ((c : Thread nD τ), sm) 0 ∅ 0 ∗ reached ER ((c : Thread nD τ), sm) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun sm : SemLoc sig => semVal ((c : Thread nD τ), sm) 0) ∗ bigSep Finset.univ fun sm : SemLoc sig => roundState ER (a2aRd m) ((c : Thread nD τ), sm) 0)
      ⊢ (|={Set.univ}=> bigSep Finset.univ fun sm : SemLoc sig => iprop(∃ κ : ℕ, cellInv ER (a2aRd m) κ ((c : Thread nD τ), sm)) : sProp 𝕄) from by
        rw [← bigSep_sep']
        exact (bigSep_mono fun sm _ => (Rounds.body_intro ER (a2aRd m) ((c : Thread nD τ), sm)).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × SemLoc sig → ℕ) (c : Dev nD) : iprop(records m K ∗ positions c ∗ payToks c) ⊢ G' m c := by
  unfold G' ghost
  iintro H
  iexists K
  iexact H

/-- The peer relation as a permutation of the mesh. -/
def pe : Dev nD ≃ Dev nD := ⟨peer, peer, peer_peer, peer_peer⟩

/-- The tokens dealt to their payers: a device's barrier token and its receive tokens go to its peer. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep', bigSep_sep', bigSep_sep', bigSep_sep', bigSep_sep',
    bigSep_univ_equiv pe (fun c : Dev nD => (dutyTok ER (barCell c) 0 () : sProp 𝕄)),
    bigSep_univ_equiv pe (fun c : Dev nD => (bigSep Finset.univ fun i : Fin 16 => dutyTok ER (recvCell c i) 0 () : sProp 𝕄))]
  iintro ⟨H1, H2, H3, H4, H5⟩
  isplitl [H1]; · iexact H1
  isplitl [H2]; · iexact H2
  isplitl [H3]; · iexact H3
  isplitl [H4]; · iexact H4
  iexact H5

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun sm : SemLoc sig => iprop(∃ κ : ℕ, cellInv ER (a2aRd m) κ ((c : Thread nD τ), sm)))
          ∗ (bigSep Finset.univ fun sm : SemLoc sig => iprop(atPos ER ((c : Thread nD τ), sm) 0 ∅ 0 ∗ reached ER ((c : Thread nD τ), sm) 0)) ∗ toks c) : sProp 𝕄)
      ⊢ bigSep Finset.univ (G' m) := by
  rw [bigSep_sep', bigSep_sep', ← bigSep_univ_prod (fun ck : Dev nD × SemLoc sig => iprop(∃ κ : ℕ, cellInv ER (a2aRd m) κ (kcell ck))),
    bigSep_congr (s := Finset.univ) (fun (c : Dev nD) _ => bigSep_sep' Finset.univ (fun sm : SemLoc sig => (atPos ER ((c : Thread nD τ), sm) 0 ∅ 0 : sProp 𝕄)) (fun sm => reached ER ((c : Thread nD τ), sm) 0)),
    bigSep_sep', ← bigSep_univ_prod (fun ck : Dev nD × SemLoc sig => (reached ER (kcell ck) 0 : sProp 𝕄))]
  iintro ⟨HI, ⟨Hat, #HR⟩, Htok⟩
  ihave HK := (BI.bigSep_exists_pi Finset.univ (fun (ck : Dev nD × SemLoc sig) (κ : ℕ) => (cellInv ER (a2aRd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => (positions c : sProp 𝕄)) payToks).symm)
    isplitl [Hat]; · iexact Hat
    iexact Htk

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch element funds both algebras -/

theorem hu₀ : (ownU u₀ : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_all m) $$ HX with HG
  imodintro
  isplitl [HP] <;> iassumption

/-- info: 'Cert.Kernel.A2A.glob' depends on axioms: [propext, Classical.choice, Quot.sound] -/
#guard_msgs in #print axioms glob

end Cert.Kernel.A2A

end
-- ==== Proof.K_LaunchRun.lean ====
/-
  The launch: what each device is owed at launch and so holds as credit, the launch theorem's side conditions, and
  the run of the whole mesh from the body obligation.
-/
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.Kernel.Skeleton
import proofs.«900648_g7700000000000649_dist_a2a_v7x_xyz2x4x4_x_m16384_n1024_f32_1_alg».proof.Proof.Gen.Kernel.Launch
import proofs.«900648_g7700000000000649_dist_a2a_v7x_xyz2x4x4_x_m16384_n1024_f32_1_alg».proof.Proof.Gen.Kernel.Points
import proofs.«900648_g7700000000000649_dist_a2a_v7x_xyz2x4x4_x_m16384_n1024_f32_1_alg».proof.Proof.K_State
import proofs.«900648_g7700000000000649_dist_a2a_v7x_xyz2x4x4_x_m16384_n1024_f32_1_alg».proof.Proof.K_Sched
import proofs.«900648_g7700000000000649_dist_a2a_v7x_xyz2x4x4_x_m16384_n1024_f32_1_alg».proof.Proof.K_LaunchGhost
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch theorem's facts about the semaphores and shares -/

theorem ownSemFacts : Pipeline.OwnSemFacts cfg0.spec osem := by decide

theorem share_eq (c : Dev nD) (w : Fin cfg0.W) : (dats m 0 c).share w = fullShare := w.elim0

/-! ## The launch credit -/

omit [FloatOps F] in
theorem reg_ne_dma (s : Sem sig) (q : DmaSem sig) : (SemLoc.reg s : SemLoc sig) ≠ .dma q := fun h => by cases h

omit [FloatOps F] in
theorem bar_eq_iff {a b : Dev nD} : Iff (barCell a = barCell b) (a = b) :=
  ⟨fun h => Fin.ext (congrArg (fun g : GSem nD τ sig => g.1.1.val) h), fun h => h ▸ rfl⟩

omit [FloatOps F] in
theorem recv_eq_iff {a b : Dev nD} {i j : Fin 16} : Iff (recvCell a i = recvCell b j) (a = b ∧ i = j) :=
  ⟨fun h => ⟨Fin.ext (congrArg (fun g : GSem nD τ sig => g.1.1.val) h), by
      have h2 : (SemLoc.dma (recvS i) : SemLoc sig) = .dma (recvS j) := congrArg Prod.snd h
      have h3 : 34 + i.val = 34 + j.val := congrArg (fun q : DmaSem sig => q.val) (SemLoc.dma.inj h2)
      exact Fin.ext (by omega)⟩,
    fun ⟨h1, h2⟩ => h1 ▸ h2 ▸ rfl⟩

omit [FloatOps F] in
/-- A device's receive dues are none of a barrier cell's. -/
theorem owedFrom_bar (d c : Dev nD) (k : ℕ) : owedFrom d k (barCell c) () = 0 := by
  unfold owedFrom
  rw [Finset.sum_apply, Finsupp.finsetSum_apply]
  exact Finset.sum_eq_zero fun i _ => by
    rw [tallyAt_ne_cell (fun h => reg_ne_dma _ _ (congrArg Prod.snd h))]; rfl

omit [FloatOps F] in
/-- What device d owes device c's barrier cell: its entry signal, if it is c's peer. -/
theorem owed_bar (d c : Dev nD) : O₀ d (barCell c) () = if d = peer c then 1 else 0 := by
  unfold O₀
  rw [Pi.add_apply, Finsupp.add_apply, owedFrom_bar, Nat.zero_add, tallyAt_apply]
  by_cases h : d = peer c
  · subst h; rw [peer_peer, if_pos ⟨rfl, rfl⟩, if_pos rfl]
  · rw [if_neg (fun ⟨h1, _⟩ => h (by rw [← peer_peer d]; exact congrArg peer (bar_eq_iff.mp h1).symm)), if_neg h]

omit [FloatOps F] in
/-- What device d owes receive cell i of device c: a block's credit (its send of chunk i), if it is c's peer. -/
theorem owed_recv (d c : Dev nD) (i : Fin 16) : O₀ d (recvCell c i) () = if d = peer c then Nh else 0 := by
  unfold O₀ owedFrom
  rw [Pi.add_apply, Finsupp.add_apply, tallyAt_ne_cell (fun h => reg_ne_dma _ _ (congrArg Prod.snd h).symm), Finsupp.zero_apply, Nat.add_zero,
    Finset.sum_apply, Finsupp.finsetSum_apply,
    Finset.sum_eq_single i
      (fun j _ hj => by
        rw [tallyAt_apply, if_neg]
        rintro ⟨h1, _⟩
        exact hj (recv_eq_iff.mp h1).2.symm)
      (fun hi => absurd (Finset.mem_filter.mpr ⟨Finset.mem_univ i, Nat.zero_le i.val⟩) hi),
    tallyAt_apply]
  by_cases h : d = peer c
  · subst h; rw [peer_peer, if_pos ⟨rfl, rfl⟩, if_pos rfl]
  · rw [if_neg (fun ⟨h1, _⟩ => h (by rw [← peer_peer d]; exact congrArg peer (recv_eq_iff.mp h1).1.symm)), if_neg h]

omit [FloatOps F] in
theorem launch_bar (c : Dev nD) :
    tallyOn (barCell c) (launchCredit (Pipeline.owing O₀) 0 (barCell c)) = (tallyAt (barCell c) () 1 : CellTallies nD τ sig Unit) := by
  unfold tallyAt; refine congrArg _ (Finsupp.ext fun u => ?_); cases u
  rw [Pipeline.launchCredit_owing, Finsupp.single_eq_same, Finset.sum_congr rfl fun d _ => owed_bar d c,
    Finset.sum_ite_eq' Finset.univ (peer c) fun _ => 1, if_pos (Finset.mem_univ _)]

omit [FloatOps F] in
theorem launch_recv (c : Dev nD) (i : Fin 16) :
    tallyOn (recvCell c i) (launchCredit (Pipeline.owing O₀) 0 (recvCell c i)) = (tallyAt (recvCell c i) () Nh : CellTallies nD τ sig Unit) := by
  unfold tallyAt; refine congrArg _ (Finsupp.ext fun u => ?_); cases u
  rw [Pipeline.launchCredit_owing, Finsupp.single_eq_same, Finset.sum_congr rfl fun d _ => owed_recv d c i,
    Finset.sum_ite_eq' Finset.univ (peer c) fun _ => Nh, if_pos (Finset.mem_univ _)]

/-- The sixteen receive semaphores among a device's semaphores. -/
def recvEmb : Fin 16 ↪ SemLoc sig :=
  ⟨fun i => .dma (recvS i), fun i j h => Fin.ext (by
    have h3 : 34 + i.val = 34 + j.val := congrArg (fun q : DmaSem sig => q.val) (SemLoc.dma.inj h)
    omega)⟩

omit [FloatOps F] in
/-- Of the credit the launch deals a device, cell by cell, the barrier cell's unit and the sixteen receive cells' blocks. -/
theorem creds_of_launch (c : Dev nD) : (Pipeline.launchCred O₀ c : sProp 𝕄) ⊢ creds c := by
  unfold Pipeline.launchCred creds
  rw [bigSep_univ_at _ (SemLoc.reg barS), launch_bar]
  refine sep_mono_right ?_
  refine (bigSep_subset (t := Finset.univ.map recvEmb) (fun sm h => ?_)).trans ?_
  · obtain ⟨i, _, rfl⟩ := Finset.mem_map.mp h
    exact Finset.mem_erase.mpr ⟨(reg_ne_dma _ _).symm, Finset.mem_univ _⟩
  · rw [bigSep_map]
    exact Entails.of_eq (bigSep_congr fun i _ => congrArg cred (launch_recv c i))

/-! ## The theorem's side conditions -/

/-- What a device ends with, as the launch theorem reads it: the argument unchanged and the result at its final contents. -/
def Y (c : Dev nD) : sProp 𝕄 :=
  iprop((((c : Thread nD τ).loc main_arg0) ↦{fullShare} Xa m c) ∗ (((c : Thread nD τ).loc main_v1) ↦{fullShare} outK m c))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hv⟩, Hlev, Hcr, -, HG⟩
  ihave Hc := (creds_of_launch (F := F) c) $$ Hcr
  imodintro
  unfold start G'
  isplitl
  · isplitl [HG]; · iexact HG
    isplitl [Hc]; · iexact Hc
    isplitl [Hlev]; · iexact Hlev
    isplitl [Ha]; · iexact Ha
    iexact Hv
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq]
  unfold Φ₁ Y scratch Pipeline.ownSems0
  iintro ⟨Ha, Hv, Hscr, Hz⟩
  isplitl [Ha Hv]
  · isplitl [Ha] <;> iassumption
  isplitl [Hz]; · iexact Hz
  iexact Hscr

theorem waits (c : Dev nD) : (levAts L lv : sProp 𝕄) ⊢ Pipeline.cellsWaits cfgs (dats m) () 0 c :=
  Pipeline.cellsWaits_intro cfgs (dats m) () 0 c fun w => w.elim0

/-! ## The run -/

/-- Every device's argument block as launched and its result at the final contents. -/
def QC : PUnit × MemSt nD τ sig (Elt F) → Prop := fun r =>
  ∀ c : Dev nD, r.2.mem ((c : Thread nD τ).loc main_arg0) = Xa m c ∧ r.2.mem ((c : Thread nD τ).loc main_v1) = outK m c

set_option maxRecDepth 8000 in
/-- At the compiled mesh of thirty-two devices, for any float values, from any memory with zero counters: every weakly
    fair execution of @main terminates, and every final state has each device's argument block as launched and its
    result buffer at the exchanged contents. -/
theorem run_main (hbody : ∀ c, BodyObligation (dats (F := F) m 0 c) (defs₀ (F := F)) 𝒱₀ () Set.univ) :
    θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => w.elim0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := hu₀ m)
    (hglob := glob m)
    (hA := fun _ w => w.elim0) (hpf := fun _ k => k.elim0)
    (X := start m) (Y := Y m) (Z := fun _ => iprop(emp))
    (hX := start_intro m ρ) (hin := phi0_intro m) (hout := phi1_exit m)
    (QY := fun c s => s.mem ((c : Thread nD τ).loc main_arg0) = Xa m c ∧ s.mem ((c : Thread nD τ).loc main_v1) = outK m c)
    (hY := fun c s' => by
      unfold Y
      iintro ⟨⟨Ha, Hv⟩, -, HSI⟩
      icombine HSI Ha gives %ha
      icombine HSI Hv gives %hv
      imodintro
      isplitr
      · ipureintro; exact ⟨Buf.eq_of_forall_mem_univ ha, Buf.eq_of_forall_mem_univ hv⟩
      iexact HSI)
    (hQ := fun _ h c => (h c).2.2)

/-- info: 'Cert.Kernel.A2A.run_main' depends on axioms: [propext, Classical.choice, Quot.sound] -/
#guard_msgs in #print axioms run_main

end Cert.Kernel.A2A

end
-- ==== Proof.K_Tiles.lean ====
/-
  The buffers of the all-to-all cut into the element sets of the protocol's views, and joined back.

  The argument block is its sixteen chunks of 1024 rows; the result is its thirty-two blocks of 1024 rows (an x
  coordinate and a chunk); each scratch buffer is its two slots.  The families are pairwise disjoint (they are
  separated along the leading axis) and cover the buffer, so a points-to of the whole buffer is the separating
  conjunction of the points-tos of the pieces.  The vector loads and stores of a slot's halves stay inside the slot.
-/
import proofs.«900648_g7700000000000649_dist_a2a_v7x_xyz2x4x4_x_m16384_n1024_f32_1_alg».proof.Proof.K_Proto

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The views' buffers -/

theorem xV_loc (c : Dev nD) (i : Fin 16) : (xV i).view.loc (c : Thread nD τ) = (c : Thread nD τ).loc main_arg0 := rfl
theorem vinV_loc (c : Dev nD) (s : Fin 2) : (vinV s).view.loc (c : Thread nD τ) = (c : Thread nD τ).loc cc0_scratch0 := rfl
theorem vkV_loc (c : Dev nD) (s : Fin 2) : (vkV s).view.loc (c : Thread nD τ) = (c : Thread nD τ).loc cc0_scratch1 := rfl
theorem vsV_loc (c : Dev nD) (s : Fin 2) : (vsV s).view.loc (c : Thread nD τ) = (c : Thread nD τ).loc cc0_scratch2 := rfl
theorem oVa_loc (c : Dev nD) (a : Fin 2) (i : Fin 16) : (oVa a i).view.loc (c : Thread nD τ) = (c : Thread nD τ).loc main_v1 := rfl
theorem oVd_loc (c d : Dev nD) (i : Fin 16) : (oVd d i).view.loc (c : Thread nD τ) = (c : Thread nD τ).loc main_v1 := rfl

/-! ## The views' element sets, as rectangles of their buffers -/

theorem xV_set (i : Fin 16) :
    (xV i).view.set = (Rect.unit (s := S16384x2048) ![1024 * i.val, 0] S1024x2048.size (inb_x i)).set :=
  View.set_slice_whole main_arg0 _

theorem oVa_set (a : Fin 2) (i : Fin 16) :
    (oVa a i).view.set = (Rect.unit (s := S32768x1024) ![16384 * a.val + 1024 * i.val, 0] S1024x1024.size (inb_o a i)).set :=
  View.set_slice_whole main_v1 _

theorem vinV_set (s : Fin 2) :
    (vinV s).view.set = (Rect.unit (s := S2x1024x2048) ![s.val, 0, 0] S1x1024x2048.size (inb_vin s)).set :=
  (View.set_reshape _ _).trans (View.set_slice_whole cc0_scratch0 _)

theorem vkV_set (s : Fin 2) :
    (vkV s).view.set = (Rect.unit (s := S2x1024x1024) ![s.val, 0, 0] S1x1024x1024.size (inb_vh s)).set :=
  (View.set_reshape _ _).trans (View.set_slice_whole cc0_scratch1 _)

theorem vsV_set (s : Fin 2) :
    (vsV s).view.set = (Rect.unit (s := S2x1024x1024) ![s.val, 0, 0] S1x1024x1024.size (inb_vh s)).set :=
  (View.set_reshape _ _).trans (View.set_slice_whole cc0_scratch2 _)

/-! ## The kernel's own row offset names the block of the device's x coordinate -/

theorem oVd_eq (c : Dev nD) (i : Fin 16) : oVd c i = oVa (xf c) i :=
  Memref.slice_unit_congr _ (k0_off1_eq c i) _ _ _ _

theorem set_heq_of_eq {m m' : Memref sig .tc .hbm S1024x1024 .f32} (h : m = m') : HEq m.view.set m'.view.set := by
  subst h; rfl

theorem oVd_set (c : Dev nD) (i : Fin 16) : (oVd c i).view.set = (oVa (xf c) i).view.set :=
  eq_of_heq (set_heq_of_eq (oVd_eq c i))

/-! ## The argument block and the result, by chunks -/

/-- A whole buffer is the separating conjunction of a finite family of pairwise disjoint element sets covering it. -/
theorem pointsTo_univ_split {ℓ : Loc nD τ sig} {T : Type} [Fintype T] (K : T → Finset (Idx ℓ)) (q : PosShare TreeShare)
    (f : Buf (Elt F) ℓ) (hc : ∀ j : Idx ℓ, ∃ t, j ∈ K t) (hd : ∀ t t', t ≠ t' → Disjoint (K t) (K t')) :
    (ℓ ↦{q} f : sProp 𝕄) = bigSep Finset.univ fun t => ℓ ↦[K t]{q} f := by
  refine Eq.trans ?_ (pointsTo_biUnion Finset.univ K fun t _ t' _ hne => hd t t' hne)
  congr 1
  ext j
  simp only [Finset.mem_univ, Finset.mem_biUnion, true_and, true_iff]
  exact hc j

theorem cover_x (j : S16384x2048.Idx) : ∃ i : Fin 16, j ∈ (xV i).view.set := by
  have h0 : (j 0).val < 16384 := (j 0).isLt
  have h1 : (j 1).val < 2048 := (j 1).isLt
  refine ⟨⟨(j 0).val / 1024, by omega⟩, ?_⟩
  rw [xV_set, Rect.mem_set_unit]
  intro a
  match a with
  | ⟨0, _⟩ => show 1024 * ((j 0).val / 1024) ≤ (j 0).val ∧ (j 0).val < 1024 * ((j 0).val / 1024) + 1024; omega
  | ⟨1, _⟩ => show 0 ≤ (j 1).val ∧ (j 1).val < 0 + 2048; omega

theorem disj_x (i i' : Fin 16) (h : i ≠ i') : Disjoint (xV i).view.set (xV i').view.set := by
  rw [xV_set, xV_set]
  have hv : i.val ≠ i'.val := fun e => h (Fin.ext e)
  exact Rect.unit_disjoint (0 : Fin 2) (by
    show 1024 * i.val + 1024 ≤ 1024 * i'.val ∨ 1024 * i'.val + 1024 ≤ 1024 * i.val; omega)

theorem split_x (c : Dev nD) (q : PosShare TreeShare) (f : Buf (Elt F) ((c : Thread nD τ).loc main_arg0)) :
    (((c : Thread nD τ).loc main_arg0) ↦{q} f : sProp 𝕄)
      = bigSep Finset.univ fun i : Fin 16 => ((xV i).view.loc (c : Thread nD τ) ↦[(xV i).view.set]{q} f) := by
  exact pointsTo_univ_split (ℓ := (c : Thread nD τ).loc main_arg0) (fun i : Fin 16 => (xV i).view.set) q f cover_x disj_x

theorem cover_o (j : S32768x1024.Idx) : ∃ p : Fin 2 × Fin 16, j ∈ (oVa p.1 p.2).view.set := by
  have h0 : (j 0).val < 32768 := (j 0).isLt
  have h1 : (j 1).val < 1024 := (j 1).isLt
  refine ⟨(⟨(j 0).val / 16384, by omega⟩, ⟨(j 0).val % 16384 / 1024, by omega⟩), ?_⟩
  rw [oVa_set, Rect.mem_set_unit]
  intro a
  match a with
  | ⟨0, _⟩ =>
    show 16384 * ((j 0).val / 16384) + 1024 * ((j 0).val % 16384 / 1024) ≤ (j 0).val
      ∧ (j 0).val < 16384 * ((j 0).val / 16384) + 1024 * ((j 0).val % 16384 / 1024) + 1024
    omega
  | ⟨1, _⟩ => show 0 ≤ (j 1).val ∧ (j 1).val < 0 + 1024; omega

theorem disj_o (p p' : Fin 2 × Fin 16) (h : p ≠ p') : Disjoint (oVa p.1 p.2).view.set (oVa p'.1 p'.2).view.set := by
  rw [oVa_set, oVa_set]
  have hv : p.1.val ≠ p'.1.val ∨ p.2.val ≠ p'.2.val := by
    by_contra hc
    have hc' := not_or.mp hc
    exact h (Prod.ext (Fin.ext (not_not.mp hc'.1)) (Fin.ext (not_not.mp hc'.2)))
  have hi := p.2.isLt
  have hi' := p'.2.isLt
  exact Rect.unit_disjoint (0 : Fin 2) (by
    show 16384 * p.1.val + 1024 * p.2.val + 1024 ≤ 16384 * p'.1.val + 1024 * p'.2.val
      ∨ 16384 * p'.1.val + 1024 * p'.2.val + 1024 ≤ 16384 * p.1.val + 1024 * p.2.val
    omega)

theorem split_o (c : Dev nD) (f : Buf (Elt F) ((c : Thread nD τ).loc main_v1)) :
    (((c : Thread nD τ).loc main_v1) ↦{fullShare} f : sProp 𝕄)
      = bigSep Finset.univ fun p : Fin 2 × Fin 16 =>
          ((oVa p.1 p.2).view.loc (c : Thread nD τ) ↦[(oVa p.1 p.2).view.set]{fullShare} f) := by
  exact pointsTo_univ_split (ℓ := (c : Thread nD τ).loc main_v1) (fun p : Fin 2 × Fin 16 => (oVa p.1 p.2).view.set) fullShare f
    cover_o disj_o

/-! ## The scratch buffers, by slots -/

theorem cover_in : (Finset.univ : Finset S2x1024x2048.Idx) = (vinV 0).view.set ∪ (vinV 1).view.set := by
  ext j
  simp only [Finset.mem_univ, Finset.mem_union, true_iff]
  have h0 : (j 0).val < 2 := (j 0).isLt
  have h1 : (j 1).val < 1024 := (j 1).isLt
  have h2 : (j 2).val < 2048 := (j 2).isLt
  rw [vinV_set, vinV_set, Rect.mem_set_unit, Rect.mem_set_unit]
  by_cases hz : (j 0).val = 0
  · left; intro a
    match a with
    | ⟨0, _⟩ => show 0 ≤ (j 0).val ∧ (j 0).val < 0 + 1; omega
    | ⟨1, _⟩ => show 0 ≤ (j 1).val ∧ (j 1).val < 0 + 1024; omega
    | ⟨2, _⟩ => show 0 ≤ (j 2).val ∧ (j 2).val < 0 + 2048; omega
  · right; intro a
    match a with
    | ⟨0, _⟩ => show 1 ≤ (j 0).val ∧ (j 0).val < 1 + 1; omega
    | ⟨1, _⟩ => show 0 ≤ (j 1).val ∧ (j 1).val < 0 + 1024; omega
    | ⟨2, _⟩ => show 0 ≤ (j 2).val ∧ (j 2).val < 0 + 2048; omega

theorem disj_in : Disjoint (vinV 0).view.set (vinV 1).view.set := by
  rw [vinV_set, vinV_set]
  exact Rect.unit_disjoint (0 : Fin 3) (by show 0 + 1 ≤ 1 ∨ 1 + 1 ≤ 0; omega)

theorem cover_k : (Finset.univ : Finset S2x1024x1024.Idx) = (vkV 0).view.set ∪ (vkV 1).view.set := by
  ext j
  simp only [Finset.mem_univ, Finset.mem_union, true_iff]
  have h0 : (j 0).val < 2 := (j 0).isLt
  have h1 : (j 1).val < 1024 := (j 1).isLt
  have h2 : (j 2).val < 1024 := (j 2).isLt
  rw [vkV_set, vkV_set, Rect.mem_set_unit, Rect.mem_set_unit]
  by_cases hz : (j 0).val = 0
  · left; intro a
    match a with
    | ⟨0, _⟩ => show 0 ≤ (j 0).val ∧ (j 0).val < 0 + 1; omega
    | ⟨1, _⟩ => show 0 ≤ (j 1).val ∧ (j 1).val < 0 + 1024; omega
    | ⟨2, _⟩ => show 0 ≤ (j 2).val ∧ (j 2).val < 0 + 1024; omega
  · right; intro a
    match a with
    | ⟨0, _⟩ => show 1 ≤ (j 0).val ∧ (j 0).val < 1 + 1; omega
    | ⟨1, _⟩ => show 0 ≤ (j 1).val ∧ (j 1).val < 0 + 1024; omega
    | ⟨2, _⟩ => show 0 ≤ (j 2).val ∧ (j 2).val < 0 + 1024; omega

theorem disj_k : Disjoint (vkV 0).view.set (vkV 1).view.set := by
  rw [vkV_set, vkV_set]
  exact Rect.unit_disjoint (0 : Fin 3) (by show 0 + 1 ≤ 1 ∨ 1 + 1 ≤ 0; omega)

theorem cover_s : (Finset.univ : Finset S2x1024x1024.Idx) = (vsV 0).view.set ∪ (vsV 1).view.set := by
  rw [vsV_set, vsV_set, ← vkV_set, ← vkV_set]; exact cover_k

theorem disj_s : Disjoint (vsV 0).view.set (vsV 1).view.set := by
  rw [vsV_set, vsV_set, ← vkV_set, ← vkV_set]; exact disj_k

theorem split_in (c : Dev nD) (f : Buf (Elt F) ((c : Thread nD τ).loc cc0_scratch0)) :
    (((c : Thread nD τ).loc cc0_scratch0) ↦{fullShare} f : sProp 𝕄)
      ⊣⊢ iprop(((vinV 0).view.loc (c : Thread nD τ) ↦[(vinV 0).view.set]{fullShare} f)
          ∗ ((vinV 1).view.loc (c : Thread nD τ) ↦[(vinV 1).view.set]{fullShare} f)) := by
  have h : (((c : Thread nD τ).loc cc0_scratch0) ↦[(vinV 0).view.set ∪ (vinV 1).view.set]{fullShare} f : sProp 𝕄)
      ⊣⊢ iprop((((c : Thread nD τ).loc cc0_scratch0) ↦[(vinV 0).view.set]{fullShare} f)
          ∗ (((c : Thread nD τ).loc cc0_scratch0) ↦[(vinV 1).view.set]{fullShare} f)) := pointsTo_union disj_in
  rw [← cover_in] at h
  exact h

theorem join_in (c : Dev nD) (f0 f1 : Buf (Elt F) ((c : Thread nD τ).loc cc0_scratch0)) :
    (iprop(((vinV 0).view.loc (c : Thread nD τ) ↦[(vinV 0).view.set]{fullShare} f0)
          ∗ ((vinV 1).view.loc (c : Thread nD τ) ↦[(vinV 1).view.set]{fullShare} f1)) : sProp 𝕄)
      ⊢ iprop(∃ g, ((c : Thread nD τ).loc cc0_scratch0) ↦{fullShare} g) := by
  have h : (iprop((((c : Thread nD τ).loc cc0_scratch0) ↦[(vinV 0).view.set]{fullShare} f0)
          ∗ (((c : Thread nD τ).loc cc0_scratch0) ↦[(vinV 1).view.set]{fullShare} f1)) : sProp 𝕄)
      ⊢ (((c : Thread nD τ).loc cc0_scratch0) ↦[(vinV 0).view.set ∪ (vinV 1).view.set]{fullShare}
          ((vinV 1).view.set.piecewise f1 f0)) := pointsTo_join disj_in
  rw [← cover_in] at h
  exact h.trans (exists_intro (Φ := fun g => (((c : Thread nD τ).loc cc0_scratch0) ↦{fullShare} g : sProp 𝕄)) _)

theorem split_k (c : Dev nD) (f : Buf (Elt F) ((c : Thread nD τ).loc cc0_scratch1)) :
    (((c : Thread nD τ).loc cc0_scratch1) ↦{fullShare} f : sProp 𝕄)
      ⊣⊢ iprop(((vkV 0).view.loc (c : Thread nD τ) ↦[(vkV 0).view.set]{fullShare} f)
          ∗ ((vkV 1).view.loc (c : Thread nD τ) ↦[(vkV 1).view.set]{fullShare} f)) := by
  have h : (((c : Thread nD τ).loc cc0_scratch1) ↦[(vkV 0).view.set ∪ (vkV 1).view.set]{fullShare} f : sProp 𝕄)
      ⊣⊢ iprop((((c : Thread nD τ).loc cc0_scratch1) ↦[(vkV 0).view.set]{fullShare} f)
          ∗ (((c : Thread nD τ).loc cc0_scratch1) ↦[(vkV 1).view.set]{fullShare} f)) := pointsTo_union disj_k
  rw [← cover_k] at h
  exact h

theorem join_k (c : Dev nD) (f0 f1 : Buf (Elt F) ((c : Thread nD τ).loc cc0_scratch1)) :
    (iprop(((vkV 0).view.loc (c : Thread nD τ) ↦[(vkV 0).view.set]{fullShare} f0)
          ∗ ((vkV 1).view.loc (c : Thread nD τ) ↦[(vkV 1).view.set]{fullShare} f1)) : sProp 𝕄)
      ⊢ iprop(∃ g, ((c : Thread nD τ).loc cc0_scratch1) ↦{fullShare} g) := by
  have h : (iprop((((c : Thread nD τ).loc cc0_scratch1) ↦[(vkV 0).view.set]{fullShare} f0)
          ∗ (((c : Thread nD τ).loc cc0_scratch1) ↦[(vkV 1).view.set]{fullShare} f1)) : sProp 𝕄)
      ⊢ (((c : Thread nD τ).loc cc0_scratch1) ↦[(vkV 0).view.set ∪ (vkV 1).view.set]{fullShare}
          ((vkV 1).view.set.piecewise f1 f0)) := pointsTo_join disj_k
  rw [← cover_k] at h
  exact h.trans (exists_intro (Φ := fun g => (((c : Thread nD τ).loc cc0_scratch1) ↦{fullShare} g : sProp 𝕄)) _)

theorem split_s (c : Dev nD) (f : Buf (Elt F) ((c : Thread nD τ).loc cc0_scratch2)) :
    (((c : Thread nD τ).loc cc0_scratch2) ↦{fullShare} f : sProp 𝕄)
      ⊣⊢ iprop(((vsV 0).view.loc (c : Thread nD τ) ↦[(vsV 0).view.set]{fullShare} f)
          ∗ ((vsV 1).view.loc (c : Thread nD τ) ↦[(vsV 1).view.set]{fullShare} f)) := by
  have h : (((c : Thread nD τ).loc cc0_scratch2) ↦[(vsV 0).view.set ∪ (vsV 1).view.set]{fullShare} f : sProp 𝕄)
      ⊣⊢ iprop((((c : Thread nD τ).loc cc0_scratch2) ↦[(vsV 0).view.set]{fullShare} f)
          ∗ (((c : Thread nD τ).loc cc0_scratch2) ↦[(vsV 1).view.set]{fullShare} f)) := pointsTo_union disj_s
  rw [← cover_s] at h
  exact h

theorem join_s (c : Dev nD) (f0 f1 : Buf (Elt F) ((c : Thread nD τ).loc cc0_scratch2)) :
    (iprop(((vsV 0).view.loc (c : Thread nD τ) ↦[(vsV 0).view.set]{fullShare} f0)
          ∗ ((vsV 1).view.loc (c : Thread nD τ) ↦[(vsV 1).view.set]{fullShare} f1)) : sProp 𝕄)
      ⊢ iprop(∃ g, ((c : Thread nD τ).loc cc0_scratch2) ↦{fullShare} g) := by
  have h : (iprop((((c : Thread nD τ).loc cc0_scratch2) ↦[(vsV 0).view.set]{fullShare} f0)
          ∗ (((c : Thread nD τ).loc cc0_scratch2) ↦[(vsV 1).view.set]{fullShare} f1)) : sProp 𝕄)
      ⊢ (((c : Thread nD τ).loc cc0_scratch2) ↦[(vsV 0).view.set ∪ (vsV 1).view.set]{fullShare}
          ((vsV 1).view.set.piecewise f1 f0)) := pointsTo_join disj_s
  rw [← cover_s] at h
  exact h.trans (exists_intro (Φ := fun g => (((c : Thread nD τ).loc cc0_scratch2) ↦{fullShare} g : sProp 𝕄)) _)

/-! ## The vector loads and stores of a slot stay inside the slot -/

theorem inb_ld (s a : Fin 2) : ∀ b, (![s.val, 0, 1024 * a.val] : Fin 3 → Nat) b + S1x1024x1024.size b ≤ S2x1024x2048.size b := by
  revert s a; decide

/-- Either half of an input slot's columns lies in the slot. -/
theorem load_in_sub (s a : Fin 2) :
    (Memref.whole cc0_scratch0 : Memref sig .tc .vmem S2x1024x2048 .f32).view.setOn
        (Rect.unit (s := S2x1024x2048) ![s.val, 0, 1024 * a.val] S1x1024x1024.size (inb_ld s a)).toLoadRect.set
      ⊆ (vinV s).view.set := by
  rw [vinV_set]
  show Finset.map (Function.Embedding.refl _)
      (Rect.unit (s := S2x1024x2048) ![s.val, 0, 1024 * a.val] S1x1024x1024.size (inb_ld s a)).set ⊆ _
  rw [Finset.map_refl]
  have ha := a.isLt
  refine Rect.set_subset_of_span _ _ (fun _ => rfl) fun b => ?_
  match b with
  | ⟨0, _⟩ => show s.val ≤ s.val ∧ s.val + 1 * 1 ≤ s.val + 1 + (1 - 1); omega
  | ⟨1, _⟩ => show 0 ≤ 0 ∧ 0 + 1 * 1024 ≤ 0 + 1024 + (1 - 1); omega
  | ⟨2, _⟩ => show 0 ≤ 1024 * a.val ∧ 1024 * a.val + 1 * 1024 ≤ 0 + 2048 + (1 - 1); omega

/-- A keep or send slot is read and written whole. -/
theorem load_k_sub (s : Fin 2) :
    (Memref.whole cc0_scratch1 : Memref sig .tc .vmem S2x1024x1024 .f32).view.setOn
        (Rect.unit (s := S2x1024x1024) ![s.val, 0, 0] S1x1024x1024.size (inb_vh s)).toLoadRect.set
      ⊆ (vkV s).view.set := by
  rw [vkV_set]
  show Finset.map (Function.Embedding.refl _)
      (Rect.unit (s := S2x1024x1024) ![s.val, 0, 0] S1x1024x1024.size (inb_vh s)).set ⊆ _
  rw [Finset.map_refl]

theorem load_s_sub (s : Fin 2) :
    (Memref.whole cc0_scratch2 : Memref sig .tc .vmem S2x1024x1024 .f32).view.setOn
        (Rect.unit (s := S2x1024x1024) ![s.val, 0, 0] S1x1024x1024.size (inb_vh s)).toLoadRect.set
      ⊆ (vsV s).view.set := by
  rw [vsV_set]
  show Finset.map (Function.Embedding.refl _)
      (Rect.unit (s := S2x1024x1024) ![s.val, 0, 0] S1x1024x1024.size (inb_vh s)).set ⊆ _
  rw [Finset.map_refl]

theorem store_k_sub (s : Fin 2) :
    ((Memref.whole cc0_scratch1 : Memref sig .tc .vmem S2x1024x1024 .f32).access
        (Rect.unit (s := S2x1024x1024) ![s.val, 0, 0] S1x1024x1024.size (inb_vh s))).setOn Finset.univ
      ⊆ (vkV s).view.set := by
  rw [vkV_set, View.setOn_univ]
  exact (View.set_slice_whole cc0_scratch1 _).subset

theorem store_s_sub (s : Fin 2) :
    ((Memref.whole cc0_scratch2 : Memref sig .tc .vmem S2x1024x1024 .f32).access
        (Rect.unit (s := S2x1024x1024) ![s.val, 0, 0] S1x1024x1024.size (inb_vh s))).setOn Finset.univ
      ⊆ (vsV s).view.set := by
  rw [vsV_set, View.setOn_univ]
  exact (View.set_slice_whole cc0_scratch2 _).subset

/-- At a literal slot and half the generic rectangles are the printed ones. -/
example :
    (Rect.unit (s := S2x1024x2048) ![(1 : Fin 2).val, 0, 1024 * (1 : Fin 2).val] S1x1024x1024.size (inb_ld 1 1))
      = Rect.unit (s := S2x1024x2048) ![1, 0, 1024] S1x1024x1024.size inb_S2x1024x2048_S1x1024x1024_1_0_1024 := rfl
example :
    (Rect.unit (s := S2x1024x1024) ![(1 : Fin 2).val, 0, 0] S1x1024x1024.size (inb_vh 1))
      = Rect.unit (s := S2x1024x1024) ![1, 0, 0] S1x1024x1024.size inb_S2x1024x1024_S1x1024x1024_1_0_0 := rfl

/-- info: 'Cert.Kernel.A2A.split_o' depends on axioms: [propext, Classical.choice, Quot.sound] -/
#guard_msgs in #print axioms split_o

end Cert.Kernel.A2A

end
-- ==== Proof.K_Values.lean ====
/-
  The values of the all-to-all: what lands in a device's result rows is the final contents there.

  Chunk i of device c's argument goes through input slot (i mod 2); the half at the column offset of c's own x
  coordinate is stored into the keep slot and copied into rows 16384 (c/16) + 1024 i of c's own result, the other
  half goes through the send slot into the same rows of the peer's result.  Each step moves an element to a place
  whose coordinates are sums of offsets, so a result element, followed back, is one element of an argument block:
  the one the final contents name.
-/
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.Kernel.Skeleton
import proofs.«900648_g7700000000000649_dist_a2a_v7x_xyz2x4x4_x_m16384_n1024_f32_1_alg».proof.Proof.Gen.Kernel.Launch
import proofs.«900648_g7700000000000649_dist_a2a_v7x_xyz2x4x4_x_m16384_n1024_f32_1_alg».proof.Proof.Gen.Kernel.Points
import proofs.«900648_g7700000000000649_dist_a2a_v7x_xyz2x4x4_x_m16384_n1024_f32_1_alg».proof.Proof.BlockIdx
import proofs.«900648_g7700000000000649_dist_a2a_v7x_xyz2x4x4_x_m16384_n1024_f32_1_alg».proof.Proof.K_Proto
import Idealize.ShloMosaic.Lib.Pipeline.Launch
import Idealize.ShloMosaic.Lib.Pipeline.Kit
import Idealize.ShloMosaic.Lib.Pipeline.Value
import Idealize.ShloMosaic.Lib.ValueLayout
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

/-- The payload every store writes is the loaded half itself: the reshape to 1024 x 1024 and back moves nothing. -/
theorem payId_eq (v : Vec F S1x1024x1024 .f32) : payId v = v :=
  shapeCast_shapeCast v _ _

/-! ## Where each view puts its coordinates -/

/-- Input slot s holds (r, q) at (s, r, q). -/
theorem emb_vin (s : Fin 2) (r : Fin 1024) (q : Fin 2048) :
    (vinV s).view.emb (ix2 r q) = (ix3 s r q : S2x1024x2048.Idx) := by
  have h1 : (vinV s).view.emb (ix2 r q)
      = (Rect.unit (s := S2x1024x2048) ![s.val, 0, 0] S1x1024x2048.size (inb_vin s)).emb
          (Shape.reshapeEquiv (s := S1x1024x2048) (s' := S1024x2048) squeezes_S1x1024x2048_S1024x2048.numel_eq (ix2 r q)) := rfl
  rw [h1, reshapeEquiv_ix2_1ab]
  funext a; apply Fin.ext; rw [Rect.emb_apply]
  match a with
  | ⟨0, _⟩ => show s.val + 1 * 0 = s.val; omega
  | ⟨1, _⟩ => show 0 + 1 * r.val = r.val; omega
  | ⟨2, _⟩ => show 0 + 1 * q.val = q.val; omega

/-- Keep slot s and send slot s hold (r, q) at (s, r, q). -/
theorem emb_vk (s : Fin 2) (r q : Fin 1024) :
    (vkV s).view.emb (ix2 r q) = (ix3 s r q : S2x1024x1024.Idx) := by
  have h1 : (vkV s).view.emb (ix2 r q)
      = (Rect.unit (s := S2x1024x1024) ![s.val, 0, 0] S1x1024x1024.size (inb_vh s)).emb
          (Shape.reshapeEquiv (s := S1x1024x1024) (s' := S1024x1024) squeezes_S1x1024x1024_S1024x1024.numel_eq (ix2 r q)) := rfl
  rw [h1, reshapeEquiv_ix2_1ab]
  funext a; apply Fin.ext; rw [Rect.emb_apply]
  match a with
  | ⟨0, _⟩ => show s.val + 1 * 0 = s.val; omega
  | ⟨1, _⟩ => show 0 + 1 * r.val = r.val; omega
  | ⟨2, _⟩ => show 0 + 1 * q.val = q.val; omega

theorem emb_vs (s : Fin 2) (r q : Fin 1024) :
    (vsV s).view.emb (ix2 r q) = (ix3 s r q : S2x1024x1024.Idx) := by
  have h1 : (vsV s).view.emb (ix2 r q)
      = (Rect.unit (s := S2x1024x1024) ![s.val, 0, 0] S1x1024x1024.size (inb_vh s)).emb
          (Shape.reshapeEquiv (s := S1x1024x1024) (s' := S1024x1024) squeezes_S1x1024x1024_S1024x1024.numel_eq (ix2 r q)) := rfl
  rw [h1, reshapeEquiv_ix2_1ab]
  funext a; apply Fin.ext; rw [Rect.emb_apply]
  match a with
  | ⟨0, _⟩ => show s.val + 1 * 0 = s.val; omega
  | ⟨1, _⟩ => show 0 + 1 * r.val = r.val; omega
  | ⟨2, _⟩ => show 0 + 1 * q.val = q.val; omega

/-- Chunk i of the argument holds (r, q) at row 1024 i + r. -/
theorem emb_x (i : Fin 16) (r : Fin 1024) (q : Fin 2048) :
    (xV i).view.emb (ix2 r q)
      = (ix2 (⟨1024 * i.val + r.val, by have := i.isLt; have := r.isLt; omega⟩ : Fin 16384) q : S16384x2048.Idx) := by
  have h1 : (xV i).view.emb (ix2 r q)
      = (Rect.unit (s := S16384x2048) ![1024 * i.val, 0] S1024x2048.size (inb_x i)).emb (ix2 r q) := rfl
  rw [h1]
  funext a; apply Fin.ext; rw [Rect.emb_apply]
  match a with
  | ⟨0, _⟩ => show 1024 * i.val + 1 * r.val = 1024 * i.val + r.val; omega
  | ⟨1, _⟩ => show 0 + 1 * q.val = q.val; omega

/-- The result rows of chunk i from device c hold (r, q) at row 16384 (c / 16) + 1024 i + r. -/
theorem emb_o (c : Dev nD) (i : Fin 16) (r q : Fin 1024) :
    (oVd c i).view.emb (ix2 r q)
      = (ix2 (⟨16384 * (c.val / 16) + 1024 * i.val + r.val,
              by have h : c.val / 16 < 2 := xc_lt c; have := i.isLt; have := r.isLt; omega⟩ : Fin 32768) q : S32768x1024.Idx) := by
  have h1 : (oVd c i).view.emb (ix2 r q)
      = (Rect.unit (s := S32768x1024) (k0_off1 c (BitVec.ofNat 32 (1024 * i.val))) S1024x1024.size (k0_off1_inb c i)).emb (ix2 r q) := rfl
  rw [h1]
  funext a; apply Fin.ext; rw [Rect.emb_apply]
  show (k0_off1 c (BitVec.ofNat 32 (1024 * i.val))) a + 1 * ((ix2 r q : S1024x1024.Idx) a).val = _
  rw [k0_off1_eq]
  match a with
  | ⟨0, _⟩ => show 16384 * (c.val / 16) + 1024 * i.val + 1 * r.val = 16384 * (c.val / 16) + 1024 * i.val + r.val; omega
  | ⟨1, _⟩ => show 0 + 1 * q.val = q.val; omega

/-- A store through the whole of keep or send slot s puts (0, r, q) at (s, r, q). -/
theorem emb_rH1 (s : Fin 2) (r q : Fin 1024) :
    ((Memref.whole cc0_scratch1 : Memref sig .tc .vmem S2x1024x1024 .f32).access (rH s)).emb (ix3 (⟨0, Nat.one_pos⟩ : Fin 1) r q)
      = (ix3 s r q : S2x1024x1024.Idx) := by
  have h1 : ((Memref.whole cc0_scratch1 : Memref sig .tc .vmem S2x1024x1024 .f32).access (rH s)).emb (ix3 (⟨0, Nat.one_pos⟩ : Fin 1) r q)
      = (rH s).emb (ix3 (⟨0, Nat.one_pos⟩ : Fin 1) r q) := rfl
  rw [h1]
  funext a; apply Fin.ext; rw [Rect.emb_apply]
  match a with
  | ⟨0, _⟩ => show s.val + 1 * 0 = s.val; omega
  | ⟨1, _⟩ => show 0 + 1 * r.val = r.val; omega
  | ⟨2, _⟩ => show 0 + 1 * q.val = q.val; omega

theorem emb_rH2 (s : Fin 2) (r q : Fin 1024) :
    ((Memref.whole cc0_scratch2 : Memref sig .tc .vmem S2x1024x1024 .f32).access (rH s)).emb (ix3 (⟨0, Nat.one_pos⟩ : Fin 1) r q)
      = (ix3 s r q : S2x1024x1024.Idx) := by
  have h1 : ((Memref.whole cc0_scratch2 : Memref sig .tc .vmem S2x1024x1024 .f32).access (rH s)).emb (ix3 (⟨0, Nat.one_pos⟩ : Fin 1) r q)
      = (rH s).emb (ix3 (⟨0, Nat.one_pos⟩ : Fin 1) r q) := rfl
  rw [h1]
  funext a; apply Fin.ext; rw [Rect.emb_apply]
  match a with
  | ⟨0, _⟩ => show s.val + 1 * 0 = s.val; omega
  | ⟨1, _⟩ => show 0 + 1 * r.val = r.val; omega
  | ⟨2, _⟩ => show 0 + 1 * q.val = q.val; omega

/-- A load of the half of input slot s at column offset 1024 a reads (0, r, q) at (s, r, 1024 a + q). -/
theorem idx_in (s a : Fin 2) (r q : Fin 1024) :
    (rIn s a).toLoadRect.idx (ix3 (⟨0, Nat.one_pos⟩ : Fin 1) r q)
      = (ix3 s r (⟨1024 * a.val + q.val, by have := a.isLt; have := q.isLt; omega⟩ : Fin 2048) : S2x1024x2048.Idx) := by
  funext b; apply Fin.ext; rw [LoadRect.idx_apply]
  match b with
  | ⟨0, _⟩ => show s.val + 1 * 0 = s.val; omega
  | ⟨1, _⟩ => show 0 + 1 * r.val = r.val; omega
  | ⟨2, _⟩ => show 1024 * a.val + 1 * q.val = 1024 * a.val + q.val; omega

/-! ## The buffers, element by element -/

/-- Input slot s, after chunk i has been copied into it, holds the chunk. -/
theorem vin_after_apply (c : Dev nD) (s : Fin 2) (i : Fin 16) (fd : Buf (Elt F) ((vinV s).view.loc (c : Thread nD τ)))
    (r : Fin 1024) (q : Fin 2048) :
    (vinV s).view.write (Elt F) fd ((xV i).view.read (Elt F) (Xa m c)) Finset.univ (ix3 s r q : S2x1024x2048.Idx)
      = Xa m c (ix2 (⟨1024 * i.val + r.val, by have := i.isLt; have := r.isLt; omega⟩ : Fin 16384) q : S16384x2048.Idx) := by
  rw [← emb_vin s r q, View.write_emb_of_mem _ _ (Finset.mem_univ _), View.read_apply, emb_x i r q, cast_cast]
  exact cast_eq _ _

/-- The keep slot, after the half at column offset 1024 a of input slot s has been stored into it, holds that half. -/
theorem vk_after_apply (c : Dev nD) (s a : Fin 2) (g : Buf (Elt F) ((c : Thread nD τ).loc cc0_scratch1))
    (fin : Buf (Elt F) ((c : Thread nD τ).loc cc0_scratch0)) (r q : Fin 1024) :
    ((Memref.whole cc0_scratch1 : Memref sig .tc .vmem S2x1024x1024 .f32).access (rH s)).write (Elt F) g
        (payId ((Memref.whole cc0_scratch0 : Memref sig .tc .vmem S2x1024x2048 .f32).view.readAt (Elt F) (rIn s a).toLoadRect fin)) Finset.univ
        (ix3 s r q : S2x1024x1024.Idx)
      = fin (ix3 s r (⟨1024 * a.val + q.val, by have := a.isLt; have := q.isLt; omega⟩ : Fin 2048) : S2x1024x2048.Idx) := by
  rw [← emb_rH1 s r q, View.write_emb_of_mem _ _ (Finset.mem_univ _), payId_eq, View.readAt_apply, View.read_apply, idx_in s a r q, cast_cast]
  exact cast_eq _ _

/-- The send slot likewise. -/
theorem vs_after_apply (c : Dev nD) (s a : Fin 2) (g : Buf (Elt F) ((c : Thread nD τ).loc cc0_scratch2))
    (fin : Buf (Elt F) ((c : Thread nD τ).loc cc0_scratch0)) (r q : Fin 1024) :
    ((Memref.whole cc0_scratch2 : Memref sig .tc .vmem S2x1024x1024 .f32).access (rH s)).write (Elt F) g
        (payId ((Memref.whole cc0_scratch0 : Memref sig .tc .vmem S2x1024x2048 .f32).view.readAt (Elt F) (rIn s a).toLoadRect fin)) Finset.univ
        (ix3 s r q : S2x1024x1024.Idx)
      = fin (ix3 s r (⟨1024 * a.val + q.val, by have := a.isLt; have := q.isLt; omega⟩ : Fin 2048) : S2x1024x2048.Idx) := by
  rw [← emb_rH2 s r q, View.write_emb_of_mem _ _ (Finset.mem_univ _), payId_eq, View.readAt_apply, View.read_apply, idx_in s a r q, cast_cast]
  exact cast_eq _ _

/-- Reading keep slot s, and send slot s, as a 1024 x 1024 block. -/
theorem vk_read_apply (c : Dev nD) (s : Fin 2) (K : Buf (Elt F) ((c : Thread nD τ).loc cc0_scratch1)) (r q : Fin 1024) :
    (vkV s).view.read (Elt F) K (ix2 r q) = K (ix3 s r q : S2x1024x1024.Idx) := by
  rw [View.read_apply, emb_vk s r q]
  exact cast_eq _ _

theorem vs_read_apply (c : Dev nD) (s : Fin 2) (K : Buf (Elt F) ((c : Thread nD τ).loc cc0_scratch2)) (r q : Fin 1024) :
    (vsV s).view.read (Elt F) K (ix2 r q) = K (ix3 s r q : S2x1024x1024.Idx) := by
  rw [View.read_apply, emb_vs s r q]
  exact cast_eq _ _

/-! ## What lands in the result rows -/

/-- The final contents of device c's result at a row of its own half: its own argument block there. -/
theorem outK_own (c : Dev nD) (i : Fin 16) (r q : Fin 1024) :
    outK m c (ix2 (⟨16384 * (c.val / 16) + 1024 * i.val + r.val,
              by have h : c.val / 16 < 2 := xc_lt c; have := i.isLt; have := r.isLt; omega⟩ : Fin 32768) q : S32768x1024.Idx)
      = Xa m c (ix2 (⟨1024 * i.val + r.val, by have := i.isLt; have := r.isLt; omega⟩ : Fin 16384)
          (⟨1024 * (xf c).val + q.val, by have := (xf c).isLt; have := q.isLt; omega⟩ : Fin 2048) : S16384x2048.Idx) := by
  have hc : c.val / 16 < 2 := xc_lt c
  have hi := i.isLt
  have hr := r.isLt
  have hq := q.isLt
  unfold outK
  rw [Cert.A2A.outOf_of_eq _ _ _ (by show (16384 * (c.val / 16) + 1024 * i.val + r.val) / 16384 = c.val / 16; omega)]
  congr 1
  funext a; apply Fin.ext
  match a with
  | ⟨0, _⟩ => show (16384 * (c.val / 16) + 1024 * i.val + r.val) % 16384 = 1024 * i.val + r.val; omega
  | ⟨1, _⟩ => show (1024 * (c.val / 16) + q.val) % 2048 = 1024 * (c.val / 16) + q.val; omega

/-- The final contents of the peer's result at a row of device c's half: device c's argument block there, at the
    peer's columns. -/
theorem outK_peer (c : Dev nD) (i : Fin 16) (r q : Fin 1024) :
    outK m (peer c) (ix2 (⟨16384 * (c.val / 16) + 1024 * i.val + r.val,
              by have h : c.val / 16 < 2 := xc_lt c; have := i.isLt; have := r.isLt; omega⟩ : Fin 32768) q : S32768x1024.Idx)
      = Xa m c (ix2 (⟨1024 * i.val + r.val, by have := i.isLt; have := r.isLt; omega⟩ : Fin 16384)
          (⟨1024 * (xf (peer c)).val + q.val, by have := (xf (peer c)).isLt; have := q.isLt; omega⟩ : Fin 2048) : S16384x2048.Idx) := by
  have hc : c.val / 16 < 2 := xc_lt c
  have hp : (peer c).val / 16 = 1 - c.val / 16 := xc_peer c
  have hi := i.isLt
  have hr := r.isLt
  have hq := q.isLt
  have hback : ∀ (d : Dev nD), d = c → ∀ x : S16384x2048.Idx, Xa m d x = Xa m c x := by
    rintro _ rfl x; rfl
  unfold outK
  rw [Cert.A2A.outOf_of_ne _ _ _ (by show (16384 * (c.val / 16) + 1024 * i.val + r.val) / 16384 ≠ (peer c).val / 16; omega),
    hback _ (peer_peer c)]
  congr 1
  funext a; apply Fin.ext
  match a with
  | ⟨0, _⟩ => show (16384 * (c.val / 16) + 1024 * i.val + r.val) % 16384 = 1024 * i.val + r.val; omega
  | ⟨1, _⟩ => show (1024 * ((peer c).val / 16) + q.val) % 2048 = 1024 * ((peer c).val / 16) + q.val; omega

theorem keep_value (c : Dev nD) (i : Fin 16) (fo : Buf (Elt F) ((oVd c i).view.loc (c : Thread nD τ)))
    (g : Buf (Elt F) ((c : Thread nD τ).loc cc0_scratch1)) (fd : Buf (Elt F) ((vinV (slot i)).view.loc (c : Thread nD τ))) :
    ∀ j ∈ (oVd c i).view.set,
      (oVd c i).view.write (Elt F) fo ((vkV (slot i)).view.read (Elt F) (vkAfter c i g (vinAfter m c i fd))) Finset.univ j
        = outK m c j := by
  intro j hj
  obtain ⟨x, rfl⟩ := View.exists_emb_of_mem_set _ hj
  obtain ⟨r, q, rfl⟩ : ∃ r q, x = ix2 r q := ⟨x 0, x 1, eq_ix2 x⟩
  rw [View.write_emb_of_mem _ _ (Finset.mem_univ _), vk_read_apply c,
    show vkAfter c i g (vinAfter m c i fd) (ix3 (slot i) r q : S2x1024x1024.Idx) = _ from
      vk_after_apply c (slot i) (xf c) g (vinAfter m c i fd) r q,
    show vinAfter m c i fd (ix3 (slot i) r _ : S2x1024x2048.Idx) = _ from vin_after_apply m c (slot i) i fd r _,
    emb_o c i r q, outK_own m c i r q]
  exact cast_eq _ _

theorem send_value (c : Dev nD) (i : Fin 16) (fo : Buf (Elt F) ((oVd c i).view.loc (peer c : Thread nD τ)))
    (g : Buf (Elt F) ((c : Thread nD τ).loc cc0_scratch2)) (fd : Buf (Elt F) ((vinV (slot i)).view.loc (c : Thread nD τ))) :
    ∀ j ∈ (oVd c i).view.set,
      (oVd c i).view.write (Elt F) fo ((vsV (slot i)).view.read (Elt F) (vsAfter c i g (vinAfter m c i fd))) Finset.univ j
        = outK m (peer c) j := by
  intro j hj
  obtain ⟨x, rfl⟩ := View.exists_emb_of_mem_set _ hj
  obtain ⟨r, q, rfl⟩ : ∃ r q, x = ix2 r q := ⟨x 0, x 1, eq_ix2 x⟩
  rw [View.write_emb_of_mem _ _ (Finset.mem_univ _), vs_read_apply c,
    show vsAfter c i g (vinAfter m c i fd) (ix3 (slot i) r q : S2x1024x1024.Idx) = _ from
      vs_after_apply c (slot i) (xf (peer c)) g (vinAfter m c i fd) r q,
    show vinAfter m c i fd (ix3 (slot i) r _ : S2x1024x2048.Idx) = _ from vin_after_apply m c (slot i) i fd r _,
    emb_o c i r q, outK_peer m c i r q]
  exact cast_eq _ _

theorem keep_landed (c : Dev nD) (i : Fin 16) (fo : Buf (Elt F) ((oVd c i).view.loc (c : Thread nD τ)))
    (g : Buf (Elt F) ((c : Thread nD τ).loc cc0_scratch1)) (fd : Buf (Elt F) ((vinV (slot i)).view.loc (c : Thread nD τ))) :
    (((oVd c i).view.loc (c : Thread nD τ) ↦[(oVd c i).view.set]{fullShare}
        ((oVd c i).view.write (Elt F) fo ((vkV (slot i)).view.read (Elt F) (vkAfter c i g (vinAfter m c i fd))) Finset.univ)) : sProp 𝕄)
      = ((oVd c i).view.loc (c : Thread nD τ) ↦[(oVd c i).view.set]{fullShare} outK m c) :=
  pointsTo_congr (keep_value m c i fo g fd)

theorem send_landed (c : Dev nD) (i : Fin 16) (fo : Buf (Elt F) ((oVd c i).view.loc (peer c : Thread nD τ)))
    (g : Buf (Elt F) ((c : Thread nD τ).loc cc0_scratch2)) (fd : Buf (Elt F) ((vinV (slot i)).view.loc (c : Thread nD τ))) :
    (((oVd c i).view.loc (peer c : Thread nD τ) ↦[(oVd c i).view.set]{fullShare}
        ((oVd c i).view.write (Elt F) fo ((vsV (slot i)).view.read (Elt F) (vsAfter c i g (vinAfter m c i fd))) Finset.univ)) : sProp 𝕄)
      = ((oVd c i).view.loc (peer c : Thread nD τ) ↦[(oVd c i).view.set]{fullShare} outK m (peer c)) :=
  pointsTo_congr (send_value m c i fo g fd)

/-- The printed payloads are that payload. -/
theorem pay_congr1 : (Cert.Kernel.Gen.k0_pay7 (F := F)) = payId := rfl
theorem pay_congr2 : (Cert.Kernel.Gen.k0_pay8 (F := F)) = payId := rfl

/-- info: 'Cert.Kernel.A2A.keep_landed' depends on axioms: [propext, Classical.choice, Quot.sound] -/
#guard_msgs in #print axioms keep_landed
/-- info: 'Cert.Kernel.A2A.send_landed' depends on axioms: [propext, Classical.choice, Quot.sound] -/
#guard_msgs in #print axioms send_landed

end Cert.Kernel.A2A

end
-- ==== Proof.K_OpsLocal.lean ====
/-
  The local operations of the kernel body — the vector loads and stores of a slot, the input copy of a chunk and its
  wait, the keep copy of a chunk and its wait — as instances of the library's rules at the protocol's cells and views,
  each in the form "what is held ⊢ (what comes back -∗ the rest of the program) -∗ the operation and the rest".
-/
import proofs.«900648_g7700000000000649_dist_a2a_v7x_xyz2x4x4_x_m16384_n1024_f32_1_alg».proof.Proof.K_State
import proofs.«900648_g7700000000000649_dist_a2a_v7x_xyz2x4x4_x_m16384_n1024_f32_1_alg».proof.Proof.K_Tiles
import proofs.«900648_g7700000000000649_dist_a2a_v7x_xyz2x4x4_x_m16384_n1024_f32_1_alg».proof.Proof.K_Values
import proofs.«900648_g7700000000000649_dist_a2a_v7x_xyz2x4x4_x_m16384_n1024_f32_1_alg».proof.Proof.K_Sched
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × SemLoc sig → ℕ)

/-! ## Credits: a view's credit is its shape's -/

theorem vin_credit (s : Fin 2) : (vinV s).view.dmaCredit = Nin := rfl
theorem vk_credit (s : Fin 2) : (vkV s).view.dmaCredit = Nh := rfl
theorem vs_credit (s : Fin 2) : (vsV s).view.dmaCredit = Nh := rfl
theorem oVd_credit (c : Dev nD) (i : Fin 16) : (oVd c i).view.dmaCredit = Nh := rfl
theorem oVa_credit (a : Fin 2) (i : Fin 16) : (oVa a i).view.dmaCredit = Nh := rfl

/-! ## Vector loads and stores -/

theorem wp_ld_in (c : Dev nD) (s a : Fin 2)
    {hl : (Memref.whole cc0_scratch0 : Memref sig .tc .vmem S2x1024x2048 .f32).view.LoadsAt (rIn s a).toLoadRect}
    {α : Type} {Q : α → sProp 𝕄} {k : ((rIn s a).toLoadRect.shape.Idx → Elt F .f32) → Prog (TpuEff nD τ sig (Elt F) Λ₀ .tc) α}
    (f : Buf (Elt F) ((c : Thread nD τ).loc cc0_scratch0)) :
    (((c : Thread nD τ).loc cc0_scratch0) ↦[(vinV s).view.set]{fullShare} f : sProp 𝕄)
      ⊢ iprop(((((c : Thread nD τ).loc cc0_scratch0) ↦[(vinV s).view.set]{fullShare} f)
              -∗ wp frame (wpE (defs₀ (F := F)) 𝒱₀ (c : Thread nD τ) none) Set.univ (k ((Memref.whole cc0_scratch0 : Memref sig .tc .vmem S2x1024x2048 .f32).view.readAt (Elt F) (rIn s a).toLoadRect f)) Q)
          -∗ wp frame (wpE (defs₀ (F := F)) 𝒱₀ (c : Thread nD τ) none) Set.univ (.op (.load (Memref.whole cc0_scratch0 : Memref sig .tc .vmem S2x1024x2048 .f32) (rIn s a).toLoadRect hl) k) Q) :=
  wp_load (defs := defs₀ (F := F)) 𝒱₀ (c : Thread nD τ) none (Γ := .empty) Set.univ
    (m := (Memref.whole cc0_scratch0 : Memref sig .tc .vmem S2x1024x2048 .f32)) (r := (rIn s a).toLoadRect) (hl := hl) (k := k)
    (S := (vinV s).view.set) (q := fullShare) (f := f) (Q := Q) (load_in_sub s a)

theorem wp_ld_k (c : Dev nD) (s : Fin 2)
    {hl : (Memref.whole cc0_scratch1 : Memref sig .tc .vmem S2x1024x1024 .f32).view.LoadsAt (rH s).toLoadRect}
    {α : Type} {Q : α → sProp 𝕄} {k : ((rH s).toLoadRect.shape.Idx → Elt F .f32) → Prog (TpuEff nD τ sig (Elt F) Λ₀ .tc) α}
    (f : Buf (Elt F) ((c : Thread nD τ).loc cc0_scratch1)) :
    (((c : Thread nD τ).loc cc0_scratch1) ↦[(vkV s).view.set]{fullShare} f : sProp 𝕄)
      ⊢ iprop(((((c : Thread nD τ).loc cc0_scratch1) ↦[(vkV s).view.set]{fullShare} f)
              -∗ wp frame (wpE (defs₀ (F := F)) 𝒱₀ (c : Thread nD τ) none) Set.univ (k ((Memref.whole cc0_scratch1 : Memref sig .tc .vmem S2x1024x1024 .f32).view.readAt (Elt F) (rH s).toLoadRect f)) Q)
          -∗ wp frame (wpE (defs₀ (F := F)) 𝒱₀ (c : Thread nD τ) none) Set.univ (.op (.load (Memref.whole cc0_scratch1 : Memref sig .tc .vmem S2x1024x1024 .f32) (rH s).toLoadRect hl) k) Q) :=
  wp_load (defs := defs₀ (F := F)) 𝒱₀ (c : Thread nD τ) none (Γ := .empty) Set.univ
    (m := (Memref.whole cc0_scratch1 : Memref sig .tc .vmem S2x1024x1024 .f32)) (r := (rH s).toLoadRect) (hl := hl) (k := k)
    (S := (vkV s).view.set) (q := fullShare) (f := f) (Q := Q) (load_k_sub s)

theorem wp_ld_s (c : Dev nD) (s : Fin 2)
    {hl : (Memref.whole cc0_scratch2 : Memref sig .tc .vmem S2x1024x1024 .f32).view.LoadsAt (rH s).toLoadRect}
    {α : Type} {Q : α → sProp 𝕄} {k : ((rH s).toLoadRect.shape.Idx → Elt F .f32) → Prog (TpuEff nD τ sig (Elt F) Λ₀ .tc) α}
    (f : Buf (Elt F) ((c : Thread nD τ).loc cc0_scratch2)) :
    (((c : Thread nD τ).loc cc0_scratch2) ↦[(vsV s).view.set]{fullShare} f : sProp 𝕄)
      ⊢ iprop(((((c : Thread nD τ).loc cc0_scratch2) ↦[(vsV s).view.set]{fullShare} f)
              -∗ wp frame (wpE (defs₀ (F := F)) 𝒱₀ (c : Thread nD τ) none) Set.univ (k ((Memref.whole cc0_scratch2 : Memref sig .tc .vmem S2x1024x1024 .f32).view.readAt (Elt F) (rH s).toLoadRect f)) Q)
          -∗ wp frame (wpE (defs₀ (F := F)) 𝒱₀ (c : Thread nD τ) none) Set.univ (.op (.load (Memref.whole cc0_scratch2 : Memref sig .tc .vmem S2x1024x1024 .f32) (rH s).toLoadRect hl) k) Q) :=
  wp_load (defs := defs₀ (F := F)) 𝒱₀ (c : Thread nD τ) none (Γ := .empty) Set.univ
    (m := (Memref.whole cc0_scratch2 : Memref sig .tc .vmem S2x1024x1024 .f32)) (r := (rH s).toLoadRect) (hl := hl) (k := k)
    (S := (vsV s).view.set) (q := fullShare) (f := f) (Q := Q) (load_s_sub s)

theorem wp_st_k (c : Dev nD) (s : Fin 2)
    {hx : ((Memref.whole cc0_scratch1 : Memref sig .tc .vmem S2x1024x1024 .f32).access (rH s)).Stores Finset.univ}
    {hm : (Finset.univ : Finset (rH s).shape.Idx) = Finset.univ ∨ ∀ a, (rH s).stride a = 1}
    {α : Type} {Q : α → sProp 𝕄} {k : PUnit → Prog (TpuEff nD τ sig (Elt F) Λ₀ .tc) α}
    (f : Buf (Elt F) ((c : Thread nD τ).loc cc0_scratch1)) (w : (rH s).shape.Idx → Elt F .f32) :
    (((c : Thread nD τ).loc cc0_scratch1) ↦[(vkV s).view.set]{fullShare} f : sProp 𝕄)
      ⊢ iprop(((((c : Thread nD τ).loc cc0_scratch1) ↦[(vkV s).view.set]{fullShare}
                ((Memref.whole cc0_scratch1 : Memref sig .tc .vmem S2x1024x1024 .f32).access (rH s)).write (Elt F) f w Finset.univ)
              -∗ wp frame (wpE (defs₀ (F := F)) 𝒱₀ (c : Thread nD τ) none) Set.univ (k ⟨⟩) Q)
          -∗ wp frame (wpE (defs₀ (F := F)) 𝒱₀ (c : Thread nD τ) none) Set.univ (.op (.store (Memref.whole cc0_scratch1 : Memref sig .tc .vmem S2x1024x1024 .f32) (rH s) w Finset.univ hx hm) k) Q) :=
  wp_store (defs := defs₀ (F := F)) 𝒱₀ (c : Thread nD τ) none (Γ := .empty) Set.univ
    (m := (Memref.whole cc0_scratch1 : Memref sig .tc .vmem S2x1024x1024 .f32)) (r := rH s) (w := w) (Mk := Finset.univ) (hx := hx) (hm := hm) (k := k)
    (S := (vkV s).view.set) (f := f) (Q := Q) (store_k_sub s)

theorem wp_st_s (c : Dev nD) (s : Fin 2)
    {hx : ((Memref.whole cc0_scratch2 : Memref sig .tc .vmem S2x1024x1024 .f32).access (rH s)).Stores Finset.univ}
    {hm : (Finset.univ : Finset (rH s).shape.Idx) = Finset.univ ∨ ∀ a, (rH s).stride a = 1}
    {α : Type} {Q : α → sProp 𝕄} {k : PUnit → Prog (TpuEff nD τ sig (Elt F) Λ₀ .tc) α}
    (f : Buf (Elt F) ((c : Thread nD τ).loc cc0_scratch2)) (w : (rH s).shape.Idx → Elt F .f32) :
    (((c : Thread nD τ).loc cc0_scratch2) ↦[(vsV s).view.set]{fullShare} f : sProp 𝕄)
      ⊢ iprop(((((c : Thread nD τ).loc cc0_scratch2) ↦[(vsV s).view.set]{fullShare}
                ((Memref.whole cc0_scratch2 : Memref sig .tc .vmem S2x1024x1024 .f32).access (rH s)).write (Elt F) f w Finset.univ)
              -∗ wp frame (wpE (defs₀ (F := F)) 𝒱₀ (c : Thread nD τ) none) Set.univ (k ⟨⟩) Q)
          -∗ wp frame (wpE (defs₀ (F := F)) 𝒱₀ (c : Thread nD τ) none) Set.univ (.op (.store (Memref.whole cc0_scratch2 : Memref sig .tc .vmem S2x1024x1024 .f32) (rH s) w Finset.univ hx hm) k) Q) :=
  wp_store (defs := defs₀ (F := F)) 𝒱₀ (c : Thread nD τ) none (Γ := .empty) Set.univ
    (m := (Memref.whole cc0_scratch2 : Memref sig .tc .vmem S2x1024x1024 .f32)) (r := rH s) (w := w) (Mk := Finset.univ) (hx := hx) (hm := hm) (k := k)
    (S := (vsV s).view.set) (f := f) (Q := Q) (store_s_sub s)

/-! ## The input copy of chunk i and its wait -/

theorem wp_in_enq (c : Dev nD) (i : Fin 16)
    {hsrc : (xV i).view.WordExact} {hdst : (vinV (slot i)).view.WordExact}
    {hsem : DmaTarget.Typed (nD := nD) .hbm (.dma (inS (slot i)))
      (DmaTarget.here (vinV (slot i)) : DmaTarget nD τ sig (c : Thread nD τ).2 .vmem S1024x2048 .f32)}
    {α : Type} {Q : α → sProp 𝕄} {k : PUnit → Prog (TpuEff nD τ sig (Elt F) Λ₀ .tc) α}
    (fd : Buf (Elt F) ((vinV (slot i)).view.loc (c : Thread nD τ))) :
    (iprop(cellInv ER (a2aRd m) (K (c, .dma (inS (slot i)))) (inCell c (slot i))
        ∗ ((xV i).view.loc (c : Thread nD τ) ↦[(xV i).view.set]{fullShare} Xa m c)
        ∗ ((vinV (slot i)).view.loc (c : Thread nD τ) ↦[(vinV (slot i)).view.set]{fullShare} fd)
        ∗ dutyTok ER (inCell c (slot i)) (rnd i) () ∗ reached ER (inCell c (slot i)) (rnd i)) : sProp 𝕄)
      ⊢ iprop((cred (tallyAt (inCell c (slot i)) () Nin) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xV i) (.here (vinV (slot i))) (.dma (inS (slot i))) hsrc hdst hsem) k) Q) :=
  Rounds.wp_copy_pointsTo (defs := defs₀ (F := F)) 𝒱₀ ER (a2aRd m) (c : Thread nD τ) none (Γ := .empty) (Q := Q)
    (src := xV i) (dst := vinV (slot i)) (sem := .dma (inS (slot i))) (hsrc := hsrc) (hdst := hdst) (hsem := hsem) (k := k)
    (κ := K (c, .dma (inS (slot i)))) (r := rnd i) (d := ()) (q := fullShare) (fs := Xa m c) (fd := fd)
    (by rw [duties_in m c (slot i) (rnd i) (by have := i.isLt; show i.val / 2 < 8; omega)]; exact Finset.mem_singleton_self _)
    () Nin rfl (amount_in m c (slot i) (rnd i) ())
    (by
      rw [payload_in]; unfold inPay
      iintro ⟨Hd, Hs⟩
      isplitl [Hd]
      · iexists fd; iexact Hd
      · iexact Hs) (Es := Set.univ)

theorem wp_in_wait (c : Dev nD) (i : Fin 16)
    {hsrc : (xV i).view.WordExact} {hdst : (vinV (slot i)).view.WordExact}
    {α : Type} {Q : α → sProp 𝕄} {k : PUnit → Prog (TpuEff nD τ sig (Elt F) Λ₀ .tc) α}
    (O : CellTallies nD τ sig Unit) (W : Waits sig Unit) :
    (iprop(cellInv ER (a2aRd m) (K (c, .dma (inS (slot i)))) (inCell c (slot i)) ∗ cred (tallyAt (inCell c (slot i)) () Nin)
        ∗ owes (c : Thread nD τ) O W ∗ MayWait (c : Thread nD τ) (.dma (inS (slot i))) () O
        ∗ atPos ER (inCell c (slot i)) (rnd i) ∅ 0) : sProp 𝕄)
      ⊢ iprop(((owes (c : Thread nD τ) O (insert (SemLoc.dma (inS (slot i)), ()) W)
              ∗ atPos ER (inCell c (slot i)) (rnd i + 1) ∅ 0 ∗ reached ER (inCell c (slot i)) (rnd i + 1) ∗ inPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (inS (slot i)) (xV i) (vinV (slot i)) hsrc hdst) k) Q) :=
  by
  have h := Rounds.wp_wait_rest_token (defs := defs₀ (F := F)) 𝒱₀ ER (a2aRd m) (c : Thread nD τ) none (Γ := .empty)
    (κ := K (c, .dma (inS (slot i)))) (Q := Q) (k := k)
    (w := .waitDma2 (inS (slot i)) (xV i) (vinV (slot i)) hsrc hdst) (sm := .dma (inS (slot i))) (k' := Nin) (Es := Set.univ)
    (wpE_waitDma2_eq (defs := defs₀ (F := F)) 𝒱₀ (c : Thread nD τ) none Set.univ (sem := inS (slot i)) (src := xV i) (dst := vinV (slot i))
      (hsrc := hsrc) (hdst := hdst))
    (Set.mem_univ _) () (O := O) (W := W) (R := rnd i) (m := 0) (T := ∅)
    (by rw [Nat.zero_add, expect_in m c (slot i) (rnd i) (by have := i.isLt; show i.val / 2 < 8; omega)])
  rw [rest_in] at h
  exact h

/-! ## The keep copy of chunk i and its wait -/

theorem wp_keep_enq (c : Dev nD) (i : Fin 16)
    {hsrc : (vkV (slot i)).view.WordExact} {hdst : (oVd c i).view.WordExact}
    {hsem : DmaTarget.Typed (nD := nD) .vmem (.dma (keepS i))
      (DmaTarget.here (oVd c i) : DmaTarget nD τ sig (c : Thread nD τ).2 .hbm S1024x1024 .f32)}
    {α : Type} {Q : α → sProp 𝕄} {k : PUnit → Prog (TpuEff nD τ sig (Elt F) Λ₀ .tc) α}
    (fo : Buf (Elt F) ((oVd c i).view.loc (c : Thread nD τ))) (g : Buf (Elt F) ((c : Thread nD τ).loc cc0_scratch1))
    (fd : Buf (Elt F) ((vinV (slot i)).view.loc (c : Thread nD τ))) :
    (iprop(cellInv ER (a2aRd m) (K (c, .dma (keepS i))) (keepCell c i)
        ∗ ((vkV (slot i)).view.loc (c : Thread nD τ) ↦[(vkV (slot i)).view.set]{fullShare} vkAfter c i g (vinAfter m c i fd))
        ∗ ((oVd c i).view.loc (c : Thread nD τ) ↦[(oVd c i).view.set]{fullShare} fo)
        ∗ dutyTok ER (keepCell c i) 0 () ∗ reached ER (keepCell c i) 0) : sProp 𝕄)
      ⊢ iprop((cred (tallyAt (keepCell c i) () Nh) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (vkV (slot i)) (.here (oVd c i)) (.dma (keepS i)) hsrc hdst hsem) k) Q) :=
  Rounds.wp_copy_pointsTo (defs := defs₀ (F := F)) 𝒱₀ ER (a2aRd m) (c : Thread nD τ) none (Γ := .empty) (Q := Q)
    (src := vkV (slot i)) (dst := oVd c i) (sem := .dma (keepS i)) (hsrc := hsrc) (hdst := hdst) (hsem := hsem) (k := k)
    (κ := K (c, .dma (keepS i))) (r := 0) (d := ()) (q := fullShare) (fs := vkAfter c i g (vinAfter m c i fd)) (fd := fo)
    (by rw [duties_keep]; exact Finset.mem_singleton_self _)
    () Nh rfl (amount_keep m c i 0 ())
    (by
      rw [payload_keep, keep_landed]; unfold keepPay
      iintro ⟨Hd, Hs⟩
      isplitl [Hd]
      · iexact Hd
      · iexists _; iexact Hs) (Es := Set.univ)

theorem wp_keep_wait (c : Dev nD) (i : Fin 16)
    {hsrc : (vkV (slot i)).view.WordExact} {hdst : (oVd c i).view.WordExact}
    {α : Type} {Q : α → sProp 𝕄} {k : PUnit → Prog (TpuEff nD τ sig (Elt F) Λ₀ .tc) α}
    (O : CellTallies nD τ sig Unit) (W : Waits sig Unit) :
    (iprop(cellInv ER (a2aRd m) (K (c, .dma (keepS i))) (keepCell c i) ∗ cred (tallyAt (keepCell c i) () Nh)
        ∗ owes (c : Thread nD τ) O W ∗ MayWait (c : Thread nD τ) (.dma (keepS i)) () O
        ∗ atPos ER (keepCell c i) 0 ∅ 0) : sProp 𝕄)
      ⊢ iprop(((owes (c : Thread nD τ) O (insert (SemLoc.dma (keepS i), ()) W)
              ∗ atPos ER (keepCell c i) 1 ∅ 0 ∗ reached ER (keepCell c i) 1 ∗ keepPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (keepS i) (vkV (slot i)) (oVd c i) hsrc hdst) k) Q) :=
  by
  have h := Rounds.wp_wait_rest_token (defs := defs₀ (F := F)) 𝒱₀ ER (a2aRd m) (c : Thread nD τ) none (Γ := .empty)
    (κ := K (c, .dma (keepS i))) (Q := Q) (k := k)
    (w := .waitDma2 (keepS i) (vkV (slot i)) (oVd c i) hsrc hdst) (sm := .dma (keepS i)) (k' := Nh) (Es := Set.univ)
    (wpE_waitDma2_eq (defs := defs₀ (F := F)) 𝒱₀ (c : Thread nD τ) none Set.univ (sem := keepS i) (src := vkV (slot i)) (dst := oVd c i)
      (hsrc := hsrc) (hdst := hdst))
    (Set.mem_univ _) () (O := O) (W := W) (R := 0) (m := 0) (T := ∅)
    (by rw [Nat.zero_add, expect_keep])
  rw [rest_keep] at h
  exact h

/-! ## At a literal chunk the generic views are the printed ones -/

example : xV (3 : Fin 16)
    = (Memref.whole main_arg0).slice (Rect.unit (s := S16384x2048) ![3072, 0] S1024x2048.size inb_S16384x2048_S1024x2048_3072_0) (fun _ => rfl) := rfl
example : vinV (slot (3 : Fin 16))
    = ((Memref.whole cc0_scratch0).slice (Rect.unit (s := S2x1024x2048) ![1, 0, 0] S1x1024x2048.size inb_S2x1024x2048_S1x1024x2048_1_0_0) (fun _ => rfl)).squeeze S1024x2048 squeezes_S1x1024x2048_S1024x2048 := rfl
example : inS (slot (3 : Fin 16))
    = (((cc0_scratch3 : DmaSems sig S2).slice (Rect.unit (s := S2) ![1] S1.size inb_S2_S1_1)).squeeze S_ squeezes_S1_S_).sem := rfl
example : rnd (3 : Fin 16) = 1 := rfl

/-- info: 'Cert.Kernel.A2A.wp_keep_enq' depends on axioms: [propext, Classical.choice, Quot.sound] -/
#guard_msgs in #print axioms wp_keep_enq

end Cert.Kernel.A2A

end
-- ==== Proof.K_OpsRemote.lean ====
/-
  The remote operations and the cross-device waits of the kernel body, as instances of the rounds rules at this
  protocol's cells and views: the entry signal to the peer's barrier cell and the wait on one's own; the send of a chunk's
  other half into the peer's result rows; the waits on a send cell and on a receive cell; and the cells' closing at exit.
  Each is in continuation form: what the step consumes entails, from the continuation's proof, the step's.
-/
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.Kernel.Skeleton
import proofs.«900648_g7700000000000649_dist_a2a_v7x_xyz2x4x4_x_m16384_n1024_f32_1_alg».proof.Proof.Gen.Kernel.Launch
import proofs.«900648_g7700000000000649_dist_a2a_v7x_xyz2x4x4_x_m16384_n1024_f32_1_alg».proof.Proof.Gen.Kernel.Points
import proofs.«900648_g7700000000000649_dist_a2a_v7x_xyz2x4x4_x_m16384_n1024_f32_1_alg».proof.Proof.K_Proto
import proofs.«900648_g7700000000000649_dist_a2a_v7x_xyz2x4x4_x_m16384_n1024_f32_1_alg».proof.Proof.K_State
import proofs.«900648_g7700000000000649_dist_a2a_v7x_xyz2x4x4_x_m16384_n1024_f32_1_alg».proof.Proof.K_Sched
import proofs.«900648_g7700000000000649_dist_a2a_v7x_xyz2x4x4_x_m16384_n1024_f32_1_alg».proof.Proof.K_Values
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Every device id the kernel computes is the peer's -/

theorem dev1_eq (c : Dev nD) : (⟨k0_dev1 c, k0_dev1_lt c⟩ : Dev nD) = peer c := Fin.ext ((k0_dev1_eq c).trans (dev_closed c))
theorem dev2_eq (c : Dev nD) : (⟨k0_dev2 c, k0_dev2_lt c⟩ : Dev nD) = peer c := Fin.ext ((k0_dev2_eq c).trans (dev_closed c))
theorem dev3_eq (c : Dev nD) : (⟨k0_dev3 c, k0_dev3_lt c⟩ : Dev nD) = peer c := Fin.ext ((k0_dev3_eq c).trans (dev_closed c))
theorem dev4_eq (c : Dev nD) : (⟨k0_dev4 c, k0_dev4_lt c⟩ : Dev nD) = peer c := Fin.ext ((k0_dev4_eq c).trans (dev_closed c))
theorem dev5_eq (c : Dev nD) : (⟨k0_dev5 c, k0_dev5_lt c⟩ : Dev nD) = peer c := Fin.ext ((k0_dev5_eq c).trans (dev_closed c))
theorem dev6_eq (c : Dev nD) : (⟨k0_dev6 c, k0_dev6_lt c⟩ : Dev nD) = peer c := Fin.ext ((k0_dev6_eq c).trans (dev_closed c))
theorem dev7_eq (c : Dev nD) : (⟨k0_dev7 c, k0_dev7_lt c⟩ : Dev nD) = peer c := Fin.ext ((k0_dev7_eq c).trans (dev_closed c))
theorem dev8_eq (c : Dev nD) : (⟨k0_dev8 c, k0_dev8_lt c⟩ : Dev nD) = peer c := Fin.ext ((k0_dev8_eq c).trans (dev_closed c))
theorem dev9_eq (c : Dev nD) : (⟨k0_dev9 c, k0_dev9_lt c⟩ : Dev nD) = peer c := Fin.ext ((k0_dev9_eq c).trans (dev_closed c))
theorem dev10_eq (c : Dev nD) : (⟨k0_dev10 c, k0_dev10_lt c⟩ : Dev nD) = peer c := Fin.ext ((k0_dev10_eq c).trans (dev_closed c))
theorem dev11_eq (c : Dev nD) : (⟨k0_dev11 c, k0_dev11_lt c⟩ : Dev nD) = peer c := Fin.ext ((k0_dev11_eq c).trans (dev_closed c))
theorem dev12_eq (c : Dev nD) : (⟨k0_dev12 c, k0_dev12_lt c⟩ : Dev nD) = peer c := Fin.ext ((k0_dev12_eq c).trans (dev_closed c))
theorem dev13_eq (c : Dev nD) : (⟨k0_dev13 c, k0_dev13_lt c⟩ : Dev nD) = peer c := Fin.ext ((k0_dev13_eq c).trans (dev_closed c))
theorem dev14_eq (c : Dev nD) : (⟨k0_dev14 c, k0_dev14_lt c⟩ : Dev nD) = peer c := Fin.ext ((k0_dev14_eq c).trans (dev_closed c))
theorem dev15_eq (c : Dev nD) : (⟨k0_dev15 c, k0_dev15_lt c⟩ : Dev nD) = peer c := Fin.ext ((k0_dev15_eq c).trans (dev_closed c))
theorem dev16_eq (c : Dev nD) : (⟨k0_dev16 c, k0_dev16_lt c⟩ : Dev nD) = peer c := Fin.ext ((k0_dev16_eq c).trans (dev_closed c))
theorem dev17_eq (c : Dev nD) : (⟨k0_dev17 c, k0_dev17_lt c⟩ : Dev nD) = peer c := Fin.ext ((k0_dev17_eq c).trans (dev_closed c))

example : ((1#32 : BitVec 32).toNat) = 1 := rfl

/-! ## Payloads, seen from the other side -/

/-- What the peer's barrier cell hands the peer: this device's rows that the peer's sends write, and that this device's
    receive cells are at round 0. -/
theorem barPay_peer (c : Dev nD) :
    (barPay (peer c) : sProp 𝕄) = iprop((bigSep Finset.univ fun i : Fin 16 => iprop(∃ fd, (oVd (peer c) i).view.loc (c : Thread nD τ) ↦[(oVd (peer c) i).view.set]{fullShare} fd))
      ∗ bigSep Finset.univ fun i : Fin 16 => reached ER (recvCell c i) 0) := by
  unfold barPay; rw [peer_peer]

/-- What the peer's receive cell of chunk i hands the peer: the rows this device's send of chunk i writes, final. -/
theorem recvPay_peer (c : Dev nD) (i : Fin 16) :
    recvPay m (peer c) i = ((oVd c i).view.loc (peer c : Thread nD τ) ↦[(oVd c i).view.set]{fullShare} outK m (peer c) : sProp 𝕄) := by
  unfold recvPay; rw [peer_peer]

/-! ## Credits: a 1024 x 1024 block's, whichever buffer it lies in -/

theorem credit_vs (s : Fin 2) : (vsV s).view.dmaCredit = Nh := by revert s; decide
theorem credit_o (c : Dev nD) (i : Fin 16) : (oVd c i).view.dmaCredit = Nh := rfl

section Ops

variable (K : Dev nD × SemLoc sig → ℕ)

/-! ## The entry handshake -/

/-- The signal to the peer's barrier cell: its one duty, paid with what the peer's sends need of this device. -/
theorem wp_sig (c : Dev nD) (W : Waits sig Unit) {α : Type} {Q : α → sProp 𝕄} {k : PUnit → Prog (TpuEff nD τ sig (Elt F) Λ₀ .tc) α} :
    iprop(cellInv ER (a2aRd m) (K (peer c, .reg barS)) (barCell (peer c)) ∗ owes (c : Thread nD τ) (O₀ c) W
        ∗ dutyTok ER (barCell (peer c)) 0 () ∗ barPay (peer c) ∗ reached ER (barCell (peer c)) 0)
      ⊢ iprop((owes (c : Thread nD τ) (owedFrom c 0) W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (peer c : Thread nD τ) barS 1) k) Q) := by
  rw [← payload_bar m (peer c) ()]
  exact Rounds.wp_signal 𝒱₀ ER (a2aRd m) (c : Thread nD τ) none (dst := (peer c : Thread nD τ)) (sem := barS) (r := 0) (d := ())
    (κ := K (peer c, .reg barS)) (by rw [duties_bar]; exact Finset.mem_singleton_self _) (amount_bar m (peer c) 0 ()) ()
    (owedFrom c 0) rfl

/-- The wait on one's own barrier cell, owing the sixteen receive credits: the peer's rows come with it. -/
theorem wp_bar_wait (c : Dev nD) (W : Waits sig Unit) {α : Type} {Q : α → sProp 𝕄} {k : PUnit → Prog (TpuEff nD τ sig (Elt F) Λ₀ .tc) α} :
    iprop(cellInv ER (a2aRd m) (K (c, .reg barS)) (barCell c) ∗ cred (tallyAt (barCell c) () 1)
        ∗ owes (c : Thread nD τ) (owedFrom c 0) W ∗ levAts L lv ∗ atPos ER (barCell c) 0 ∅ 0)
      ⊢ iprop(((owes (c : Thread nD τ) (owedFrom c 0) (insert (SemLoc.reg barS, ()) W) ∗ atPos ER (barCell c) 1 ∅ 0 ∗ barPay c)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS 1) k) Q) := by
  iintro ⟨HI, Hc, HO, Hlev, Hat⟩ Hk
  iapply (Rounds.wp_wait_rest_token 𝒱₀ ER (a2aRd m) (c : Thread nD τ) none (κ := K (c, .reg barS))
      (wpE_semWait_eq 𝒱₀ (c : Thread nD τ) none Set.univ) (Set.mem_univ _) () (O := owedFrom c 0) (W := W) (R := 0) (m := 0) (T := ∅)
      (by rw [expect_bar])) $$ [HI Hc HO Hlev Hat]
  · isplitl [HI]; · iexact HI
    isplitl [Hc]; · iexact Hc
    isplitl [HO]; · iexact HO
    isplitl [Hlev]; · iapply (mayWait_bar c); iexact Hlev
    iexact Hat
  iintro ⟨HO, Hat, -, Hpay⟩
  iapply Hk
  isplitl [HO]; · iexact HO
  isplitl [Hat]; · iexact Hat
  iapply (Entails.of_eq (rest_bar m c)); iexact Hpay

/-! ## The send of chunk i's other half -/

/-- The send: its source cell's duty is paid with the send slot, the peer's receive cell's with the rows written, at
    their final contents; the credit owed for chunk i is paid off. -/
theorem wp_send (c : Dev nD) (i : Fin 16)
    {hsc : (oVd c i : Memref sig (Dev.tc (peer c) : Thread nD τ).2.kind .hbm S1024x1024 .f32).view.ref.isScScratch = false}
    {hsrc : (vsV (slot i)).view.WordExact} {hdst : (oVd c i).view.WordExact}
    {hsem : DmaTarget.Typed .vmem (.dma (recvS i)) (.remote (Dev.tc (peer c) : Thread nD τ) (oVd c i) (.dma (sendS i)) hsc)}
    {α : Type} {Q : α → sProp 𝕄} {k : PUnit → Prog (TpuEff nD τ sig (Elt F) Λ₀ .tc) α}
    (W : Waits sig Unit) (fo : Buf (Elt F) ((oVd c i).view.loc (peer c : Thread nD τ)))
    (g : Buf (Elt F) ((c : Thread nD τ).loc cc0_scratch2)) (fd : Buf (Elt F) ((vinV (slot i)).view.loc (c : Thread nD τ))) :
    iprop(cellInv ER (a2aRd m) (K (c, .dma (sendS i))) (sendCell c i) ∗ cellInv ER (a2aRd m) (K (peer c, .dma (recvS i))) (recvCell (peer c) i)
        ∗ ((vsV (slot i)).view.loc (c : Thread nD τ) ↦[(vsV (slot i)).view.set]{fullShare} vsAfter c i g (vinAfter m c i fd))
        ∗ ((oVd c i).view.loc (peer c : Thread nD τ) ↦[(oVd c i).view.set]{fullShare} fo)
        ∗ owes (c : Thread nD τ) (owedFrom c i.val) W
        ∗ dutyTok ER (sendCell c i) 0 () ∗ reached ER (sendCell c i) 0
        ∗ dutyTok ER (recvCell (peer c) i) 0 () ∗ reached ER (recvCell (peer c) i) 0)
      ⊢ iprop(((cred (tallyAt (sendCell c i) () Nh) ∗ owes (c : Thread nD τ) (owedFrom c (i.val + 1)) W) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (vsV (slot i)) (.remote (Dev.tc (peer c) : Thread nD τ) (oVd c i) (.dma (sendS i)) hsc) (.dma (recvS i)) hsrc hdst hsem) k) Q) :=
  Rounds.wp_send_pointsTo 𝒱₀ ER (a2aRd m) (c : Thread nD τ) none (c' := (peer c : Thread nD τ)) (src := vsV (slot i)) (dst := oVd c i)
    (sS := .dma (sendS i)) (sem := .dma (recvS i))
    (q := fullShare) (fs := vsAfter c i g (vinAfter m c i fd)) (fd := fo)
    (κ₁ := K (c, .dma (sendS i))) (κ₂ := K (peer c, .dma (recvS i))) (r₁ := 0) (r₂ := 0) (d₁ := ()) (d₂ := ())
    (by rw [duties_send]; exact Finset.mem_singleton_self _) (by rw [duties_recv]; exact Finset.mem_singleton_self _)
    () () Nh ((View.amount_dma _ _).trans (credit_o c i)) (amount_send m c i 0 ()) (amount_recv m (peer c) i 0 ()) (owedFrom c (i.val + 1)) (owedFrom_step c i) (W := W)
    (by rw [payload_send]; unfold sendPay; iintro H; iexists _; iexact H)
    (by rw [payload_recv, recvPay_peer, send_landed])

/-! ## The waits on a send cell and on a receive cell -/

/-- The wait on chunk i's send cell: the send slot comes back. -/
theorem wp_send_wait (c : Dev nD) (i : Fin 16) {hsrc : (oVd c i).view.WordExact} {hdst : (vsV (slot i)).view.WordExact}
    {α : Type} {Q : α → sProp 𝕄} {k : PUnit → Prog (TpuEff nD τ sig (Elt F) Λ₀ .tc) α} (O : CellTallies nD τ sig Unit) (W : Waits sig Unit) :
    iprop(cellInv ER (a2aRd m) (K (c, .dma (sendS i))) (sendCell c i) ∗ cred (tallyAt (sendCell c i) () Nh)
        ∗ owes (c : Thread nD τ) O W ∗ MayWait (c : Thread nD τ) (.dma (sendS i)) () O ∗ atPos ER (sendCell c i) 0 ∅ 0)
      ⊢ iprop(((owes (c : Thread nD τ) O (insert (SemLoc.dma (sendS i), ()) W) ∗ atPos ER (sendCell c i) 1 ∅ 0
              ∗ reached ER (sendCell c i) 1 ∗ sendPay c i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS i) (oVd c i) (vsV (slot i)) hsrc hdst) k) Q) := by
  iintro ⟨HI, Hc, HO, Hmw, Hat⟩ Hk
  iapply (Rounds.wp_wait_rest_token 𝒱₀ ER (a2aRd m) (c : Thread nD τ) none (κ := K (c, .dma (sendS i))) (k' := Nh)
      (fun Kw => (wpE_waitDma2_eq 𝒱₀ (c : Thread nD τ) none Set.univ Kw).trans (by rw [credit_vs])) (Set.mem_univ _) ()
      (O := O) (W := W) (R := 0) (m := 0) (T := ∅) (by rw [Nat.zero_add, expect_send])) $$ [HI Hc HO Hmw Hat]
  · isplitl [HI]; · iexact HI
    isplitl [Hc]; · iexact Hc
    isplitl [HO]; · iexact HO
    isplitl [Hmw]; · iexact Hmw
    iexact Hat
  iintro ⟨HO, Hat, Hr, Hpay⟩
  iapply Hk
  isplitl [HO]; · iexact HO
  isplitl [Hat]; · iexact Hat
  isplitl [Hr]; · iexact Hr
  iapply (Entails.of_eq (rest_send m c i)); iexact Hpay

/-- The last wait, on chunk i's receive cell, owing nothing: the rows the peer's send wrote, at their final contents. -/
theorem wp_recv_wait (c : Dev nD) (i : Fin 16) {hsrc : (vsV (slot i)).view.WordExact} {hdst : (oVd c i).view.WordExact}
    {α : Type} {Q : α → sProp 𝕄} {k : PUnit → Prog (TpuEff nD τ sig (Elt F) Λ₀ .tc) α} (W : Waits sig Unit) :
    iprop(cellInv ER (a2aRd m) (K (c, .dma (recvS i))) (recvCell c i) ∗ cred (tallyAt (recvCell c i) () Nh)
        ∗ owes (c : Thread nD τ) 0 W ∗ atPos ER (recvCell c i) 0 ∅ 0)
      ⊢ iprop(((owes (c : Thread nD τ) 0 (insert (SemLoc.dma (recvS i), ()) W) ∗ atPos ER (recvCell c i) 1 ∅ 0
              ∗ reached ER (recvCell c i) 1 ∗ recvPay m c i) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS i) (vsV (slot i)) (oVd c i) hsrc hdst) k) Q) := by
  iintro ⟨HI, Hc, HO, Hat⟩ Hk
  iapply (Rounds.wp_wait_rest_token 𝒱₀ ER (a2aRd m) (c : Thread nD τ) none (κ := K (c, .dma (recvS i))) (k' := Nh)
      (fun Kw => (wpE_waitDma2_eq 𝒱₀ (c : Thread nD τ) none Set.univ Kw).trans (by rw [credit_o])) (Set.mem_univ _) ()
      (O := 0) (W := W) (R := 0) (m := 0) (T := ∅) (by rw [Nat.zero_add, expect_recv])) $$ [HI Hc HO Hat]
  · isplitl [HI]; · iexact HI
    isplitl [Hc]; · iexact Hc
    isplitl [HO]; · iexact HO
    isplitr; · rw [MayWait_zero]; iempintro
    iexact Hat
  iintro ⟨HO, Hat, Hr, Hpay⟩
  iapply Hk
  isplitl [HO]; · iexact HO
  isplitl [Hat]; · iexact Hat
  isplitl [Hr]; · iexact Hr
  iapply (Entails.of_eq (rest_recv m c i)); iexact Hpay

/-! ## The cells close at exit -/

theorem close_in (c : Dev nD) (s : Fin 2) :
    iprop(cellInv ER (a2aRd m) (K (c, .dma (inS s))) (inCell c s) ∗ atPos ER (inCell c s) 8 ∅ 0) ⊢ iprop(|={Set.univ}=> semVal (inCell c s) 0) :=
  Rounds.cell_close ER (a2aRd m) (Set.mem_univ _) (fun h => h) (R := 8) (duties_later_in m c s)
theorem close_keep (c : Dev nD) (i : Fin 16) :
    iprop(cellInv ER (a2aRd m) (K (c, .dma (keepS i))) (keepCell c i) ∗ atPos ER (keepCell c i) 1 ∅ 0) ⊢ iprop(|={Set.univ}=> semVal (keepCell c i) 0) :=
  Rounds.cell_close ER (a2aRd m) (Set.mem_univ _) (fun h => h) (R := 1) (duties_later_keep m c i)
theorem close_send (c : Dev nD) (i : Fin 16) :
    iprop(cellInv ER (a2aRd m) (K (c, .dma (sendS i))) (sendCell c i) ∗ atPos ER (sendCell c i) 1 ∅ 0) ⊢ iprop(|={Set.univ}=> semVal (sendCell c i) 0) :=
  Rounds.cell_close ER (a2aRd m) (Set.mem_univ _) (fun h => h) (R := 1) (duties_later_send m c i)
theorem close_recv (c : Dev nD) (i : Fin 16) :
    iprop(cellInv ER (a2aRd m) (K (c, .dma (recvS i))) (recvCell c i) ∗ atPos ER (recvCell c i) 1 ∅ 0) ⊢ iprop(|={Set.univ}=> semVal (recvCell c i) 0) :=
  Rounds.cell_close ER (a2aRd m) (Set.mem_univ _) (fun h => h) (R := 1) (duties_later_recv m c i)

end Ops

/-- info: 'Cert.Kernel.A2A.wp_send' depends on axioms: [propext, Classical.choice, Quot.sound] -/
#guard_msgs in #print axioms wp_send

end Cert.Kernel.A2A

end
-- ==== Proof.K_Regroup.lean ====
/-
  Regrouping of separating conjunctions: a conjunction over a finite index type written out by its members, the
  result buffer cut by source device instead of by x coordinate, and a device's cells listed by kind.
-/
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.Kernel.Skeleton
import proofs.«900648_g7700000000000649_dist_a2a_v7x_xyz2x4x4_x_m16384_n1024_f32_1_alg».proof.Proof.Gen.Kernel.Launch
import proofs.«900648_g7700000000000649_dist_a2a_v7x_xyz2x4x4_x_m16384_n1024_f32_1_alg».proof.Proof.Gen.Kernel.Points
import proofs.«900648_g7700000000000649_dist_a2a_v7x_xyz2x4x4_x_m16384_n1024_f32_1_alg».proof.Proof.K_Proto
import proofs.«900648_g7700000000000649_dist_a2a_v7x_xyz2x4x4_x_m16384_n1024_f32_1_alg».proof.Proof.K_State
import proofs.«900648_g7700000000000649_dist_a2a_v7x_xyz2x4x4_x_m16384_n1024_f32_1_alg».proof.Proof.K_Tiles
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Conjunctions over small index types, written out -/

omit [FloatOps F] in
theorem bigSep_fin2 (Φ : Fin 2 → sProp 𝕄) : bigSep Finset.univ Φ = iprop(Φ 0 ∗ Φ 1) := bigSep_univ_two Φ

omit [FloatOps F] in
theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
/-- The separating conjunction is associative and commutative, as equations. -/
theorem sep_assoc_eq (P Q R : sProp 𝕄) : iprop((P ∗ Q) ∗ R) = iprop(P ∗ Q ∗ R) :=
  _root_.Idealize.SL.BI.Entails.antisymm _root_.Idealize.SL.BI.sep_assoc _root_.Idealize.SL.BI.sep_assoc'

omit [FloatOps F] in
theorem sep_comm_eq (P Q : sProp 𝕄) : iprop(P ∗ Q) = iprop(Q ∗ P) :=
  _root_.Idealize.SL.BI.Entails.antisymm _root_.Idealize.SL.BI.sep_comm _root_.Idealize.SL.BI.sep_comm

omit [FloatOps F] in
/-- A conjunction over the first a + b numbers is the one over the first a and the one over the b after them. -/
theorem bigSep_fin_add {a b : ℕ} (Φ : Fin (a + b) → sProp 𝕄) :
    bigSep Finset.univ Φ
      = iprop((bigSep Finset.univ fun i : Fin a => Φ (Fin.castAdd b i)) ∗ (bigSep Finset.univ fun j : Fin b => Φ (Fin.natAdd a j))) := by
  rw [bigSep_univ_equiv finSumFinEquiv Φ, bigSep_univ_sum]; rfl

/-! ## The result buffer, by source device -/

omit [FloatOps F] in
theorem xf_cases (c : Dev nD) : (xf c = 0 ∧ xf (peer c) = 1) ∨ (xf c = 1 ∧ xf (peer c) = 0) := by revert c; decide

omit [FloatOps F] in
/-- The rows device d's chunk i goes to are the block of d's x coordinate. -/
theorem oVd_pt (c d : Dev nD) (i : Fin 16) (f : Buf (Elt F) ((c : Thread nD τ).loc main_v1)) :
    ((oVd d i).view.loc (c : Thread nD τ) ↦[(oVd d i).view.set]{fullShare} f : sProp 𝕄)
      = ((oVa (xf d) i).view.loc (c : Thread nD τ) ↦[(oVa (xf d) i).view.set]{fullShare} f) :=
  congrArg (fun S : Finset (Idx ((c : Thread nD τ).loc main_v1)) => (((c : Thread nD τ).loc main_v1) ↦[S]{fullShare} f : sProp 𝕄)) (oVd_set d i)

theorem split_o2 (c : Dev nD) (f : Buf (Elt F) ((c : Thread nD τ).loc main_v1)) :
    (((c : Thread nD τ).loc main_v1) ↦{fullShare} f : sProp 𝕄)
      = iprop((bigSep Finset.univ fun i : Fin 16 => ((oVd c i).view.loc (c : Thread nD τ) ↦[(oVd c i).view.set]{fullShare} f))
          ∗ (bigSep Finset.univ fun i : Fin 16 =>
              ((oVd (peer c) i).view.loc (c : Thread nD τ) ↦[(oVd (peer c) i).view.set]{fullShare} f))) := by
  have e1 : (((c : Thread nD τ).loc main_v1) ↦{fullShare} f : sProp 𝕄)
      = iprop((bigSep Finset.univ fun i : Fin 16 => ((oVa 0 i).view.loc (c : Thread nD τ) ↦[(oVa 0 i).view.set]{fullShare} f))
          ∗ (bigSep Finset.univ fun i : Fin 16 => ((oVa 1 i).view.loc (c : Thread nD τ) ↦[(oVa 1 i).view.set]{fullShare} f))) := by
    refine (split_o c f).trans ?_
    refine (bigSep_univ_prod _).trans ?_
    exact bigSep_fin2 _
  have hB (d : Dev nD) : (bigSep Finset.univ fun i : Fin 16 => ((oVd d i).view.loc (c : Thread nD τ) ↦[(oVd d i).view.set]{fullShare} f : sProp 𝕄))
      = bigSep Finset.univ fun i : Fin 16 => ((oVa (xf d) i).view.loc (c : Thread nD τ) ↦[(oVa (xf d) i).view.set]{fullShare} f) :=
    bigSep_congr fun i _ => oVd_pt c d i f
  rw [hB c, hB (peer c), e1]
  rcases xf_cases c with ⟨h0, h1⟩ | ⟨h0, h1⟩
  · rw [h0, h1]
  · rw [h0, h1]; exact sep_comm_eq _ _

/-! ## A device's semaphores, by kind -/

omit [FloatOps F] in
theorem dmasems_split (Ψ : DmaSem sig → sProp 𝕄) :
    bigSep Finset.univ Ψ
      = iprop(Ψ (inS 0) ∗ Ψ (inS 1) ∗ (bigSep Finset.univ fun i : Fin 16 => Ψ (keepS i))
          ∗ (bigSep Finset.univ fun i : Fin 16 => Ψ (sendS i)) ∗ (bigSep Finset.univ fun i : Fin 16 => Ψ (recvS i))) := by
  have h1 := bigSep_fin_add (F := F) (a := 34) (b := 16) Ψ
  have h2 := bigSep_fin_add (F := F) (a := 18) (b := 16) (fun q : Fin 34 => Ψ (Fin.castAdd 16 q))
  have h3 := bigSep_fin_add (F := F) (a := 2) (b := 16) (fun q : Fin 18 => Ψ (Fin.castAdd 16 (Fin.castAdd 16 q)))
  have h4 := bigSep_fin2 (F := F) (fun q : Fin 2 => Ψ (Fin.castAdd 16 (Fin.castAdd 16 (Fin.castAdd 16 q))))
  refine h1.trans ?_
  rw [h2, h3, h4, sep_assoc_eq, sep_assoc_eq, sep_assoc_eq]
  rfl

omit [FloatOps F] in
theorem dmasems_join (c : Dev nD) (Ψ : DmaSem sig → sProp 𝕄) :
    iprop(Ψ (inS 0) ∗ Ψ (inS 1) ∗ (bigSep Finset.univ fun i : Fin 16 => Ψ (keepS i))
          ∗ (bigSep Finset.univ fun i : Fin 16 => Ψ (sendS i)) ∗ (bigSep Finset.univ fun i : Fin 16 => Ψ (recvS i)))
      = bigSep Finset.univ Ψ := (dmasems_split Ψ).symm

omit [FloatOps F] in
theorem semloc_split (Ψ : SemLoc sig → sProp 𝕄) :
    bigSep Finset.univ Ψ
      = iprop(Ψ (.reg barS) ∗ Ψ (.dma (inS 0)) ∗ Ψ (.dma (inS 1)) ∗ (bigSep Finset.univ fun i : Fin 16 => Ψ (.dma (keepS i)))
          ∗ (bigSep Finset.univ fun i : Fin 16 => Ψ (.dma (sendS i))) ∗ (bigSep Finset.univ fun i : Fin 16 => Ψ (.dma (recvS i)))) := by
  haveI : Subsingleton (Sem sig) := (inferInstance : Subsingleton (Fin 1))
  have e1 : bigSep Finset.univ Ψ
      = iprop((bigSep Finset.univ fun s : Sem sig => Ψ (.reg s)) ∗ (bigSep Finset.univ fun q : DmaSem sig => Ψ (.dma q))) := by
    rw [bigSep_univ_equiv (SemLoc.equivSum sig).symm Ψ, bigSep_univ_sum]; rfl
  have e2 : (bigSep Finset.univ fun s : Sem sig => Ψ (.reg s)) = Ψ (.reg barS) := bigSep_univ_of_subsingleton (barS : Sem sig)
  rw [e1, e2, dmasems_split (fun q => Ψ (.dma q))]

omit [FloatOps F] in
theorem positions_split (c : Dev nD) :
    (positions c : sProp 𝕄)
      = iprop(atPos ER (barCell c) 0 ∅ 0 ∗ atPos ER (inCell c 0) 0 ∅ 0 ∗ atPos ER (inCell c 1) 0 ∅ 0
          ∗ (bigSep Finset.univ fun i : Fin 16 => atPos ER (keepCell c i) 0 ∅ 0)
          ∗ (bigSep Finset.univ fun i : Fin 16 => atPos ER (sendCell c i) 0 ∅ 0)
          ∗ (bigSep Finset.univ fun i : Fin 16 => atPos ER (recvCell c i) 0 ∅ 0)) := by
  unfold positions
  exact semloc_split (fun sm => atPos ER ((c : Thread nD τ), sm) 0 ∅ 0)

/-! ## Sub-families -/

omit [FloatOps F] in
/-- Each of device c's receive cells is at round 0. -/
theorem reached_recv (K : Dev nD × SemLoc sig → ℕ) (c : Dev nD) :
    records m K ⊢ (bigSep Finset.univ fun i : Fin 16 => reached ER (recvCell c i) 0 : sProp 𝕄) :=
  bigSep_intro_persistent fun i _ => reached_at m K c (.dma (recvS i))

omit [FloatOps F] in
/-- Rows held at some contents are rows held. -/
theorem rows_exists (c d : Dev nD) (f : Buf (Elt F) ((c : Thread nD τ).loc main_v1)) :
    (bigSep Finset.univ fun i : Fin 16 => ((oVd d i).view.loc (c : Thread nD τ) ↦[(oVd d i).view.set]{fullShare} f) : sProp 𝕄)
      ⊢ bigSep Finset.univ fun i : Fin 16 => iprop(∃ fd, (oVd d i).view.loc (c : Thread nD τ) ↦[(oVd d i).view.set]{fullShare} fd) :=
  bigSep_mono fun i _ =>
    exists_intro (Φ := fun fd => ((oVd d i).view.loc (c : Thread nD τ) ↦[(oVd d i).view.set]{fullShare} fd : sProp 𝕄)) f

/-- info: 'Cert.Kernel.A2A.split_o2' depends on axioms: [propext, Classical.choice, Quot.sound] -/
#guard_msgs in #print axioms split_o2
/-- info: 'Cert.Kernel.A2A.positions_split' depends on axioms: [propext, Classical.choice, Quot.sound] -/
#guard_msgs in #print axioms positions_split
/-- info: 'Cert.Kernel.A2A.dmasems_join' depends on axioms: [propext, Classical.choice, Quot.sound] -/
#guard_msgs in #print axioms dmasems_join

end Cert.Kernel.A2A

end
-- ==== Proof.K_Block.lean ====
/-
  One iteration's compute block of the all-to-all, eight operations fused: the kept half of the input slot is loaded
  and stored into the keep slot, the other half into the send slot; the keep copy into the device's own result rows and
  the send into the peer's are enqueued.  The input slot comes back as it was; the keep and send slots and the result
  rows have gone into the copies, which leave their credits; what the device owes its peer's receive cells goes down by
  chunk i's.
-/
import proofs.«900648_g7700000000000649_dist_a2a_v7x_xyz2x4x4_x_m16384_n1024_f32_1_alg».proof.Proof.K_State
import proofs.«900648_g7700000000000649_dist_a2a_v7x_xyz2x4x4_x_m16384_n1024_f32_1_alg».proof.Proof.K_Tiles
import proofs.«900648_g7700000000000649_dist_a2a_v7x_xyz2x4x4_x_m16384_n1024_f32_1_alg».proof.Proof.K_Values
import proofs.«900648_g7700000000000649_dist_a2a_v7x_xyz2x4x4_x_m16384_n1024_f32_1_alg».proof.Proof.K_Sched
import proofs.«900648_g7700000000000649_dist_a2a_v7x_xyz2x4x4_x_m16384_n1024_f32_1_alg».proof.Proof.K_OpsLocal
import proofs.«900648_g7700000000000649_dist_a2a_v7x_xyz2x4x4_x_m16384_n1024_f32_1_alg».proof.Proof.K_OpsRemote
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × SemLoc sig → ℕ)

theorem wp_blk (c : Dev nD) (i : Fin 16) (a b : Fin 2) (ha : xf c = a) (hb : xf (peer c) = b)
    {e1 : (Memref.whole cc0_scratch0 : Memref sig .tc .vmem S2x1024x2048 .f32).view.LoadsAt (rIn (slot i) a).toLoadRect}
    {e2 : (Memref.whole cc0_scratch1 : Memref sig .tc .vmem S2x1024x1024 .f32).view.LoadsAt (rH (slot i)).toLoadRect}
    {e3 : ((Memref.whole cc0_scratch1 : Memref sig .tc .vmem S2x1024x1024 .f32).access (rH (slot i))).Stores Finset.univ}
    {e4 : (Finset.univ : Finset (rH (slot i)).shape.Idx) = Finset.univ ∨ ∀ x, (rH (slot i)).stride x = 1}
    {e5 : (Memref.whole cc0_scratch0 : Memref sig .tc .vmem S2x1024x2048 .f32).view.LoadsAt (rIn (slot i) b).toLoadRect}
    {e6 : (Memref.whole cc0_scratch2 : Memref sig .tc .vmem S2x1024x1024 .f32).view.LoadsAt (rH (slot i)).toLoadRect}
    {e7 : ((Memref.whole cc0_scratch2 : Memref sig .tc .vmem S2x1024x1024 .f32).access (rH (slot i))).Stores Finset.univ}
    {e8 : (Finset.univ : Finset (rH (slot i)).shape.Idx) = Finset.univ ∨ ∀ x, (rH (slot i)).stride x = 1}
    {e9 : (vkV (slot i)).view.WordExact} {e10 : (oVd c i).view.WordExact}
    {e11 : DmaTarget.Typed (nD := nD) .vmem (.dma (keepS i))
      (DmaTarget.here (oVd c i) : DmaTarget nD τ sig (c : Thread nD τ).2 .hbm S1024x1024 .f32)}
    {e12 : (oVd c i : Memref sig (Dev.tc (peer c) : Thread nD τ).2.kind .hbm S1024x1024 .f32).view.ref.isScScratch = false}
    {e13 : (vsV (slot i)).view.WordExact} {e14 : (oVd c i).view.WordExact}
    {e15 : DmaTarget.Typed .vmem (.dma (recvS i)) (.remote (Dev.tc (peer c) : Thread nD τ) (oVd c i) (.dma (sendS i)) e12)}
    {α : Type} {Q : α → sProp 𝕄} {k : PUnit → Prog (TpuEff nD τ sig (Elt F) Λ₀ .tc) α}
    (W : Waits sig Unit) (fd : Buf (Elt F) ((vinV (slot i)).view.loc (c : Thread nD τ)))
    (gk : Buf (Elt F) ((c : Thread nD τ).loc cc0_scratch1)) (gs : Buf (Elt F) ((c : Thread nD τ).loc cc0_scratch2))
    (fo : Buf (Elt F) ((oVd c i).view.loc (c : Thread nD τ))) (fp : Buf (Elt F) ((oVd c i).view.loc (peer c : Thread nD τ))) :
    (iprop(records m K
        ∗ (((c : Thread nD τ).loc cc0_scratch0) ↦[(vinV (slot i)).view.set]{fullShare} vinAfter m c i fd)
        ∗ (((c : Thread nD τ).loc cc0_scratch1) ↦[(vkV (slot i)).view.set]{fullShare} gk)
        ∗ (((c : Thread nD τ).loc cc0_scratch2) ↦[(vsV (slot i)).view.set]{fullShare} gs)
        ∗ ((oVd c i).view.loc (c : Thread nD τ) ↦[(oVd c i).view.set]{fullShare} fo)
        ∗ ((oVd c i).view.loc (peer c : Thread nD τ) ↦[(oVd c i).view.set]{fullShare} fp)
        ∗ owes (c : Thread nD τ) (owedFrom c i.val) W
        ∗ dutyTok ER (keepCell c i) 0 () ∗ dutyTok ER (sendCell c i) 0 () ∗ dutyTok ER (recvCell (peer c) i) 0 ()) : sProp 𝕄)
      ⊢ iprop((((((c : Thread nD τ).loc cc0_scratch0) ↦[(vinV (slot i)).view.set]{fullShare} vinAfter m c i fd)
                ∗ cred (tallyAt (keepCell c i) () Nh) ∗ cred (tallyAt (sendCell c i) () Nh)
                ∗ owes (c : Thread nD τ) (owedFrom c (i.val + 1)) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch0 : Memref sig .tc .vmem S2x1024x2048 .f32) (rIn (slot i) a).toLoadRect e1) fun v1 =>
               .op (.load (Memref.whole cc0_scratch1 : Memref sig .tc .vmem S2x1024x1024 .f32) (rH (slot i)).toLoadRect e2) fun _ =>
               .op (.store (Memref.whole cc0_scratch1 : Memref sig .tc .vmem S2x1024x1024 .f32) (rH (slot i)) (payId v1) Finset.univ e3 e4) fun _ =>
               .op (.load (Memref.whole cc0_scratch0 : Memref sig .tc .vmem S2x1024x2048 .f32) (rIn (slot i) b).toLoadRect e5) fun v2 =>
               .op (.load (Memref.whole cc0_scratch2 : Memref sig .tc .vmem S2x1024x1024 .f32) (rH (slot i)).toLoadRect e6) fun _ =>
               .op (.store (Memref.whole cc0_scratch2 : Memref sig .tc .vmem S2x1024x1024 .f32) (rH (slot i)) (payId v2) Finset.univ e7 e8) fun _ =>
               .op (.enqueueDma (vkV (slot i)) (.here (oVd c i)) (.dma (keepS i)) e9 e10 e11) fun _ =>
               .op (.enqueueDma (vsV (slot i)) (.remote (Dev.tc (peer c) : Thread nD τ) (oVd c i) (.dma (sendS i)) e12) (.dma (recvS i)) e13 e14 e15) k) Q) := by
  subst ha; subst hb
  iintro ⟨#HR, Hin, Hk1, Hs1, Ho, Hp, HO, Tk, Ts, Tr⟩ Hk
  -- the kept half of the input slot
  iapply (wp_ld_in c (slot i) (xf c) (hl := e1) (Q := Q) (vinAfter m c i fd)) $$ Hin
  iintro Hin
  -- the keep slot (its value is not used)
  iapply (wp_ld_k c (slot i) (hl := e2) (Q := Q) gk) $$ Hk1
  iintro Hk1
  -- the kept half into the keep slot
  iapply (wp_st_k c (slot i) (hx := e3) (hm := e4) (Q := Q) gk _) $$ Hk1
  iintro Hk1
  -- the sent half of the input slot
  iapply (wp_ld_in c (slot i) (xf (peer c)) (hl := e5) (Q := Q) (vinAfter m c i fd)) $$ Hin
  iintro Hin
  -- the send slot (its value is not used)
  iapply (wp_ld_s c (slot i) (hl := e6) (Q := Q) gs) $$ Hs1
  iintro Hs1
  -- the sent half into the send slot
  iapply (wp_st_s c (slot i) (hx := e7) (hm := e8) (Q := Q) gs _) $$ Hs1
  iintro Hs1
  -- the keep copy
  iapply (wp_keep_enq m K c i (hsrc := e9) (hdst := e10) (hsem := e11) (Q := Q) fo gk fd) $$ [Hk1 Ho Tk]
  · isplitr; · iapply (inv_at m K c (.dma (keepS i))); iexact HR
    isplitl [Hk1]; · iexact Hk1
    isplitl [Ho]; · iexact Ho
    isplitl [Tk]; · iexact Tk
    iapply (reached_at m K c (.dma (keepS i))); iexact HR
  iintro Hck
  -- the send
  iapply (wp_send m K c i (hsc := e12) (hsrc := e13) (hdst := e14) (hsem := e15) (Q := Q) (k := k) W fp gs fd) $$ [Hs1 Hp HO Ts Tr]
  · isplitr; · iapply (inv_at m K c (.dma (sendS i))); iexact HR
    isplitr; · iapply (inv_at m K (peer c) (.dma (recvS i))); iexact HR
    isplitl [Hs1]; · iexact Hs1
    isplitl [Hp]; · iexact Hp
    isplitl [HO]; · iexact HO
    isplitl [Ts]; · iexact Ts
    isplitr; · iapply (reached_at m K c (.dma (sendS i))); iexact HR
    isplitl [Tr]; · iexact Tr
    iapply (reached_at m K (peer c) (.dma (recvS i))); iexact HR
  iintro ⟨Hcs, HO⟩
  iapply Hk
  isplitl [Hin]; · iexact Hin
  isplitl [Hck]; · iexact Hck
  isplitl [Hcs]; · iexact Hcs
  iexact HO

/-! ## The printed text of iteration 1, at x coordinate 0, is an instance -/

example (c : Dev nD) (hc : xf c = 0) (hp : xf (peer c) = 1)
    {α : Type} {Q : α → sProp 𝕄} {k : PUnit → Prog (TpuEff nD τ sig (Elt F) Λ₀ .tc) α}
    (W : Waits sig Unit) (fd : Buf (Elt F) ((vinV (slot 1)).view.loc (c : Thread nD τ)))
    (gk : Buf (Elt F) ((c : Thread nD τ).loc cc0_scratch1)) (gs : Buf (Elt F) ((c : Thread nD τ).loc cc0_scratch2))
    (fo : Buf (Elt F) ((oVd c 1).view.loc (c : Thread nD τ))) (fp : Buf (Elt F) ((oVd c 1).view.loc (peer c : Thread nD τ))) :
    (iprop(records m K
        ∗ (((c : Thread nD τ).loc cc0_scratch0) ↦[(vinV (slot 1)).view.set]{fullShare} vinAfter m c 1 fd)
        ∗ (((c : Thread nD τ).loc cc0_scratch1) ↦[(vkV (slot 1)).view.set]{fullShare} gk)
        ∗ (((c : Thread nD τ).loc cc0_scratch2) ↦[(vsV (slot 1)).view.set]{fullShare} gs)
        ∗ ((oVd c 1).view.loc (c : Thread nD τ) ↦[(oVd c 1).view.set]{fullShare} fo)
        ∗ ((oVd c 1).view.loc (peer c : Thread nD τ) ↦[(oVd c 1).view.set]{fullShare} fp)
        ∗ owes (c : Thread nD τ) (owedFrom c (1 : Fin 16).val) W
        ∗ dutyTok ER (keepCell c 1) 0 () ∗ dutyTok ER (sendCell c 1) 0 () ∗ dutyTok ER (recvCell (peer c) 1) 0 ()) : sProp 𝕄)
      ⊢ iprop((((((c : Thread nD τ).loc cc0_scratch0) ↦[(vinV (slot 1)).view.set]{fullShare} vinAfter m c 1 fd)
                ∗ cred (tallyAt (keepCell c 1) () Nh) ∗ cred (tallyAt (sendCell c 1) () Nh)
                ∗ owes (c : Thread nD τ) (owedFrom c ((1 : Fin 16).val + 1)) W)
              -∗ wp frame (wpE (defs₀ (F := F)) 𝒱₀ (c : Thread nD τ) none) Set.univ (k ⟨⟩) Q)
          -∗ wp frame (wpE (defs₀ (F := F)) 𝒱₀ (c : Thread nD τ) none) Set.univ
              (.op (.load (Memref.whole cc0_scratch0 : Memref sig .tc .vmem S2x1024x2048 .f32) (Rect.unit (s := S2x1024x2048) ![1, 0, 0] S1x1024x1024.size inb_S2x1024x2048_S1x1024x1024_1_0_0).toLoadRect (View.loadsAt_vmem h_S1x1024x1024)) fun v961 =>
               .op (.load (Memref.whole cc0_scratch1 : Memref sig .tc .vmem S2x1024x1024 .f32) (Rect.unit (s := S2x1024x1024) ![1, 0, 0] S1x1024x1024.size inb_S2x1024x1024_S1x1024x1024_1_0_0).toLoadRect (View.loadsAt_vmem h_S1x1024x1024)) fun v963 =>
               .op (.store (Memref.whole cc0_scratch1 : Memref sig .tc .vmem S2x1024x1024 .f32) (Rect.unit (s := S2x1024x1024) ![1, 0, 0] S1x1024x1024.size inb_S2x1024x1024_S1x1024x1024_1_0_0) (k0_pay5 v961) Finset.univ (View.stores_vmem_bits_univ h_S1x1024x1024 rfl) (.inl rfl)) fun _ =>
               .op (.load (Memref.whole cc0_scratch0 : Memref sig .tc .vmem S2x1024x2048 .f32) (Rect.unit (s := S2x1024x2048) ![1, 0, 1024] S1x1024x1024.size inb_S2x1024x2048_S1x1024x1024_1_0_1024).toLoadRect (View.loadsAt_vmem h_S1x1024x1024)) fun v966 =>
               .op (.load (Memref.whole cc0_scratch2 : Memref sig .tc .vmem S2x1024x1024 .f32) (Rect.unit (s := S2x1024x1024) ![1, 0, 0] S1x1024x1024.size inb_S2x1024x1024_S1x1024x1024_1_0_0).toLoadRect (View.loadsAt_vmem h_S1x1024x1024)) fun v968 =>
               .op (.store (Memref.whole cc0_scratch2 : Memref sig .tc .vmem S2x1024x1024 .f32) (Rect.unit (s := S2x1024x1024) ![1, 0, 0] S1x1024x1024.size inb_S2x1024x1024_S1x1024x1024_1_0_0) (k0_pay6 v966) Finset.univ (View.stores_vmem_bits_univ h_S1x1024x1024 rfl) (.inl rfl)) fun _ =>
               .op (.enqueueDma
                  (((Memref.whole cc0_scratch1 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024)
                  (.here ((Memref.whole main_v1 : Memref sig .tc .hbm S32768x1024 .f32).slice (Rect.unit (s := S32768x1024) (k0_off1 c 1024#32) S1024x1024.size (k0_off1_inb c 1)) (fun _ => rfl)))
                  (.dma (((cc0_scratch4 : DmaSems sig S16).slice (Rect.unit (s := S16) ![1] S1.size inb_S16_S1_1)).squeeze S_ squeezes_S1_S_).sem)
                  ((View.wordExact_bits rfl).reshape _ _) (View.wordExact_bits rfl) ⟨Or.inl rfl, trivial⟩) fun _ =>
               .op (.enqueueDma
                  (((Memref.whole cc0_scratch2 : Memref sig .tc .vmem S2x1024x1024 .f32).slice (Rect.unit (s := S2x1024x1024) ![1, 0, 0] S1x1024x1024.size inb_S2x1024x1024_S1x1024x1024_1_0_0) (fun _ => rfl)).squeeze S1024x1024 squeezes_S1x1024x1024_S1024x1024)
                  (.remote (Dev.tc (peer c) : Thread nD τ)
                    ((Memref.whole main_v1 : Memref sig .tc .hbm S32768x1024 .f32).slice (Rect.unit (s := S32768x1024) (k0_off1 c 1024#32) S1024x1024.size (k0_off1_inb c 1)) (fun _ => rfl))
                    (.dma (((cc0_scratch5 : DmaSems sig S16).slice (Rect.unit (s := S16) ![1] S1.size inb_S16_S1_1)).squeeze S_ squeezes_S1_S_).sem))
                  (.dma (((cc0_scratch6 : DmaSems sig S16).slice (Rect.unit (s := S16) ![1] S1.size inb_S16_S1_1)).squeeze S_ squeezes_S1_S_).sem)
                  ((View.wordExact_bits rfl).reshape _ _) (View.wordExact_bits rfl) ⟨⟨rfl, Or.inl rfl⟩, trivial⟩) k) Q) :=
  wp_blk m K c 1 0 1 hc hp W fd gk gs fo fp

/-- info: 'Cert.Kernel.A2A.wp_blk' depends on axioms: [propext, Classical.choice, Quot.sound] -/
#guard_msgs in #print axioms wp_blk

end Cert.Kernel.A2A

end
-- ==== Proof.K_Iter.lean ====
/-
  The operations of the body over the persistent records: each rule of the two operation modules restated with
  "every cell's invariant and round-0 fact" (records) and the level facts in place of the one invariant, round-0 fact or
  permission to wait it needs, and with whatever varies from step to step — a buffer's contents, the set of waits
  recorded — under an existential, so that the body proof threads closed assertions.
-/
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.Kernel.Skeleton
import proofs.«900648_g7700000000000649_dist_a2a_v7x_xyz2x4x4_x_m16384_n1024_f32_1_alg».proof.Proof.Gen.Kernel.Launch
import proofs.«900648_g7700000000000649_dist_a2a_v7x_xyz2x4x4_x_m16384_n1024_f32_1_alg».proof.Proof.Gen.Kernel.Points
import proofs.«900648_g7700000000000649_dist_a2a_v7x_xyz2x4x4_x_m16384_n1024_f32_1_alg».proof.Proof.K_OpsLocal
import proofs.«900648_g7700000000000649_dist_a2a_v7x_xyz2x4x4_x_m16384_n1024_f32_1_alg».proof.Proof.K_OpsRemote
import proofs.«900648_g7700000000000649_dist_a2a_v7x_xyz2x4x4_x_m16384_n1024_f32_1_alg».proof.Proof.K_Regroup
import proofs.«900648_g7700000000000649_dist_a2a_v7x_xyz2x4x4_x_m16384_n1024_f32_1_alg».proof.Proof.K_Block
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ)

/-- Device c owes its peer's receive cells a block's credit for every chunk from o on (whatever waits it has recorded). -/
def OW (c : Dev nD) (o : ℕ) : sProp 𝕄 := iprop(∃ W, owes (c : Thread nD τ) (owedFrom c o) W)
/-- Device c owes nothing. -/
def OW0 (c : Dev nD) : sProp 𝕄 := iprop(∃ W, owes (c : Thread nD τ) 0 W)

omit [FloatOps F] in
theorem OW_16 (c : Dev nD) : (OW c 16 : sProp 𝕄) = OW0 c := by unfold OW OW0; rw [owedFrom_16]

/-! ## The entry handshake -/

/-- The signal to the peer: it hands over the rows of this device's result that the peer's sends write. -/
theorem r_sig (c : Dev nD) {α : Type} {Q : α → sProp 𝕄} {k : PUnit → Prog (TpuEff nD τ sig (Elt F) Λ₀ .tc) α} (f : Buf (Elt F) ((c : Thread nD τ).loc main_v1)) :
    (iprop(records m K ∗ (∃ W, owes (c : Thread nD τ) (O₀ c) W) ∗ dutyTok ER (barCell (peer c)) 0 ()
        ∗ (bigSep Finset.univ fun i : Fin 16 => ((oVd (peer c) i).view.loc (c : Thread nD τ) ↦[(oVd (peer c) i).view.set]{fullShare} f))) : sProp 𝕄)
      ⊢ iprop((OW c 0 -∗ wp frame (wpE (defs₀ (F := F)) 𝒱₀ (c : Thread nD τ) none) Set.univ (k ⟨⟩) Q) -∗ wp frame (wpE (defs₀ (F := F)) 𝒱₀ (c : Thread nD τ) none) Set.univ (.op (.semSignal (peer c : Thread nD τ) barS 1) k) Q) := by
  unfold OW
  iintro ⟨#HR, ⟨%W, HO⟩, Ht, Hrows⟩ Hk
  iapply (wp_sig m K c W (Q := Q) (k := k)) $$ [HO Ht Hrows]
  · isplitr; · iapply (inv_at m K (peer c) (.reg barS)); iexact HR
    isplitl [HO]; · iexact HO
    isplitl [Ht]; · iexact Ht
    isplitl [Hrows]
    · rw [barPay_peer]
      isplitl [Hrows]; · iapply (rows_exists c (peer c) f); iexact Hrows
      iapply (reached_recv m K c); iexact HR
    iapply (reached_at m K (peer c) (.reg barS)); iexact HR
  iintro HO
  iapply Hk
  iexists _; iexact HO

/-- The wait for the peer's signal: the rows of the peer's result that this device's sends write come with it. -/
theorem r_bar_wait (c : Dev nD) {α : Type} {Q : α → sProp 𝕄} {k : PUnit → Prog (TpuEff nD τ sig (Elt F) Λ₀ .tc) α} :
    (iprop(records m K ∗ levAts L lv ∗ cred (tallyAt (barCell c) () 1) ∗ OW c 0 ∗ atPos ER (barCell c) 0 ∅ 0) : sProp 𝕄)
      ⊢ iprop(((OW c 0 ∗ atPos ER (barCell c) 1 ∅ 0
              ∗ (bigSep Finset.univ fun i : Fin 16 => iprop(∃ fd, (oVd c i).view.loc (peer c : Thread nD τ) ↦[(oVd c i).view.set]{fullShare} fd)))
            -∗ wp frame (wpE (defs₀ (F := F)) 𝒱₀ (c : Thread nD τ) none) Set.univ (k ⟨⟩) Q) -∗ wp frame (wpE (defs₀ (F := F)) 𝒱₀ (c : Thread nD τ) none) Set.univ (.op (.semWait barS 1) k) Q) := by
  unfold OW
  iintro ⟨#HR, #Hlev, Hc, ⟨%W, HO⟩, Hat⟩ Hk
  iapply (wp_bar_wait m K c W (Q := Q) (k := k)) $$ [Hc HO Hat]
  · isplitr; · iapply (inv_at m K c (.reg barS)); iexact HR
    isplitl [Hc]; · iexact Hc
    isplitl [HO]; · iexact HO
    isplitr; · iexact Hlev
    iexact Hat
  unfold barPay
  iintro ⟨HO, Hat, ⟨Hrows, -⟩⟩
  iapply Hk
  isplitl [HO]; · iexists _; iexact HO
  isplitl [Hat]; · iexact Hat
  iexact Hrows

/-! ## The input copies -/

/-- The input copy of chunk n, at whatever round its cell has reached. -/
theorem r_in_enq (c : Dev nD) (n : Fin 16)
    {hsrc : (xV n).view.WordExact} {hdst : (vinV (slot n)).view.WordExact}
    {hsem : DmaTarget.Typed (nD := nD) .hbm (.dma (inS (slot n))) (DmaTarget.here (vinV (slot n)) : DmaTarget nD τ sig (c : Thread nD τ).2 .vmem S1024x2048 .f32)}
    {α : Type} {Q : α → sProp 𝕄} {k : PUnit → Prog (TpuEff nD τ sig (Elt F) Λ₀ .tc) α} :
    (iprop(records m K
        ∗ ((xV n).view.loc (c : Thread nD τ) ↦[(xV n).view.set]{fullShare} Xa m c)
        ∗ (∃ fd, (vinV (slot n)).view.loc (c : Thread nD τ) ↦[(vinV (slot n)).view.set]{fullShare} fd)
        ∗ dutyTok ER (inCell c (slot n)) (rnd n) () ∗ reached ER (inCell c (slot n)) (rnd n)) : sProp 𝕄)
      ⊢ iprop((cred (tallyAt (inCell c (slot n)) () Nin) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xV n) (.here (vinV (slot n))) (.dma (inS (slot n))) hsrc hdst hsem) k) Q) := by
  iintro ⟨#HR, Hx, ⟨%fd, Hv⟩, Ht, #Hr⟩ Hk
  iapply (wp_in_enq m K c n (hsrc := hsrc) (hdst := hdst) (hsem := hsem) (Q := Q) (k := k) fd) $$ [Hx Hv Ht]
  · isplitr; · iapply (inv_at m K c (.dma (inS (slot n)))); iexact HR
    isplitl [Hx]; · iexact Hx
    isplitl [Hv]; · iexact Hv
    isplitl [Ht]; · iexact Ht
    iexact Hr
  iexact Hk

/-- The wait for chunk i's input copy, while owing the receive credits from chunk o on. -/
theorem r_in_wait (c : Dev nD) (i : Fin 16)
    {hsrc : (xV i).view.WordExact} {hdst : (vinV (slot i)).view.WordExact}
    {α : Type} {Q : α → sProp 𝕄} {k : PUnit → Prog (TpuEff nD τ sig (Elt F) Λ₀ .tc) α} (o : ℕ) :
    (iprop(records m K ∗ levAts L lv ∗ cred (tallyAt (inCell c (slot i)) () Nin) ∗ OW c o
        ∗ atPos ER (inCell c (slot i)) (rnd i) ∅ 0) : sProp 𝕄)
      ⊢ iprop(((OW c o ∗ atPos ER (inCell c (slot i)) (rnd i + 1) ∅ 0 ∗ reached ER (inCell c (slot i)) (rnd i + 1) ∗ inPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (inS (slot i)) (xV i) (vinV (slot i)) hsrc hdst) k) Q) := by
  unfold OW
  iintro ⟨#HR, #Hlev, Hc, ⟨%W, HO⟩, Hat⟩ Hk
  iapply (wp_in_wait m K c i (hsrc := hsrc) (hdst := hdst) (Q := Q) (k := k) (owedFrom c o) W) $$ [Hc HO Hat]
  · isplitr; · iapply (inv_at m K c (.dma (inS (slot i)))); iexact HR
    isplitl [Hc]; · iexact Hc
    isplitl [HO]; · iexact HO
    isplitr; · iapply (mayWait_low c (inS (slot i)) (by have := (slot i).isLt; show (slot i).val < 34; omega) o); iexact Hlev
    iexact Hat
  iintro ⟨HO, Hat, Hr, Hp⟩
  iapply Hk
  isplitl [HO]; · iexists _; iexact HO
  isplitl [Hat]; · iexact Hat
  isplitl [Hr]; · iexact Hr
  iexact Hp

/-! ## The waits on the keep and send cells -/

/-- The wait for chunk j's keep copy: its result rows, final, and the keep slot. -/
theorem r_keep_wait (c : Dev nD) (j : Fin 16)
    {hsrc : (vkV (slot j)).view.WordExact} {hdst : (oVd c j).view.WordExact}
    {α : Type} {Q : α → sProp 𝕄} {k : PUnit → Prog (TpuEff nD τ sig (Elt F) Λ₀ .tc) α} (o : ℕ) :
    (iprop(records m K ∗ levAts L lv ∗ cred (tallyAt (keepCell c j) () Nh) ∗ OW c o ∗ atPos ER (keepCell c j) 0 ∅ 0) : sProp 𝕄)
      ⊢ iprop(((OW c o ∗ atPos ER (keepCell c j) 1 ∅ 0 ∗ keepPay m c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (keepS j) (vkV (slot j)) (oVd c j) hsrc hdst) k) Q) := by
  unfold OW
  iintro ⟨#HR, #Hlev, Hc, ⟨%W, HO⟩, Hat⟩ Hk
  iapply (wp_keep_wait m K c j (hsrc := hsrc) (hdst := hdst) (Q := Q) (k := k) (owedFrom c o) W) $$ [Hc HO Hat]
  · isplitr; · iapply (inv_at m K c (.dma (keepS j))); iexact HR
    isplitl [Hc]; · iexact Hc
    isplitl [HO]; · iexact HO
    isplitr; · iapply (mayWait_low c (keepS j) (by have := j.isLt; show 2 + j.val < 34; omega) o); iexact Hlev
    iexact Hat
  iintro ⟨HO, Hat, -, Hp⟩
  iapply Hk
  isplitl [HO]; · iexists _; iexact HO
  isplitl [Hat]; · iexact Hat
  iexact Hp

/-- The wait for chunk j's send to have read its slot: the send slot. -/
theorem r_send_wait (c : Dev nD) (j : Fin 16)
    {hsrc : (oVd c j).view.WordExact} {hdst : (vsV (slot j)).view.WordExact}
    {α : Type} {Q : α → sProp 𝕄} {k : PUnit → Prog (TpuEff nD τ sig (Elt F) Λ₀ .tc) α} (o : ℕ) :
    (iprop(records m K ∗ levAts L lv ∗ cred (tallyAt (sendCell c j) () Nh) ∗ OW c o ∗ atPos ER (sendCell c j) 0 ∅ 0) : sProp 𝕄)
      ⊢ iprop(((OW c o ∗ atPos ER (sendCell c j) 1 ∅ 0 ∗ sendPay c j) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (sendS j) (oVd c j) (vsV (slot j)) hsrc hdst) k) Q) := by
  unfold OW
  iintro ⟨#HR, #Hlev, Hc, ⟨%W, HO⟩, Hat⟩ Hk
  iapply (wp_send_wait m K c j (hsrc := hsrc) (hdst := hdst) (Q := Q) (k := k) (owedFrom c o) W) $$ [Hc HO Hat]
  · isplitr; · iapply (inv_at m K c (.dma (sendS j))); iexact HR
    isplitl [Hc]; · iexact Hc
    isplitl [HO]; · iexact HO
    isplitr; · iapply (mayWait_low c (sendS j) (by have := j.isLt; show 18 + j.val < 34; omega) o); iexact Hlev
    iexact Hat
  iintro ⟨HO, Hat, -, Hp⟩
  iapply Hk
  isplitl [HO]; · iexists _; iexact HO
  isplitl [Hat]; · iexact Hat
  iexact Hp

/-- The final wait for the peer's send of chunk t, owing nothing. -/
theorem r_recv_wait (c : Dev nD) (t : Fin 16)
    {hsrc : (vsV (slot t)).view.WordExact} {hdst : (oVd c t).view.WordExact}
    {α : Type} {Q : α → sProp 𝕄} {k : PUnit → Prog (TpuEff nD τ sig (Elt F) Λ₀ .tc) α} :
    (iprop(records m K ∗ cred (tallyAt (recvCell c t) () Nh) ∗ OW0 c ∗ atPos ER (recvCell c t) 0 ∅ 0) : sProp 𝕄)
      ⊢ iprop(((OW0 c ∗ atPos ER (recvCell c t) 1 ∅ 0 ∗ recvPay m c t) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 (recvS t) (vsV (slot t)) (oVd c t) hsrc hdst) k) Q) := by
  unfold OW0
  iintro ⟨#HR, Hc, ⟨%W, HO⟩, Hat⟩ Hk
  iapply (wp_recv_wait m K c t (hsrc := hsrc) (hdst := hdst) (Q := Q) (k := k) W) $$ [Hc HO Hat]
  · isplitr; · iapply (inv_at m K c (.dma (recvS t))); iexact HR
    isplitl [Hc]; · iexact Hc
    isplitl [HO]; · iexact HO
    iexact Hat
  iintro ⟨HO, Hat, -, Hp⟩
  iapply Hk
  isplitl [HO]; · iexists _; iexact HO
  isplitl [Hat]; · iexact Hat
  iexact Hp

/-! ## An iteration's compute block -/

/-- Chunk i, landed in its input slot, is halved into the keep and send slots; the kept half is copied to the device's
    own result rows and the other half sent to the peer's. The receive credit owed for chunk i is paid off. -/
theorem r_blk (c : Dev nD) (i : Fin 16) (a b : Fin 2) (ha : xf c = a) (hb : xf (peer c) = b)
    {e1 : (Memref.whole cc0_scratch0 : Memref sig .tc .vmem S2x1024x2048 .f32).view.LoadsAt (rIn (slot i) a).toLoadRect}
    {e2 : (Memref.whole cc0_scratch1 : Memref sig .tc .vmem S2x1024x1024 .f32).view.LoadsAt (rH (slot i)).toLoadRect}
    {e3 : ((Memref.whole cc0_scratch1 : Memref sig .tc .vmem S2x1024x1024 .f32).access (rH (slot i))).Stores Finset.univ}
    {e4 : (Finset.univ : Finset (rH (slot i)).shape.Idx) = Finset.univ ∨ ∀ x, (rH (slot i)).stride x = 1}
    {e5 : (Memref.whole cc0_scratch0 : Memref sig .tc .vmem S2x1024x2048 .f32).view.LoadsAt (rIn (slot i) b).toLoadRect}
    {e6 : (Memref.whole cc0_scratch2 : Memref sig .tc .vmem S2x1024x1024 .f32).view.LoadsAt (rH (slot i)).toLoadRect}
    {e7 : ((Memref.whole cc0_scratch2 : Memref sig .tc .vmem S2x1024x1024 .f32).access (rH (slot i))).Stores Finset.univ}
    {e8 : (Finset.univ : Finset (rH (slot i)).shape.Idx) = Finset.univ ∨ ∀ x, (rH (slot i)).stride x = 1}
    {e9 : (vkV (slot i)).view.WordExact} {e10 : (oVd c i).view.WordExact}
    {e11 : DmaTarget.Typed (nD := nD) .vmem (.dma (keepS i)) (DmaTarget.here (oVd c i) : DmaTarget nD τ sig (c : Thread nD τ).2 .hbm S1024x1024 .f32)}
    {e12 : (oVd c i : Memref sig (Dev.tc (peer c) : Thread nD τ).2.kind .hbm S1024x1024 .f32).view.ref.isScScratch = false}
    {e13 : (vsV (slot i)).view.WordExact} {e14 : (oVd c i).view.WordExact}
    {e15 : DmaTarget.Typed .vmem (.dma (recvS i)) (.remote (Dev.tc (peer c) : Thread nD τ) (oVd c i) (.dma (sendS i)) e12)}
    {α : Type} {Q : α → sProp 𝕄} {k : PUnit → Prog (TpuEff nD τ sig (Elt F) Λ₀ .tc) α} :
    (iprop(records m K
        ∗ (∃ fd, (vinV (slot i)).view.loc (c : Thread nD τ) ↦[(vinV (slot i)).view.set]{fullShare} vinAfter m c i fd)
        ∗ (∃ g, (vkV (slot i)).view.loc (c : Thread nD τ) ↦[(vkV (slot i)).view.set]{fullShare} g)
        ∗ (∃ g, (vsV (slot i)).view.loc (c : Thread nD τ) ↦[(vsV (slot i)).view.set]{fullShare} g)
        ∗ (∃ fo, (oVd c i).view.loc (c : Thread nD τ) ↦[(oVd c i).view.set]{fullShare} fo)
        ∗ (∃ fp, (oVd c i).view.loc (peer c : Thread nD τ) ↦[(oVd c i).view.set]{fullShare} fp)
        ∗ OW c i.val
        ∗ dutyTok ER (keepCell c i) 0 () ∗ dutyTok ER (sendCell c i) 0 () ∗ dutyTok ER (recvCell (peer c) i) 0 ()) : sProp 𝕄)
      ⊢ iprop((((∃ f, (vinV (slot i)).view.loc (c : Thread nD τ) ↦[(vinV (slot i)).view.set]{fullShare} f)
                ∗ cred (tallyAt (keepCell c i) () Nh) ∗ cred (tallyAt (sendCell c i) () Nh) ∗ OW c (i.val + 1))
              -∗ wp frame (wpE (defs₀ (F := F)) 𝒱₀ (c : Thread nD τ) none) Set.univ (k ⟨⟩) Q)
          -∗ wp frame (wpE (defs₀ (F := F)) 𝒱₀ (c : Thread nD τ) none) Set.univ
             (.op (.load (Memref.whole cc0_scratch0 : Memref sig .tc .vmem S2x1024x2048 .f32) (rIn (slot i) a).toLoadRect e1) fun v1 =>
              .op (.load (Memref.whole cc0_scratch1 : Memref sig .tc .vmem S2x1024x1024 .f32) (rH (slot i)).toLoadRect e2) fun _ =>
              .op (.store (Memref.whole cc0_scratch1 : Memref sig .tc .vmem S2x1024x1024 .f32) (rH (slot i)) (payId v1) Finset.univ e3 e4) fun _ =>
              .op (.load (Memref.whole cc0_scratch0 : Memref sig .tc .vmem S2x1024x2048 .f32) (rIn (slot i) b).toLoadRect e5) fun v2 =>
              .op (.load (Memref.whole cc0_scratch2 : Memref sig .tc .vmem S2x1024x1024 .f32) (rH (slot i)).toLoadRect e6) fun _ =>
              .op (.store (Memref.whole cc0_scratch2 : Memref sig .tc .vmem S2x1024x1024 .f32) (rH (slot i)) (payId v2) Finset.univ e7 e8) fun _ =>
              .op (.enqueueDma (vkV (slot i)) (.here (oVd c i)) (.dma (keepS i)) e9 e10 e11) fun _ =>
              .op (.enqueueDma (vsV (slot i)) (.remote (Dev.tc (peer c) : Thread nD τ) (oVd c i) (.dma (sendS i)) e12) (.dma (recvS i)) e13 e14 e15) k) Q) := by
  unfold OW
  iintro ⟨#HR, ⟨%fd, Hin⟩, ⟨%gk, Hvk⟩, ⟨%gs, Hvs⟩, ⟨%fo, Hoo⟩, ⟨%fp, Hop⟩, ⟨%W, HO⟩, HtK, HtS, HtR⟩ Hk
  iapply (wp_blk m K c i a b ha hb (e1 := e1) (e2 := e2) (e3 := e3) (e4 := e4) (e5 := e5) (e6 := e6) (e7 := e7) (e8 := e8)
      (e9 := e9) (e10 := e10) (e11 := e11) (e12 := e12) (e13 := e13) (e14 := e14) (e15 := e15) (Q := Q) (k := k) W fd gk gs fo fp)
    $$ [Hin Hvk Hvs Hoo Hop HO HtK HtS HtR]
  · isplitr; · iexact HR
    isplitl [Hin]; · iexact Hin
    isplitl [Hvk]; · iexact Hvk
    isplitl [Hvs]; · iexact Hvs
    isplitl [Hoo]; · iexact Hoo
    isplitl [Hop]; · iexact Hop
    isplitl [HO]; · iexact HO
    isplitl [HtK]; · iexact HtK
    isplitl [HtS]; · iexact HtS
    iexact HtR
  iintro ⟨Hin, HcK, HcS, HO⟩
  iapply Hk
  isplitl [Hin]; · iexists _; iexact Hin
  isplitl [HcK]; · iexact HcK
  isplitl [HcS]; · iexact HcS
  iexists _; iexact HO

/-! ## The cells close at exit -/

theorem r_close_in (c : Dev nD) (s : Fin 2) :
    (iprop(records m K ∗ atPos ER (inCell c s) 8 ∅ 0) : sProp 𝕄) ⊢ iprop(|={Set.univ}=> semVal (inCell c s) 0) := by
  iintro ⟨#HR, Hat⟩
  iapply (close_in m K c s)
  isplitr; · iapply (inv_at m K c (.dma (inS s))); iexact HR
  iexact Hat
theorem r_close_keep (c : Dev nD) (i : Fin 16) :
    (iprop(records m K ∗ atPos ER (keepCell c i) 1 ∅ 0) : sProp 𝕄) ⊢ iprop(|={Set.univ}=> semVal (keepCell c i) 0) := by
  iintro ⟨#HR, Hat⟩
  iapply (close_keep m K c i)
  isplitr; · iapply (inv_at m K c (.dma (keepS i))); iexact HR
  iexact Hat
theorem r_close_send (c : Dev nD) (i : Fin 16) :
    (iprop(records m K ∗ atPos ER (sendCell c i) 1 ∅ 0) : sProp 𝕄) ⊢ iprop(|={Set.univ}=> semVal (sendCell c i) 0) := by
  iintro ⟨#HR, Hat⟩
  iapply (close_send m K c i)
  isplitr; · iapply (inv_at m K c (.dma (sendS i))); iexact HR
  iexact Hat
theorem r_close_recv (c : Dev nD) (i : Fin 16) :
    (iprop(records m K ∗ atPos ER (recvCell c i) 1 ∅ 0) : sProp 𝕄) ⊢ iprop(|={Set.univ}=> semVal (recvCell c i) 0) := by
  iintro ⟨#HR, Hat⟩
  iapply (close_recv m K c i)
  isplitr; · iapply (inv_at m K c (.dma (recvS i))); iexact HR
  iexact Hat

end Cert.Kernel.A2A

end
-- ==== Proof.K_BlockSteps.lean ====
/-
  The two copies of an iteration's compute block, stepped one at a time over the persistent records: the keep copy of
  chunk i and the send of its other half, each taking the slot as the stores left it — the half at an explicit column
  offset, which is the device's own x coordinate for the keep slot and its peer's for the send slot.
-/
import proofs.«900648_g7700000000000649_dist_a2a_v7x_xyz2x4x4_x_m16384_n1024_f32_1_alg».proof.Proof.K_Iter
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ)

/-- The keep copy of chunk i, from the keep slot as the store of the kept half (columns 1024 a …) left it. -/
theorem r_keep_enq (c : Dev nD) (i : Fin 16) (a : Fin 2) (ha : xf c = a)
    {hsrc : (vkV (slot i)).view.WordExact} {hdst : (oVd c i).view.WordExact}
    {hsem : DmaTarget.Typed (nD := nD) .vmem (.dma (keepS i))
      (DmaTarget.here (oVd c i) : DmaTarget nD τ sig (c : Thread nD τ).2 .hbm S1024x1024 .f32)}
    {α : Type} {Q : α → sProp 𝕄} {k : PUnit → Prog (TpuEff nD τ sig (Elt F) Λ₀ .tc) α} :
    (iprop(records m K
        ∗ (∃ g fd, (vkV (slot i)).view.loc (c : Thread nD τ) ↦[(vkV (slot i)).view.set]{fullShare}
              ((Memref.whole cc0_scratch1 : Memref sig .tc .vmem S2x1024x1024 .f32).access (rH (slot i))).write (Elt F) g
                (payId ((Memref.whole cc0_scratch0 : Memref sig .tc .vmem S2x1024x2048 .f32).view.readAt (Elt F) (rIn (slot i) a).toLoadRect (vinAfter m c i fd))) Finset.univ)
        ∗ (∃ fo, (oVd c i).view.loc (c : Thread nD τ) ↦[(oVd c i).view.set]{fullShare} fo)
        ∗ dutyTok ER (keepCell c i) 0 ()) : sProp 𝕄)
      ⊢ iprop((cred (tallyAt (keepCell c i) () Nh) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (vkV (slot i)) (.here (oVd c i)) (.dma (keepS i)) hsrc hdst hsem) k) Q) := by
  subst ha
  iintro ⟨#HR, ⟨%g, %fd, Hvk⟩, ⟨%fo, Hoo⟩, Ht⟩ Hk
  iapply (wp_keep_enq m K c i (hsrc := hsrc) (hdst := hdst) (hsem := hsem) (Q := Q) (k := k) fo g fd) $$ [Hvk Hoo Ht]
  · isplitr; · iapply (inv_at m K c (.dma (keepS i))); iexact HR
    isplitl [Hvk]; · iexact Hvk
    isplitl [Hoo]; · iexact Hoo
    isplitl [Ht]; · iexact Ht
    iapply (reached_at m K c (.dma (keepS i))); iexact HR
  iexact Hk

/-- The send of chunk i's other half, from the send slot as the store of that half (columns 1024 b …) left it. -/
theorem r_send (c : Dev nD) (i : Fin 16) (b : Fin 2) (hb : xf (peer c) = b)
    {hsc : (oVd c i : Memref sig (Dev.tc (peer c) : Thread nD τ).2.kind .hbm S1024x1024 .f32).view.ref.isScScratch = false}
    {hsrc : (vsV (slot i)).view.WordExact} {hdst : (oVd c i).view.WordExact}
    {hsem : DmaTarget.Typed .vmem (.dma (recvS i)) (.remote (Dev.tc (peer c) : Thread nD τ) (oVd c i) (.dma (sendS i)) hsc)}
    {α : Type} {Q : α → sProp 𝕄} {k : PUnit → Prog (TpuEff nD τ sig (Elt F) Λ₀ .tc) α} :
    (iprop(records m K
        ∗ (∃ g fd, (vsV (slot i)).view.loc (c : Thread nD τ) ↦[(vsV (slot i)).view.set]{fullShare}
              ((Memref.whole cc0_scratch2 : Memref sig .tc .vmem S2x1024x1024 .f32).access (rH (slot i))).write (Elt F) g
                (payId ((Memref.whole cc0_scratch0 : Memref sig .tc .vmem S2x1024x2048 .f32).view.readAt (Elt F) (rIn (slot i) b).toLoadRect (vinAfter m c i fd))) Finset.univ)
        ∗ (∃ fp, (oVd c i).view.loc (peer c : Thread nD τ) ↦[(oVd c i).view.set]{fullShare} fp)
        ∗ OW c i.val ∗ dutyTok ER (sendCell c i) 0 () ∗ dutyTok ER (recvCell (peer c) i) 0 ()) : sProp 𝕄)
      ⊢ iprop(((cred (tallyAt (sendCell c i) () Nh) ∗ OW c (i.val + 1)) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (vsV (slot i)) (.remote (Dev.tc (peer c) : Thread nD τ) (oVd c i) (.dma (sendS i)) hsc) (.dma (recvS i)) hsrc hdst hsem) k) Q) := by
  subst hb
  unfold OW
  iintro ⟨#HR, ⟨%g, %fd, Hvs⟩, ⟨%fp, Hop⟩, ⟨%W, HO⟩, HtS, HtR⟩ Hk
  iapply (wp_send m K c i (hsc := hsc) (hsrc := hsrc) (hdst := hdst) (hsem := hsem) (Q := Q) (k := k) W fp g fd) $$ [Hvs Hop HO HtS HtR]
  · isplitr; · iapply (inv_at m K c (.dma (sendS i))); iexact HR
    isplitr; · iapply (inv_at m K (peer c) (.dma (recvS i))); iexact HR
    isplitl [Hvs]; · iexact Hvs
    isplitl [Hop]; · iexact Hop
    isplitl [HO]; · iexact HO
    isplitl [HtS]; · iexact HtS
    isplitr; · iapply (reached_at m K c (.dma (sendS i))); iexact HR
    isplitl [HtR]; · iexact HtR
    iapply (reached_at m K (peer c) (.dma (recvS i))); iexact HR
  iintro ⟨HcS, HO⟩
  iapply Hk
  isplitl [HcS]; · iexact HcS
  iexists _; iexact HO

/-- info: 'Cert.Kernel.A2A.r_send' depends on axioms: [propext, Classical.choice, Quot.sound] -/
#guard_msgs in #print axioms r_send
/-- info: 'Cert.Kernel.A2A.r_keep_enq' depends on axioms: [propext, Classical.choice, Quot.sound] -/
#guard_msgs in #print axioms r_keep_enq

end Cert.Kernel.A2A

end
-- ==== Proof.K_SendAt.lean ====
/-
  The send of chunk i, addressed as the kernel computes the device: to a device n that IS the peer (the equation is
  substituted, not rewritten: the operation's evidence depends on the device).
-/
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.Kernel.Skeleton
import proofs.«900648_g7700000000000649_dist_a2a_v7x_xyz2x4x4_x_m16384_n1024_f32_1_alg».proof.Proof.Gen.Kernel.Launch
import proofs.«900648_g7700000000000649_dist_a2a_v7x_xyz2x4x4_x_m16384_n1024_f32_1_alg».proof.Proof.Gen.Kernel.Points
import proofs.«900648_g7700000000000649_dist_a2a_v7x_xyz2x4x4_x_m16384_n1024_f32_1_alg».proof.Proof.K_BlockSteps
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × SemLoc sig → ℕ)

theorem r_send_at (c : Dev nD) (i : Fin 16) (b : Fin 2) (hb : xf (peer c) = b) (n : Dev nD) (hn : n = peer c)
    {hsc : (oVd c i : Memref sig (Dev.tc n : Thread nD τ).2.kind .hbm S1024x1024 .f32).view.ref.isScScratch = false}
    {hsrc : (vsV (slot i)).view.WordExact} {hdst : (oVd c i).view.WordExact}
    {hsem : DmaTarget.Typed .vmem (.dma (recvS i)) (.remote (Dev.tc n : Thread nD τ) (oVd c i) (.dma (sendS i)) hsc)}
    {α : Type} {Q : α → sProp 𝕄} {k : PUnit → Prog (TpuEff nD τ sig (Elt F) Λ₀ .tc) α} :
    (iprop(records m K
        ∗ (∃ g fd, (vsV (slot i)).view.loc (c : Thread nD τ) ↦[(vsV (slot i)).view.set]{fullShare}
              ((Memref.whole cc0_scratch2 : Memref sig .tc .vmem S2x1024x1024 .f32).access (rH (slot i))).write (Elt F) g
                (payId ((Memref.whole cc0_scratch0 : Memref sig .tc .vmem S2x1024x2048 .f32).view.readAt (Elt F) (rIn (slot i) b).toLoadRect (vinAfter m c i fd))) Finset.univ)
        ∗ (∃ fp, (oVd c i).view.loc (peer c : Thread nD τ) ↦[(oVd c i).view.set]{fullShare} fp)
        ∗ OW c i.val ∗ dutyTok ER (sendCell c i) 0 () ∗ dutyTok ER (recvCell (peer c) i) 0 ()) : sProp 𝕄)
      ⊢ iprop(((cred (tallyAt (sendCell c i) () Nh) ∗ OW c (i.val + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vsV (slot i)) (.remote (Dev.tc n : Thread nD τ) (oVd c i) (.dma (sendS i)) hsc) (.dma (recvS i)) hsrc hdst hsem) k) Q) := by
  subst hn
  exact r_send m K c i b hb (hsc := hsc) (hsrc := hsrc) (hdst := hdst) (hsem := hsem) (Q := Q) (k := k)

/-- info: 'Cert.Kernel.A2A.r_send_at' depends on axioms: [propext, Classical.choice, Quot.sound] -/
#guard_msgs in #print axioms r_send_at

end Cert.Kernel.A2A

end
-- ==== Proof.K_BodyTac.lean ====
/-
  The tactics of the body proof: one per kind of operation, each applying that operation's rule to the hypotheses of
  the chunk it concerns (hypotheses are named by role and chunk number), and the whole chain of operations in the
  printed order.
-/
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.Kernel.Skeleton
import proofs.«900648_g7700000000000649_dist_a2a_v7x_xyz2x4x4_x_m16384_n1024_f32_1_alg».proof.Proof.Gen.Kernel.Launch
import proofs.«900648_g7700000000000649_dist_a2a_v7x_xyz2x4x4_x_m16384_n1024_f32_1_alg».proof.Proof.Gen.Kernel.Points
import proofs.«900648_g7700000000000649_dist_a2a_v7x_xyz2x4x4_x_m16384_n1024_f32_1_alg».proof.Proof.K_Iter
import proofs.«900648_g7700000000000649_dist_a2a_v7x_xyz2x4x4_x_m16384_n1024_f32_1_alg».proof.Proof.K_SendAt
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- The printed guards, decided over the mesh: "my x coordinate is 0" and "my x coordinate is 1". -/
theorem cond_eq0 (c : Dev nD) : Scalar.cmpi CmpIPredicate.ne (Scalar.extui (Scalar.cmpi CmpIPredicate.eq (Scalar.remsi (Scalar.divsi c.word 16#32) 2#32) 0#32)) 0#32
    = if xf c = 0 then 1#1 else 0#1 := by revert c; decide
theorem cond_eq1 (c : Dev nD) : Scalar.cmpi CmpIPredicate.ne (Scalar.extui (Scalar.cmpi CmpIPredicate.eq (Scalar.remsi (Scalar.divsi c.word 16#32) 2#32) 1#32)) 0#32
    = if xf c = 0 then 0#1 else 1#1 := by revert c; decide

omit [FloatOps F] in
theorem ex_vin (c : Dev nD) (s : Fin 2) (f : Buf (Elt F) ((c : Thread nD τ).loc cc0_scratch0)) :
    ((vinV s).view.loc (c : Thread nD τ) ↦[(vinV s).view.set]{fullShare} f : sProp 𝕄) ⊢ iprop(∃ fd, (vinV s).view.loc (c : Thread nD τ) ↦[(vinV s).view.set]{fullShare} fd) := by
  iintro H; iexists f; iexact H
omit [FloatOps F] in
theorem ex_vk (c : Dev nD) (s : Fin 2) (f : Buf (Elt F) ((c : Thread nD τ).loc cc0_scratch1)) :
    ((vkV s).view.loc (c : Thread nD τ) ↦[(vkV s).view.set]{fullShare} f : sProp 𝕄) ⊢ iprop(∃ fd, (vkV s).view.loc (c : Thread nD τ) ↦[(vkV s).view.set]{fullShare} fd) := by
  iintro H; iexists f; iexact H
omit [FloatOps F] in
theorem ex_vs (c : Dev nD) (s : Fin 2) (f : Buf (Elt F) ((c : Thread nD τ).loc cc0_scratch2)) :
    ((vsV s).view.loc (c : Thread nD τ) ↦[(vsV s).view.set]{fullShare} f : sProp 𝕄) ⊢ iprop(∃ fd, (vsV s).view.loc (c : Thread nD τ) ↦[(vsV s).view.set]{fullShare} fd) := by
  iintro H; iexists f; iexact H

section Macros
open Lean

/-- The hypothesis name of a role and a chunk (or slot) number. -/
private def hy (p : String) (n : Nat) : Ident := mkIdent (Name.mkSimple (p ++ toString n))

/-- Sixteen conjuncts of a hypothesis (a sixteen-fold separating conjunction, chunk by chunk), named by chunk. -/
syntax "a2a_split16 " ident str : tactic
macro_rules
  | `(tactic| a2a_split16 $h:ident $p:str) => do
    let q := p.getString
    let n (i : Nat) : Ident := hy q i
    `(tactic| (ihave Hsp := (Entails.of_eq (bigSep_fin16 _)) $$ $h:ident
               icases Hsp with ⟨$(n 0):ident, $(n 1):ident, $(n 2):ident, $(n 3):ident, $(n 4):ident, $(n 5):ident, $(n 6):ident, $(n 7):ident, $(n 8):ident, $(n 9):ident, $(n 10):ident, $(n 11):ident, $(n 12):ident, $(n 13):ident, $(n 14):ident, $(n 15):ident⟩))

/-- Chunk n's input copy is issued. -/
syntax "a2a_enq " num : tactic
macro_rules
  | `(tactic| a2a_enq $n:num) => do
    let k := n.getNat
    let hx := hy "Hx" k; let hv := hy "Hvin" (k % 2); let ht := hy "HtI" k; let hr := hy "HrI" (k % 2); let hc := hy "HcI" k
    `(tactic| (iapply (r_in_enq $(mkIdent `m) $(mkIdent `K) $(mkIdent `c) ($n : Fin 16)) $$ [$hx:ident $hv:ident $ht:ident]
               isplitr; iexact $(mkIdent `HR)
               isplitl [$hx:ident]; iexact $hx:ident
               isplitl [$hv:ident]; iexact $hv:ident
               isplitl [$ht:ident]; iexact $ht:ident
               iexact $hr:ident
               iintro $hc:ident))

/-- Chunk i's input copy is waited for (owing the receive credits from chunk o on): its slot holds the chunk, and
    the chunk of the argument is back. -/
syntax "a2a_wait " num num : tactic
macro_rules
  | `(tactic| a2a_wait $i:num $o:num) => do
    let k := i.getNat
    let hc := hy "HcI" k; let hp := hy "HpI" (k % 2); let hr := hy "HrI" (k % 2); let hin := hy "Hin" k; let hx := hy "Hx" k
    `(tactic| (iapply (r_in_wait $(mkIdent `m) $(mkIdent `K) $(mkIdent `c) ($i : Fin 16) $o) $$ [$hc:ident $(mkIdent `HO):ident $hp:ident]
               isplitr; iexact $(mkIdent `HR)
               isplitr; iexact $(mkIdent `Hlev)
               isplitl [$hc:ident]; iexact $hc:ident
               isplitl [$(mkIdent `HO):ident]; iexact $(mkIdent `HO)
               iexact $hp:ident
               iintro ⟨$(mkIdent `HO):ident, $hp:ident, #$hr:ident, Hpay⟩
               unfold inPay
               icases Hpay with ⟨$hin:ident, $hx:ident⟩))

/-- Chunk j's keep copy is waited for: its result rows are final, the keep slot is back. -/
syntax "a2a_kwait " num num : tactic
macro_rules
  | `(tactic| a2a_kwait $j:num $o:num) => do
    let k := j.getNat
    let hc := hy "HcK" k; let hp := hy "HpK" k; let hd := hy "Hdn" k; let hv := hy "Hvk" (k % 2)
    `(tactic| (iapply (r_keep_wait $(mkIdent `m) $(mkIdent `K) $(mkIdent `c) ($j : Fin 16) $o) $$ [$hc:ident $(mkIdent `HO):ident $hp:ident]
               isplitr; iexact $(mkIdent `HR)
               isplitr; iexact $(mkIdent `Hlev)
               isplitl [$hc:ident]; iexact $hc:ident
               isplitl [$(mkIdent `HO):ident]; iexact $(mkIdent `HO)
               iexact $hp:ident
               iintro ⟨$(mkIdent `HO):ident, $hp:ident, Hpay⟩
               unfold keepPay
               icases Hpay with ⟨$hd:ident, $hv:ident⟩))

/-- Chunk j's send has read its slot: the send slot is back. -/
syntax "a2a_swait " num num : tactic
macro_rules
  | `(tactic| a2a_swait $j:num $o:num) => do
    let k := j.getNat
    let hc := hy "HcS" k; let hp := hy "HpS" k; let hv := hy "Hvs" (k % 2)
    `(tactic| (iapply (r_send_wait $(mkIdent `m) $(mkIdent `K) $(mkIdent `c) ($j : Fin 16) $o) $$ [$hc:ident $(mkIdent `HO):ident $hp:ident]
               isplitr; iexact $(mkIdent `HR)
               isplitr; iexact $(mkIdent `Hlev)
               isplitl [$hc:ident]; iexact $hc:ident
               isplitl [$(mkIdent `HO):ident]; iexact $(mkIdent `HO)
               iexact $hp:ident
               iintro ⟨$(mkIdent `HO):ident, $hp:ident, Hpay⟩
               unfold sendPay
               irename Hpay => $hv:ident))

/-- The peer's send of chunk t is waited for: its rows of the result are final. -/
syntax "a2a_rwait " num : tactic
macro_rules
  | `(tactic| a2a_rwait $t:num) => do
    let k := t.getNat
    let hc := hy "HcR" k; let hp := hy "HpR" k; let hr := hy "Hrv" k
    `(tactic| (iapply (r_recv_wait $(mkIdent `m) $(mkIdent `K) $(mkIdent `c) ($t : Fin 16)) $$ [$hc:ident $(mkIdent `HO):ident $hp:ident]
               isplitr; iexact $(mkIdent `HR)
               isplitl [$hc:ident]; iexact $hc:ident
               isplitl [$(mkIdent `HO):ident]; iexact $(mkIdent `HO)
               iexact $hp:ident
               iintro ⟨$(mkIdent `HO):ident, $hp:ident, $hr:ident⟩))

/-- Chunk t's three cells close: their counters are the device's again, at zero. -/
syntax "a2a_close " num : tactic
macro_rules
  | `(tactic| a2a_close $t:num) => do
    let k := t.getNat
    let hpk := hy "HpK" k; let hps := hy "HpS" k; let hpr := hy "HpR" k
    let hzk := hy "HzK" k; let hzs := hy "HzS" k; let hzr := hy "HzR" k
    let HR := mkIdent `HR; let m := mkIdent `m; let K := mkIdent `K; let c := mkIdent `c
    `(tactic| (imod (r_close_keep $m $K $c ($t : Fin 16)) $$ [$hpk:ident] with $hzk:ident
               · isplitr; iexact $HR; iexact $hpk:ident
               imod (r_close_send $m $K $c ($t : Fin 16)) $$ [$hps:ident] with $hzs:ident
               · isplitr; iexact $HR; iexact $hps:ident
               imod (r_close_recv $m $K $c ($t : Fin 16)) $$ [$hpr:ident] with $hzr:ident
               · isplitr; iexact $HR; iexact $hpr:ident))

/-- A sixteen-fold separating conjunction, from its sixteen named conjuncts. -/
syntax "a2a_join16 " str : tactic
macro_rules
  | `(tactic| a2a_join16 $p:str) => do
    let q := p.getString
    let n (i : Nat) : Ident := hy q i
    `(tactic| (iapply (Entails.of_eq (bigSep_fin16 _).symm)
               isplitl [$(n 0):ident]; iexact $(n 0):ident
               isplitl [$(n 1):ident]; iexact $(n 1):ident
               isplitl [$(n 2):ident]; iexact $(n 2):ident
               isplitl [$(n 3):ident]; iexact $(n 3):ident
               isplitl [$(n 4):ident]; iexact $(n 4):ident
               isplitl [$(n 5):ident]; iexact $(n 5):ident
               isplitl [$(n 6):ident]; iexact $(n 6):ident
               isplitl [$(n 7):ident]; iexact $(n 7):ident
               isplitl [$(n 8):ident]; iexact $(n 8):ident
               isplitl [$(n 9):ident]; iexact $(n 9):ident
               isplitl [$(n 10):ident]; iexact $(n 10):ident
               isplitl [$(n 11):ident]; iexact $(n 11):ident
               isplitl [$(n 12):ident]; iexact $(n 12):ident
               isplitl [$(n 13):ident]; iexact $(n 13):ident
               isplitl [$(n 14):ident]; iexact $(n 14):ident
               iexact $(n 15):ident))

/-- The spatial hypotheses of a role, all sixteen chunks, go to the left conjunct. -/
syntax "a2a_left16 " str : tactic
macro_rules
  | `(tactic| a2a_left16 $p:str) => do
    let q := p.getString
    let n (i : Nat) : Ident := hy q i
    `(tactic| isplitl [$(n 0):ident $(n 1):ident $(n 2):ident $(n 3):ident $(n 4):ident $(n 5):ident $(n 6):ident $(n 7):ident $(n 8):ident $(n 9):ident $(n 10):ident $(n 11):ident $(n 12):ident $(n 13):ident $(n 14):ident $(n 15):ident])
syntax "a2a_left32 " str str : tactic
macro_rules
  | `(tactic| a2a_left32 $p:str $p2:str) => do
    let q := p.getString; let q2 := p2.getString
    let n (i : Nat) : Ident := hy q i
    let n2 (i : Nat) : Ident := hy q2 i
    `(tactic| isplitl [$(n 0):ident $(n 1):ident $(n 2):ident $(n 3):ident $(n 4):ident $(n 5):ident $(n 6):ident $(n 7):ident $(n 8):ident $(n 9):ident $(n 10):ident $(n 11):ident $(n 12):ident $(n 13):ident $(n 14):ident $(n 15):ident $(n2 0):ident $(n2 1):ident $(n2 2):ident $(n2 3):ident $(n2 4):ident $(n2 5):ident $(n2 6):ident $(n2 7):ident $(n2 8):ident $(n2 9):ident $(n2 10):ident $(n2 11):ident $(n2 12):ident $(n2 13):ident $(n2 14):ident $(n2 15):ident])

/-- Part k of the printed body is opened: its operations are laid out and its guards on the x coordinate decided. -/
syntax "a2a_open " num : tactic
macro_rules
  | `(tactic| a2a_open $k:num) => do
    let n := k.getNat
    let eqn := mkIdent (Name.mkSimple ("k0_part" ++ toString n ++ "_eq_skeleton"))
    let sk := mkIdent (Name.mkSimple ("k0_part" ++ toString n ++ "_skel"))
    `(tactic| (simp only [$eqn:ident]; unfold $sk:ident
               simp only [semSignalWord, semWaitWord, Prog.lift, Prog.bind_op, Prog.bind_ret, Prog.pure_eq_ret, Prog.bind_assoc, wp_deviceId,
                 dev1_eq, dev2_eq, dev3_eq, dev4_eq, dev5_eq, dev6_eq, dev7_eq, dev8_eq, dev9_eq, dev10_eq, dev11_eq, dev12_eq, dev13_eq, dev14_eq, dev15_eq, dev16_eq, dev17_eq, cond_eq0, cond_eq1, $(mkIdent `ha):ident, if_true, if_false, ↓reduceIte, ↓reduceDIte,
                 show (1 : Fin 2) ≠ 0 from by decide, show (0#1 : BitVec 1) ≠ 1#1 from by decide]))

/-- The six loads and stores of iteration i: the half at column offset 1024 a goes to the keep slot, the half at
    1024 b to the send slot. -/
syntax "a2a_halves " num num num : tactic
macro_rules
  | `(tactic| a2a_halves $i:num $a:num $b:num) => do
    let k := i.getNat
    let s := k % 2
    let hin := hy "Hin" k; let hvf := hy "Hvf" k; let hvk := hy "Hvk" s; let hvs := hy "Hvs" s
    let fd := hy "fd" k; let gk := hy "gk" k; let gs := hy "gs" k
    let c := mkIdent `c; let m := mkIdent `m
    `(tactic| (icases $hin:ident with ⟨%_, $hvf:ident⟩
               icases $hvk:ident with ⟨%_, $hvk:ident⟩
               icases $hvs:ident with ⟨%_, $hvs:ident⟩
               iapply (wp_ld_in $c (slot ($i : Fin 16)) ($a : Fin 2) _) $$ [$hvf:ident]; iexact $hvf:ident; iintro $hvf:ident
               iapply (wp_ld_k $c (slot ($i : Fin 16)) _) $$ [$hvk:ident]; iexact $hvk:ident; iintro $hvk:ident
               iapply (wp_st_k $c (slot ($i : Fin 16)) _ _) $$ [$hvk:ident]; iexact $hvk:ident; iintro $hvk:ident
               iapply (wp_ld_in $c (slot ($i : Fin 16)) ($b : Fin 2) _) $$ [$hvf:ident]; iexact $hvf:ident; iintro $hvf:ident
               iapply (wp_ld_s $c (slot ($i : Fin 16)) _) $$ [$hvs:ident]; iexact $hvs:ident; iintro $hvs:ident
               iapply (wp_st_s $c (slot ($i : Fin 16)) _ _) $$ [$hvs:ident]; iexact $hvs:ident; iintro $hvs:ident))

/-- The keep copy of chunk i is issued. -/
syntax "a2a_kenq " num num : tactic
macro_rules
  | `(tactic| a2a_kenq $i:num $a:num) => do
    let k := i.getNat
    let s := k % 2
    let hvk := hy "Hvk" s; let hoo := hy "Hoo" k; let htk := hy "HtK" k; let hck := hy "HcK" k
    let fd := hy "fd" k; let gk := hy "gk" k
    `(tactic| (iapply (r_keep_enq $(mkIdent `m) $(mkIdent `K) $(mkIdent `c) ($i : Fin 16) ($a : Fin 2) $(mkIdent `ha)) $$ [$hvk:ident $hoo:ident $htk:ident]
               isplitr; iexact $(mkIdent `HR)
               isplitl [$hvk:ident]; (iexists _, _; iexact $hvk:ident)
               isplitl [$hoo:ident]; iexact $hoo:ident
               iexact $htk:ident
               iintro $hck:ident))

/-- The send of chunk i's other half is issued; the input slot is free again. -/
syntax "a2a_send " num num : tactic
macro_rules
  | `(tactic| a2a_send $i:num $b:num) => do
    let k := i.getNat
    let s := k % 2
    let hvs := hy "Hvs" s; let hop := hy "Hop" k; let hts := hy "HtS" k; let htr := hy "HtR" k; let hcs := hy "HcS" k
    let hvf := hy "Hvf" k; let hvin := hy "Hvin" s
    let fd := hy "fd" k; let gs := hy "gs" k
    let HO := mkIdent `HO
    let dv := mkIdent (Name.mkSimple ("dev" ++ toString (k + 2) ++ "_eq"))
    `(tactic| (iapply (r_send_at $(mkIdent `m) $(mkIdent `K) $(mkIdent `c) ($i : Fin 16) ($b : Fin 2) $(mkIdent `hb) _ ($dv:ident $(mkIdent `c))) $$ [$hvs:ident $hop:ident $HO:ident $hts:ident $htr:ident]
               isplitr; iexact $(mkIdent `HR)
               isplitl [$hvs:ident]; (iexists _, _; iexact $hvs:ident)
               isplitl [$hop:ident]; iexact $hop:ident
               isplitl [$HO:ident]; iexact $HO:ident
               isplitl [$hts:ident]; iexact $hts:ident
               iexact $htr:ident
               iintro ⟨$hcs:ident, $HO:ident⟩
               ihave $hvin:ident := (ex_vin $(mkIdent `c) (slot ($i : Fin 16)) _) $$ $hvf:ident))

/-- Every send is issued: nothing is owed any more. -/
syntax "a2a_owes_done" : tactic
macro_rules
  | `(tactic| a2a_owes_done) => `(tactic| ihave $(mkIdent `HO):ident := (Entails.of_eq (OW_16 $(mkIdent `c))) $$ $(mkIdent `HO):ident)

end Macros

end Cert.Kernel.A2A

end
-- ==== Proof.K_BodyChain.lean ====
import proofs.«900648_g7700000000000649_dist_a2a_v7x_xyz2x4x4_x_m16384_n1024_f32_1_alg».proof.Proof.K_BodyTac

namespace Cert.Kernel.A2A

open Lean in
/-- The sixteen chunks and the last waits, in the printed order of operations, for a device whose own half lies at
    column offset 1024 a and whose peer's at 1024 b. The steps before it (the handshake) are the theorem's own. -/
syntax "a2a_chain " num num : tactic
macro_rules
  | `(tactic| a2a_chain $a:num $b:num) =>
    `(tactic| (
      a2a_enq 0
      a2a_enq 1
      a2a_open 2
      a2a_wait 0 0
      a2a_halves 0 $a $b
      a2a_kenq 0 $a
      a2a_open 3
      a2a_send 0 $b
      a2a_enq 2
      a2a_wait 1 1
      a2a_halves 1 $a $b
      a2a_kenq 1 $a
      a2a_open 4
      a2a_send 1 $b
      a2a_enq 3
      a2a_wait 2 2
      a2a_kwait 0 2
      a2a_open 5
      a2a_swait 0 2
      a2a_halves 2 $a $b
      a2a_kenq 2 $a
      a2a_open 6
      a2a_send 2 $b
      a2a_enq 4
      a2a_wait 3 3
      a2a_kwait 1 3
      a2a_swait 1 3
      a2a_open 7
      a2a_halves 3 $a $b
      a2a_kenq 3 $a
      a2a_send 3 $b
      a2a_open 8
      a2a_enq 5
      a2a_wait 4 4
      a2a_kwait 2 4
      a2a_swait 2 4
      a2a_halves 4 $a $b
      a2a_open 9
      a2a_kenq 4 $a
      a2a_send 4 $b
      a2a_enq 6
      a2a_wait 5 5
      a2a_open 10
      a2a_kwait 3 5
      a2a_swait 3 5
      a2a_halves 5 $a $b
      a2a_kenq 5 $a
      a2a_open 11
      a2a_send 5 $b
      a2a_enq 7
      a2a_wait 6 6
      a2a_kwait 4 6
      a2a_open 12
      a2a_swait 4 6
      a2a_halves 6 $a $b
      a2a_kenq 6 $a
      a2a_send 6 $b
      a2a_open 13
      a2a_enq 8
      a2a_wait 7 7
      a2a_kwait 5 7
      a2a_swait 5 7
      a2a_halves 7 $a $b
      a2a_open 14
      a2a_kenq 7 $a
      a2a_send 7 $b
      a2a_enq 9
      a2a_open 15
      a2a_wait 8 8
      a2a_kwait 6 8
      a2a_swait 6 8
      a2a_halves 8 $a $b
      a2a_kenq 8 $a
      a2a_open 16
      a2a_send 8 $b
      a2a_enq 10
      a2a_wait 9 9
      a2a_kwait 7 9
      a2a_open 17
      a2a_swait 7 9
      a2a_halves 9 $a $b
      a2a_kenq 9 $a
      a2a_open 18
      a2a_send 9 $b
      a2a_enq 11
      a2a_wait 10 10
      a2a_kwait 8 10
      a2a_swait 8 10
      a2a_open 19
      a2a_halves 10 $a $b
      a2a_kenq 10 $a
      a2a_send 10 $b
      a2a_open 20
      a2a_enq 12
      a2a_wait 11 11
      a2a_kwait 9 11
      a2a_swait 9 11
      a2a_halves 11 $a $b
      a2a_open 21
      a2a_kenq 11 $a
      a2a_send 11 $b
      a2a_enq 13
      a2a_wait 12 12
      a2a_open 22
      a2a_kwait 10 12
      a2a_swait 10 12
      a2a_halves 12 $a $b
      a2a_kenq 12 $a
      a2a_open 23
      a2a_send 12 $b
      a2a_enq 14
      a2a_wait 13 13
      a2a_kwait 11 13
      a2a_open 24
      a2a_swait 11 13
      a2a_halves 13 $a $b
      a2a_kenq 13 $a
      a2a_send 13 $b
      a2a_open 25
      a2a_enq 15
      a2a_wait 14 14
      a2a_kwait 12 14
      a2a_swait 12 14
      a2a_halves 14 $a $b
      a2a_open 26
      a2a_kenq 14 $a
      a2a_send 14 $b
      a2a_wait 15 15
      a2a_open 27
      a2a_kwait 13 15
      a2a_swait 13 15
      a2a_halves 15 $a $b
      a2a_kenq 15 $a
      a2a_open 28
      a2a_send 15 $b
      a2a_kwait 14 16
      a2a_kwait 15 16
      a2a_swait 14 16
      a2a_open 29
      a2a_swait 15 16
      a2a_owes_done
      a2a_rwait 0
      a2a_rwait 1
      a2a_open 30
      a2a_rwait 2
      a2a_rwait 3
      a2a_rwait 4
      a2a_open 31
      a2a_rwait 5
      a2a_rwait 6
      a2a_rwait 7
      a2a_open 32
      a2a_rwait 8
      a2a_rwait 9
      a2a_open 33
      a2a_rwait 10
      a2a_rwait 11
      a2a_rwait 12
      a2a_rwait 13
      a2a_rwait 14
      a2a_rwait 15))

end Cert.Kernel.A2A
-- ==== Proof.K_Body0.lean ====
/-
  The body of a device whose own half of each chunk lies at column offset 0 and whose peer's at 1024: from what
  the launch hands it to what it hands back.
-/
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.Kernel.Skeleton
import proofs.«900648_g7700000000000649_dist_a2a_v7x_xyz2x4x4_x_m16384_n1024_f32_1_alg».proof.Proof.Gen.Kernel.Launch
import proofs.«900648_g7700000000000649_dist_a2a_v7x_xyz2x4x4_x_m16384_n1024_f32_1_alg».proof.Proof.Gen.Kernel.Points
import proofs.«900648_g7700000000000649_dist_a2a_v7x_xyz2x4x4_x_m16384_n1024_f32_1_alg».proof.Proof.K_BodyChain
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536 in
set_option maxHeartbeats 4000000 in
theorem sound_body0 (c : Dev nD) (ha : xf c = 0) (hb : xf (peer c) = 1) (Kt : PUnit → sProp 𝕄) :
    iprop(bodyPre m c ∗ (bodyPost m c -∗ Kt ⟨⟩))
      ⊢ wp frame (wpE (defs₀ (F := F)) 𝒱₀ (c : Thread nD τ) none) Set.univ (bodyAt0 (F := F) t₀) Kt := by
  unfold bodyAt0
  simp only [cc0_body_eq_skeleton]; unfold cc0_body_skel
  a2a_open 34
  unfold bodyPre Φ₀ start scratch ghost creds payToks
  iintro ⟨⟨⟨⟨⟨%K, #HR, Hpos, HtB, HtI, HtK, HtS, HtR⟩, ⟨HcB, HcR⟩, #Hlev, Hx, Ho⟩, ⟨%f0, Hv0⟩, ⟨%f1, Hv1⟩, ⟨%f2, Hv2⟩⟩, Howes⟩, Hk⟩
  unfold Dat.owesAt Pipeline.owesWithin
  icases Howes with ⟨%W, %hW, HO⟩
  rw [show (dats m 0 c).owed t₀.castSucc = O₀ c from rfl]
  -- the pools, chunk by chunk
  ihave Hp := (Entails.of_eq (positions_split c)) $$ Hpos
  icases Hp with ⟨HpB, HpI0, HpI1, HpK, HpS, HpR⟩
  a2a_split16 HpK "HpK"
  a2a_split16 HpS "HpS"
  a2a_split16 HpR "HpR"
  a2a_split16 HtI "HtI"
  a2a_split16 HtK "HtK"
  a2a_split16 HtS "HtS"
  a2a_split16 HtR "HtR"
  a2a_split16 HcR "HcR"
  ihave Hxs := (Entails.of_eq (split_x c fullShare (Xa m c))) $$ Hx
  a2a_split16 Hxs "Hx"
  ihave Hos := (Entails.of_eq (split_o2 c (m ((c : Thread nD τ).loc main_v1)))) $$ Ho
  icases Hos with ⟨Hoo, Hop⟩
  ihave Hs0 := (split_in c f0).1 $$ Hv0
  icases Hs0 with ⟨Hvin0, Hvin1⟩
  ihave Hvin0 := (ex_vin c 0 f0) $$ Hvin0
  ihave Hvin1 := (ex_vin c 1 f0) $$ Hvin1
  ihave Hs1 := (split_k c f1).1 $$ Hv1
  icases Hs1 with ⟨Hvk0, Hvk1⟩
  ihave Hvk0 := (ex_vk c 0 f1) $$ Hvk0
  ihave Hvk1 := (ex_vk c 1 f1) $$ Hvk1
  ihave Hs2 := (split_s c f2).1 $$ Hv2
  icases Hs2 with ⟨Hvs0, Hvs1⟩
  ihave Hvs0 := (ex_vs c 0 f2) $$ Hvs0
  ihave Hvs1 := (ex_vs c 1 f2) $$ Hvs1
  ihave #HrI0 := (reached_at m K c (.dma (inS 0))) $$ HR
  ihave #HrI1 := (reached_at m K c (.dma (inS 1))) $$ HR
  -- the entry handshake
  a2a_open 1
  iapply (r_sig m K c (m ((c : Thread nD τ).loc main_v1))) $$ [HO HtB Hop]
  · isplitr; · iexact HR
    isplitl [HO]; · iexists W; iexact HO
    isplitl [HtB]; · iexact HtB
    iexact Hop
  iintro HO
  iapply (r_bar_wait m K c) $$ [HcB HO HpB]
  · isplitr; · iexact HR
    isplitr; · iexact Hlev
    isplitl [HcB]; · iexact HcB
    isplitl [HO]; · iexact HO
    iexact HpB
  iintro ⟨HO, HpB, Hpeer⟩
  a2a_split16 Hpeer "Hop"
  ihave Hoo := (rows_exists c c (m ((c : Thread nD τ).loc main_v1))) $$ Hoo
  a2a_split16 Hoo "Hoo"
  -- the sixteen chunks and the last waits
  a2a_chain 0 1
  -- the own cells close
  imod (r_close_in m K c 0) $$ [HpI0] with HzI0
  · isplitr; iexact HR; iexact HpI0
  imod (r_close_in m K c 1) $$ [HpI1] with HzI1
  · isplitr; iexact HR; iexact HpI1
  a2a_close 0
  a2a_close 1
  a2a_close 2
  a2a_close 3
  a2a_close 4
  a2a_close 5
  a2a_close 6
  a2a_close 7
  a2a_close 8
  a2a_close 9
  a2a_close 10
  a2a_close 11
  a2a_close 12
  a2a_close 13
  a2a_close 14
  a2a_close 15
  rw [wp_ret]; imodintro
  iapply Hk
  unfold bodyPost Φ₁ scratch Dat.owesAt Pipeline.owesWithin OW0 recvPay
  rw [show (dats m 0 c).owed t₀.succ = 0 from rfl]
  isplitr [HO]
  · -- the argument, whole again
    a2a_left16 "Hx"
    · iapply (Entails.of_eq (split_x c fullShare (Xa m c)).symm)
      a2a_join16 "Hx"
    -- the result: the sixteen kept row blocks and the sixteen received ones
    a2a_left32 "Hdn" "Hrv"
    · iapply (Entails.of_eq (split_o2 c (outK m c)).symm)
      a2a_left16 "Hdn"
      · a2a_join16 "Hdn"
      a2a_join16 "Hrv"
    -- the scratch buffers
    isplitl [Hvin0 Hvin1 Hvk0 Hvk1 Hvs0 Hvs1]
    · isplitl [Hvin0 Hvin1]
      · icases Hvin0 with ⟨%g0, Hvin0⟩
        icases Hvin1 with ⟨%g1, Hvin1⟩
        iapply (join_in c g0 g1)
        isplitl [Hvin0]; iexact Hvin0; iexact Hvin1
      isplitl [Hvk0 Hvk1]
      · icases Hvk0 with ⟨%g0, Hvk0⟩
        icases Hvk1 with ⟨%g1, Hvk1⟩
        iapply (join_k c g0 g1)
        isplitl [Hvk0]; iexact Hvk0; iexact Hvk1
      icases Hvs0 with ⟨%g0, Hvs0⟩
      icases Hvs1 with ⟨%g1, Hvs1⟩
      iapply (join_s c g0 g1)
      isplitl [Hvs0]; iexact Hvs0; iexact Hvs1
    -- the fifty own semaphores, at zero
    iapply (Entails.of_eq (dmasems_join c (fun q => semVal ((c : Thread nD τ), osem q) 0)))
    isplitl [HzI0]; iexact HzI0
    isplitl [HzI1]; iexact HzI1
    a2a_left16 "HzK"
    · a2a_join16 "HzK"
    a2a_left16 "HzS"
    · a2a_join16 "HzS"
    a2a_join16 "HzR"
  · icases HO with ⟨%W', HO⟩
    iexists W'
    isplitr; · ipureintro; exact fun _ _ => Or.inl trivial
    iexact HO

end Cert.Kernel.A2A

end
-- ==== Proof.K_Body1.lean ====
/-
  The body of a device whose own half of each chunk lies at column offset 1024 and whose peer's at 0: from what
  the launch hands it to what it hands back.
-/
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.Kernel.Skeleton
import proofs.«900648_g7700000000000649_dist_a2a_v7x_xyz2x4x4_x_m16384_n1024_f32_1_alg».proof.Proof.Gen.Kernel.Launch
import proofs.«900648_g7700000000000649_dist_a2a_v7x_xyz2x4x4_x_m16384_n1024_f32_1_alg».proof.Proof.Gen.Kernel.Points
import proofs.«900648_g7700000000000649_dist_a2a_v7x_xyz2x4x4_x_m16384_n1024_f32_1_alg».proof.Proof.K_BodyChain
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

set_option maxRecDepth 65536 in
set_option maxHeartbeats 4000000 in
theorem sound_body1 (c : Dev nD) (ha : xf c = 1) (hb : xf (peer c) = 0) (Kt : PUnit → sProp 𝕄) :
    iprop(bodyPre m c ∗ (bodyPost m c -∗ Kt ⟨⟩))
      ⊢ wp frame (wpE (defs₀ (F := F)) 𝒱₀ (c : Thread nD τ) none) Set.univ (bodyAt0 (F := F) t₀) Kt := by
  unfold bodyAt0
  simp only [cc0_body_eq_skeleton]; unfold cc0_body_skel
  a2a_open 34
  unfold bodyPre Φ₀ start scratch ghost creds payToks
  iintro ⟨⟨⟨⟨⟨%K, #HR, Hpos, HtB, HtI, HtK, HtS, HtR⟩, ⟨HcB, HcR⟩, #Hlev, Hx, Ho⟩, ⟨%f0, Hv0⟩, ⟨%f1, Hv1⟩, ⟨%f2, Hv2⟩⟩, Howes⟩, Hk⟩
  unfold Dat.owesAt Pipeline.owesWithin
  icases Howes with ⟨%W, %hW, HO⟩
  rw [show (dats m 0 c).owed t₀.castSucc = O₀ c from rfl]
  -- the pools, chunk by chunk
  ihave Hp := (Entails.of_eq (positions_split c)) $$ Hpos
  icases Hp with ⟨HpB, HpI0, HpI1, HpK, HpS, HpR⟩
  a2a_split16 HpK "HpK"
  a2a_split16 HpS "HpS"
  a2a_split16 HpR "HpR"
  a2a_split16 HtI "HtI"
  a2a_split16 HtK "HtK"
  a2a_split16 HtS "HtS"
  a2a_split16 HtR "HtR"
  a2a_split16 HcR "HcR"
  ihave Hxs := (Entails.of_eq (split_x c fullShare (Xa m c))) $$ Hx
  a2a_split16 Hxs "Hx"
  ihave Hos := (Entails.of_eq (split_o2 c (m ((c : Thread nD τ).loc main_v1)))) $$ Ho
  icases Hos with ⟨Hoo, Hop⟩
  ihave Hs0 := (split_in c f0).1 $$ Hv0
  icases Hs0 with ⟨Hvin0, Hvin1⟩
  ihave Hvin0 := (ex_vin c 0 f0) $$ Hvin0
  ihave Hvin1 := (ex_vin c 1 f0) $$ Hvin1
  ihave Hs1 := (split_k c f1).1 $$ Hv1
  icases Hs1 with ⟨Hvk0, Hvk1⟩
  ihave Hvk0 := (ex_vk c 0 f1) $$ Hvk0
  ihave Hvk1 := (ex_vk c 1 f1) $$ Hvk1
  ihave Hs2 := (split_s c f2).1 $$ Hv2
  icases Hs2 with ⟨Hvs0, Hvs1⟩
  ihave Hvs0 := (ex_vs c 0 f2) $$ Hvs0
  ihave Hvs1 := (ex_vs c 1 f2) $$ Hvs1
  ihave #HrI0 := (reached_at m K c (.dma (inS 0))) $$ HR
  ihave #HrI1 := (reached_at m K c (.dma (inS 1))) $$ HR
  -- the entry handshake
  a2a_open 1
  iapply (r_sig m K c (m ((c : Thread nD τ).loc main_v1))) $$ [HO HtB Hop]
  · isplitr; · iexact HR
    isplitl [HO]; · iexists W; iexact HO
    isplitl [HtB]; · iexact HtB
    iexact Hop
  iintro HO
  iapply (r_bar_wait m K c) $$ [HcB HO HpB]
  · isplitr; · iexact HR
    isplitr; · iexact Hlev
    isplitl [HcB]; · iexact HcB
    isplitl [HO]; · iexact HO
    iexact HpB
  iintro ⟨HO, HpB, Hpeer⟩
  a2a_split16 Hpeer "Hop"
  ihave Hoo := (rows_exists c c (m ((c : Thread nD τ).loc main_v1))) $$ Hoo
  a2a_split16 Hoo "Hoo"
  -- the sixteen chunks and the last waits
  a2a_chain 1 0
  -- the own cells close
  imod (r_close_in m K c 0) $$ [HpI0] with HzI0
  · isplitr; iexact HR; iexact HpI0
  imod (r_close_in m K c 1) $$ [HpI1] with HzI1
  · isplitr; iexact HR; iexact HpI1
  a2a_close 0
  a2a_close 1
  a2a_close 2
  a2a_close 3
  a2a_close 4
  a2a_close 5
  a2a_close 6
  a2a_close 7
  a2a_close 8
  a2a_close 9
  a2a_close 10
  a2a_close 11
  a2a_close 12
  a2a_close 13
  a2a_close 14
  a2a_close 15
  rw [wp_ret]; imodintro
  iapply Hk
  unfold bodyPost Φ₁ scratch Dat.owesAt Pipeline.owesWithin OW0 recvPay
  rw [show (dats m 0 c).owed t₀.succ = 0 from rfl]
  isplitr [HO]
  · -- the argument, whole again
    a2a_left16 "Hx"
    · iapply (Entails.of_eq (split_x c fullShare (Xa m c)).symm)
      a2a_join16 "Hx"
    -- the result: the sixteen kept row blocks and the sixteen received ones
    a2a_left32 "Hdn" "Hrv"
    · iapply (Entails.of_eq (split_o2 c (outK m c)).symm)
      a2a_left16 "Hdn"
      · a2a_join16 "Hdn"
      a2a_join16 "Hrv"
    -- the scratch buffers
    isplitl [Hvin0 Hvin1 Hvk0 Hvk1 Hvs0 Hvs1]
    · isplitl [Hvin0 Hvin1]
      · icases Hvin0 with ⟨%g0, Hvin0⟩
        icases Hvin1 with ⟨%g1, Hvin1⟩
        iapply (join_in c g0 g1)
        isplitl [Hvin0]; iexact Hvin0; iexact Hvin1
      isplitl [Hvk0 Hvk1]
      · icases Hvk0 with ⟨%g0, Hvk0⟩
        icases Hvk1 with ⟨%g1, Hvk1⟩
        iapply (join_k c g0 g1)
        isplitl [Hvk0]; iexact Hvk0; iexact Hvk1
      icases Hvs0 with ⟨%g0, Hvs0⟩
      icases Hvs1 with ⟨%g1, Hvs1⟩
      iapply (join_s c g0 g1)
      isplitl [Hvs0]; iexact Hvs0; iexact Hvs1
    -- the fifty own semaphores, at zero
    iapply (Entails.of_eq (dmasems_join c (fun q => semVal ((c : Thread nD τ), osem q) 0)))
    isplitl [HzI0]; iexact HzI0
    isplitl [HzI1]; iexact HzI1
    a2a_left16 "HzK"
    · a2a_join16 "HzK"
    a2a_left16 "HzS"
    · a2a_join16 "HzS"
    a2a_join16 "HzR"
  · icases HO with ⟨%W', HO⟩
    iexists W'
    isplitr; · ipureintro; exact fun _ _ => Or.inl trivial
    iexact HO

end Cert.Kernel.A2A

end
-- ==== Proof.K_BodyOb.lean ====
/-
  The body obligation of a device: whichever x coordinate it sits at.
-/
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.Kernel.Skeleton
import proofs.«900648_g7700000000000649_dist_a2a_v7x_xyz2x4x4_x_m16384_n1024_f32_1_alg».proof.Proof.Gen.Kernel.Launch
import proofs.«900648_g7700000000000649_dist_a2a_v7x_xyz2x4x4_x_m16384_n1024_f32_1_alg».proof.Proof.Gen.Kernel.Points
import proofs.«900648_g7700000000000649_dist_a2a_v7x_xyz2x4x4_x_m16384_n1024_f32_1_alg».proof.Proof.K_Body0
import proofs.«900648_g7700000000000649_dist_a2a_v7x_xyz2x4x4_x_m16384_n1024_f32_1_alg».proof.Proof.K_Body1
import Idealize.ShloMosaic.Lib.Pipeline.Launch
import Idealize.ShloMosaic.Lib.Pipeline.Kit
import Idealize.ShloMosaic.Lib.Tactic

noncomputable section

namespace Cert.Kernel.A2A

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- The launch has no window: a conjunction over the windows is empty. -/
theorem bigSep_noWindow (Φ : Fin cfg0.W → sProp 𝕄) : bigSep (Finset.univ : Finset (Fin cfg0.W)) Φ = iprop(emp) := by
  have h : (Finset.univ : Finset (Fin cfg0.W)) = ∅ := by decide
  rw [h]; exact bigSep_empty

theorem body_obligation (c : Dev nD) : BodyObligation (dats (F := F) m 0 c) (defs₀ (F := F)) 𝒱₀ () Set.univ := fun t => by
  rw [fin_N t]
  rw [bigSep_noWindow, bigSep_noWindow]
  show iprop(Φ₀ m c ∗ (dats m 0 c).owesAt () t₀.castSucc ∗ emp)
    ⊢ wp frame (wpE (defs₀ (F := F)) 𝒱₀ (c : Thread nD τ) none) Set.univ (bodyAt0 (F := F) t₀)
        (fun _ => iprop(Φ₁ m c ∗ (dats m 0 c).owesAt () t₀.succ ∗ emp))
  rcases xf_cases c with ⟨ha, hb⟩ | ⟨ha, hb⟩
  · iintro ⟨HΦ, Ho, -⟩
    iapply (sound_body0 m c ha hb _)
    isplitl [HΦ Ho]
    · unfold bodyPre; isplitl [HΦ]; iexact HΦ; iexact Ho
    · unfold bodyPost; iintro ⟨H1, H2⟩
      isplitl [H1]; iexact H1
      isplitl [H2]; iexact H2
      iempintro
  · iintro ⟨HΦ, Ho, -⟩
    iapply (sound_body1 m c ha hb _)
    isplitl [HΦ Ho]
    · unfold bodyPre; isplitl [HΦ]; iexact HΦ; iexact Ho
    · unfold bodyPost; iintro ⟨H1, H2⟩
      isplitl [H1]; iexact H1
      isplitl [H2]; iexact H2
      iempintro

/-- info: 'Cert.Kernel.A2A.body_obligation' depends on axioms: [propext, Classical.choice, Quot.sound] -/
#guard_msgs in #print axioms body_obligation

end Cert.Kernel.A2A

end
-- ==== Proof.lean ====
/-
  The all-to-all across mesh axis x of a 2 x 4 x 4 mesh, against the identity.

  Device c holds rows 16384 (c / 16) … of the whole 32768 x 2048 array and must end holding its columns
  1024 (c / 16) …, all rows. It cuts its block into sixteen chunks of 1024 rows; of each chunk it copies the columns of
  its own x coordinate into the same rows of its own result, and sends the other 1024 columns to the same rows of the
  result of its peer, the device that differs from it in the x coordinate only; the peer does the same, so every row
  block of every result is written exactly once, by a local copy or by the peer's send. The devices meet on the
  runtime's barrier semaphore (each signals its peer and waits for the peer's signal) before the first send, and each
  waits for all sixteen of the peer's sends before it ends.

  Proved for both programs at once, generic in the float instance (no arithmetic happens: the kernel moves data):
  every weakly fair execution terminates, nothing faults, the argument blocks end unchanged, and device c's result ends
  as the function outOf of its own block and its peer's (Proof/Proto.lean, Proof/BlockIdx.lean), which is block c / 16,
  along the columns, of the whole array. The deadlock argument is the rounds discipline's: a device waits on its
  barrier cell (level 1) owing only receive credits (level 2), on its own copies' cells (level 0) likewise, and on its
  receive cells owing nothing. The modules: Proof/Proto … Proof/LaunchRun for the idealized program, their twins
  Proof/K_… for the word-level one, Proof/RefRun for the reference, Proof/Assemble for the claims.
-/
import proofs.«900648_g7700000000000649_dist_a2a_v7x_xyz2x4x4_x_m16384_n1024_f32_1_alg».proof.Defs
import proofs.«900648_g7700000000000649_dist_a2a_v7x_xyz2x4x4_x_m16384_n1024_f32_1_alg».proof.Proof.Gen.Kernel
import proofs.«900648_g7700000000000649_dist_a2a_v7x_xyz2x4x4_x_m16384_n1024_f32_1_alg».proof.Proof.Gen.Kernel.Skeleton
import proofs.«900648_g7700000000000649_dist_a2a_v7x_xyz2x4x4_x_m16384_n1024_f32_1_alg».proof.Proof.Gen.Kernel.Launch
import proofs.«900648_g7700000000000649_dist_a2a_v7x_xyz2x4x4_x_m16384_n1024_f32_1_alg».proof.Proof.Gen.Kernel.Points
import proofs.«900648_g7700000000000649_dist_a2a_v7x_xyz2x4x4_x_m16384_n1024_f32_1_alg».proof.Proof.Gen.Kernel.Frame
import proofs.«900648_g7700000000000649_dist_a2a_v7x_xyz2x4x4_x_m16384_n1024_f32_1_alg».proof.Proof.Gen.KernelIdeal
import proofs.«900648_g7700000000000649_dist_a2a_v7x_xyz2x4x4_x_m16384_n1024_f32_1_alg».proof.Proof.Gen.KernelIdeal.Skeleton
import proofs.«900648_g7700000000000649_dist_a2a_v7x_xyz2x4x4_x_m16384_n1024_f32_1_alg».proof.Proof.Gen.KernelIdeal.Launch
import proofs.«900648_g7700000000000649_dist_a2a_v7x_xyz2x4x4_x_m16384_n1024_f32_1_alg».proof.Proof.Gen.KernelIdeal.Points
import proofs.«900648_g7700000000000649_dist_a2a_v7x_xyz2x4x4_x_m16384_n1024_f32_1_alg».proof.Proof.Gen.KernelIdeal.Frame
import proofs.«900648_g7700000000000649_dist_a2a_v7x_xyz2x4x4_x_m16384_n1024_f32_1_alg».proof.Proof.Gen.ReferenceIdeal
import proofs.«900648_g7700000000000649_dist_a2a_v7x_xyz2x4x4_x_m16384_n1024_f32_1_alg».proof.Proof.Gen.Pre_finite_inputs_Kernel
import proofs.«900648_g7700000000000649_dist_a2a_v7x_xyz2x4x4_x_m16384_n1024_f32_1_alg».proof.Proof.Gen.Pre_finite_inputs_ReferenceIdeal
import proofs.«900648_g7700000000000649_dist_a2a_v7x_xyz2x4x4_x_m16384_n1024_f32_1_alg».proof.Proof.Assemble
import proofs.«900648_g7700000000000649_dist_a2a_v7x_xyz2x4x4_x_m16384_n1024_f32_1_alg».proof.Proof.BodyOb
import proofs.«900648_g7700000000000649_dist_a2a_v7x_xyz2x4x4_x_m16384_n1024_f32_1_alg».proof.Proof.K_LaunchRun
import proofs.«900648_g7700000000000649_dist_a2a_v7x_xyz2x4x4_x_m16384_n1024_f32_1_alg».proof.Proof.K_BodyOb
import Idealize.ShloMosaic.Adequacy
import Idealize.ShloMosaic.Init

noncomputable section

namespace Cert.Proof

open Idealize.ShloMosaic Idealize.SL.Sem Cert.Kernel

theorem claim : Cert.Claim :=
  A2AClaims.claim_of
    (fun m ρ => Cert.Kernel.A2A.run_main m ρ (fun c => Cert.Kernel.A2A.body_obligation m c))
    (fun m c => Cert.KernelIdeal.A2A.body_obligation m c)

end Cert.Proof

end
